-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![64, 512]⟩ ⟨2, ![64, 1024]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![64, 512]⟩ ⟨2, ![64, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x512 : Shape := ⟨2, ![64, 512]⟩
abbrev S512x1024 : Shape := ⟨2, ![512, 1024]⟩
abbrev S1024x512 : Shape := ⟨2, ![1024, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_arg5 : FVec F S512x1024 .f32) (main_arg6 : FVec F S1024x512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  main_v33

def fn {F : FTy → Type} [FloatOps F] (main_arg0 : FVec F S64x512 .f32) (main_arg1 : FVec F S512x1024 .f32) (main_arg2 : FVec F S1024x512 .f32) (main_arg3 : FVec F S512x1024 .f32) (main_arg4 : FVec F S1024x512 .f32) (main_arg5 : FVec F S512x1024 .f32) (main_arg6 : FVec F S1024x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Pre_finite_inputs_ReferenceIdeal.lean ====
abbrev S64x1024 : Shape := ⟨2, ![64, 1024]⟩
abbrev S1024x2048 : Shape := ⟨2, ![1024, 2048]⟩
abbrev S2048x1024 : Shape := ⟨2, ![2048, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_arg5 : FVec F S1024x2048 .f32) (main_arg6 : FVec F S2048x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S64x1024 .f32) (main_arg1 : FVec F S1024x2048 .f32) (main_arg2 : FVec F S2048x1024 .f32) (main_arg3 : FVec F S1024x2048 .f32) (main_arg4 : FVec F S2048x1024 .f32) (main_arg5 : FVec F S1024x2048 .f32) (main_arg6 : FVec F S2048x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_v13 main_v16
-- ==== Kernel.lean ====
abbrev S64x512 : Shape := ⟨2, ![64, 512]⟩
abbrev S512x1024 : Shape := ⟨2, ![512, 1024]⟩
abbrev S1024x512 : Shape := ⟨2, ![1024, 512]⟩
abbrev S3x512x1024 : Shape := ⟨3, ![3, 512, 1024]⟩
abbrev S3x1024x512 : Shape := ⟨3, ![3, 1024, 512]⟩
abbrev S3x2x64x512 : Shape := ⟨4, ![3, 2, 64, 512]⟩
abbrev S3x64x512 : Shape := ⟨3, ![3, 64, 512]⟩
abbrev S3x2 : Shape := ⟨2, ![3, 2]⟩
abbrev S3 : Shape := ⟨1, ![3]⟩
abbrev S1x1 : Shape := ⟨2, ![1, 1]⟩
abbrev S_ : Shape := ⟨0, ![]⟩
abbrev S1x512x1024 : Shape := ⟨3, ![1, 512, 1024]⟩
abbrev S1x1024x512 : Shape := ⟨3, ![1, 1024, 512]⟩
abbrev S1x512x512 : Shape := ⟨3, ![1, 512, 512]⟩
abbrev S512x512 : Shape := ⟨2, ![512, 512]⟩
abbrev S1x1x64x512 : Shape := ⟨4, ![1, 1, 64, 512]⟩
abbrev S1x64x512 : Shape := ⟨3, ![1, 64, 512]⟩
abbrev S1 : Shape := ⟨1, ![1]⟩

abbrev nBuf : Space → Nat
  | .hbm => 8
  | .vmem => 10
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S64x512, .f32⟩
  | .local _ .vmem, ⟨2, _⟩ => ⟨S3x512x1024, .f32⟩
  | .local _ .vmem, ⟨3, _⟩ => ⟨S3x1024x512, .f32⟩
  | .local _ .vmem, ⟨4, _⟩ => ⟨S3x512x1024, .bf16⟩
  | .local _ .vmem, ⟨5, _⟩ => ⟨S3x1024x512, .bf16⟩
  | .local _ .vmem, ⟨6, _⟩ => ⟨S3x2x64x512, .bf16⟩
  | .local _ .vmem, ⟨7, _⟩ => ⟨S3x64x512, .bf16⟩
  | .local _ .vmem, ⟨8, _⟩ => ⟨S3x2x64x512, .bf16⟩
  | .local _ .vmem, ⟨9, _⟩ => ⟨S3x64x512, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v33 : BitVec 32 := Scalar.muli v2 c2_i32_34
  let v34 : BitVec 32 := Scalar.addi c0_i32_35 v33
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_36 : BitVec 32 := 1#32
  let v35 : BitVec 32 := Scalar.muli v6 c1_i32_36
  let v36 : BitVec 32 := Scalar.addi v34 v35
  v36.toNat
def k0_dev2 (d0 : Dev nD) : Nat :=
  let c0_i32_39 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_38 : BitVec 32 := 2#32
  let v37 : BitVec 32 := Scalar.muli v7 c2_i32_38
  let v38 : BitVec 32 := Scalar.addi c0_i32_39 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v39 : BitVec 32 := Scalar.muli v5 c1_i32_40
  let v40 : BitVec 32 := Scalar.addi v38 v39
  v40.toNat
def k0_dev3 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_69 : BitVec 32 := 2#32
  let v61 : BitVec 32 := Scalar.muli v2 c2_i32_69
  let v62 : BitVec 32 := Scalar.addi c0_i32_70 v61
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_71 : BitVec 32 := 1#32
  let v63 : BitVec 32 := Scalar.muli v6 c1_i32_71
  let v64 : BitVec 32 := Scalar.addi v62 v63
  v64.toNat
def k0_dev4 (d0 : Dev nD) : Nat :=
  let c0_i32_91 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_90 : BitVec 32 := 2#32
  let v80 : BitVec 32 := Scalar.muli v2 c2_i32_90
  let v81 : BitVec 32 := Scalar.addi c0_i32_91 v80
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_92 : BitVec 32 := 1#32
  let v82 : BitVec 32 := Scalar.muli v6 c1_i32_92
  let v83 : BitVec 32 := Scalar.addi v81 v82
  v83.toNat
def k0_dev5 (d0 : Dev nD) : Nat :=
  let c0_i32_190 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_189 : BitVec 32 := 2#32
  let v159 : BitVec 32 := Scalar.muli v7 c2_i32_189
  let v160 : BitVec 32 := Scalar.addi c0_i32_190 v159
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_191 : BitVec 32 := 1#32
  let v161 : BitVec 32 := Scalar.muli v5 c1_i32_191
  let v162 : BitVec 32 := Scalar.addi v160 v161
  v162.toNat
def k0_dev6 (d0 : Dev nD) : Nat :=
  let c0_i32_247 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_246 : BitVec 32 := 2#32
  let v209 : BitVec 32 := Scalar.muli v2 c2_i32_246
  let v210 : BitVec 32 := Scalar.addi c0_i32_247 v209
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_248 : BitVec 32 := 1#32
  let v211 : BitVec 32 := Scalar.muli v6 c1_i32_248
  let v212 : BitVec 32 := Scalar.addi v210 v211
  v212.toNat
def k0_dev7 (d0 : Dev nD) : Nat :=
  let c0_i32_270 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_269 : BitVec 32 := 2#32
  let v228 : BitVec 32 := Scalar.muli v2 c2_i32_269
  let v229 : BitVec 32 := Scalar.addi c0_i32_270 v228
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_271 : BitVec 32 := 1#32
  let v230 : BitVec 32 := Scalar.muli v6 c1_i32_271
  let v231 : BitVec 32 := Scalar.addi v229 v230
  v231.toNat
def k0_dev8 (d0 : Dev nD) : Nat :=
  let c0_i32_369 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_368 : BitVec 32 := 2#32
  let v307 : BitVec 32 := Scalar.muli v7 c2_i32_368
  let v308 : BitVec 32 := Scalar.addi c0_i32_369 v307
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_370 : BitVec 32 := 1#32
  let v309 : BitVec 32 := Scalar.muli v5 c1_i32_370
  let v310 : BitVec 32 := Scalar.addi v308 v309
  v310.toNat
def k0_dev9 (d0 : Dev nD) : Nat :=
  let c0_i32_425 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_424 : BitVec 32 := 2#32
  let v357 : BitVec 32 := Scalar.muli v2 c2_i32_424
  let v358 : BitVec 32 := Scalar.addi c0_i32_425 v357
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_426 : BitVec 32 := 1#32
  let v359 : BitVec 32 := Scalar.muli v6 c1_i32_426
  let v360 : BitVec 32 := Scalar.addi v358 v359
  v360.toNat
def k0_dev10 (d0 : Dev nD) : Nat :=
  let c0_i32_448 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_447 : BitVec 32 := 2#32
  let v376 : BitVec 32 := Scalar.muli v2 c2_i32_447
  let v377 : BitVec 32 := Scalar.addi c0_i32_448 v376
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_449 : BitVec 32 := 1#32
  let v378 : BitVec 32 := Scalar.muli v6 c1_i32_449
  let v379 : BitVec 32 := Scalar.addi v377 v378
  v379.toNat
def k0_dev11 (d0 : Dev nD) : Nat :=
  let c0_i32_547 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_546 : BitVec 32 := 2#32
  let v455 : BitVec 32 := Scalar.muli v7 c2_i32_546
  let v456 : BitVec 32 := Scalar.addi c0_i32_547 v455
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_548 : BitVec 32 := 1#32
  let v457 : BitVec 32 := Scalar.muli v5 c1_i32_548
  let v458 : BitVec 32 := Scalar.addi v456 v457
  v458.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S3x2_S1x1_0_0 : ∀ a, (![0, 0] : Fin 2 → Nat) a + S1x1.size a ≤ S3x2.size a
  squeezes_S1x1_S_ : S1x1.Squeezes S_
  inb_S3x512x1024_S1x512x1024_0_0_0 : ∀ a, (![0, 0, 0] : Fin 3 → Nat) a + S1x512x1024.size a ≤ S3x512x1024.size a
  squeezes_S1x512x1024_S512x1024 : S1x512x1024.Squeezes S512x1024
  inb_S3x2_S1x1_0_1 : ∀ a, (![0, 1] : Fin 2 → Nat) a + S1x1.size a ≤ S3x2.size a
  inb_S3x1024x512_S1x1024x512_0_0_0 : ∀ a, (![0, 0, 0] : Fin 3 → Nat) a + S1x1024x512.size a ≤ S3x1024x512.size a
  squeezes_S1x1024x512_S1024x512 : S1x1024x512.Squeezes S1024x512
  inb_S3x2_S1x1_1_0 : ∀ a, (![1, 0] : Fin 2 → Nat) a + S1x1.size a ≤ S3x2.size a
  inb_S3x512x1024_S1x512x1024_1_0_0 : ∀ a, (![1, 0, 0] : Fin 3 → Nat) a + S1x512x1024.size a ≤ S3x512x1024.size a
  inb_S3x2_S1x1_1_1 : ∀ a, (![1, 1] : Fin 2 → Nat) a + S1x1.size a ≤ S3x2.size a
  inb_S3x1024x512_S1x1024x512_1_0_0 : ∀ a, (![1, 0, 0] : Fin 3 → Nat) a + S1x1024x512.size a ≤ S3x1024x512.size a
  inb_S3x2_S1x1_2_0 : ∀ a, (![2, 0] : Fin 2 → Nat) a + S1x1.size a ≤ S3x2.size a
  inb_S3x512x1024_S1x512x1024_2_0_0 : ∀ a, (![2, 0, 0] : Fin 3 → Nat) a + S1x512x1024.size a ≤ S3x512x1024.size a
  inb_S3x2_S1x1_2_1 : ∀ a, (![2, 1] : Fin 2 → Nat) a + S1x1.size a ≤ S3x2.size a
  inb_S3x1024x512_S1x1024x512_2_0_0 : ∀ a, (![2, 0, 0] : Fin 3 → Nat) a + S1x1024x512.size a ≤ S3x1024x512.size a
  hamt_1 : (1#32 : BitVec 32).msb = false
  inb_S64x512_S64x512_0_0 : ∀ a, (![0, 0] : Fin 2 → Nat) a + S64x512.size a ≤ S64x512.size a
  h_S64x512 : 0 < S64x512.numel
  shapeCasts_S64x512_S64x512 : S64x512.ShapeCasts S64x512
  bitsLt_bf16_f32 : FTy.bits .bf16 < FTy.bits .f32
  h_S1x512x1024 : 0 < S1x512x1024.numel
  shapeCasts_S1x512x1024_S512x1024 : S1x512x1024.ShapeCasts S512x1024
  shapeCasts_S512x1024_S1x512x1024 : S512x1024.ShapeCasts S1x512x1024
  packedbf16_S3x512x1024_S1x512x1024_0_0_0 : (Rect.unit (s := S3x512x1024) ![0, 0, 0] S1x512x1024.size inb_S3x512x1024_S1x512x1024_0_0_0).PackedRows (EltTy.packing .bf16)
  inb_S3x512x1024_S1x512x512_0_0_0 : ∀ a, (![0, 0, 0] : Fin 3 → Nat) a + S1x512x512.size a ≤ S3x512x1024.size a
  h_S1x512x512 : 0 < S1x512x512.numel
  shapeCasts_S1x512x512_S512x512 : S1x512x512.ShapeCasts S512x512
  inb_S3x2x64x512_S1x1x64x512_0_0_0_0 : ∀ a, (![0, 0, 0, 0] : Fin 4 → Nat) a + S1x1x64x512.size a ≤ S3x2x64x512.size a
  h_S1x1x64x512 : 0 < S1x1x64x512.numel
  shapeCasts_S1x1x64x512_S64x512 : S1x1x64x512.ShapeCasts S64x512
  shapeCasts_S64x512_S1x1x64x512 : S64x512.ShapeCasts S1x1x64x512
  packedbf16_S3x2x64x512_S1x1x64x512_0_0_0_0 : (Rect.unit (s := S3x2x64x512) ![0, 0, 0, 0] S1x1x64x512.size inb_S3x2x64x512_S1x1x64x512_0_0_0_0).PackedRows (EltTy.packing .bf16)
  hamt_2 : (2#32 : BitVec 32).msb = false
  squeezes_S1x1x64x512_S64x512 : S1x1x64x512.Squeezes S64x512
  wordsbf16_S3x2x64x512_S1x1x64x512_0_0_0_0 : (Rect.unit (s := S3x2x64x512) ![0, 0, 0, 0] S1x1x64x512.size inb_S3x2x64x512_S1x1x64x512_0_0_0_0).WholeWords (EltTy.packing .bf16)
  inb_S3x512x1024_S1x512x512_0_0_512 : ∀ a, (![0, 0, 512] : Fin 3 → Nat) a + S1x512x512.size a ≤ S3x512x1024.size a
  inb_S3x2x64x512_S1x1x64x512_0_1_0_0 : ∀ a, (![0, 1, 0, 0] : Fin 4 → Nat) a + S1x1x64x512.size a ≤ S3x2x64x512.size a
  packedbf16_S3x2x64x512_S1x1x64x512_0_1_0_0 : (Rect.unit (s := S3x2x64x512) ![0, 1, 0, 0] S1x1x64x512.size inb_S3x2x64x512_S1x1x64x512_0_1_0_0).PackedRows (EltTy.packing .bf16)
  wordsbf16_S3x2x64x512_S1x1x64x512_0_1_0_0 : (Rect.unit (s := S3x2x64x512) ![0, 1, 0, 0] S1x1x64x512.size inb_S3x2x64x512_S1x1x64x512_0_1_0_0).WholeWords (EltTy.packing .bf16)
  h_S1x1024x512 : 0 < S1x1024x512.numel
  shapeCasts_S1x1024x512_S1024x512 : S1x1024x512.ShapeCasts S1024x512
  shapeCasts_S1024x512_S1x1024x512 : S1024x512.ShapeCasts S1x1024x512
  packedbf16_S3x1024x512_S1x1024x512_0_0_0 : (Rect.unit (s := S3x1024x512) ![0, 0, 0] S1x1024x512.size inb_S3x1024x512_S1x1024x512_0_0_0).PackedRows (EltTy.packing .bf16)
  inb_S3x1024x512_S1x512x512_0_0_0 : ∀ a, (![0, 0, 0] : Fin 3 → Nat) a + S1x512x512.size a ≤ S3x1024x512.size a
  inb_S3x1024x512_S1x512x512_0_512_0 : ∀ a, (![0, 512, 0] : Fin 3 → Nat) a + S1x512x512.size a ≤ S3x1024x512.size a
  inb_S3x64x512_S1x64x512_0_0_0 : ∀ a, (![0, 0, 0] : Fin 3 → Nat) a + S1x64x512.size a ≤ S3x64x512.size a
  h_S1x64x512 : 0 < S1x64x512.numel
  shapeCasts_S1x64x512_S64x512 : S1x64x512.ShapeCasts S64x512
  shapeCasts_S64x512_S1x64x512 : S64x512.ShapeCasts S1x64x512
  packedbf16_S3x64x512_S1x64x512_0_0_0 : (Rect.unit (s := S3x64x512) ![0, 0, 0] S1x64x512.size inb_S3x64x512_S1x64x512_0_0_0).PackedRows (EltTy.packing .bf16)
  inb_S3_S1_0 : ∀ a, (![0] : Fin 1 → Nat) a + S1.size a ≤ S3.size a
  squeezes_S1_S_ : S1.Squeezes S_
  squeezes_S1x64x512_S64x512 : S1x64x512.Squeezes S64x512
  wordsbf16_S3x64x512_S1x64x512_0_0_0 : (Rect.unit (s := S3x64x512) ![0, 0, 0] S1x64x512.size inb_S3x64x512_S1x64x512_0_0_0).WholeWords (EltTy.packing .bf16)
  packedbf16_S3x512x1024_S1x512x1024_1_0_0 : (Rect.unit (s := S3x512x1024) ![1, 0, 0] S1x512x1024.size inb_S3x512x1024_S1x512x1024_1_0_0).PackedRows (EltTy.packing .bf16)
  inb_S3x512x1024_S1x512x512_1_0_0 : ∀ a, (![1, 0, 0] : Fin 3 → Nat) a + S1x512x512.size a ≤ S3x512x1024.size a
  inb_S3x2x64x512_S1x1x64x512_1_0_0_0 : ∀ a, (![1, 0, 0, 0] : Fin 4 → Nat) a + S1x1x64x512.size a ≤ S3x2x64x512.size a
  packedbf16_S3x2x64x512_S1x1x64x512_1_0_0_0 : (Rect.unit (s := S3x2x64x512) ![1, 0, 0, 0] S1x1x64x512.size inb_S3x2x64x512_S1x1x64x512_1_0_0_0).PackedRows (EltTy.packing .bf16)
  wordsbf16_S3x2x64x512_S1x1x64x512_1_0_0_0 : (Rect.unit (s := S3x2x64x512) ![1, 0, 0, 0] S1x1x64x512.size inb_S3x2x64x512_S1x1x64x512_1_0_0_0).WholeWords (EltTy.packing .bf16)
  inb_S3x512x1024_S1x512x512_1_0_512 : ∀ a, (![1, 0, 512] : Fin 3 → Nat) a + S1x512x512.size a ≤ S3x512x1024.size a
  inb_S3x2x64x512_S1x1x64x512_1_1_0_0 : ∀ a, (![1, 1, 0, 0] : Fin 4 → Nat) a + S1x1x64x512.size a ≤ S3x2x64x512.size a
  packedbf16_S3x2x64x512_S1x1x64x512_1_1_0_0 : (Rect.unit (s := S3x2x64x512) ![1, 1, 0, 0] S1x1x64x512.size inb_S3x2x64x512_S1x1x64x512_1_1_0_0).PackedRows (EltTy.packing .bf16)
  wordsbf16_S3x2x64x512_S1x1x64x512_1_1_0_0 : (Rect.unit (s := S3x2x64x512) ![1, 1, 0, 0] S1x1x64x512.size inb_S3x2x64x512_S1x1x64x512_1_1_0_0).WholeWords (EltTy.packing .bf16)
  packedbf16_S3x1024x512_S1x1024x512_1_0_0 : (Rect.unit (s := S3x1024x512) ![1, 0, 0] S1x1024x512.size inb_S3x1024x512_S1x1024x512_1_0_0).PackedRows (EltTy.packing .bf16)
  inb_S3x1024x512_S1x512x512_1_0_0 : ∀ a, (![1, 0, 0] : Fin 3 → Nat) a + S1x512x512.size a ≤ S3x1024x512.size a
  inb_S3x1024x512_S1x512x512_1_512_0 : ∀ a, (![1, 512, 0] : Fin 3 → Nat) a + S1x512x512.size a ≤ S3x1024x512.size a
  inb_S3x64x512_S1x64x512_1_0_0 : ∀ a, (![1, 0, 0] : Fin 3 → Nat) a + S1x64x512.size a ≤ S3x64x512.size a
  packedbf16_S3x64x512_S1x64x512_1_0_0 : (Rect.unit (s := S3x64x512) ![1, 0, 0] S1x64x512.size inb_S3x64x512_S1x64x512_1_0_0).PackedRows (EltTy.packing .bf16)
  inb_S3_S1_1 : ∀ a, (![1] : Fin 1 → Nat) a + S1.size a ≤ S3.size a
  wordsbf16_S3x64x512_S1x64x512_1_0_0 : (Rect.unit (s := S3x64x512) ![1, 0, 0] S1x64x512.size inb_S3x64x512_S1x64x512_1_0_0).WholeWords (EltTy.packing .bf16)
  packedbf16_S3x512x1024_S1x512x1024_2_0_0 : (Rect.unit (s := S3x512x1024) ![2, 0, 0] S1x512x1024.size inb_S3x512x1024_S1x512x1024_2_0_0).PackedRows (EltTy.packing .bf16)
  inb_S3x512x1024_S1x512x512_2_0_0 : ∀ a, (![2, 0, 0] : Fin 3 → Nat) a + S1x512x512.size a ≤ S3x512x1024.size a
  inb_S3x2x64x512_S1x1x64x512_2_0_0_0 : ∀ a, (![2, 0, 0, 0] : Fin 4 → Nat) a + S1x1x64x512.size a ≤ S3x2x64x512.size a
  packedbf16_S3x2x64x512_S1x1x64x512_2_0_0_0 : (Rect.unit (s := S3x2x64x512) ![2, 0, 0, 0] S1x1x64x512.size inb_S3x2x64x512_S1x1x64x512_2_0_0_0).PackedRows (EltTy.packing .bf16)
  wordsbf16_S3x2x64x512_S1x1x64x512_2_0_0_0 : (Rect.unit (s := S3x2x64x512) ![2, 0, 0, 0] S1x1x64x512.size inb_S3x2x64x512_S1x1x64x512_2_0_0_0).WholeWords (EltTy.packing .bf16)
  inb_S3x512x1024_S1x512x512_2_0_512 : ∀ a, (![2, 0, 512] : Fin 3 → Nat) a + S1x512x512.size a ≤ S3x512x1024.size a
  inb_S3x2x64x512_S1x1x64x512_2_1_0_0 : ∀ a, (![2, 1, 0, 0] : Fin 4 → Nat) a + S1x1x64x512.size a ≤ S3x2x64x512.size a
  packedbf16_S3x2x64x512_S1x1x64x512_2_1_0_0 : (Rect.unit (s := S3x2x64x512) ![2, 1, 0, 0] S1x1x64x512.size inb_S3x2x64x512_S1x1x64x512_2_1_0_0).PackedRows (EltTy.packing .bf16)
  wordsbf16_S3x2x64x512_S1x1x64x512_2_1_0_0 : (Rect.unit (s := S3x2x64x512) ![2, 1, 0, 0] S1x1x64x512.size inb_S3x2x64x512_S1x1x64x512_2_1_0_0).WholeWords (EltTy.packing .bf16)
  packedbf16_S3x1024x512_S1x1024x512_2_0_0 : (Rect.unit (s := S3x1024x512) ![2, 0, 0] S1x1024x512.size inb_S3x1024x512_S1x1024x512_2_0_0).PackedRows (EltTy.packing .bf16)
  inb_S3x1024x512_S1x512x512_2_0_0 : ∀ a, (![2, 0, 0] : Fin 3 → Nat) a + S1x512x512.size a ≤ S3x1024x512.size a
  inb_S3x1024x512_S1x512x512_2_512_0 : ∀ a, (![2, 512, 0] : Fin 3 → Nat) a + S1x512x512.size a ≤ S3x1024x512.size a
  inb_S3x64x512_S1x64x512_2_0_0 : ∀ a, (![2, 0, 0] : Fin 3 → Nat) a + S1x64x512.size a ≤ S3x64x512.size a
  packedbf16_S3x64x512_S1x64x512_2_0_0 : (Rect.unit (s := S3x64x512) ![2, 0, 0] S1x64x512.size inb_S3x64x512_S1x64x512_2_0_0).PackedRows (EltTy.packing .bf16)
  inb_S3_S1_2 : ∀ a, (![2] : Fin 1 → Nat) a + S1.size a ≤ S3.size a
  wordsbf16_S3x64x512_S1x64x512_2_0_0 : (Rect.unit (s := S3x64x512) ![2, 0, 0] S1x64x512.size inb_S3x64x512_S1x64x512_2_0_0).WholeWords (EltTy.packing .bf16)
  dot_S64x512_S512x512_S64x512_1_0_0_1_n_n_wf : DotDims.WF S64x512 S512x512 S64x512 [1] [0] [0] [1] [] []
  hcc0_scratch8 : 2 + S3x2.numel ≤ 26
  hcc0_scratch9 : 8 + S3x2.numel ≤ 26
  hcc0_scratch10 : 14 + S3x2.numel ≤ 26
  hcc0_scratch11 : 20 + S3.numel ≤ 26
  hcc0_scratch12 : 23 + S3.numel ≤ 26
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  hstage0_0 : ∀ j, (stage0_0 j).IsWhole
  hstage0_1 : ∀ j, (stage0_1 j).IsWhole

variable [Facts₀]

abbrev cc0_scratch8 : DmaSems sig S3x2 := SemArray.consecutive 2 S3x2 hcc0_scratch8
abbrev cc0_scratch9 : DmaSems sig S3x2 := SemArray.consecutive 8 S3x2 hcc0_scratch9
abbrev cc0_scratch10 : DmaSems sig S3x2 := SemArray.consecutive 14 S3x2 hcc0_scratch10
abbrev cc0_scratch11 : DmaSems sig S3 := SemArray.consecutive 20 S3 hcc0_scratch11
abbrev cc0_scratch12 : DmaSems sig S3 := SemArray.consecutive 23 S3 hcc0_scratch12
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024 : Shape := ⟨2, ![64, 1024]⟩
abbrev S1024x2048 : Shape := ⟨2, ![1024, 2048]⟩
abbrev S2048x1024 : Shape := ⟨2, ![2048, 1024]⟩
abbrev S64x2048 : Shape := ⟨2, ![64, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S64x1024, .f32⟩
  | .hbm, ⟨12, _⟩ => ⟨S64x2048, .f32⟩
  | .hbm, ⟨13, _⟩ => ⟨S_, .f32⟩
  | .hbm, ⟨14, _⟩ => ⟨S64x2048, .f32⟩
  | .hbm, ⟨15, _⟩ => ⟨S64x2048, .f32⟩
  | .hbm, ⟨16, _⟩ => ⟨S64x1024, .f32⟩
  | .hbm, ⟨17, _⟩ => ⟨S64x2048, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  dot_S64x1024_S1024x2048_S64x2048_1_0_0_1_n_n_wf : DotDims.WF S64x1024 S1024x2048 S64x2048 [1] [0] [0] [1] [] []
  dot_S64x2048_S2048x1024_S64x1024_1_0_0_1_n_n_wf : DotDims.WF S64x2048 S2048x1024 S64x1024 [1] [0] [0] [1] [] []

variable [Facts₀]

def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

class Facts : Prop extends Facts₀ where

variable [Facts]
-- ==== Proof.Cells.lean ====
/-
  The mesh, the kernel's semaphores and buffers, and the cells of its protocol.

  Device `d` of the 2×2 mesh has coordinates (d / 2, d % 2). Its peer along the second axis
  (`yp`) receives its partial hidden chunks, its peer along the first axis (`xp`) its partial
  outputs. Nine addressed transfers leave each device, numbered `t : Fin 9`: transfer
  2·l + ch carries chunk `ch` of layer `l` to `yp`, transfer 6 + l carries layer `l`'s partial
  output to `xp`. Each has a send cell (credited on the sender once the source is read) and a
  receive cell (credited on the receiver once the slot is written).
-/
import proofs.«900581_g7700000000000582_dist_mlpseq_tp2d_cs_cs_b64_d512_h1024_v7x_xy2x2_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the protocol's (duties `Bool`), the local transfers' counters -/

abbrev UB : Type := URounds (GSem nD τ sig) Bool
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB UC).trans embR

abbrev 𝒱₀ : Variants := Variants.none

/-! ## The mesh -/

/-- The peer along the second mesh axis: same first coordinate, the other second coordinate. -/
def yp (c : Dev nD) : Dev nD := ⟨2 * (c.val / 2) + 1 - c.val % 2, by have h : c.val < 4 := c.isLt; show _ < 4; omega⟩
/-- The peer along the first mesh axis. -/
def xp (c : Dev nD) : Dev nD := ⟨c.val % 2 + 2 - 2 * (c.val / 2), by have h : c.val < 4 := c.isLt; show _ < 4; omega⟩

theorem yp_yp (c : Dev nD) : yp (yp c) = c := by revert c; decide
theorem xp_xp (c : Dev nD) : xp (xp c) = c := by revert c; decide
theorem yp_ne (c : Dev nD) : yp c ≠ c := by revert c; decide
theorem xp_ne (c : Dev nD) : xp c ≠ c := by revert c; decide
theorem yp_ne_xp (c : Dev nD) : yp c ≠ xp c := by revert c; decide

def ypE : Dev nD ≃ Dev nD := ⟨yp, yp, yp_yp, yp_yp⟩
def xpE : Dev nD ≃ Dev nD := ⟨xp, xp, xp_xp, xp_xp⟩

/-- The printed device chains: the two entry signals, then per layer two transfers to `yp` and one to `xp`. -/
theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = xp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = yp c := Fin.ext (k0_dev10_eq c)
theorem dev11_eq (c : Dev nD) : (⟨k0_dev11 c, k0_dev11_lt c⟩ : Dev nD) = xp c := Fin.ext (k0_dev11_eq c)

/-- The destination of transfer `t`. -/
def peer (t : Fin 9) (c : Dev nD) : Dev nD := if t.val < 6 then yp c else xp c
theorem peer_peer (t : Fin 9) (c : Dev nD) : peer t (peer t c) = c := by
  unfold peer; split <;> [exact yp_yp c; exact xp_xp c]

/-! ## The semaphores -/

/-- The runtime's barrier semaphore of collective id 0. -/
abbrev barS : Sem sig := (SemArray.scalar (sig.barrier 0 rfl) : Sems sig S_).sem

/-- The six local weight copies' semaphores: layer `l`, first (`k = 0`) or second (`k = 1`) weight matrix. -/
abbrev wS00 : DmaSem sig := ((SemArray.slice cc0_scratch8 (Rect.unit (s := S3x2) ![0, 0] S1x1.size inb_S3x2_S1x1_0_0)).squeeze S_ squeezes_S1x1_S_).sem
abbrev wS01 : DmaSem sig := ((SemArray.slice cc0_scratch8 (Rect.unit (s := S3x2) ![0, 1] S1x1.size inb_S3x2_S1x1_0_1)).squeeze S_ squeezes_S1x1_S_).sem
abbrev wS10 : DmaSem sig := ((SemArray.slice cc0_scratch8 (Rect.unit (s := S3x2) ![1, 0] S1x1.size inb_S3x2_S1x1_1_0)).squeeze S_ squeezes_S1x1_S_).sem
abbrev wS11 : DmaSem sig := ((SemArray.slice cc0_scratch8 (Rect.unit (s := S3x2) ![1, 1] S1x1.size inb_S3x2_S1x1_1_1)).squeeze S_ squeezes_S1x1_S_).sem
abbrev wS20 : DmaSem sig := ((SemArray.slice cc0_scratch8 (Rect.unit (s := S3x2) ![2, 0] S1x1.size inb_S3x2_S1x1_2_0)).squeeze S_ squeezes_S1x1_S_).sem
abbrev wS21 : DmaSem sig := ((SemArray.slice cc0_scratch8 (Rect.unit (s := S3x2) ![2, 1] S1x1.size inb_S3x2_S1x1_2_1)).squeeze S_ squeezes_S1x1_S_).sem

/-- The send semaphore of transfer `t`. -/
abbrev sendS : Fin 9 → DmaSem sig
  | 0 => ((SemArray.slice cc0_scratch9 (Rect.unit (s := S3x2) ![0, 0] S1x1.size inb_S3x2_S1x1_0_0)).squeeze S_ squeezes_S1x1_S_).sem
  | 1 => ((SemArray.slice cc0_scratch9 (Rect.unit (s := S3x2) ![0, 1] S1x1.size inb_S3x2_S1x1_0_1)).squeeze S_ squeezes_S1x1_S_).sem
  | 2 => ((SemArray.slice cc0_scratch9 (Rect.unit (s := S3x2) ![1, 0] S1x1.size inb_S3x2_S1x1_1_0)).squeeze S_ squeezes_S1x1_S_).sem
  | 3 => ((SemArray.slice cc0_scratch9 (Rect.unit (s := S3x2) ![1, 1] S1x1.size inb_S3x2_S1x1_1_1)).squeeze S_ squeezes_S1x1_S_).sem
  | 4 => ((SemArray.slice cc0_scratch9 (Rect.unit (s := S3x2) ![2, 0] S1x1.size inb_S3x2_S1x1_2_0)).squeeze S_ squeezes_S1x1_S_).sem
  | 5 => ((SemArray.slice cc0_scratch9 (Rect.unit (s := S3x2) ![2, 1] S1x1.size inb_S3x2_S1x1_2_1)).squeeze S_ squeezes_S1x1_S_).sem
  | 6 => ((SemArray.slice cc0_scratch11 (Rect.unit (s := S3) ![0] S1.size inb_S3_S1_0)).squeeze S_ squeezes_S1_S_).sem
  | 7 => ((SemArray.slice cc0_scratch11 (Rect.unit (s := S3) ![1] S1.size inb_S3_S1_1)).squeeze S_ squeezes_S1_S_).sem
  | 8 => ((SemArray.slice cc0_scratch11 (Rect.unit (s := S3) ![2] S1.size inb_S3_S1_2)).squeeze S_ squeezes_S1_S_).sem

/-- The receive semaphore of transfer `t`. -/
abbrev recvS : Fin 9 → DmaSem sig
  | 0 => ((SemArray.slice cc0_scratch10 (Rect.unit (s := S3x2) ![0, 0] S1x1.size inb_S3x2_S1x1_0_0)).squeeze S_ squeezes_S1x1_S_).sem
  | 1 => ((SemArray.slice cc0_scratch10 (Rect.unit (s := S3x2) ![0, 1] S1x1.size inb_S3x2_S1x1_0_1)).squeeze S_ squeezes_S1x1_S_).sem
  | 2 => ((SemArray.slice cc0_scratch10 (Rect.unit (s := S3x2) ![1, 0] S1x1.size inb_S3x2_S1x1_1_0)).squeeze S_ squeezes_S1x1_S_).sem
  | 3 => ((SemArray.slice cc0_scratch10 (Rect.unit (s := S3x2) ![1, 1] S1x1.size inb_S3x2_S1x1_1_1)).squeeze S_ squeezes_S1x1_S_).sem
  | 4 => ((SemArray.slice cc0_scratch10 (Rect.unit (s := S3x2) ![2, 0] S1x1.size inb_S3x2_S1x1_2_0)).squeeze S_ squeezes_S1x1_S_).sem
  | 5 => ((SemArray.slice cc0_scratch10 (Rect.unit (s := S3x2) ![2, 1] S1x1.size inb_S3x2_S1x1_2_1)).squeeze S_ squeezes_S1x1_S_).sem
  | 6 => ((SemArray.slice cc0_scratch12 (Rect.unit (s := S3) ![0] S1.size inb_S3_S1_0)).squeeze S_ squeezes_S1_S_).sem
  | 7 => ((SemArray.slice cc0_scratch12 (Rect.unit (s := S3) ![1] S1.size inb_S3_S1_1)).squeeze S_ squeezes_S1_S_).sem
  | 8 => ((SemArray.slice cc0_scratch12 (Rect.unit (s := S3) ![2] S1.size inb_S3_S1_2)).squeeze S_ squeezes_S1_S_).sem

/-! ## The buffers' pieces -/

/-- Layer `l`'s slot of the f32 landing buffer of the first weights, and of the second. -/
abbrev w0M0 : Memref sig .tc .vmem S512x1024 .f32 := ((Memref.whole cc0_scratch0).slice (Rect.unit (s := S3x512x1024) ![0, 0, 0] S1x512x1024.size inb_S3x512x1024_S1x512x1024_0_0_0) (fun _ => rfl)).squeeze S512x1024 squeezes_S1x512x1024_S512x1024
abbrev w0M1 : Memref sig .tc .vmem S512x1024 .f32 := ((Memref.whole cc0_scratch0).slice (Rect.unit (s := S3x512x1024) ![1, 0, 0] S1x512x1024.size inb_S3x512x1024_S1x512x1024_1_0_0) (fun _ => rfl)).squeeze S512x1024 squeezes_S1x512x1024_S512x1024
abbrev w0M2 : Memref sig .tc .vmem S512x1024 .f32 := ((Memref.whole cc0_scratch0).slice (Rect.unit (s := S3x512x1024) ![2, 0, 0] S1x512x1024.size inb_S3x512x1024_S1x512x1024_2_0_0) (fun _ => rfl)).squeeze S512x1024 squeezes_S1x512x1024_S512x1024
abbrev w1M0 : Memref sig .tc .vmem S1024x512 .f32 := ((Memref.whole cc0_scratch1).slice (Rect.unit (s := S3x1024x512) ![0, 0, 0] S1x1024x512.size inb_S3x1024x512_S1x1024x512_0_0_0) (fun _ => rfl)).squeeze S1024x512 squeezes_S1x1024x512_S1024x512
abbrev w1M1 : Memref sig .tc .vmem S1024x512 .f32 := ((Memref.whole cc0_scratch1).slice (Rect.unit (s := S3x1024x512) ![1, 0, 0] S1x1024x512.size inb_S3x1024x512_S1x1024x512_1_0_0) (fun _ => rfl)).squeeze S1024x512 squeezes_S1x1024x512_S1024x512
abbrev w1M2 : Memref sig .tc .vmem S1024x512 .f32 := ((Memref.whole cc0_scratch1).slice (Rect.unit (s := S3x1024x512) ![2, 0, 0] S1x1024x512.size inb_S3x1024x512_S1x1024x512_2_0_0) (fun _ => rfl)).squeeze S1024x512 squeezes_S1x1024x512_S1024x512

/-- The source slot of transfer `t` (a slot of the send buffers). -/
abbrev srcM : Fin 9 → Memref sig .tc .vmem S64x512 .bf16
  | 0 => ((Memref.whole cc0_scratch4).slice (Rect.unit (s := S3x2x64x512) ![0, 0, 0, 0] S1x1x64x512.size inb_S3x2x64x512_S1x1x64x512_0_0_0_0) (fun _ => rfl)).squeeze S64x512 squeezes_S1x1x64x512_S64x512
  | 1 => ((Memref.whole cc0_scratch4).slice (Rect.unit (s := S3x2x64x512) ![0, 1, 0, 0] S1x1x64x512.size inb_S3x2x64x512_S1x1x64x512_0_1_0_0) (fun _ => rfl)).squeeze S64x512 squeezes_S1x1x64x512_S64x512
  | 2 => ((Memref.whole cc0_scratch4).slice (Rect.unit (s := S3x2x64x512) ![1, 0, 0, 0] S1x1x64x512.size inb_S3x2x64x512_S1x1x64x512_1_0_0_0) (fun _ => rfl)).squeeze S64x512 squeezes_S1x1x64x512_S64x512
  | 3 => ((Memref.whole cc0_scratch4).slice (Rect.unit (s := S3x2x64x512) ![1, 1, 0, 0] S1x1x64x512.size inb_S3x2x64x512_S1x1x64x512_1_1_0_0) (fun _ => rfl)).squeeze S64x512 squeezes_S1x1x64x512_S64x512
  | 4 => ((Memref.whole cc0_scratch4).slice (Rect.unit (s := S3x2x64x512) ![2, 0, 0, 0] S1x1x64x512.size inb_S3x2x64x512_S1x1x64x512_2_0_0_0) (fun _ => rfl)).squeeze S64x512 squeezes_S1x1x64x512_S64x512
  | 5 => ((Memref.whole cc0_scratch4).slice (Rect.unit (s := S3x2x64x512) ![2, 1, 0, 0] S1x1x64x512.size inb_S3x2x64x512_S1x1x64x512_2_1_0_0) (fun _ => rfl)).squeeze S64x512 squeezes_S1x1x64x512_S64x512
  | 6 => ((Memref.whole cc0_scratch5).slice (Rect.unit (s := S3x64x512) ![0, 0, 0] S1x64x512.size inb_S3x64x512_S1x64x512_0_0_0) (fun _ => rfl)).squeeze S64x512 squeezes_S1x64x512_S64x512
  | 7 => ((Memref.whole cc0_scratch5).slice (Rect.unit (s := S3x64x512) ![1, 0, 0] S1x64x512.size inb_S3x64x512_S1x64x512_1_0_0) (fun _ => rfl)).squeeze S64x512 squeezes_S1x64x512_S64x512
  | 8 => ((Memref.whole cc0_scratch5).slice (Rect.unit (s := S3x64x512) ![2, 0, 0] S1x64x512.size inb_S3x64x512_S1x64x512_2_0_0) (fun _ => rfl)).squeeze S64x512 squeezes_S1x64x512_S64x512

/-- The destination slot of transfer `t` (a slot of the receive buffers, on the peer). -/
abbrev dstM : Fin 9 → Memref sig .tc .vmem S64x512 .bf16
  | 0 => ((Memref.whole cc0_scratch6).slice (Rect.unit (s := S3x2x64x512) ![0, 0, 0, 0] S1x1x64x512.size inb_S3x2x64x512_S1x1x64x512_0_0_0_0) (fun _ => rfl)).squeeze S64x512 squeezes_S1x1x64x512_S64x512
  | 1 => ((Memref.whole cc0_scratch6).slice (Rect.unit (s := S3x2x64x512) ![0, 1, 0, 0] S1x1x64x512.size inb_S3x2x64x512_S1x1x64x512_0_1_0_0) (fun _ => rfl)).squeeze S64x512 squeezes_S1x1x64x512_S64x512
  | 2 => ((Memref.whole cc0_scratch6).slice (Rect.unit (s := S3x2x64x512) ![1, 0, 0, 0] S1x1x64x512.size inb_S3x2x64x512_S1x1x64x512_1_0_0_0) (fun _ => rfl)).squeeze S64x512 squeezes_S1x1x64x512_S64x512
  | 3 => ((Memref.whole cc0_scratch6).slice (Rect.unit (s := S3x2x64x512) ![1, 1, 0, 0] S1x1x64x512.size inb_S3x2x64x512_S1x1x64x512_1_1_0_0) (fun _ => rfl)).squeeze S64x512 squeezes_S1x1x64x512_S64x512
  | 4 => ((Memref.whole cc0_scratch6).slice (Rect.unit (s := S3x2x64x512) ![2, 0, 0, 0] S1x1x64x512.size inb_S3x2x64x512_S1x1x64x512_2_0_0_0) (fun _ => rfl)).squeeze S64x512 squeezes_S1x1x64x512_S64x512
  | 5 => ((Memref.whole cc0_scratch6).slice (Rect.unit (s := S3x2x64x512) ![2, 1, 0, 0] S1x1x64x512.size inb_S3x2x64x512_S1x1x64x512_2_1_0_0) (fun _ => rfl)).squeeze S64x512 squeezes_S1x1x64x512_S64x512
  | 6 => ((Memref.whole cc0_scratch7).slice (Rect.unit (s := S3x64x512) ![0, 0, 0] S1x64x512.size inb_S3x64x512_S1x64x512_0_0_0) (fun _ => rfl)).squeeze S64x512 squeezes_S1x64x512_S64x512
  | 7 => ((Memref.whole cc0_scratch7).slice (Rect.unit (s := S3x64x512) ![1, 0, 0] S1x64x512.size inb_S3x64x512_S1x64x512_1_0_0) (fun _ => rfl)).squeeze S64x512 squeezes_S1x64x512_S64x512
  | 8 => ((Memref.whole cc0_scratch7).slice (Rect.unit (s := S3x64x512) ![2, 0, 0] S1x64x512.size inb_S3x64x512_S1x64x512_2_0_0) (fun _ => rfl)).squeeze S64x512 squeezes_S1x64x512_S64x512

/-- A piece of a buffer held through a memref: exactly the memref's elements, at the full share. -/
abbrev heldM {sp : Space} {S : Shape} {e : EltTy} (c : Dev nD) (M : Memref sig .tc sp S e) (f : Buf (Elt F) (M.view.loc (c : Thread nD τ))) : sProp 𝕄 :=
  M.view.loc (c : Thread nD τ) ↦[M.view.set]{fullShare} f

/-- A whole buffer held. -/
abbrev held (c : Dev nD) (b : Ref sig .tc) (f : Buf (Elt F) ((c : Thread nD τ).loc b)) : sProp 𝕄 :=
  (Memref.whole b).view.loc (c : Thread nD τ) ↦[(Memref.whole b).view.set]{fullShare} f

/-! ## The cells -/

abbrev barCell (c : Dev nD) : GSem nD τ sig := ((c : Thread nD τ), .reg barS)
abbrev sendCell (t : Fin 9) (c : Dev nD) : GSem nD τ sig := ((c : Thread nD τ), .dma (sendS t))
abbrev recvCell (t : Fin 9) (c : Dev nD) : GSem nD τ sig := ((c : Thread nD τ), .dma (recvS t))

/-- The credit of one transfer: every slot is 64×512 bf16. -/
abbrev N : ℕ := (dstM 0).view.dmaCredit
theorem N_pos : 0 < N := View.dmaCredit_pos _ (by decide)
theorem N_eq (t : Fin 9) : (dstM t).view.dmaCredit = N := by revert t; decide

end Cert.KernelIdealProof

end
-- ==== Proof.Sched.lean ====
/-
  The protocol as a schedule of rounds. Every cell has one round. A device's barrier cell has two
  duties of one unit: `false`, paid by its peer along the second axis, hands it that peer's six
  landing slots for the hidden chunks and the fact that the peer's six receive cells are at round 0;
  `true`, paid by its peer along the first axis, hands it that peer's three landing slots for the
  partial outputs likewise. The send cell of transfer `t` has one duty of the slot's credit, whose
  payload is the source slot back; the receive cell of transfer `t` one duty of the same credit,
  whose payload is the landing slot holding the sender's value `SV t (peer t c)`.
-/
import proofs.«900581_g7700000000000582_dist_mlpseq_tp2d_cs_cs_b64_d512_h1024_v7x_xy2x2_f32_1_alg».proof.Proof.Cells

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- The value transfer `t` carries from device `c`: a parameter here (the schedule is the same whatever the transfers carry).
variable (SV : Fin 9 → Dev nD → Vec F S64x512 .bf16)

/-! ## Which cell a semaphore is -/

/-- The role of a semaphore in the protocol: `some (false, t)` the send cell of transfer `t`, `some (true, t)` its receive cell. -/
def semTag : SemLoc sig → Option (Bool × Fin 9)
  | .dma s =>
    if h : 8 ≤ s.val ∧ s.val < 14 then some (false, ⟨s.val - 8, by omega⟩)
    else if h : 20 ≤ s.val ∧ s.val < 23 then some (false, ⟨s.val - 14, by omega⟩)
    else if h : 14 ≤ s.val ∧ s.val < 20 then some (true, ⟨s.val - 14, by omega⟩)
    else if h : 23 ≤ s.val ∧ s.val < 26 then some (true, ⟨s.val - 17, by omega⟩)
    else none
  | .reg _ => none

theorem semTag_send (t : Fin 9) : semTag (.dma (sendS t)) = some (false, t) := by revert t; decide
theorem semTag_recv (t : Fin 9) : semTag (.dma (recvS t)) = some (true, t) := by revert t; decide
theorem semTag_bar : semTag (.reg barS) = none := rfl

/-! ## The payloads -/

def sendPay (t : Fin 9) (c : Dev nD) : sProp 𝕄 := iprop(∃ g, heldM c (srcM t) g)
def recvPay (t : Fin 9) (c : Dev nD) : sProp 𝕄 :=
  iprop(∃ g, heldM c (dstM t) g ∗ ⌜(dstM t).view.read (Elt F) g = SV t (peer t c)⌝)

/-- A landing slot of device `d` at some contents, with the fact that `d` is at round 0 of the slot's receive cell. -/
def slotOf (t : Fin 9) (d : Dev nD) : sProp 𝕄 := iprop((∃ f, heldM d (dstM t) f) ∗ reached ER (recvCell t d) 0)

/-- What the second-axis peer's entry signal hands `c`: that peer's six landing slots for the hidden chunks. -/
def barPayY (c : Dev nD) : sProp 𝕄 :=
  iprop(slotOf 0 (yp c) ∗ slotOf 1 (yp c) ∗ slotOf 2 (yp c) ∗ slotOf 3 (yp c) ∗ slotOf 4 (yp c) ∗ slotOf 5 (yp c))
/-- What the first-axis peer's entry signal hands `c`: that peer's three landing slots for the partial outputs. -/
def barPayX (c : Dev nD) : sProp 𝕄 := iprop(slotOf 6 (xp c) ∗ slotOf 7 (xp c) ∗ slotOf 8 (xp c))

def payOf (sm : SemLoc sig) (c : Dev nD) : sProp 𝕄 :=
  match semTag sm with
  | some (false, t) => sendPay t c
  | some (true, t) => recvPay SV t c
  | none => iprop(emp)

/-! ## The schedule -/

abbrev IsBar (g : GSem nD τ sig) : Prop := g.1.2 = .tc ∧ g.2 = .reg barS
abbrev IsXfer (g : GSem nD τ sig) : Prop := g.1.2 = .tc ∧ (semTag g.2).isSome = true

def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := if g.2 = .reg barS then (if d then barPayX g.1.1 else barPayY g.1.1) else payOf SV g.2 g.1.1
  amount_pos g _ _ _ := by
    by_cases h : g.2 = .reg barS
    · rw [if_pos h]; exact Nat.one_pos
    · rw [if_neg h]; exact N_pos

/-! ## What each device owes at launch, in the order it pays -/

/-- The eleven payments of device `c`, in program order: the two entry signals, then per layer the two chunk
    transfers and the partial-output transfer. -/
def pays (c : Dev nD) : List (GSem nD τ sig × ℕ) :=
  [(barCell (yp c), 1), (barCell (xp c), 1),
   (recvCell 0 (yp c), N), (recvCell 1 (yp c), N), (recvCell 6 (xp c), N),
   (recvCell 2 (yp c), N), (recvCell 3 (yp c), N), (recvCell 7 (xp c), N),
   (recvCell 4 (yp c), N), (recvCell 5 (yp c), N), (recvCell 8 (xp c), N)]

/-- The tallies of a list of payments, the FIRST payment the LAST summand (so that paying it peels it). -/
def owedFrom : List (GSem nD τ sig × ℕ) → CellTallies nD τ sig Unit
  | [] => 0
  | p :: ps => owedFrom ps + tallyAt p.1 () p.2

def O₀ (c : Dev nD) : CellTallies nD τ sig Unit := owedFrom (pays c)
/-- What `c` still owes after its first `k` payments. -/
def Oafter (c : Dev nD) (k : ℕ) : CellTallies nD τ sig Unit := owedFrom ((pays c).drop k)

/-! ## The levels -/

def L (g : GSem nD τ sig) : Finset Unit := if g.1.2 = .tc then {()} else ∅
/-- Staging, local-copy and send cells at 0; barrier cells at 1; the receive cells in program order above:
    layer `l`'s chunk cells at 2·l + 2, its partial-output cell at 2·l + 3. -/
def lvT (t : Fin 9) : ℕ := if t.val < 6 then 2 * (t.val / 2) + 2 else 2 * (t.val - 6) + 3
def lv (g : GSem nD τ sig) (_ : Unit) : ℕ :=
  if g.2 = .reg barS then 1 else
  match semTag g.2 with
  | some (true, t) => lvT t
  | _ => 0

end Cert.KernelIdealProof

end
-- ==== Proof.Ghost.lean ====
/-
  What a device's body starts from and what it leaves: the ghost state of the protocol dealt at
  launch, the pipeline's proof data, and the invariant before and after the one grid point.
-/
import proofs.«900581_g7700000000000582_dist_mlpseq_tp2d_cs_cs_b64_d512_h1024_v7x_xy2x2_f32_1_alg».proof.Proof.Sched

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- the value transfer `t` carries from device `c`, and the result block device `c` stores: parameters here
variable (SV : Fin 9 → Dev nD → Vec F S64x512 .bf16)
variable (OUT : Dev nD → (cc0_stg1_0 : Ref sig .tc).ty.Contents (Elt F))
variable (m : (ℓ : Loc nD τ sig) → Buf (Elt F) ℓ) (ρ : Dev nD → PrngReg)

/-! ## The cells of one device, numbered: 0 the barrier cell, 1 + t the send cell of transfer t, 10 + t its receive cell -/

def csem (k : Fin 19) : SemLoc sig :=
  if k.val = 0 then .reg barS
  else if h : k.val < 10 then .dma (sendS ⟨k.val - 1, by omega⟩)
  else .dma (recvS ⟨k.val - 10, by omega⟩)
abbrev kcell (ck : Dev nD × Fin 19) : GSem nD τ sig := ((ck.1 : Thread nD τ), csem ck.2)
def kBar : Fin 19 := 0
def kSend (t : Fin 9) : Fin 19 := ⟨1 + t.val, by omega⟩
def kRecv (t : Fin 9) : Fin 19 := ⟨10 + t.val, by omega⟩
theorem csem_bar : csem kBar = .reg barS := rfl
theorem csem_send (t : Fin 9) : csem (kSend t) = .dma (sendS t) := by revert t; decide
theorem csem_recv (t : Fin 9) : csem (kRecv t) = .dma (recvS t) := by revert t; decide

omit [FloatOps F] in
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## The ghost state a device's body starts from -/

/-- The invariants device `c`'s body opens, under the names the launch allocated them at: its own nineteen cells,
    both peers' barrier cells (its entry signals), and the receive cell of each of its transfers on that transfer's peer. -/
def invs (K : Dev nD × Fin 19 → ℕ) (c : Dev nD) : sProp 𝕄 :=
  iprop(cellInv ER (sched SV) (K (c, kBar)) (barCell c)
    ∗ (bigSep Finset.univ fun t : Fin 9 => cellInv ER (sched SV) (K (c, kSend t)) (sendCell t c))
    ∗ (bigSep Finset.univ fun t : Fin 9 => cellInv ER (sched SV) (K (c, kRecv t)) (recvCell t c))
    ∗ cellInv ER (sched SV) (K (yp c, kBar)) (barCell (yp c)) ∗ cellInv ER (sched SV) (K (xp c, kBar)) (barCell (xp c))
    ∗ (bigSep Finset.univ fun t : Fin 9 => cellInv ER (sched SV) (K (peer t c, kRecv t)) (recvCell t (peer t c))))

instance invs_persistent (K : Dev nD × Fin 19 → ℕ) (c : Dev nD) : BI.Persistent (invs SV K c) := by unfold invs; infer_instance

/-- The invariants; its positions at round 0 of its nineteen cells; round 0 reached at both peers' barrier cells and at
    its own send and receive cells; the duty tokens it pays with: the second-axis peer's barrier duty `false`, the
    first-axis peer's barrier duty `true`, each transfer's receive duty on its peer, each transfer's own send duty. -/
def ghost (K : Dev nD × Fin 19 → ℕ) (c : Dev nD) : sProp 𝕄 :=
  iprop(invs SV K c
    ∗ atPos ER (barCell c) 0 ∅ 0
    ∗ (bigSep Finset.univ fun t : Fin 9 => atPos ER (sendCell t c) 0 ∅ 0)
    ∗ (bigSep Finset.univ fun t : Fin 9 => atPos ER (recvCell t c) 0 ∅ 0)
    ∗ reached ER (barCell (yp c)) 0 ∗ reached ER (barCell (xp c)) 0
    ∗ (bigSep Finset.univ fun t : Fin 9 => reached ER (sendCell t c) 0)
    ∗ (bigSep Finset.univ fun t : Fin 9 => reached ER (recvCell t c) 0)
    ∗ dutyTok ER (barCell (yp c)) 0 false ∗ dutyTok ER (barCell (xp c)) 0 true
    ∗ (bigSep Finset.univ fun t : Fin 9 => dutyTok ER (recvCell t (peer t c)) 0 false)
    ∗ (bigSep Finset.univ fun t : Fin 9 => dutyTok ER (sendCell t c) 0 false))

/-- The six local weight copies' counters at zero. -/
def wsems0 (c : Dev nD) : sProp 𝕄 :=
  iprop(semVal ((c : Thread nD τ), .dma wS00) 0 ∗ semVal ((c : Thread nD τ), .dma wS01) 0 ∗ semVal ((c : Thread nD τ), .dma wS10) 0
    ∗ semVal ((c : Thread nD τ), .dma wS11) 0 ∗ semVal ((c : Thread nD τ), .dma wS20) 0 ∗ semVal ((c : Thread nD τ), .dma wS21) 0)

/-- The six weight arrays, as launched. -/
def args (c : Dev nD) : sProp 𝕄 :=
  iprop(held c main_arg1 (m ((c : Thread nD τ).loc main_arg1)) ∗ held c main_arg2 (m ((c : Thread nD τ).loc main_arg2))
    ∗ held c main_arg3 (m ((c : Thread nD τ).loc main_arg3)) ∗ held c main_arg4 (m ((c : Thread nD τ).loc main_arg4))
    ∗ held c main_arg5 (m ((c : Thread nD τ).loc main_arg5)) ∗ held c main_arg6 (m ((c : Thread nD τ).loc main_arg6)))

/-- The scratch buffers at some contents: the sliced ones slot by slot, the two bf16 weight buffers whole. -/
def scratch (c : Dev nD) : sProp 𝕄 :=
  iprop(((∃ f, heldM c w0M0 f) ∗ (∃ f, heldM c w0M1 f) ∗ (∃ f, heldM c w0M2 f))
    ∗ ((∃ f, heldM c w1M0 f) ∗ (∃ f, heldM c w1M1 f) ∗ (∃ f, heldM c w1M2 f))
    ∗ (∃ f, held c cc0_scratch2 f) ∗ (∃ f, held c cc0_scratch3 f)
    ∗ ((∃ f, heldM c (srcM 0) f) ∗ (∃ f, heldM c (srcM 1) f) ∗ (∃ f, heldM c (srcM 2) f) ∗ (∃ f, heldM c (srcM 3) f) ∗ (∃ f, heldM c (srcM 4) f) ∗ (∃ f, heldM c (srcM 5) f) ∗ (∃ f, heldM c (srcM 6) f) ∗ (∃ f, heldM c (srcM 7) f) ∗ (∃ f, heldM c (srcM 8) f))
    ∗ ((∃ f, heldM c (dstM 0) f) ∗ (∃ f, heldM c (dstM 1) f) ∗ (∃ f, heldM c (dstM 2) f) ∗ (∃ f, heldM c (dstM 3) f) ∗ (∃ f, heldM c (dstM 4) f) ∗ (∃ f, heldM c (dstM 5) f) ∗ (∃ f, heldM c (dstM 6) f) ∗ (∃ f, heldM c (dstM 7) f) ∗ (∃ f, heldM c (dstM 8) f)))

/-- What device `c`'s body starts from besides the buffers: the ghost state at some names, the credit for the units its
    cells are owed from launch (its barrier's two, each receive cell's slot credit), and the level facts. -/
def start (c : Dev nD) : sProp 𝕄 :=
  iprop((∃ K, ghost SV K c) ∗ cred (tallyAt (barCell c) () 2)
    ∗ (bigSep Finset.univ fun t : Fin 9 => cred (tallyAt (recvCell t c) () N)) ∗ levAts L lv)

/-- Before the grid point. -/
def Φ₀ (c : Dev nD) : sProp 𝕄 := iprop(start SV c ∗ wsems0 c ∗ args m c ∗ scratch c)
/-- After it: the weight arrays untouched, every own counter at zero (the eighteen transfer cells closed), the scratch
    buffers at some contents. -/
def Φ₁ (c : Dev nD) : sProp 𝕄 :=
  iprop(wsems0 c ∗ args m c ∗ scratch c
    ∗ (bigSep Finset.univ fun t : Fin 9 => semVal (sendCell t c) 0) ∗ (bigSep Finset.univ fun t : Fin 9 => semVal (recvCell t c) 0))

/-! ## The pipeline's proof data -/

/-- The activation block as staged: the one block of window 0 read off the argument array. -/
def xin (c : Dev nD) : (cc0_stg0_0 : Ref sig .tc).ty.Contents (Elt F) :=
  (win0_0.blk (0 : Fin 1)).view.read (Elt F) (m ((c : Thread nD τ).loc main_arg0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => OUT c
  Φ t := match t with
    | ⟨0, _⟩ => Φ₀ SV m c
    | ⟨_ + 1, _⟩ => Φ₁ m c
  q _ := fullShare
  owed t := match t with
    | ⟨0, _⟩ => O₀ c
    | ⟨_ + 1, _⟩ => 0

/-- A staging buffer whole at stated contents, as the pipeline hands it to the body and takes it back. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition: the invariant before the point, what the device owes, the two staging buffers. -/
def bodyPre (c : Dev nD) : sProp 𝕄 :=
  iprop(Φ₀ SV m c ∗ (dats SV OUT m 0 c).owesAt () t₀.castSucc
    ∗ (∃ d, stg c cc0_stg0_0 ((dats SV OUT m 0 c).before (0 : Fin 2) t₀ d))
    ∗ (∃ d, stg c cc0_stg1_0 ((dats SV OUT m 0 c).before (1 : Fin 2) t₀ d)))

/-- The body's postcondition: the invariant after the point, nothing owed, the activation block untouched and the
    result block stored. -/
def bodyPost (c : Dev nD) : sProp 𝕄 :=
  iprop(Φ₁ m c ∗ (dats SV OUT m 0 c).owesAt () t₀.succ ∗ stg c cc0_stg0_0 (xin m c) ∗ stg c cc0_stg1_0 (OUT c))

/-- The body, as the pipeline calls it at the one grid point. -/
abbrev theBody : Prog (TpuEff nD τ sig (Elt F) Λ₀ .tc) PUnit :=
  cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12

end Cert.KernelIdealProof

end
-- ==== Proof.Spec.lean ====
/-
  What the kernel computes, one term per value, in the order of the program.

  A local value is a term over the launch memory: a weight slot read after its copy has landed
  (the copied array through the slot's view), a bf16 weight chunk read back from the list of
  the layers' stores (newest first), a payload of the printed arithmetic over those. A value
  RECEIVED from a peer is the peer's own sent value: transfer `t` lands `SVs m t (peer t c)` in
  device `c`'s slot, and the slot is read back with its two (or one) unit axes restored. The
  recursion is on the transfer's stage: a layer's chunk transfers depend on the previous layer's
  partial-output transfer, which depends on that layer's chunk transfers.
-/
import proofs.«900581_g7700000000000582_dist_mlpseq_tp2d_cs_cs_b64_d512_h1024_v7x_xy2x2_f32_1_alg».proof.Proof.Ghost
import proofs.«900581_g7700000000000582_dist_mlpseq_tp2d_cs_cs_b64_d512_h1024_v7x_xy2x2_f32_1_alg».proof.Proof.Gen.KernelIdeal.Skeleton

noncomputable section

namespace Cert.KernelIdealProof

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ)

/-! ## The weights: each layer's two slots as read after their copies landed, and the bf16 lists -/

def dmaI0 (c : Dev nD) : S512x1024.Idx → Elt F .f32 :=
  ReadAs.same.apply (View.read (Elt F) (Memref.whole main_arg1).view (m ((c : Thread nD τ).loc main_arg1)))
def dmaO0 (c : Dev nD) : S1024x512.Idx → Elt F .f32 :=
  ReadAs.same.apply (View.read (Elt F) (Memref.whole main_arg2).view (m ((c : Thread nD τ).loc main_arg2)))
def vWI0 (c : Dev nD) : Vec F S1x512x1024 .f32 :=
  View.readAt (Elt F) (Memref.whole cc0_scratch0).view
    (Rect.unit (s := S3x512x1024) ![0, 0, 0] S1x512x1024.size inb_S3x512x1024_S1x512x1024_0_0_0).toLoadRect
    (w0M0.view.writes (Elt F) w0M0.view.junk [⟨Rect.whole S512x1024, dmaI0 m c⟩])
def vWO0 (c : Dev nD) : Vec F S1x1024x512 .f32 :=
  View.readAt (Elt F) (Memref.whole cc0_scratch1).view
    (Rect.unit (s := S3x1024x512) ![0, 0, 0] S1x1024x512.size inb_S3x1024x512_S1x1024x512_0_0_0).toLoadRect
    (w1M0.view.writes (Elt F) w1M0.view.junk [⟨Rect.whole S1024x512, dmaO0 m c⟩])
def dmaI1 (c : Dev nD) : S512x1024.Idx → Elt F .f32 :=
  ReadAs.same.apply (View.read (Elt F) (Memref.whole main_arg3).view (m ((c : Thread nD τ).loc main_arg3)))
def dmaO1 (c : Dev nD) : S1024x512.Idx → Elt F .f32 :=
  ReadAs.same.apply (View.read (Elt F) (Memref.whole main_arg4).view (m ((c : Thread nD τ).loc main_arg4)))
def vWI1 (c : Dev nD) : Vec F S1x512x1024 .f32 :=
  View.readAt (Elt F) (Memref.whole cc0_scratch0).view
    (Rect.unit (s := S3x512x1024) ![1, 0, 0] S1x512x1024.size inb_S3x512x1024_S1x512x1024_1_0_0).toLoadRect
    (w0M1.view.writes (Elt F) w0M1.view.junk [⟨Rect.whole S512x1024, dmaI1 m c⟩])
def vWO1 (c : Dev nD) : Vec F S1x1024x512 .f32 :=
  View.readAt (Elt F) (Memref.whole cc0_scratch1).view
    (Rect.unit (s := S3x1024x512) ![1, 0, 0] S1x1024x512.size inb_S3x1024x512_S1x1024x512_1_0_0).toLoadRect
    (w1M1.view.writes (Elt F) w1M1.view.junk [⟨Rect.whole S1024x512, dmaO1 m c⟩])
def dmaI2 (c : Dev nD) : S512x1024.Idx → Elt F .f32 :=
  ReadAs.same.apply (View.read (Elt F) (Memref.whole main_arg5).view (m ((c : Thread nD τ).loc main_arg5)))
def dmaO2 (c : Dev nD) : S1024x512.Idx → Elt F .f32 :=
  ReadAs.same.apply (View.read (Elt F) (Memref.whole main_arg6).view (m ((c : Thread nD τ).loc main_arg6)))
def vWI2 (c : Dev nD) : Vec F S1x512x1024 .f32 :=
  View.readAt (Elt F) (Memref.whole cc0_scratch0).view
    (Rect.unit (s := S3x512x1024) ![2, 0, 0] S1x512x1024.size inb_S3x512x1024_S1x512x1024_2_0_0).toLoadRect
    (w0M2.view.writes (Elt F) w0M2.view.junk [⟨Rect.whole S512x1024, dmaI2 m c⟩])
def vWO2 (c : Dev nD) : Vec F S1x1024x512 .f32 :=
  View.readAt (Elt F) (Memref.whole cc0_scratch1).view
    (Rect.unit (s := S3x1024x512) ![2, 0, 0] S1x1024x512.size inb_S3x1024x512_S1x1024x512_2_0_0).toLoadRect
    (w1M2.view.writes (Elt F) w1M2.view.junk [⟨Rect.whole S1024x512, dmaO2 m c⟩])

/-- The bf16 copies of the first weights stored so far, newest first: after layer 0, 1, 2. -/
def LI0 (c : Dev nD) : List (View.Piece (Elt F) cc0_scratch2.ty.shape cc0_scratch2.ty.elt) :=
  [⟨(Rect.unit (s := S3x512x1024) ![0, 0, 0] S1x512x1024.size inb_S3x512x1024_S1x512x1024_0_0_0), k0_pay4 (k0_pay3 (vWI0 m c))⟩]
def LI1 (c : Dev nD) : List (View.Piece (Elt F) cc0_scratch2.ty.shape cc0_scratch2.ty.elt) :=
  ⟨(Rect.unit (s := S3x512x1024) ![1, 0, 0] S1x512x1024.size inb_S3x512x1024_S1x512x1024_1_0_0), k0_pay18 (k0_pay17 (vWI1 m c))⟩ :: LI0 m c
def LI2 (c : Dev nD) : List (View.Piece (Elt F) cc0_scratch2.ty.shape cc0_scratch2.ty.elt) :=
  ⟨(Rect.unit (s := S3x512x1024) ![2, 0, 0] S1x512x1024.size inb_S3x512x1024_S1x512x1024_2_0_0), k0_pay29 (vWI2 m c)⟩ :: LI1 m c
/-- The bf16 copies of the second weights likewise. -/
def LO0 (c : Dev nD) : List (View.Piece (Elt F) cc0_scratch3.ty.shape cc0_scratch3.ty.elt) :=
  [⟨(Rect.unit (s := S3x1024x512) ![0, 0, 0] S1x1024x512.size inb_S3x1024x512_S1x1024x512_0_0_0), k0_pay10 (vWO0 m c)⟩]
def LO1 (c : Dev nD) : List (View.Piece (Elt F) cc0_scratch3.ty.shape cc0_scratch3.ty.elt) :=
  ⟨(Rect.unit (s := S3x1024x512) ![1, 0, 0] S1x1024x512.size inb_S3x1024x512_S1x1024x512_1_0_0), k0_pay25 (vWO1 m c)⟩ :: LO0 m c
def LO2 (c : Dev nD) : List (View.Piece (Elt F) cc0_scratch3.ty.shape cc0_scratch3.ty.elt) :=
  ⟨(Rect.unit (s := S3x1024x512) ![2, 0, 0] S1x1024x512.size inb_S3x1024x512_S1x1024x512_2_0_0), k0_pay35 (vWO2 m c)⟩ :: LO1 m c

/-- Layer `l`'s chunk `ch` of the first weights (columns ch·512 …) and of the second (rows ch·512 …), as read back. -/
def ci00 (c : Dev nD) : Vec F S1x512x512 .bf16 :=
  (Memref.whole cc0_scratch2).view.readCov (LI0 m c) (Rect.unit (s := S3x512x1024) ![0, 0, 0] S1x512x512.size inb_S3x512x1024_S1x512x512_0_0_0).toLoadRect
def co00 (c : Dev nD) : Vec F S1x512x512 .bf16 :=
  (Memref.whole cc0_scratch3).view.readCov (LO0 m c) (Rect.unit (s := S3x1024x512) ![0, 0, 0] S1x512x512.size inb_S3x1024x512_S1x512x512_0_0_0).toLoadRect
def ci01 (c : Dev nD) : Vec F S1x512x512 .bf16 :=
  (Memref.whole cc0_scratch2).view.readCov (LI0 m c) (Rect.unit (s := S3x512x1024) ![0, 0, 512] S1x512x512.size inb_S3x512x1024_S1x512x512_0_0_512).toLoadRect
def co01 (c : Dev nD) : Vec F S1x512x512 .bf16 :=
  (Memref.whole cc0_scratch3).view.readCov (LO0 m c) (Rect.unit (s := S3x1024x512) ![0, 512, 0] S1x512x512.size inb_S3x1024x512_S1x512x512_0_512_0).toLoadRect
def ci10 (c : Dev nD) : Vec F S1x512x512 .bf16 :=
  (Memref.whole cc0_scratch2).view.readCov (LI1 m c) (Rect.unit (s := S3x512x1024) ![1, 0, 0] S1x512x512.size inb_S3x512x1024_S1x512x512_1_0_0).toLoadRect
def co10 (c : Dev nD) : Vec F S1x512x512 .bf16 :=
  (Memref.whole cc0_scratch3).view.readCov (LO1 m c) (Rect.unit (s := S3x1024x512) ![1, 0, 0] S1x512x512.size inb_S3x1024x512_S1x512x512_1_0_0).toLoadRect
def ci11 (c : Dev nD) : Vec F S1x512x512 .bf16 :=
  (Memref.whole cc0_scratch2).view.readCov (LI1 m c) (Rect.unit (s := S3x512x1024) ![1, 0, 512] S1x512x512.size inb_S3x512x1024_S1x512x512_1_0_512).toLoadRect
def co11 (c : Dev nD) : Vec F S1x512x512 .bf16 :=
  (Memref.whole cc0_scratch3).view.readCov (LO1 m c) (Rect.unit (s := S3x1024x512) ![1, 512, 0] S1x512x512.size inb_S3x1024x512_S1x512x512_1_512_0).toLoadRect
def ci20 (c : Dev nD) : Vec F S1x512x512 .bf16 :=
  (Memref.whole cc0_scratch2).view.readCov (LI2 m c) (Rect.unit (s := S3x512x1024) ![2, 0, 0] S1x512x512.size inb_S3x512x1024_S1x512x512_2_0_0).toLoadRect
def co20 (c : Dev nD) : Vec F S1x512x512 .bf16 :=
  (Memref.whole cc0_scratch3).view.readCov (LO2 m c) (Rect.unit (s := S3x1024x512) ![2, 0, 0] S1x512x512.size inb_S3x1024x512_S1x512x512_2_0_0).toLoadRect
def ci21 (c : Dev nD) : Vec F S1x512x512 .bf16 :=
  (Memref.whole cc0_scratch2).view.readCov (LI2 m c) (Rect.unit (s := S3x512x1024) ![2, 0, 512] S1x512x512.size inb_S3x512x1024_S1x512x512_2_0_512).toLoadRect
def co21 (c : Dev nD) : Vec F S1x512x512 .bf16 :=
  (Memref.whole cc0_scratch3).view.readCov (LO2 m c) (Rect.unit (s := S3x1024x512) ![2, 512, 0] S1x512x512.size inb_S3x1024x512_S1x512x512_2_512_0).toLoadRect

/-! ## The values, stage by stage -/

/-- The activation block as loaded and cast. -/
def xc0 (c : Dev nD) : FVec F S64x512 .bf16 :=
  k0_pay2 (View.readAt (Elt F) (Memref.whole cc0_stg0_0).view
    (Rect.unit (s := S64x512) ![0, 0] S64x512.size inb_S64x512_S64x512_0_0).toLoadRect (xin m c))

/-- A hidden chunk received from the second-axis peer, and a partial output received from the first-axis peer, from the
    64×512 value the peer sent. -/
def rvH (v : Vec F S64x512 .bf16) : Vec F S1x1x64x512 .bf16 := shapeCast S1x1x64x512 v shapeCasts_S64x512_S1x1x64x512
def rvX (v : Vec F S64x512 .bf16) : Vec F S1x64x512 .bf16 := shapeCast S1x64x512 v shapeCasts_S64x512_S1x64x512
/-- The 64×512 value a stored slot holds. -/
def svH (st : Vec F S1x1x64x512 .bf16) : Vec F S64x512 .bf16 := shapeCast S64x512 st shapeCasts_S1x1x64x512_S64x512
def svX (st : Vec F S1x64x512 .bf16) : Vec F S64x512 .bf16 := shapeCast S64x512 st shapeCasts_S1x64x512_S64x512

def zero64 : FVec F S64x512 .f32 := constant S64x512 .f32 0#32

-- layer 0
def ph00 (c : Dev nD) : FVec F S64x512 .f32 := k0_pay5 (xc0 m c) (ci00 m c)
def ph01 (c : Dev nD) : FVec F S64x512 .f32 := k0_pay7 (xc0 m c) (ci01 m c)
def st0 (c : Dev nD) : Vec F S1x1x64x512 .bf16 := k0_pay6 (xc0 m c) (ci00 m c)
def st1 (c : Dev nD) : Vec F S1x1x64x512 .bf16 := k0_pay9 (k0_pay8 (xc0 m c) (ci01 m c))
def sv0 (c : Dev nD) : Vec F S64x512 .bf16 := svH (st0 m c)
def sv1 (c : Dev nD) : Vec F S64x512 .bf16 := svH (st1 m c)
def c00 (c : Dev nD) : FVec F S64x512 .f32 := k0_pay13 (k0_pay11 (ph00 m c) (rvH (sv0 m (yp c)))) (k0_pay12 (co00 m c)) zero64
def h01 (c : Dev nD) : FVec F S64x512 .bf16 := k0_pay14 (ph01 m c) (rvH (sv1 m (yp c)))
def px0 (c : Dev nD) : FVec F S64x512 .f32 := k0_pay15 (c00 m c) (h01 m c) (co01 m c)
def st6 (c : Dev nD) : Vec F S1x64x512 .bf16 := k0_pay16 (c00 m c) (h01 m c) (co01 m c)
def sv6 (c : Dev nD) : Vec F S64x512 .bf16 := svX (st6 m c)
-- layer 1
def xc1 (c : Dev nD) : FVec F S64x512 .bf16 := k0_pay19 (px0 m c) (rvX (sv6 m (xp c)))
def ph10 (c : Dev nD) : FVec F S64x512 .f32 := k0_pay20 (px0 m c) (rvX (sv6 m (xp c))) (ci10 m c)
def st2 (c : Dev nD) : Vec F S1x1x64x512 .bf16 := k0_pay22 (k0_pay21 (px0 m c) (rvX (sv6 m (xp c))) (ci10 m c))
def ph11 (c : Dev nD) : FVec F S64x512 .f32 := k0_pay23 (xc1 m c) (ci11 m c)
def st3 (c : Dev nD) : Vec F S1x1x64x512 .bf16 := k0_pay24 (xc1 m c) (ci11 m c)
def sv2 (c : Dev nD) : Vec F S64x512 .bf16 := svH (st2 m c)
def sv3 (c : Dev nD) : Vec F S64x512 .bf16 := svH (st3 m c)
def c10 (c : Dev nD) : FVec F S64x512 .f32 := k0_pay26 (ph10 m c) (rvH (sv2 m (yp c))) (co10 m c)
def px1 (c : Dev nD) : FVec F S64x512 .f32 := k0_pay27 (ph11 m c) (c10 m c) (rvH (sv3 m (yp c))) (co11 m c)
def st7 (c : Dev nD) : Vec F S1x64x512 .bf16 := k0_pay28 (ph11 m c) (c10 m c) (rvH (sv3 m (yp c))) (co11 m c)
def sv7 (c : Dev nD) : Vec F S64x512 .bf16 := svX (st7 m c)
-- layer 2
def xc2 (c : Dev nD) : FVec F S64x512 .bf16 := k0_pay30 (px1 m c) (rvX (sv7 m (xp c)))
def ph20 (c : Dev nD) : FVec F S64x512 .f32 := k0_pay31 (px1 m c) (rvX (sv7 m (xp c))) (ci20 m c)
def st4 (c : Dev nD) : Vec F S1x1x64x512 .bf16 := k0_pay32 (px1 m c) (rvX (sv7 m (xp c))) (ci20 m c)
def ph21 (c : Dev nD) : FVec F S64x512 .f32 := k0_pay33 (xc2 m c) (ci21 m c)
def st5 (c : Dev nD) : Vec F S1x1x64x512 .bf16 := k0_pay34 (xc2 m c) (ci21 m c)
def sv4 (c : Dev nD) : Vec F S64x512 .bf16 := svH (st4 m c)
def sv5 (c : Dev nD) : Vec F S64x512 .bf16 := svH (st5 m c)
def c20 (c : Dev nD) : FVec F S64x512 .f32 := k0_pay36 (ph20 m c) (rvH (sv4 m (yp c))) (co20 m c)
def px2 (c : Dev nD) : FVec F S64x512 .f32 := k0_pay37 (ph21 m c) (c20 m c) (rvH (sv5 m (yp c))) (co21 m c)
def st8 (c : Dev nD) : Vec F S1x64x512 .bf16 := k0_pay38 (ph21 m c) (c20 m c) (rvH (sv5 m (yp c))) (co21 m c)
def sv8 (c : Dev nD) : Vec F S64x512 .bf16 := svX (st8 m c)

/-- The value transfer `t` carries from device `c`. -/
def SVs : Fin 9 → Dev nD → Vec F S64x512 .bf16
  | 0 => sv0 m | 1 => sv1 m | 2 => sv2 m | 3 => sv3 m | 4 => sv4 m | 5 => sv5 m | 6 => sv6 m | 7 => sv7 m | 8 => sv8 m

/-- The result block device `c` stores: its partial output of the last layer plus the first-axis peer's. -/
def OUTs (c : Dev nD) : (cc0_stg1_0 : Ref sig .tc).ty.Contents (Elt F) := k0_pay1 (px2 m c) (rvX (sv8 m (xp c)))

end Cert.KernelIdealProof

end
-- ==== Proof.SchedFacts.lean ====
/-
  The schedule's tables read at each kind of cell, and the levels: every wait of a device sits
  strictly below everything the device still owes when it waits. A device pays in program order,
  and the receive cells' levels rise in that order, so what is still owed after the first `k`
  payments lies above every cell already waited for.
-/
import proofs.«900581_g7700000000000582_dist_mlpseq_tp2d_cs_cs_b64_d512_h1024_v7x_xy2x2_f32_1_alg».proof.Proof.Sched

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Fin 9 → Dev nD → Vec F S64x512 .bf16)

/-! ## Which kind a cell is -/

theorem send_ne_bar (t : Fin 9) : (SemLoc.dma (sendS t) : SemLoc sig) ≠ .reg barS := fun h => by cases h
theorem recv_ne_bar (t : Fin 9) : (SemLoc.dma (recvS t) : SemLoc sig) ≠ .reg barS := fun h => by cases h
theorem not_bar_send (t : Fin 9) (c : Dev nD) : ¬ IsBar (sendCell t c) := fun h => send_ne_bar t h.2
theorem not_bar_recv (t : Fin 9) (c : Dev nD) : ¬ IsBar (recvCell t c) := fun h => recv_ne_bar t h.2
theorem isXfer_send (t : Fin 9) (c : Dev nD) : IsXfer (sendCell t c) := ⟨rfl, by rw [semTag_send]; rfl⟩
theorem isXfer_recv (t : Fin 9) (c : Dev nD) : IsXfer (recvCell t c) := ⟨rfl, by rw [semTag_recv]; rfl⟩

/-! ## The tables -/

section Tables
variable (t : Fin 9) (c : Dev nD)

theorem duties_bar : (sched SV).duties (barCell c) 0 = Finset.univ := by
  dsimp only [sched]; exact if_pos ⟨rfl, rfl, rfl⟩
theorem duties_send : (sched SV).duties (sendCell t c) 0 = {false} := by
  dsimp only [sched]; rw [if_neg (fun h => not_bar_send t c h.2)]; exact if_pos ⟨rfl, isXfer_send t c⟩
theorem duties_recv : (sched SV).duties (recvCell t c) 0 = {false} := by
  dsimp only [sched]; rw [if_neg (fun h => not_bar_recv t c h.2)]; exact if_pos ⟨rfl, isXfer_recv t c⟩
theorem duties_later (g : GSem nD τ sig) : ∀ r, 1 ≤ r → (sched SV).duties g r = ∅ :=
  fun r hr => by dsimp only [sched]; rw [if_neg fun h => by omega, if_neg fun h => by omega]

theorem amount_bar (d : Bool) : (sched SV).amount (barCell c) 0 d = 1 := by dsimp only [sched]; exact if_pos rfl
theorem amount_send (d : Bool) : (sched SV).amount (sendCell t c) 0 d = N := by dsimp only [sched]; exact if_neg (send_ne_bar t)
theorem amount_recv (d : Bool) : (sched SV).amount (recvCell t c) 0 d = N := by dsimp only [sched]; exact if_neg (recv_ne_bar t)

theorem expect_bar : (sched SV).expect (barCell c) 0 = 2 := by
  unfold Schedule.expect Schedule.amountOf
  rw [duties_bar, Finset.sum_congr rfl fun d _ => amount_bar SV c d, Finset.sum_const, Finset.card_univ, Fintype.card_bool, smul_eq_mul]
theorem expect_send : (sched SV).expect (sendCell t c) 0 = N := by
  unfold Schedule.expect Schedule.amountOf; rw [duties_send, Finset.sum_singleton, amount_send]
theorem expect_recv : (sched SV).expect (recvCell t c) 0 = N := by
  unfold Schedule.expect Schedule.amountOf; rw [duties_recv, Finset.sum_singleton, amount_recv]

theorem payload_bar_false : (sched SV).payload (barCell c) 0 false = barPayY c := by
  dsimp only [sched]; rw [if_pos rfl]; exact if_neg Bool.false_ne_true
theorem payload_bar_true : (sched SV).payload (barCell c) 0 true = barPayX c := by
  dsimp only [sched]; rw [if_pos rfl, if_pos rfl]
theorem payload_send (d : Bool) : (sched SV).payload (sendCell t c) 0 d = sendPay t c := by
  dsimp only [sched]; rw [if_neg (send_ne_bar t)]; unfold payOf; rw [semTag_send]
theorem payload_recv (d : Bool) : (sched SV).payload (recvCell t c) 0 d = recvPay SV t c := by
  dsimp only [sched]; rw [if_neg (recv_ne_bar t)]; unfold payOf; rw [semTag_recv]

/-- The rest of the barrier cell's round, no duty taken: both peers' payloads. -/
theorem rest_bar : bigSep ((sched SV).duties (barCell c) 0 \ ∅) (fun d => (sched SV).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_send : bigSep ((sched SV).duties (sendCell t c) 0 \ ∅) (fun d => (sched SV).payload (sendCell t c) 0 d) = sendPay t c := by
  rw [Finset.sdiff_empty, duties_send, bigSep_singleton, payload_send]
theorem rest_recv : bigSep ((sched SV).duties (recvCell t c) 0 \ ∅) (fun d => (sched SV).payload (recvCell t c) 0 d) = recvPay SV t c := by
  rw [Finset.sdiff_empty, duties_recv, bigSep_singleton, payload_recv]

end Tables

/-! ## Every payload can be stored in a cell's invariant -/

instance slotOf_storable (t : Fin 9) (d : Dev nD) : BI.Storable (upEmb : UEmb _ 𝕄) (slotOf (F := F) t d) := by
  unfold slotOf; infer_instance
instance barPayY_storable (c : Dev nD) : BI.Storable (upEmb : UEmb _ 𝕄) (barPayY (F := F) c) := by
  unfold barPayY; infer_instance
instance barPayX_storable (c : Dev nD) : BI.Storable (upEmb : UEmb _ 𝕄) (barPayX (F := F) c) := by
  unfold barPayX; infer_instance
instance sendPay_storable (t : Fin 9) (c : Dev nD) : BI.Storable (upEmb : UEmb _ 𝕄) (sendPay (F := F) t c) := by
  unfold sendPay; infer_instance
instance recvPay_storable (t : Fin 9) (c : Dev nD) : BI.Storable (upEmb : UEmb _ 𝕄) (recvPay SV t c) := by
  unfold recvPay; infer_instance
instance payOf_storable (sm : SemLoc sig) (c : Dev nD) : BI.Storable (upEmb : UEmb _ 𝕄) (payOf SV sm c) := by
  unfold payOf; split <;> infer_instance

instance sched_payload_storable (g : GSem nD τ sig) (r : ℕ) (d : Bool) :
    BI.Storable (upEmb : UEmb _ 𝕄) ((sched SV).payload g r d) := by
  show BI.Storable upEmb (if g.2 = .reg barS then (if d then barPayX g.1.1 else barPayY g.1.1) else payOf SV g.2 g.1.1)
  (repeat' split) <;> infer_instance

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (t : Fin 9) (c : Dev nD) : lv (recvCell t c) () = lvT t := by
  dsimp only [lv]; rw [if_neg (recv_ne_bar t), semTag_recv]
/-- A cell that is neither the barrier's nor a receive cell sits at level 0. -/
theorem lv_lo (c : Dev nD) (q : DmaSem sig) (hq : ∀ t, semTag (.dma q) ≠ some (true, t)) : lv ((c : Thread nD τ), .dma q) () = 0 := by
  dsimp only [lv]; rw [if_neg (fun h => by cases h)]
  split
  · next t h => exact absurd h (hq t)
  · rfl

/-! ## What is still owed after the first `k` payments -/

theorem Oafter_zero (c : Dev nD) : Oafter c 0 = O₀ c := rfl
theorem Oafter_peel0 (c : Dev nD) : Oafter c 0 = Oafter c 1 + tallyAt (barCell (yp c)) () 1 := rfl
theorem Oafter_peel1 (c : Dev nD) : Oafter c 1 = Oafter c 2 + tallyAt (barCell (xp c)) () 1 := rfl
theorem Oafter_peel2 (c : Dev nD) : Oafter c 2 = Oafter c 3 + tallyAt (recvCell 0 (yp c)) () N := rfl
theorem Oafter_peel3 (c : Dev nD) : Oafter c 3 = Oafter c 4 + tallyAt (recvCell 1 (yp c)) () N := rfl
theorem Oafter_peel4 (c : Dev nD) : Oafter c 4 = Oafter c 5 + tallyAt (recvCell 6 (xp c)) () N := rfl
theorem Oafter_peel5 (c : Dev nD) : Oafter c 5 = Oafter c 6 + tallyAt (recvCell 2 (yp c)) () N := rfl
theorem Oafter_peel6 (c : Dev nD) : Oafter c 6 = Oafter c 7 + tallyAt (recvCell 3 (yp c)) () N := rfl
theorem Oafter_peel7 (c : Dev nD) : Oafter c 7 = Oafter c 8 + tallyAt (recvCell 7 (xp c)) () N := rfl
theorem Oafter_peel8 (c : Dev nD) : Oafter c 8 = Oafter c 9 + tallyAt (recvCell 4 (yp c)) () N := rfl
theorem Oafter_peel9 (c : Dev nD) : Oafter c 9 = Oafter c 10 + tallyAt (recvCell 5 (yp c)) () N := rfl
theorem Oafter_peel10 (c : Dev nD) : Oafter c 10 = Oafter c 11 + tallyAt (recvCell 8 (xp c)) () N := rfl
theorem Oafter_done (c : Dev nD) : Oafter c 11 = 0 := rfl

/-- A cell at which a list of payments leaves something owed is the cell of one of them. -/
theorem owedFrom_pos : ∀ (l : List (GSem nD τ sig × ℕ)) {g : GSem nD τ sig} {u : Unit}, 0 < owedFrom l g u → ∃ p ∈ l, g = p.1
  | [], g, u, h => absurd h (Nat.lt_irrefl 0)
  | p :: ps, g, u, h => by
    unfold owedFrom at h
    rw [Pi.add_apply, Finsupp.add_apply, tallyAt_apply] at h
    by_cases hg : g = p.1 ∧ u = ()
    · exact ⟨p, List.mem_cons_self, hg.1⟩
    · rw [if_neg hg, Nat.add_zero] at h
      obtain ⟨q, hq, e⟩ := owedFrom_pos ps h
      exact ⟨q, List.mem_cons_of_mem _ hq, e⟩

theorem Oafter_pos {c : Dev nD} {k : ℕ} {g : GSem nD τ sig} {u : Unit} (h : 0 < Oafter c k g u) :
    ∃ p ∈ (pays c).drop k, g = p.1 := owedFrom_pos _ h

/-- Every payment goes to a cell of a TensorCore thread. -/
theorem pays_tc (c : Dev nD) : ∀ p ∈ pays c, p.1.1.2 = .tc := by
  intro p hp
  simp only [pays, List.mem_cons, List.not_mem_nil, or_false] at hp
  rcases hp with rfl | rfl | rfl | rfl | rfl | rfl | rfl | rfl | rfl | rfl | rfl <;> rfl

/-- The levels of the eleven payments' cells, in program order. -/
def payLv : List ℕ := [1, 1, 2, 2, 3, 4, 4, 5, 6, 6, 7]

theorem pays_lv (c : Dev nD) : (pays c).map (fun p => lv p.1 ()) = payLv := by
  simp only [pays, List.map_cons, List.map_nil, lv_bar, lv_recv]
  rfl

/-- A bound on the levels from the `k`-th on bounds the levels of the cells still owed after `k` payments. -/
theorem lv_drop (c : Dev nD) (k b : ℕ) (h : ∀ x ∈ payLv.drop k, b < x) : ∀ p ∈ (pays c).drop k, b < lv p.1 () := by
  intro p hp
  apply h
  rw [← pays_lv c, ← List.map_drop]
  exact List.mem_map.mpr ⟨p, hp, rfl⟩

theorem payLv_pos : ∀ x ∈ payLv, 0 < x := by decide

/-! ## The wait evidence -/

/-- A device may wait on a cell of its own that lies strictly below every cell it still owes. -/
theorem mayWait_of (c : Dev nD) (sm : SemLoc sig) (k : ℕ)
    (hlt : ∀ p ∈ (pays c).drop k, lv ((c : Thread nD τ), sm) () < lv p.1 ()) :
    (levAts L lv : sProp 𝕄) ⊢ MayWait (c : Thread nD τ) sm () (Oafter c k) :=
  MayOwe.of_levAts (L := L) (lev := lv)
    (fun p hp => by rw [Finset.mem_singleton.mp hp, L_tc]; exact Finset.mem_singleton_self _)
    (fun g u hg => by
      obtain ⟨p, hp, rfl⟩ := Oafter_pos hg
      unfold L; rw [if_pos (pays_tc c p (List.mem_of_mem_drop hp))]; exact Finset.mem_singleton_self _)
    (fun g u hg p hp => by
      obtain ⟨q, hq, rfl⟩ := Oafter_pos hg
      rw [Finset.mem_singleton.mp hp]; exact hlt q hq)

/-- At its barrier wait a device has paid both entry signals: all it still owes are receive cells, above the barrier's. -/
theorem mayWait_bar (c : Dev nD) : (levAts L lv : sProp 𝕄) ⊢ MayWait (c : Thread nD τ) (.reg barS) () (Oafter c 2) :=
  mayWait_of c (.reg barS) 2 (by rw [show lv ((c : Thread nD τ), SemLoc.reg barS) () = 1 from lv_bar c]; exact lv_drop c 2 1 (by decide))

/-- A send cell, a local copy's cell or a staging cell sits at level 0, below everything a device can owe. -/
theorem mayWait_lo (c : Dev nD) (q : DmaSem sig) (hq : ∀ t, semTag (.dma q) ≠ some (true, t)) (k : ℕ) :
    (levAts L lv : sProp 𝕄) ⊢ MayWait (c : Thread nD τ) (.dma q) () (Oafter c k) :=
  mayWait_of c (.dma q) k (by rw [lv_lo c q hq]; exact lv_drop c k 0 fun x hx => payLv_pos x (List.mem_of_mem_drop hx))

/-- The receive cell of transfer `t` may be waited once everything still owed lies above it. -/
theorem mayWait_recv (t : Fin 9) (c : Dev nD) (k : ℕ) (h : ∀ x ∈ payLv.drop k, lvT t < x) :
    (levAts L lv : sProp 𝕄) ⊢ MayWait (c : Thread nD τ) (.dma (recvS t)) () (Oafter c k) :=
  mayWait_of c (.dma (recvS t)) k (by rw [show lv ((c : Thread nD τ), SemLoc.dma (recvS t)) () = lvT t from lv_recv t c]; exact lv_drop c k _ h)

/-- The nine receive waits, each after the payments made by then. -/
theorem mayWait_recv0 (c : Dev nD) : (levAts L lv : sProp 𝕄) ⊢ MayWait (c : Thread nD τ) (.dma (recvS 0)) () (Oafter c 4) := mayWait_recv 0 c 4 (by decide)
theorem mayWait_recv1 (c : Dev nD) : (levAts L lv : sProp 𝕄) ⊢ MayWait (c : Thread nD τ) (.dma (recvS 1)) () (Oafter c 4) := mayWait_recv 1 c 4 (by decide)
theorem mayWait_recv6 (c : Dev nD) : (levAts L lv : sProp 𝕄) ⊢ MayWait (c : Thread nD τ) (.dma (recvS 6)) () (Oafter c 5) := mayWait_recv 6 c 5 (by decide)
theorem mayWait_recv2 (c : Dev nD) : (levAts L lv : sProp 𝕄) ⊢ MayWait (c : Thread nD τ) (.dma (recvS 2)) () (Oafter c 7) := mayWait_recv 2 c 7 (by decide)
theorem mayWait_recv3 (c : Dev nD) : (levAts L lv : sProp 𝕄) ⊢ MayWait (c : Thread nD τ) (.dma (recvS 3)) () (Oafter c 7) := mayWait_recv 3 c 7 (by decide)
theorem mayWait_recv7 (c : Dev nD) : (levAts L lv : sProp 𝕄) ⊢ MayWait (c : Thread nD τ) (.dma (recvS 7)) () (Oafter c 8) := mayWait_recv 7 c 8 (by decide)
theorem mayWait_recv4 (c : Dev nD) : (levAts L lv : sProp 𝕄) ⊢ MayWait (c : Thread nD τ) (.dma (recvS 4)) () (Oafter c 10) := mayWait_recv 4 c 10 (by decide)
theorem mayWait_recv5 (c : Dev nD) : (levAts L lv : sProp 𝕄) ⊢ MayWait (c : Thread nD τ) (.dma (recvS 5)) () (Oafter c 10) := mayWait_recv 5 c 10 (by decide)
theorem mayWait_recv8 (c : Dev nD) : (levAts L lv : sProp 𝕄) ⊢ MayWait (c : Thread nD τ) (.dma (recvS 8)) () (Oafter c 11) := mayWait_recv 8 c 11 (by decide)

end Cert.KernelIdealProof

end
-- ==== Proof.Pieces.lean ====
/-
  The kernel's slotted scratch buffers, whole and by their slots. Six buffers are only ever
  touched through slots (a unit slice along the leading axis, or the two leading axes, squeezed);
  the slots of one buffer are pairwise disjoint and cover it, so the buffer held whole is its
  slots held, and slots held at contents of their own join back to the buffer held at some contents.
-/
import proofs.«900581_g7700000000000582_dist_mlpseq_tp2d_cs_cs_b64_d512_h1024_v7x_xy2x2_f32_1_alg».proof.Proof.Cells
import Idealize.ShloMosaic.Lib.Ring

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sets told apart by a key -/

/-- Sets that are the fibres of a key are pairwise disjoint, -/
theorem key_disjoint {X : Type} [DecidableEq X] {n : ℕ} (J : Fin n → Finset X) (key : X → ℕ)
    (h : ∀ b i, i ∈ J b ↔ key i = b.val) : ∀ b b', b ≠ b' → Disjoint (J b) (J b') := by
  intro b b' hne
  rw [Finset.disjoint_left]
  intro i hi hi'
  exact hne (Fin.ext (((h b i).mp hi).symm.trans ((h b' i).mp hi')))

/-- and cover everything when the key stays below their number. -/
theorem key_cover {X : Type} [Fintype X] [DecidableEq X] {n : ℕ} (J : Fin n → Finset X) (key : X → ℕ)
    (hk : ∀ i, key i < n) (h : ∀ b i, i ∈ J b ↔ key i = b.val) : Finset.univ.biUnion J = Finset.univ := by
  ext i
  simp only [Finset.mem_biUnion, Finset.mem_univ, true_and, iff_true]
  exact ⟨⟨key i, hk i⟩, (h _ i).mpr rfl⟩

/-! ## Unit slots of a rectangle -/

/-- A rectangle that is one entry long at `k` on axis `a₀` and whole on every other axis holds the
    indices whose coordinate on `a₀` is `k`. -/
theorem mem_unit_lead {s : Shape} (a₀ : Fin s.rank) {off size : Fin s.rank → ℕ} {inb : ∀ a, off a + size a ≤ s.size a} (k : ℕ)
    (h0 : off a₀ = k) (hs0 : size a₀ = 1) (hoff : ∀ a, a ≠ a₀ → off a = 0) (hsz : ∀ a, a ≠ a₀ → size a = s.size a)
    (i : s.Idx) : i ∈ (Rect.unit off size inb).set ↔ (i a₀).val = k := by
  rw [Rect.mem_set_unit]
  constructor
  · intro H
    have := H a₀
    rw [h0, hs0] at this
    omega
  · intro H a
    by_cases ha : a = a₀
    · subst ha; rw [h0, hs0]; omega
    · rw [hoff a ha, hsz a ha]
      exact ⟨Nat.zero_le _, by have := (i a).isLt; omega⟩

/-- The same with two unit axes. -/
theorem mem_unit_lead2 {s : Shape} (a₀ a₁ : Fin s.rank) {off size : Fin s.rank → ℕ} {inb : ∀ a, off a + size a ≤ s.size a} (k l : ℕ)
    (h0 : off a₀ = k) (h1 : off a₁ = l) (hs0 : size a₀ = 1) (hs1 : size a₁ = 1)
    (hoff : ∀ a, a ≠ a₀ → a ≠ a₁ → off a = 0) (hsz : ∀ a, a ≠ a₀ → a ≠ a₁ → size a = s.size a)
    (i : s.Idx) : i ∈ (Rect.unit off size inb).set ↔ (i a₀).val = k ∧ (i a₁).val = l := by
  rw [Rect.mem_set_unit]
  constructor
  · intro H
    have e0 := H a₀
    have e1 := H a₁
    rw [h0, hs0] at e0
    rw [h1, hs1] at e1
    omega
  · intro H a
    by_cases ha : a = a₀
    · subst ha; rw [h0, hs0]; omega
    · by_cases ha' : a = a₁
      · subst ha'; rw [h1, hs1]; omega
      · rw [hoff a ha ha', hsz a ha ha']
        exact ⟨Nat.zero_le _, by have := (i a).isLt; omega⟩

/-- Six conjuncts over `Fin 6`. -/
theorem bigSep_fin6 {M : Type} [URA M] (Φ : Fin 6 → sProp M) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## The f32 landing buffer of the first weights -/

/-- The slots' elements, by slot. -/
abbrev J0 : Fin 3 → Finset S3x512x1024.Idx := ![w0M0.view.set, w0M1.view.set, w0M2.view.set]

/-- Slot `b` holds the indices whose leading coordinate is `b`. -/
theorem mem_J0 (b : Fin 3) (i : S3x512x1024.Idx) : i ∈ J0 b ↔ (i 0).val = b.val := by
  fin_cases b
  · show i ∈ w0M0.view.set ↔ _
    rw [show w0M0.view.set = _ from (View.set_reshape _ _).trans (View.set_slice_whole _ _)]
    exact mem_unit_lead 0 0 rfl rfl (by decide) (by decide) i
  · show i ∈ w0M1.view.set ↔ _
    rw [show w0M1.view.set = _ from (View.set_reshape _ _).trans (View.set_slice_whole _ _)]
    exact mem_unit_lead 0 1 rfl rfl (by decide) (by decide) i
  · show i ∈ w0M2.view.set ↔ _
    rw [show w0M2.view.set = _ from (View.set_reshape _ _).trans (View.set_slice_whole _ _)]
    exact mem_unit_lead 0 2 rfl rfl (by decide) (by decide) i

/-- The buffer held whole is its three slots held, at the same contents; -/
theorem split_scratch0 (c : Dev nD) (f : Buf (Elt F) ((c : Thread nD τ).loc cc0_scratch0)) :
    ((c : Thread nD τ).loc cc0_scratch0 ↦{fullShare} f : sProp 𝕄) ⊢ iprop(heldM c w0M0 f ∗ heldM c w0M1 f ∗ heldM c w0M2 f) :=
  Entails.of_eq ((Ring.pointsTo_blocks (ℓ := (c : Thread nD τ).loc cc0_scratch0) (q := fullShare) J0
    (key_disjoint J0 (fun i => (i 0).val) mem_J0) (key_cover J0 (fun i => (i 0).val) (fun i => (i 0).isLt) mem_J0) f).trans (Ring.bigSep_fin3 _))

/-- and the slots held at contents of their own join to the buffer held at some contents. -/
theorem join_scratch0 (c : Dev nD) (f0 f1 f2 : Buf (Elt F) ((c : Thread nD τ).loc cc0_scratch0)) :
    iprop(heldM c w0M0 f0 ∗ heldM c w0M1 f1 ∗ heldM c w0M2 f2) ⊢ (iprop(∃ f, (c : Thread nD τ).loc cc0_scratch0 ↦{fullShare} f) : sProp 𝕄) := by
  refine (Entails.of_eq (Ring.bigSep_fin3 (fun b => ((c : Thread nD τ).loc cc0_scratch0 ↦[J0 b]{fullShare} (![f0, f1, f2] : Fin 3 → _) b : sProp 𝕄))).symm).trans ?_
  exact Ring.pointsTo_blocks_join (ℓ := (c : Thread nD τ).loc cc0_scratch0) (q := fullShare) J0
    (key_disjoint J0 (fun i => (i 0).val) mem_J0) (key_cover J0 (fun i => (i 0).val) (fun i => (i 0).isLt) mem_J0) ![f0, f1, f2] f0

/-! ## The f32 landing buffer of the second weights -/

/-- The slots' elements, by slot. -/
abbrev J1 : Fin 3 → Finset S3x1024x512.Idx := ![w1M0.view.set, w1M1.view.set, w1M2.view.set]

/-- Slot `b` holds the indices whose leading coordinate is `b`. -/
theorem mem_J1 (b : Fin 3) (i : S3x1024x512.Idx) : i ∈ J1 b ↔ (i 0).val = b.val := by
  fin_cases b
  · show i ∈ w1M0.view.set ↔ _
    rw [show w1M0.view.set = _ from (View.set_reshape _ _).trans (View.set_slice_whole _ _)]
    exact mem_unit_lead 0 0 rfl rfl (by decide) (by decide) i
  · show i ∈ w1M1.view.set ↔ _
    rw [show w1M1.view.set = _ from (View.set_reshape _ _).trans (View.set_slice_whole _ _)]
    exact mem_unit_lead 0 1 rfl rfl (by decide) (by decide) i
  · show i ∈ w1M2.view.set ↔ _
    rw [show w1M2.view.set = _ from (View.set_reshape _ _).trans (View.set_slice_whole _ _)]
    exact mem_unit_lead 0 2 rfl rfl (by decide) (by decide) i

/-- The buffer held whole is its three slots held, at the same contents; -/
theorem split_scratch1 (c : Dev nD) (f : Buf (Elt F) ((c : Thread nD τ).loc cc0_scratch1)) :
    ((c : Thread nD τ).loc cc0_scratch1 ↦{fullShare} f : sProp 𝕄) ⊢ iprop(heldM c w1M0 f ∗ heldM c w1M1 f ∗ heldM c w1M2 f) :=
  Entails.of_eq ((Ring.pointsTo_blocks (ℓ := (c : Thread nD τ).loc cc0_scratch1) (q := fullShare) J1
    (key_disjoint J1 (fun i => (i 0).val) mem_J1) (key_cover J1 (fun i => (i 0).val) (fun i => (i 0).isLt) mem_J1) f).trans (Ring.bigSep_fin3 _))

/-- and the slots held at contents of their own join to the buffer held at some contents. -/
theorem join_scratch1 (c : Dev nD) (f0 f1 f2 : Buf (Elt F) ((c : Thread nD τ).loc cc0_scratch1)) :
    iprop(heldM c w1M0 f0 ∗ heldM c w1M1 f1 ∗ heldM c w1M2 f2) ⊢ (iprop(∃ f, (c : Thread nD τ).loc cc0_scratch1 ↦{fullShare} f) : sProp 𝕄) := by
  refine (Entails.of_eq (Ring.bigSep_fin3 (fun b => ((c : Thread nD τ).loc cc0_scratch1 ↦[J1 b]{fullShare} (![f0, f1, f2] : Fin 3 → _) b : sProp 𝕄))).symm).trans ?_
  exact Ring.pointsTo_blocks_join (ℓ := (c : Thread nD τ).loc cc0_scratch1) (q := fullShare) J1
    (key_disjoint J1 (fun i => (i 0).val) mem_J1) (key_cover J1 (fun i => (i 0).val) (fun i => (i 0).isLt) mem_J1) ![f0, f1, f2] f0

/-! ## The send buffer of the hidden chunks -/

/-- The slots' elements, by slot. -/
abbrev J4 : Fin 6 → Finset S3x2x64x512.Idx := ![(srcM 0).view.set, (srcM 1).view.set, (srcM 2).view.set, (srcM 3).view.set, (srcM 4).view.set, (srcM 5).view.set]

/-- Slot `2·l + ch` holds the indices whose two leading coordinates are `(l, ch)`. -/
theorem mem_J4 (b : Fin 6) (i : S3x2x64x512.Idx) : i ∈ J4 b ↔ (i 0).val * 2 + (i 1).val = b.val := by
  have h1 : (i 1).val < 2 := (i 1).isLt
  fin_cases b
  · show i ∈ (srcM 0).view.set ↔ _
    rw [show (srcM 0).view.set = _ from (View.set_reshape _ _).trans (View.set_slice_whole _ _)]
    refine (mem_unit_lead2 0 1 0 0 rfl rfl rfl rfl (by decide) (by decide) i).trans ?_
    show (i 0).val = 0 ∧ (i 1).val = 0 ↔ (i 0).val * 2 + (i 1).val = 0
    omega
  · show i ∈ (srcM 1).view.set ↔ _
    rw [show (srcM 1).view.set = _ from (View.set_reshape _ _).trans (View.set_slice_whole _ _)]
    refine (mem_unit_lead2 0 1 0 1 rfl rfl rfl rfl (by decide) (by decide) i).trans ?_
    show (i 0).val = 0 ∧ (i 1).val = 1 ↔ (i 0).val * 2 + (i 1).val = 1
    omega
  · show i ∈ (srcM 2).view.set ↔ _
    rw [show (srcM 2).view.set = _ from (View.set_reshape _ _).trans (View.set_slice_whole _ _)]
    refine (mem_unit_lead2 0 1 1 0 rfl rfl rfl rfl (by decide) (by decide) i).trans ?_
    show (i 0).val = 1 ∧ (i 1).val = 0 ↔ (i 0).val * 2 + (i 1).val = 2
    omega
  · show i ∈ (srcM 3).view.set ↔ _
    rw [show (srcM 3).view.set = _ from (View.set_reshape _ _).trans (View.set_slice_whole _ _)]
    refine (mem_unit_lead2 0 1 1 1 rfl rfl rfl rfl (by decide) (by decide) i).trans ?_
    show (i 0).val = 1 ∧ (i 1).val = 1 ↔ (i 0).val * 2 + (i 1).val = 3
    omega
  · show i ∈ (srcM 4).view.set ↔ _
    rw [show (srcM 4).view.set = _ from (View.set_reshape _ _).trans (View.set_slice_whole _ _)]
    refine (mem_unit_lead2 0 1 2 0 rfl rfl rfl rfl (by decide) (by decide) i).trans ?_
    show (i 0).val = 2 ∧ (i 1).val = 0 ↔ (i 0).val * 2 + (i 1).val = 4
    omega
  · show i ∈ (srcM 5).view.set ↔ _
    rw [show (srcM 5).view.set = _ from (View.set_reshape _ _).trans (View.set_slice_whole _ _)]
    refine (mem_unit_lead2 0 1 2 1 rfl rfl rfl rfl (by decide) (by decide) i).trans ?_
    show (i 0).val = 2 ∧ (i 1).val = 1 ↔ (i 0).val * 2 + (i 1).val = 5
    omega

theorem key_lt_J4 (i : S3x2x64x512.Idx) : (i 0).val * 2 + (i 1).val < 6 := by
  have h0 : (i 0).val < 3 := (i 0).isLt
  have h1 : (i 1).val < 2 := (i 1).isLt
  omega

/-- The buffer held whole is its six slots held, at the same contents; -/
theorem split_scratch4 (c : Dev nD) (f : Buf (Elt F) ((c : Thread nD τ).loc cc0_scratch4)) :
    ((c : Thread nD τ).loc cc0_scratch4 ↦{fullShare} f : sProp 𝕄) ⊢ iprop(heldM c (srcM 0) f ∗ heldM c (srcM 1) f ∗ heldM c (srcM 2) f ∗ heldM c (srcM 3) f ∗ heldM c (srcM 4) f ∗ heldM c (srcM 5) f) :=
  Entails.of_eq ((Ring.pointsTo_blocks (ℓ := (c : Thread nD τ).loc cc0_scratch4) (q := fullShare) J4
    (key_disjoint J4 (fun i => (i 0).val * 2 + (i 1).val) mem_J4) (key_cover J4 (fun i => (i 0).val * 2 + (i 1).val) key_lt_J4 mem_J4) f).trans (bigSep_fin6 _))

/-- and the slots held at contents of their own join to the buffer held at some contents. -/
theorem join_scratch4 (c : Dev nD) (f0 f1 f2 f3 f4 f5 : Buf (Elt F) ((c : Thread nD τ).loc cc0_scratch4)) :
    iprop(heldM c (srcM 0) f0 ∗ heldM c (srcM 1) f1 ∗ heldM c (srcM 2) f2 ∗ heldM c (srcM 3) f3 ∗ heldM c (srcM 4) f4 ∗ heldM c (srcM 5) f5) ⊢ (iprop(∃ f, (c : Thread nD τ).loc cc0_scratch4 ↦{fullShare} f) : sProp 𝕄) := by
  refine (Entails.of_eq (bigSep_fin6 (fun b => ((c : Thread nD τ).loc cc0_scratch4 ↦[J4 b]{fullShare} (![f0, f1, f2, f3, f4, f5] : Fin 6 → _) b : sProp 𝕄))).symm).trans ?_
  exact Ring.pointsTo_blocks_join (ℓ := (c : Thread nD τ).loc cc0_scratch4) (q := fullShare) J4
    (key_disjoint J4 (fun i => (i 0).val * 2 + (i 1).val) mem_J4) (key_cover J4 (fun i => (i 0).val * 2 + (i 1).val) key_lt_J4 mem_J4) ![f0, f1, f2, f3, f4, f5] f0

/-! ## The send buffer of the partial outputs -/

/-- The slots' elements, by slot. -/
abbrev J5 : Fin 3 → Finset S3x64x512.Idx := ![(srcM 6).view.set, (srcM 7).view.set, (srcM 8).view.set]

/-- Slot `b` holds the indices whose leading coordinate is `b`. -/
theorem mem_J5 (b : Fin 3) (i : S3x64x512.Idx) : i ∈ J5 b ↔ (i 0).val = b.val := by
  fin_cases b
  · show i ∈ (srcM 6).view.set ↔ _
    rw [show (srcM 6).view.set = _ from (View.set_reshape _ _).trans (View.set_slice_whole _ _)]
    exact mem_unit_lead 0 0 rfl rfl (by decide) (by decide) i
  · show i ∈ (srcM 7).view.set ↔ _
    rw [show (srcM 7).view.set = _ from (View.set_reshape _ _).trans (View.set_slice_whole _ _)]
    exact mem_unit_lead 0 1 rfl rfl (by decide) (by decide) i
  · show i ∈ (srcM 8).view.set ↔ _
    rw [show (srcM 8).view.set = _ from (View.set_reshape _ _).trans (View.set_slice_whole _ _)]
    exact mem_unit_lead 0 2 rfl rfl (by decide) (by decide) i

/-- The buffer held whole is its three slots held, at the same contents; -/
theorem split_scratch5 (c : Dev nD) (f : Buf (Elt F) ((c : Thread nD τ).loc cc0_scratch5)) :
    ((c : Thread nD τ).loc cc0_scratch5 ↦{fullShare} f : sProp 𝕄) ⊢ iprop(heldM c (srcM 6) f ∗ heldM c (srcM 7) f ∗ heldM c (srcM 8) f) :=
  Entails.of_eq ((Ring.pointsTo_blocks (ℓ := (c : Thread nD τ).loc cc0_scratch5) (q := fullShare) J5
    (key_disjoint J5 (fun i => (i 0).val) mem_J5) (key_cover J5 (fun i => (i 0).val) (fun i => (i 0).isLt) mem_J5) f).trans (Ring.bigSep_fin3 _))

/-- and the slots held at contents of their own join to the buffer held at some contents. -/
theorem join_scratch5 (c : Dev nD) (f0 f1 f2 : Buf (Elt F) ((c : Thread nD τ).loc cc0_scratch5)) :
    iprop(heldM c (srcM 6) f0 ∗ heldM c (srcM 7) f1 ∗ heldM c (srcM 8) f2) ⊢ (iprop(∃ f, (c : Thread nD τ).loc cc0_scratch5 ↦{fullShare} f) : sProp 𝕄) := by
  refine (Entails.of_eq (Ring.bigSep_fin3 (fun b => ((c : Thread nD τ).loc cc0_scratch5 ↦[J5 b]{fullShare} (![f0, f1, f2] : Fin 3 → _) b : sProp 𝕄))).symm).trans ?_
  exact Ring.pointsTo_blocks_join (ℓ := (c : Thread nD τ).loc cc0_scratch5) (q := fullShare) J5
    (key_disjoint J5 (fun i => (i 0).val) mem_J5) (key_cover J5 (fun i => (i 0).val) (fun i => (i 0).isLt) mem_J5) ![f0, f1, f2] f0

/-! ## The receive buffer of the hidden chunks -/

/-- The slots' elements, by slot. -/
abbrev J6 : Fin 6 → Finset S3x2x64x512.Idx := ![(dstM 0).view.set, (dstM 1).view.set, (dstM 2).view.set, (dstM 3).view.set, (dstM 4).view.set, (dstM 5).view.set]

/-- Slot `2·l + ch` holds the indices whose two leading coordinates are `(l, ch)`. -/
theorem mem_J6 (b : Fin 6) (i : S3x2x64x512.Idx) : i ∈ J6 b ↔ (i 0).val * 2 + (i 1).val = b.val := by
  have h1 : (i 1).val < 2 := (i 1).isLt
  fin_cases b
  · show i ∈ (dstM 0).view.set ↔ _
    rw [show (dstM 0).view.set = _ from (View.set_reshape _ _).trans (View.set_slice_whole _ _)]
    refine (mem_unit_lead2 0 1 0 0 rfl rfl rfl rfl (by decide) (by decide) i).trans ?_
    show (i 0).val = 0 ∧ (i 1).val = 0 ↔ (i 0).val * 2 + (i 1).val = 0
    omega
  · show i ∈ (dstM 1).view.set ↔ _
    rw [show (dstM 1).view.set = _ from (View.set_reshape _ _).trans (View.set_slice_whole _ _)]
    refine (mem_unit_lead2 0 1 0 1 rfl rfl rfl rfl (by decide) (by decide) i).trans ?_
    show (i 0).val = 0 ∧ (i 1).val = 1 ↔ (i 0).val * 2 + (i 1).val = 1
    omega
  · show i ∈ (dstM 2).view.set ↔ _
    rw [show (dstM 2).view.set = _ from (View.set_reshape _ _).trans (View.set_slice_whole _ _)]
    refine (mem_unit_lead2 0 1 1 0 rfl rfl rfl rfl (by decide) (by decide) i).trans ?_
    show (i 0).val = 1 ∧ (i 1).val = 0 ↔ (i 0).val * 2 + (i 1).val = 2
    omega
  · show i ∈ (dstM 3).view.set ↔ _
    rw [show (dstM 3).view.set = _ from (View.set_reshape _ _).trans (View.set_slice_whole _ _)]
    refine (mem_unit_lead2 0 1 1 1 rfl rfl rfl rfl (by decide) (by decide) i).trans ?_
    show (i 0).val = 1 ∧ (i 1).val = 1 ↔ (i 0).val * 2 + (i 1).val = 3
    omega
  · show i ∈ (dstM 4).view.set ↔ _
    rw [show (dstM 4).view.set = _ from (View.set_reshape _ _).trans (View.set_slice_whole _ _)]
    refine (mem_unit_lead2 0 1 2 0 rfl rfl rfl rfl (by decide) (by decide) i).trans ?_
    show (i 0).val = 2 ∧ (i 1).val = 0 ↔ (i 0).val * 2 + (i 1).val = 4
    omega
  · show i ∈ (dstM 5).view.set ↔ _
    rw [show (dstM 5).view.set = _ from (View.set_reshape _ _).trans (View.set_slice_whole _ _)]
    refine (mem_unit_lead2 0 1 2 1 rfl rfl rfl rfl (by decide) (by decide) i).trans ?_
    show (i 0).val = 2 ∧ (i 1).val = 1 ↔ (i 0).val * 2 + (i 1).val = 5
    omega

theorem key_lt_J6 (i : S3x2x64x512.Idx) : (i 0).val * 2 + (i 1).val < 6 := by
  have h0 : (i 0).val < 3 := (i 0).isLt
  have h1 : (i 1).val < 2 := (i 1).isLt
  omega

/-- The buffer held whole is its six slots held, at the same contents; -/
theorem split_scratch6 (c : Dev nD) (f : Buf (Elt F) ((c : Thread nD τ).loc cc0_scratch6)) :
    ((c : Thread nD τ).loc cc0_scratch6 ↦{fullShare} f : sProp 𝕄) ⊢ iprop(heldM c (dstM 0) f ∗ heldM c (dstM 1) f ∗ heldM c (dstM 2) f ∗ heldM c (dstM 3) f ∗ heldM c (dstM 4) f ∗ heldM c (dstM 5) f) :=
  Entails.of_eq ((Ring.pointsTo_blocks (ℓ := (c : Thread nD τ).loc cc0_scratch6) (q := fullShare) J6
    (key_disjoint J6 (fun i => (i 0).val * 2 + (i 1).val) mem_J6) (key_cover J6 (fun i => (i 0).val * 2 + (i 1).val) key_lt_J6 mem_J6) f).trans (bigSep_fin6 _))

/-- and the slots held at contents of their own join to the buffer held at some contents. -/
theorem join_scratch6 (c : Dev nD) (f0 f1 f2 f3 f4 f5 : Buf (Elt F) ((c : Thread nD τ).loc cc0_scratch6)) :
    iprop(heldM c (dstM 0) f0 ∗ heldM c (dstM 1) f1 ∗ heldM c (dstM 2) f2 ∗ heldM c (dstM 3) f3 ∗ heldM c (dstM 4) f4 ∗ heldM c (dstM 5) f5) ⊢ (iprop(∃ f, (c : Thread nD τ).loc cc0_scratch6 ↦{fullShare} f) : sProp 𝕄) := by
  refine (Entails.of_eq (bigSep_fin6 (fun b => ((c : Thread nD τ).loc cc0_scratch6 ↦[J6 b]{fullShare} (![f0, f1, f2, f3, f4, f5] : Fin 6 → _) b : sProp 𝕄))).symm).trans ?_
  exact Ring.pointsTo_blocks_join (ℓ := (c : Thread nD τ).loc cc0_scratch6) (q := fullShare) J6
    (key_disjoint J6 (fun i => (i 0).val * 2 + (i 1).val) mem_J6) (key_cover J6 (fun i => (i 0).val * 2 + (i 1).val) key_lt_J6 mem_J6) ![f0, f1, f2, f3, f4, f5] f0

/-! ## The receive buffer of the partial outputs -/

/-- The slots' elements, by slot. -/
abbrev J7 : Fin 3 → Finset S3x64x512.Idx := ![(dstM 6).view.set, (dstM 7).view.set, (dstM 8).view.set]

/-- Slot `b` holds the indices whose leading coordinate is `b`. -/
theorem mem_J7 (b : Fin 3) (i : S3x64x512.Idx) : i ∈ J7 b ↔ (i 0).val = b.val := by
  fin_cases b
  · show i ∈ (dstM 6).view.set ↔ _
    rw [show (dstM 6).view.set = _ from (View.set_reshape _ _).trans (View.set_slice_whole _ _)]
    exact mem_unit_lead 0 0 rfl rfl (by decide) (by decide) i
  · show i ∈ (dstM 7).view.set ↔ _
    rw [show (dstM 7).view.set = _ from (View.set_reshape _ _).trans (View.set_slice_whole _ _)]
    exact mem_unit_lead 0 1 rfl rfl (by decide) (by decide) i
  · show i ∈ (dstM 8).view.set ↔ _
    rw [show (dstM 8).view.set = _ from (View.set_reshape _ _).trans (View.set_slice_whole _ _)]
    exact mem_unit_lead 0 2 rfl rfl (by decide) (by decide) i

/-- The buffer held whole is its three slots held, at the same contents; -/
theorem split_scratch7 (c : Dev nD) (f : Buf (Elt F) ((c : Thread nD τ).loc cc0_scratch7)) :
    ((c : Thread nD τ).loc cc0_scratch7 ↦{fullShare} f : sProp 𝕄) ⊢ iprop(heldM c (dstM 6) f ∗ heldM c (dstM 7) f ∗ heldM c (dstM 8) f) :=
  Entails.of_eq ((Ring.pointsTo_blocks (ℓ := (c : Thread nD τ).loc cc0_scratch7) (q := fullShare) J7
    (key_disjoint J7 (fun i => (i 0).val) mem_J7) (key_cover J7 (fun i => (i 0).val) (fun i => (i 0).isLt) mem_J7) f).trans (Ring.bigSep_fin3 _))

/-- and the slots held at contents of their own join to the buffer held at some contents. -/
theorem join_scratch7 (c : Dev nD) (f0 f1 f2 : Buf (Elt F) ((c : Thread nD τ).loc cc0_scratch7)) :
    iprop(heldM c (dstM 6) f0 ∗ heldM c (dstM 7) f1 ∗ heldM c (dstM 8) f2) ⊢ (iprop(∃ f, (c : Thread nD τ).loc cc0_scratch7 ↦{fullShare} f) : sProp 𝕄) := by
  refine (Entails.of_eq (Ring.bigSep_fin3 (fun b => ((c : Thread nD τ).loc cc0_scratch7 ↦[J7 b]{fullShare} (![f0, f1, f2] : Fin 3 → _) b : sProp 𝕄))).symm).trans ?_
  exact Ring.pointsTo_blocks_join (ℓ := (c : Thread nD τ).loc cc0_scratch7) (q := fullShare) J7
    (key_disjoint J7 (fun i => (i 0).val) mem_J7) (key_cover J7 (fun i => (i 0).val) (fun i => (i 0).isLt) mem_J7) ![f0, f1, f2] f0

/-- info: 'Cert.KernelIdealProof.split_scratch4' depends on axioms: [propext, Classical.choice, Quot.sound] -/
#guard_msgs in #print axioms split_scratch4
/-- info: 'Cert.KernelIdealProof.join_scratch4' depends on axioms: [propext, Classical.choice, Quot.sound] -/
#guard_msgs in #print axioms join_scratch4
/-- info: 'Cert.KernelIdealProof.split_scratch0' depends on axioms: [propext, Classical.choice, Quot.sound] -/
#guard_msgs in #print axioms split_scratch0
/-- info: 'Cert.KernelIdealProof.join_scratch7' depends on axioms: [propext, Classical.choice, Quot.sound] -/
#guard_msgs in #print axioms join_scratch7

end Cert.KernelIdealProof

end
-- ==== Proof.LaunchGhost.lean ====
/-
  The ghost state of the protocol as the launch deals it: the cells of every device and the
  duty tokens of their rounds, funded from one element of the protocol's algebra; each
  device's cell invariants allocated from its counters at zero; and the tokens handed to the
  devices that pay the duties. A barrier cell's `false` duty is paid by the second-axis peer
  and its `true` duty by the first-axis peer, the receive duty of transfer `t` by that
  transfer's peer, a send duty by the device itself.
-/
import proofs.«900581_g7700000000000582_dist_mlpseq_tp2d_cs_cs_b64_d512_h1024_v7x_xy2x2_f32_1_alg».proof.Proof.Ghost
import proofs.«900581_g7700000000000582_dist_mlpseq_tp2d_cs_cs_b64_d512_h1024_v7x_xy2x2_f32_1_alg».proof.Proof.SchedFacts

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Fin 9 → Dev nD → Vec F S64x512 .bf16)

/-! ## A device's nineteen cells are distinct, and are its barrier cell, nine send cells and nine receive cells -/

/-- The number of the cell a semaphore is. -/
def kOf (sm : SemLoc sig) : Fin 19 :=
  match semTag sm with
  | none => kBar
  | some (false, t) => kSend t
  | some (true, t) => kRecv t

theorem kOf_csem (k : Fin 19) : kOf (csem k) = k := by revert k; decide

theorem csem_injective : Function.Injective csem := Function.LeftInverse.injective kOf_csem

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem kcell_bar (c : Dev nD) : kcell (c, kBar) = barCell c := rfl
theorem kcell_send (t : Fin 9) (c : Dev nD) : kcell (c, kSend t) = sendCell t c := by
  show (((c : Dev nD) : Thread nD τ), csem (kSend t)) = _; rw [csem_send]
theorem kcell_recv (t : Fin 9) (c : Dev nD) : kcell (c, kRecv t) = recvCell t c := by
  show (((c : Dev nD) : Thread nD τ), csem (kRecv t)) = _; rw [csem_recv]

/-- The nineteen numbers as the barrier's, the sends' and the receives'. -/
def e19 : Unit ⊕ (Fin 9 ⊕ Fin 9) ≃ Fin 19 where
  toFun
    | .inl _ => kBar
    | .inr (.inl t) => kSend t
    | .inr (.inr t) => kRecv t
  invFun k :=
    if k.val = 0 then .inl ()
    else if h : k.val < 10 then .inr (.inl ⟨k.val - 1, by omega⟩)
    else .inr (.inr ⟨k.val - 10, by omega⟩)
  left_inv := by decide
  right_inv := by decide

theorem bigSep_fin19 (Φ : Fin 19 → sProp 𝕄) :
    bigSep Finset.univ Φ
      = iprop(Φ kBar ∗ (bigSep Finset.univ fun t : Fin 9 => Φ (kSend t)) ∗ (bigSep Finset.univ fun t : Fin 9 => Φ (kRecv t))) := by
  rw [bigSep_univ_equiv e19, bigSep_univ_sum, bigSep_univ_sum, bigSep_univ_of_subsingleton ()]
  rfl

/-! ## The launch element -/

def ringCells : Finset (GSem nD τ sig) := Finset.univ.map ⟨kcell, kcell_injective⟩

/-- A device's own cells' duty tokens as minted: the `false` duty of each of its nineteen cells, and its barrier
    cell's `true` duty. -/
abbrev tokOf (cj : Dev nD × (Fin 19 ⊕ Unit)) : GSem nD τ sig × ℕ × Bool :=
  match cj.2 with
  | .inl k => (kcell (cj.1, k), 0, false)
  | .inr _ => (barCell cj.1, 0, true)

theorem tokOf_injective : Function.Injective (tokOf : Dev nD × (Fin 19 ⊕ Unit) → GSem nD τ sig × ℕ × Bool) := by
  rintro ⟨c, j⟩ ⟨c', j'⟩ h
  rcases j with k | u <;> rcases j' with k' | u'
  · have h1 : kcell (c, k) = kcell (c', k') := congrArg (fun x : GSem nD τ sig × ℕ × Bool => x.1) h
    have h2 := kcell_injective h1
    cases h2; rfl
  · have h3 : false = true := congrArg (fun x : GSem nD τ sig × ℕ × Bool => x.2.2) h
    cases h3
  · have h3 : true = false := congrArg (fun x : GSem nD τ sig × ℕ × Bool => x.2.2) h
    cases h3
  · have h1 : c = c' := congrArg (fun x : GSem nD τ sig × ℕ × Bool => x.1.1.1) h
    subst h1; rfl

def ringToks : Finset (GSem nD τ sig × ℕ × Bool) := Finset.univ.map ⟨tokOf, tokOf_injective⟩

/-- The launch element: the pipeline's copy funds its staging cells; the protocol's copy funds the cells above; the
    local transfers' counters need nothing. -/
def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop((bigSep Finset.univ fun k : Fin 19 => dutyTok ER (kcell (c, k)) 0 false) ∗ dutyTok ER (barCell c) 0 true)

/-- What the launch element deals device `c`. -/
def G (c : Dev nD) : sProp 𝕄 :=
  iprop((bigSep Finset.univ fun k : Fin 19 => roundState ER (sched SV) (kcell (c, k)) 0)
    ∗ (bigSep Finset.univ fun k : Fin 19 => iprop(atPos ER (kcell (c, k)) 0 ∅ 0 ∗ reached ER (kcell (c, k)) 0)) ∗ toks c)

/-- What the global step makes of it, beside the local transfers' counters, which it passes on. -/
def G' (c : Dev nD) : sProp 𝕄 := iprop((∃ K, ghost SV K c) ∗ wsems0 c)

theorem fund_ring : BI.own (ER (initOf ringCells ringToks)) ⊢ (|==> bigSep Finset.univ (G SV) : sProp 𝕄) := by
  have hX (Φ : GSem nD τ sig → sProp 𝕄) : bigSep ringCells Φ = bigSep Finset.univ fun c : Dev nD => bigSep Finset.univ fun k : Fin 19 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_of_subsingleton ()]; rfl
  iintro HX
  imod (Rounds.fund ER (sched SV) ringCells ringToks) $$ HX with ⟨Hst, Hr, Hat, Htok⟩
  imodintro
  ihave Hst' := (Entails.of_eq (hX fun g => roundState ER (sched SV) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's own semaphores -/

abbrev wSi : Fin 6 → DmaSem sig
  | 0 => wS00 | 1 => wS01 | 2 => wS10 | 3 => wS11 | 4 => wS20 | 5 => wS21

/-- The kernel's own scoped semaphores: the six of the local weight copies, the nine send and the nine receive ones. -/
def osem (k : Fin 24) : SemLoc sig :=
  if h : k.val < 6 then .dma (wSi ⟨k.val, h⟩)
  else if h' : k.val < 15 then .dma (sendS ⟨k.val - 6, by omega⟩)
  else .dma (recvS ⟨k.val - 15, by omega⟩)

theorem ownSemFacts : Pipeline.OwnSemFacts cfg0.spec osem := by decide

def e24 : Fin 6 ⊕ (Fin 9 ⊕ Fin 9) ≃ Fin 24 where
  toFun
    | .inl i => ⟨i.val, by omega⟩
    | .inr (.inl t) => ⟨6 + t.val, by omega⟩
    | .inr (.inr t) => ⟨15 + t.val, by omega⟩
  invFun k :=
    if h : k.val < 6 then .inl ⟨k.val, h⟩
    else if h' : k.val < 15 then .inr (.inl ⟨k.val - 6, by omega⟩)
    else .inr (.inr ⟨k.val - 15, by omega⟩)
  left_inv := by decide
  right_inv := by decide

theorem osem_send (t : Fin 9) : osem (e24 (.inr (.inl t))) = .dma (sendS t) := by revert t; decide
theorem osem_recv (t : Fin 9) : osem (e24 (.inr (.inr t))) = .dma (recvS t) := by revert t; decide

/-- The own semaphores at zero: the six local-copy counters, the send cells' and the receive cells'. -/
theorem ownSems0_eq (c : Dev nD) : (Pipeline.ownSems0 (Ix := Unit) (Name := ℕ) (U := UU) (Lvl := ℕ) (Val := Elt F) (τ := τ) osem c : sProp 𝕄)
    = iprop(wsems0 c ∗ (bigSep Finset.univ fun t : Fin 9 => semVal (sendCell t c) 0) ∗ (bigSep Finset.univ fun t : Fin 9 => semVal (recvCell t c) 0)) := by
  unfold Pipeline.ownSems0
  rw [bigSep_univ_equiv e24, bigSep_univ_sum, bigSep_univ_sum,
    bigSep_univ_eq_bigSepL [(0 : Fin 6), 1, 2, 3, 4, 5] (by decide) (by decide)]
  simp only [osem_send, osem_recv]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The global step: each device's cell invariants allocated, the tokens handed to their payers -/

/-- A device's nineteen cell counters and its six local-copy counters, from its own and its unscoped semaphores. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 19 => semVal (kcell (c, k)) 0) ∗ wsems0 c : sProp 𝕄) := by
  rw [ownSems0_eq, unscopedSems0_eq, bigSep_fin19]
  simp only [kcell_bar, kcell_send, kcell_recv]
  iintro ⟨⟨Hw, HS, HV⟩, HB⟩
  isplitr [Hw]
  · isplitl [HB]; · iexact HB
    isplitl [HS] <;> iassumption
  · iexact Hw

theorem core_alloc (c : Dev nD) :
    iprop(Pipeline.ownSems0 (Ix := Unit) (Name := ℕ) (U := UU) (Lvl := ℕ) (Val := Elt F) (τ := τ) osem c ∗ unscopedSems0 c ∗ G SV c)
      ⊢ |={Set.univ}=> iprop((bigSep Finset.univ fun k => iprop(∃ κ : ℕ, cellInv ER (sched SV) κ (kcell (c, k))))
          ∗ (bigSep Finset.univ fun k => iprop(atPos ER (kcell (c, k)) 0 ∅ 0 ∗ reached ER (kcell (c, k)) 0)) ∗ toks c ∗ wsems0 c) := by
  unfold G
  iintro ⟨Hos, Hus, Hst, Hat, Htok⟩
  ihave Hv := (sems0_eq (F := F) c) $$ [Hos Hus]
  · isplitl [Hos] <;> iassumption
  icases Hv with ⟨Hv, Hw⟩
  imod (show iprop((bigSep Finset.univ fun k : Fin 19 => semVal (kcell (c, k)) 0) ∗ bigSep Finset.univ fun k : Fin 19 => roundState ER (sched SV) (kcell (c, k)) 0)
      ⊢ (|={Set.univ}=> bigSep Finset.univ fun k => iprop(∃ κ : ℕ, cellInv ER (sched SV) κ (kcell (c, k))) : sProp 𝕄) from by
        rw [← bigSep_sep']
        exact (bigSep_mono fun k _ => (Rounds.body_intro ER (sched SV) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hw

/-- Every cell's invariant at its name, and round 0 reached at every cell: what every device may read. -/
def records (K : Dev nD × Fin 19 → ℕ) : sProp 𝕄 :=
  iprop((bigSep Finset.univ fun ck : Dev nD × Fin 19 => cellInv ER (sched SV) (K ck) (kcell ck))
    ∗ bigSep Finset.univ fun ck : Dev nD × Fin 19 => reached ER (kcell ck) 0)

instance records_persistent (K : Dev nD × Fin 19 → ℕ) : BI.Persistent (records SV K) := by unfold records; infer_instance

theorem inv_at' (K : Dev nD × Fin 19 → ℕ) (ck : Dev nD × Fin 19) :
    (bigSep Finset.univ fun ck : Dev nD × Fin 19 => (cellInv ER (sched SV) (K ck) (kcell ck) : sProp 𝕄)) ⊢ cellInv ER (sched SV) (K ck) (kcell ck) :=
  bigSep_elim (Finset.mem_univ ck)
theorem reached_at' (ck : Dev nD × Fin 19) :
    (bigSep Finset.univ fun ck : Dev nD × Fin 19 => (reached ER (kcell ck) 0 : sProp 𝕄)) ⊢ reached ER (kcell ck) 0 :=
  bigSep_elim (Finset.mem_univ ck)
theorem inv_at (K : Dev nD × Fin 19 → ℕ) (ck : Dev nD × Fin 19) :
    records SV K ⊢ cellInv ER (sched SV) (K ck) (kcell ck) := by
  unfold records; iintro ⟨H, -⟩; iapply (inv_at' SV K ck); iexact H
theorem reached_at (K : Dev nD × Fin 19 → ℕ) (ck : Dev nD × Fin 19) :
    records SV K ⊢ reached ER (kcell ck) 0 := by
  unfold records; iintro ⟨-, H⟩; iapply (reached_at' (F := F) ck); iexact H

/-- The invariants a device's body opens, read off the records. -/
theorem invs_intro (K : Dev nD × Fin 19 → ℕ) (c : Dev nD) : records SV K ⊢ invs SV K c := by
  unfold invs
  iintro #H
  isplitr; · iapply (inv_at SV K (c, kBar)); iexact H
  isplitr
  · iapply (bigSep_intro_persistent (R := records SV K) fun t _ => (inv_at SV K (c, kSend t)).trans (Entails.of_eq (by rw [kcell_send]))); iexact H
  isplitr
  · iapply (bigSep_intro_persistent (R := records SV K) fun t _ => (inv_at SV K (c, kRecv t)).trans (Entails.of_eq (by rw [kcell_recv]))); iexact H
  isplitr; · iapply (inv_at SV K (yp c, kBar)); iexact H
  isplitr; · iapply (inv_at SV K (xp c, kBar)); iexact H
  iapply (bigSep_intro_persistent (R := records SV K) fun t _ => (inv_at SV K (peer t c, kRecv t)).trans (Entails.of_eq (by rw [kcell_recv]))); iexact H

/-- The tokens of the duties device `c` pays. -/
def payToks (c : Dev nD) : sProp 𝕄 :=
  iprop(dutyTok ER (barCell (yp c)) 0 false ∗ dutyTok ER (barCell (xp c)) 0 true
    ∗ (bigSep Finset.univ fun t : Fin 9 => dutyTok ER (recvCell t (peer t c)) 0 false)
    ∗ (bigSep Finset.univ fun t : Fin 9 => dutyTok ER (sendCell t c) 0 false))

/-- What stays with device `c` alone: its positions, the tokens it pays with, its local-copy counters. -/
def linear (c : Dev nD) : sProp 𝕄 :=
  iprop((atPos ER (barCell c) 0 ∅ 0 ∗ (bigSep Finset.univ fun t : Fin 9 => atPos ER (sendCell t c) 0 ∅ 0)
      ∗ (bigSep Finset.univ fun t : Fin 9 => atPos ER (recvCell t c) 0 ∅ 0)) ∗ payToks c ∗ wsems0 c)

theorem ghost_intro (K : Dev nD × Fin 19 → ℕ) (c : Dev nD) : iprop(records SV K ∗ linear c) ⊢ G' SV c := by
  unfold linear payToks G' ghost
  iintro ⟨#HR, ⟨HaB, HaS, HaV⟩, ⟨HtY, HtX, HtV, HtS⟩, Hw⟩
  isplitr [Hw]
  · iexists K
    isplitr; · iapply (invs_intro SV K c); iexact HR
    isplitl [HaB]; · iexact HaB
    isplitl [HaS]; · iexact HaS
    isplitl [HaV]; · iexact HaV
    isplitr; · iapply (reached_at SV K (yp c, kBar)); iexact HR
    isplitr; · iapply (reached_at SV K (xp c, kBar)); iexact HR
    isplitr
    · iapply (bigSep_intro_persistent (R := records SV K) fun t _ => (reached_at SV K (c, kSend t)).trans (Entails.of_eq (by rw [kcell_send]))); iexact HR
    isplitr
    · iapply (bigSep_intro_persistent (R := records SV K) fun t _ => (reached_at SV K (c, kRecv t)).trans (Entails.of_eq (by rw [kcell_recv]))); iexact HR
    isplitl [HtY]; · iexact HtY
    isplitl [HtX]; · iexact HtX
    isplitl [HtV]; · iexact HtV
    iexact HtS
  · iexact Hw

def peerE (t : Fin 9) : Dev nD ≃ Dev nD := ⟨peer t, peer t, peer_peer t, peer_peer t⟩

/-- The tokens dealt across the mesh: a barrier's `false` token to the second-axis peer, its `true` token to the
    first-axis peer, the receive token of transfer `t` to that transfer's peer. -/
theorem toks_around : (bigSep Finset.univ fun c : Dev nD => (toks c : sProp 𝕄)) ⊢ bigSep Finset.univ fun c : Dev nD => payToks c := by
  have hV : (bigSep Finset.univ fun c : Dev nD => bigSep Finset.univ fun t : Fin 9 => (dutyTok ER (recvCell t c) 0 false : sProp 𝕄))
      = bigSep Finset.univ fun c : Dev nD => bigSep Finset.univ fun t : Fin 9 => dutyTok ER (recvCell t (peer t c)) 0 false := by
    rw [bigSep_univ_comm (fun (c : Dev nD) (t : Fin 9) => (dutyTok ER (recvCell t c) 0 false : sProp 𝕄)),
      bigSep_congr (s := Finset.univ) (fun (t : Fin 9) _ => bigSep_univ_equiv (peerE t) (fun c : Dev nD => (dutyTok ER (recvCell t c) 0 false : sProp 𝕄))),
      bigSep_univ_comm]
    rfl
  have hT (c : Dev nD) : toks c = iprop((dutyTok ER (barCell c) 0 false ∗ (bigSep Finset.univ fun t : Fin 9 => dutyTok ER (sendCell t c) 0 false)
      ∗ (bigSep Finset.univ fun t : Fin 9 => dutyTok ER (recvCell t c) 0 false)) ∗ dutyTok ER (barCell c) 0 true : sProp 𝕄) := by
    unfold toks; rw [bigSep_fin19]; simp only [kcell_bar, kcell_send, kcell_recv]
  unfold payToks
  rw [bigSep_congr (s := Finset.univ) (fun c _ => hT c)]
  rw [bigSep_sep', bigSep_sep', bigSep_sep', bigSep_sep', bigSep_sep', bigSep_sep', hV,
    bigSep_univ_equiv ypE (fun c : Dev nD => (dutyTok ER (barCell c) 0 false : sProp 𝕄)),
    bigSep_univ_equiv xpE (fun c : Dev nD => (dutyTok ER (barCell c) 0 true : sProp 𝕄))]
  iintro ⟨⟨H1, H2, H3⟩, H4⟩
  isplitl [H1]; · iexact H1
  isplitl [H4]; · iexact H4
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched SV) κ (kcell (c, k))))
          ∗ (bigSep Finset.univ fun k => iprop(atPos ER (kcell (c, k)) 0 ∅ 0 ∗ reached ER (kcell (c, k)) 0)) ∗ toks c ∗ wsems0 c) : sProp 𝕄)
      ⊢ bigSep Finset.univ (G' SV) := by
  rw [bigSep_sep', bigSep_sep', bigSep_sep', ← bigSep_univ_prod (fun ck : Dev nD × Fin 19 => iprop(∃ κ : ℕ, cellInv ER (sched SV) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok, Hw⟩
  ihave HK := (BI.bigSep_exists_pi Finset.univ (fun (ck : Dev nD × Fin 19) (κ : ℕ) => (cellInv ER (sched SV) κ (kcell ck) : sProp 𝕄))) $$ HI
  icases HK with ⟨%K, #HI⟩
  ihave Htk := (toks_around (F := F)) $$ Htok
  iapply (bigSep_with_persistent (R := records SV K) fun c _ => ghost_intro SV K c)
  isplitr
  · unfold records; isplitl; · iexact HI
    iexact HR
  · have hlin : iprop((bigSep Finset.univ fun c : Dev nD => bigSep Finset.univ fun k : Fin 19 => (atPos ER (kcell (c, k)) 0 ∅ 0 : sProp 𝕄))
        ∗ (bigSep Finset.univ fun c : Dev nD => payToks c) ∗ (bigSep Finset.univ fun c : Dev nD => wsems0 c)) ⊢ (bigSep Finset.univ fun c : Dev nD => linear c : sProp 𝕄) := by
      rw [← bigSep_sep', ← bigSep_sep']
      exact bigSep_mono fun c _ => show _ ⊢ linear c from Entails.of_eq (by unfold linear; rw [bigSep_fin19]; simp only [kcell_bar, kcell_send, kcell_recv])
    iapply hlin
    isplitl [Hat]; · iexact Hat
    isplitl [Htk]; · iexact Htk
    iexact Hw

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G SV c) : sProp 𝕄)
    ⊢ |={Set.univ}=> bigSep Finset.univ (G' SV) :=
  ((bigSep_mono fun c _ => core_alloc SV c).trans (bigSep_fupd _ _)).trans (BI.fupd_mono (regroup SV))

/-- The launch element split: the pipeline's copy handed on, the protocol's copy funding every device's share, the
    counters' unit dropped. -/
theorem hu₀ : (ownU u₀ : sProp 𝕄)
    ⊢ |={Set.univ}=> iprop(BI.own (EP (initOf (Pipeline.cells cfgs cellOf_inj) (Pipeline.launchToks cfgs cellOf_inj))) ∗ bigSep Finset.univ (G SV)) := by
  unfold u₀
  iintro Hu
  ihave H := (ownU_pair _ _) $$ Hu
  icases H with ⟨HP, HX⟩
  ihave H2 := (own_pair_emb embR _ _) $$ HX
  icases H2 with ⟨HB, -⟩
  imod (fund_ring SV) $$ HB with HG
  imodintro
  isplitl [HP] <;> iassumption

/-- info: 'Cert.KernelIdealProof.glob' depends on axioms: [propext, Classical.choice, Quot.sound] -/
#guard_msgs in #print axioms glob
/-- info: 'Cert.KernelIdealProof.hu₀' depends on axioms: [propext, Classical.choice, Quot.sound] -/
#guard_msgs in #print axioms hu₀

end Cert.KernelIdealProof

end
-- ==== Proof.Launch.lean ====
/-
  The launch: what every device is dealt before the grid point and what it gives back after it,
  the credit each device's cells are owed by its two peers, and the run of the whole mesh, given
  that every device's body takes its precondition to its postcondition.
-/
import proofs.«900581_g7700000000000582_dist_mlpseq_tp2d_cs_cs_b64_d512_h1024_v7x_xy2x2_f32_1_alg».proof.Proof.Ghost
import proofs.«900581_g7700000000000582_dist_mlpseq_tp2d_cs_cs_b64_d512_h1024_v7x_xy2x2_f32_1_alg».proof.Proof.SchedFacts
import proofs.«900581_g7700000000000582_dist_mlpseq_tp2d_cs_cs_b64_d512_h1024_v7x_xy2x2_f32_1_alg».proof.Proof.Pieces
import proofs.«900581_g7700000000000582_dist_mlpseq_tp2d_cs_cs_b64_d512_h1024_v7x_xy2x2_f32_1_alg».proof.Proof.LaunchGhost

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Fin 9 → Dev nD → Vec F S64x512 .bf16)
variable (OUT : Dev nD → (cc0_stg1_0 : Ref sig .tc).ty.Contents (Elt F))
variable (m : (ℓ : Loc nD τ sig) → Buf (Elt F) ℓ) (ρ : Dev nD → PrngReg)

/-! ## The launch credit -/

omit [FloatOps F] in
/-- What every device owes at launch, payment by payment (the first payment the last summand). -/
theorem O₀_eq : (O₀ : Dev nD → CellTallies nD τ sig Unit) = fun d =>
    0 + tallyAt (recvCell 8 (xp d)) () N + tallyAt (recvCell 5 (yp d)) () N + tallyAt (recvCell 4 (yp d)) () N
      + tallyAt (recvCell 7 (xp d)) () N + tallyAt (recvCell 3 (yp d)) () N + tallyAt (recvCell 2 (yp d)) () N
      + tallyAt (recvCell 6 (xp d)) () N + tallyAt (recvCell 1 (yp d)) () N + tallyAt (recvCell 0 (yp d)) () N
      + tallyAt (barCell (xp d)) () 1 + tallyAt (barCell (yp d)) () 1 := rfl

omit [FloatOps F] in
/-- The credit device c is dealt at launch: both peers owe its barrier cell a unit, and the sender of
    transfer t owes its receive cell of that transfer the slot's credit. -/
theorem creds (c : Dev nD) :
    (Pipeline.launchCred O₀ c : sProp 𝕄)
      ⊢ iprop(cred (tallyAt (barCell c) () 2) ∗ bigSep Finset.univ fun t : Fin 9 => cred (tallyAt (recvCell t c) () N)) := by
  rw [O₀_eq]
  simp only [Pipeline.launchCred_add, Pipeline.launchCred_zero]
  rw [bigSep_fin9]
  iintro ⟨⟨⟨⟨⟨⟨⟨⟨⟨⟨⟨-, H8⟩, H5⟩, H4⟩, H7⟩, H3⟩, H2⟩, H6⟩, H1⟩, H0⟩, HX⟩, HY⟩
  isplitl [HX HY]
  · iapply (Entails.of_eq (congrArg cred (tallyAt_add (barCell c) () 1 1)))
    iapply (cred_add _ _).2
    isplitl [HY]
    · iapply (Pipeline.launchCred_tallyAt (.reg barS) yp yp yp_yp yp_yp () 1 c); iexact HY
    · iapply (Pipeline.launchCred_tallyAt (.reg barS) xp xp xp_xp xp_xp () 1 c); iexact HX
  isplitl [H0]; · iapply (Pipeline.launchCred_tallyAt (.dma (recvS 0)) yp yp yp_yp yp_yp () N c); iexact H0
  isplitl [H1]; · iapply (Pipeline.launchCred_tallyAt (.dma (recvS 1)) yp yp yp_yp yp_yp () N c); iexact H1
  isplitl [H2]; · iapply (Pipeline.launchCred_tallyAt (.dma (recvS 2)) yp yp yp_yp yp_yp () N c); iexact H2
  isplitl [H3]; · iapply (Pipeline.launchCred_tallyAt (.dma (recvS 3)) yp yp yp_yp yp_yp () N c); iexact H3
  isplitl [H4]; · iapply (Pipeline.launchCred_tallyAt (.dma (recvS 4)) yp yp yp_yp yp_yp () N c); iexact H4
  isplitl [H5]; · iapply (Pipeline.launchCred_tallyAt (.dma (recvS 5)) yp yp yp_yp yp_yp () N c); iexact H5
  isplitl [H6]; · iapply (Pipeline.launchCred_tallyAt (.dma (recvS 6)) xp xp xp_xp xp_xp () N c); iexact H6
  isplitl [H7]; · iapply (Pipeline.launchCred_tallyAt (.dma (recvS 7)) xp xp xp_xp xp_xp () N c); iexact H7
  iapply (Pipeline.launchCred_tallyAt (.dma (recvS 8)) xp xp xp_xp xp_xp () N c); iexact H8

/-! ## Whole buffers -/

omit [FloatOps F] in
/-- A whole buffer held is the buffer's points-to at the full share. -/
theorem held_eq (c : Dev nD) (b : Ref sig .tc) (f : Buf (Elt F) ((c : Thread nD τ).loc b)) :
    (held c b f : sProp 𝕄) = (((c : Thread nD τ).loc b) ↦{fullShare} f) := by
  show ((Memref.whole b).view.loc (c : Thread nD τ) ↦[(Memref.whole b).view.set]{fullShare} f : sProp 𝕄) = _
  rw [View.set_whole]

omit [FloatOps F] in
theorem args_eq (c : Dev nD) : (args m c : sProp 𝕄)
    = iprop((((c : Thread nD τ).loc main_arg1) ↦{fullShare} m ((c : Thread nD τ).loc main_arg1)) ∗ (((c : Thread nD τ).loc main_arg2) ↦{fullShare} m ((c : Thread nD τ).loc main_arg2))
      ∗ (((c : Thread nD τ).loc main_arg3) ↦{fullShare} m ((c : Thread nD τ).loc main_arg3)) ∗ (((c : Thread nD τ).loc main_arg4) ↦{fullShare} m ((c : Thread nD τ).loc main_arg4))
      ∗ (((c : Thread nD τ).loc main_arg5) ↦{fullShare} m ((c : Thread nD τ).loc main_arg5)) ∗ (((c : Thread nD τ).loc main_arg6) ↦{fullShare} m ((c : Thread nD τ).loc main_arg6))) := by
  unfold args
  rw [held_eq, held_eq, held_eq, held_eq, held_eq, held_eq]

/-! ## The theorem's side conditions -/

/-- What device c holds when the region is entered, besides the scoped buffers. -/
def X₀ (c : Dev nD) : sProp 𝕄 := iprop(start SV c ∗ wsems0 c ∗ args m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' SV c)
      ⊢ |={Set.univ}=> iprop(X₀ SV m c ∗ emp) := by
  rw [Pipeline.unscopedRestP_none, unscopedRest0_eq]
  iintro ⟨HA, Hlev, Hcr, -, HG⟩
  ihave Hc := (creds (F := F) c) $$ Hcr
  icases Hc with ⟨H1, HN⟩
  ihave HA' := (Entails.of_eq (args_eq m c).symm) $$ HA
  unfold G'
  icases HG with ⟨HK, HW⟩
  imodintro
  unfold X₀ start
  isplitl
  · isplitl [HK H1 HN Hlev]
    · isplitl [HK]; · iexact HK
      isplitl [H1]; · iexact H1
      isplitl [HN]; · iexact HN
      iexact Hlev
    isplitl [HW]; · iexact HW
    iexact HA'
  · iempintro

theorem phi0_intro (c : Dev nD) :
    iprop(X₀ SV m c ∗ Pipeline.prefHeld Pipeline.Prefetch.none c (fun _ => fullShare.right) (fun k => k.elim0) ∗ Pipeline.scopedRest cfg0.spec c)
      ⊢ (dats SV OUT m 0 c).Φ 0 := by
  rw [show (dats SV OUT m 0 c).Φ 0 = Φ₀ SV m c from rfl, scopedRest0_eq]
  unfold Φ₀ X₀ scratch
  iintro ⟨⟨Hs, Hw, Ha⟩, -, ⟨%f0, S0⟩, ⟨%f1, S1⟩, ⟨%f2, S2⟩, ⟨%f3, S3⟩, ⟨%f4, S4⟩, ⟨%f5, S5⟩, ⟨%f6, S6⟩, ⟨%f7, S7⟩⟩
  ihave P0 := (split_scratch0 c f0) $$ S0
  icases P0 with ⟨P00, P01, P02⟩
  ihave P1 := (split_scratch1 c f1) $$ S1
  icases P1 with ⟨P10, P11, P12⟩
  ihave P4 := (split_scratch4 c f4) $$ S4
  icases P4 with ⟨P40, P41, P42, P43, P44, P45⟩
  ihave P5 := (split_scratch5 c f5) $$ S5
  icases P5 with ⟨P50, P51, P52⟩
  ihave P6 := (split_scratch6 c f6) $$ S6
  icases P6 with ⟨P60, P61, P62, P63, P64, P65⟩
  ihave P7 := (split_scratch7 c f7) $$ S7
  icases P7 with ⟨P70, P71, P72⟩
  isplitl [Hs]; · iexact Hs
  isplitl [Hw]; · iexact Hw
  isplitl [Ha]; · iexact Ha
  isplitl [P00 P01 P02]
  · isplitl [P00]; · iexists f0; iexact P00
    isplitl [P01]; · iexists f0; iexact P01
    iexists f0; iexact P02
  isplitl [P10 P11 P12]
  · isplitl [P10]; · iexists f1; iexact P10
    isplitl [P11]; · iexists f1; iexact P11
    iexists f1; iexact P12
  isplitl [S2]; · iexists f2; rw [held_eq]; iexact S2
  isplitl [S3]; · iexists f3; rw [held_eq]; iexact S3
  isplitl [P40 P41 P42 P43 P44 P45 P50 P51 P52]
  · isplitl [P40]; · iexists f4; iexact P40
    isplitl [P41]; · iexists f4; iexact P41
    isplitl [P42]; · iexists f4; iexact P42
    isplitl [P43]; · iexists f4; iexact P43
    isplitl [P44]; · iexists f4; iexact P44
    isplitl [P45]; · iexists f4; iexact P45
    isplitl [P50]; · iexists f5; iexact P50
    isplitl [P51]; · iexists f5; iexact P51
    iexists f5; iexact P52
  · isplitl [P60]; · iexists f6; iexact P60
    isplitl [P61]; · iexists f6; iexact P61
    isplitl [P62]; · iexists f6; iexact P62
    isplitl [P63]; · iexists f6; iexact P63
    isplitl [P64]; · iexists f6; iexact P64
    isplitl [P65]; · iexists f6; iexact P65
    isplitl [P70]; · iexists f7; iexact P70
    isplitl [P71]; · iexists f7; iexact P71
    iexists f7; iexact P72

theorem phi1_exit (c : Dev nD) :
    (dats SV OUT m 0 c).Φ (Fin.last cfg0.N) ⊢ iprop(args m c ∗ Pipeline.ownSems0 osem c ∗ Pipeline.scopedRest cfg0.spec c) := by
  rw [show (dats SV OUT m 0 c).Φ (Fin.last cfg0.N) = Φ₁ m c from rfl, scopedRest0_eq, ownSems0_eq]
  unfold Φ₁ scratch
  iintro ⟨Hw, Ha, ⟨⟨⟨%a0, A0⟩, ⟨%a1, A1⟩, ⟨%a2, A2⟩⟩, ⟨⟨%b0, B0⟩, ⟨%b1, B1⟩, ⟨%b2, B2⟩⟩, ⟨%g2, C2⟩, ⟨%g3, C3⟩,
    ⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩,
    ⟨⟨%d0, D0⟩, ⟨%d1, D1⟩, ⟨%d2, D2⟩, ⟨%d3, D3⟩, ⟨%d4, D4⟩, ⟨%d5, D5⟩, ⟨%d6, D6⟩, ⟨%d7, D7⟩, ⟨%d8, D8⟩⟩⟩, HzS, HzV⟩
  isplitl [Ha]; · iexact Ha
  isplitl [Hw HzS HzV]
  · isplitl [Hw]; · iexact Hw
    isplitl [HzS] <;> iassumption
  isplitl [A0 A1 A2]
  · iapply (join_scratch0 c a0 a1 a2)
    isplitl [A0]; · iexact A0
    isplitl [A1] <;> iassumption
  isplitl [B0 B1 B2]
  · iapply (join_scratch1 c b0 b1 b2)
    isplitl [B0]; · iexact B0
    isplitl [B1] <;> iassumption
  isplitl [C2]; · iexists g2; iapply (Entails.of_eq (held_eq c cc0_scratch2 g2)); iexact C2
  isplitl [C3]; · iexists g3; iapply (Entails.of_eq (held_eq c cc0_scratch3 g3)); iexact C3
  isplitl [S0 S1 S2 S3 S4 S5]
  · iapply (join_scratch4 c s0 s1 s2 s3 s4 s5)
    isplitl [S0]; · iexact S0
    isplitl [S1]; · iexact S1
    isplitl [S2]; · iexact S2
    isplitl [S3]; · iexact S3
    isplitl [S4] <;> iassumption
  isplitl [S6 S7 S8]
  · iapply (join_scratch5 c s6 s7 s8)
    isplitl [S6]; · iexact S6
    isplitl [S7] <;> iassumption
  isplitl [D0 D1 D2 D3 D4 D5]
  · iapply (join_scratch6 c d0 d1 d2 d3 d4 d5)
    isplitl [D0]; · iexact D0
    isplitl [D1]; · iexact D1
    isplitl [D2]; · iexact D2
    isplitl [D3]; · iexact D3
    isplitl [D4] <;> iassumption
  iapply (join_scratch7 c d6 d7 d8)
  isplitl [D6]; · iexact D6
  isplitl [D7] <;> iassumption

/-- The staging cells sit below everything a device owes. -/
theorem waits (c : Dev nD) : (levAts L lv : sProp 𝕄) ⊢ Pipeline.cellsWaits cfgs (dats SV OUT m) () 0 c :=
  Pipeline.cellsWaits_intro cfgs (dats SV OUT m) () 0 c fun w s t => by
    have hq : ∀ t' : Fin 9, semTag (.dma ((cfg0.win w).sem s)) ≠ some (true, t') := by
      fin_cases w <;> fin_cases s <;> decide
    rcases t with ⟨_ | _, ht⟩
    · exact mayWait_lo c _ hq 0
    · exact mayWait_lo c _ hq 11

theorem share_eq (c : Dev nD) (w : Fin cfg0.W) : (dats SV OUT m 0 c).share w = fullShare := by unfold Dat.share; split <;> rfl

/-! ## The body obligation from the body's triple -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 16384 in
/-- The pipeline's body obligation on device c, from the triple of its body. -/
theorem body_obligation_of
    (hsound : ∀ c, bodyPre SV OUT m c ⊢ wp frame (wpE (defs₀ (F := F)) 𝒱₀ c none) Set.univ (theBody (F := F)) (fun _ => bodyPost SV OUT m c))
    (c : Dev nD) : BodyObligation (dats (F := F) SV OUT m 0 c) (defs₀ (F := F)) 𝒱₀ () Set.univ := fun t => by
  rw [fin_N t]
  rw [bigSep_W0, bigSep_W0]
  simp only [owns_whole_eq]
  show bodyPre SV OUT m c ⊢ wp frame (wpE (defs₀ (F := F)) 𝒱₀ c none) Set.univ (theBody (F := F)) (fun _ => bodyPost SV OUT m c)
  exact hsound c

/-! ## The run -/

/-- The weight arrays hold what they held. -/
def QY₀ (c : Dev nD) (s : MemSt nD τ sig (Elt F)) : Prop :=
  s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

omit [FloatOps F] in
/-- Holding the weight arrays whole at their launch contents against the memory says the memory holds them. -/
theorem read_args (c : Dev nD) (s' : Phys nD τ sig (Elt F)) :
    iprop(args m c ∗ emp ∗ SI s') ⊢ (|={Set.univ}=> iprop(⌜QY₀ m c s'.mem⌝ ∗ SI s') : sProp 𝕄) := by
  rw [args_eq]
  iintro ⟨⟨A1, A2, A3, A4, A5, A6⟩, -, HSI⟩
  icombine HSI A1 gives %h1
  icombine HSI A2 gives %h2
  icombine HSI A3 gives %h3
  icombine HSI A4 gives %h4
  icombine HSI A5 gives %h5
  icombine HSI A6 gives %h6
  imodintro
  isplitr
  · ipureintro
    exact ⟨Buf.eq_of_forall_mem_univ h1, Buf.eq_of_forall_mem_univ h2, Buf.eq_of_forall_mem_univ h3,
      Buf.eq_of_forall_mem_univ h4, Buf.eq_of_forall_mem_univ h5, Buf.eq_of_forall_mem_univ h6⟩
  iexact HSI

/-- The result array after the run: its one block is the whole array, and the write-back of the one grid
    point stores what the body left in the staging buffer. -/
theorem final_out (c : Dev nD) : (dats SV OUT m 0 c).arrAt (1 : Fin 2) cfg0.N = OUT c := by
  have hz : (fun a => (win0_1.index t₀) a * main_v1.ty.shape.size a) = fun _ => 0 :=
    funext fun a => by fin_cases a <;> decide
  have hr := fun f => Memref.read_access_unit_zero (Elt F) main_v1 hz (fun a => by fin_cases a <;> decide) f
  rw [← hr ((dats SV OUT m 0 c).arrAt (1 : Fin 2) cfg0.N)]
  rw [show cfg0.N = (t₀ : Fin cfg0.N).val + 1 from rfl, (dats SV OUT m 0 c).arrAt_succ (1 : Fin 2) t₀, if_pos (flush0_1 t₀)]
  exact View.read_write_univ _ _

/-- The activation array is an input: it holds what it held. -/
theorem final_in (c : Dev nD) : (dats SV OUT m 0 c).arrAt (0 : Fin 2) cfg0.N = m ((c : Thread nD τ).loc main_arg0) :=
  (dats SV OUT m 0 c).arrAt_in (0 : Fin 2) rfl _

set_option maxRecDepth 16384 in
/-- At the compiled mesh of four devices, for any float values, from any memory with zero counters, given that
    every device's body takes its precondition to its postcondition: every weakly fair execution of the four kernels terminates, and every final state has each
    device's result array at the block the body stores and every argument array unchanged. -/
theorem run_main
    (hsound : ∀ c, bodyPre SV OUT m c ⊢ wp frame (wpE (defs₀ (F := F)) 𝒱₀ c none) Set.univ (theBody (F := F)) (fun _ => bodyPost SV OUT m c)) :
    θ_run defs (onTc (τ := τ) (main (F := F))) ⟨m, fun _ => 0, ρ⟩ (fun r => ∀ c : Dev nD,
      r.2.mem ((c.tc : Thread nD τ).loc main_v1) = OUT c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_owing_glob_pf (fun p => (cfgs p).toPCfg) (fun p => (cfgs p).toPCfg_adm) (dats SV OUT m) () cellOf_inj (0 : Fin 1)
    winFacts0.to₀ ownSemFacts (Pipeline.PreFacts.none _) EP defs₀ 𝒱₀ m ρ main
    (hmain := fun _ => rfl)
    (hbody := body_obligation_of SV OUT m hsound) (hne := block_pos0) (harr := arr_whole0) (hstage := stage_whole0) (hshare := share_eq SV OUT m)
    (hdistinct := winFacts0.arr_inj)
    (O₀ := O₀) (howed₀ := fun _ => rfl) (howedN := fun _ => rfl)
    (L := L) (lv := lv) (hL := L_of_ne) (hwaits := waits SV OUT m)
    (G := G SV) (G' := G' SV) (u₀ := u₀)
    (hu₀ := hu₀ SV)
    (hglob := glob SV)
    (hA := fun _ _ => rfl) (hpf := fun _ k => k.elim0)
    (X := X₀ SV m) (Y := args m) (Z := fun _ => iprop(emp))
    (hX := start_intro SV m ρ) (hin := phi0_intro SV OUT m) (hout := phi1_exit SV OUT m)
    (QY := QY₀ m)
    (hY := read_args m)
    (hQ := fun s h c => ⟨((h c).1 (1 : Fin 2)).trans (final_out SV OUT m c), ((h c).1 (0 : Fin 2)).trans (final_in SV OUT m c), (h c).2.2⟩)

end Cert.KernelIdealProof

end
-- ==== Proof.Steps.lean ====
/-
  The steps of the protocol, one lemma each: the two entry signals, the wait on the barrier cell, an
  addressed transfer, the waits on its send and receive cells, and the closing of those cells. Each is a
  rule of the rounds discipline read at this schedule's cells: a signal or a transfer pays a duty of the
  peer's cell with the duty's payload, a wait for a cell's whole round hands the round's payloads over.
-/
import proofs.«900581_g7700000000000582_dist_mlpseq_tp2d_cs_cs_b64_d512_h1024_v7x_xy2x2_f32_1_alg».proof.Proof.Ghost
import proofs.«900581_g7700000000000582_dist_mlpseq_tp2d_cs_cs_b64_d512_h1024_v7x_xy2x2_f32_1_alg».proof.Proof.SchedFacts

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Fin 9 → Dev nD → Vec F S64x512 .bf16) (K : Dev nD × Fin 19 → ℕ)

/-! ## The entry signals -/

/-- The signal to the second-axis peer's barrier cell pays its duty `false`: the signaller hands over its own six
    landing slots for the hidden chunks, each with the fact that it is at round 0 of the slot's receive cell. -/
theorem step_sigY (c n : Dev nD) (hn : n = yp c) {a : ℕ} (ha : a = 1) (W : Waits sig Unit)
    (f0 : Buf (Elt F) ((dstM 0).view.loc (c : Thread nD τ))) (f1 : Buf (Elt F) ((dstM 1).view.loc (c : Thread nD τ)))
    (f2 : Buf (Elt F) ((dstM 2).view.loc (c : Thread nD τ))) (f3 : Buf (Elt F) ((dstM 3).view.loc (c : Thread nD τ)))
    (f4 : Buf (Elt F) ((dstM 4).view.loc (c : Thread nD τ))) (f5 : Buf (Elt F) ((dstM 5).view.loc (c : Thread nD τ)))
    {α : Type} {Q : α → sProp 𝕄} {k : PUnit → Prog (TpuEff nD τ sig (Elt F) Λ₀ .tc) α} :
    iprop(cellInv ER (sched SV) (K (yp c, kBar)) (barCell (yp c)) ∗ owes (c : Thread nD τ) (Oafter c 0) W ∗ dutyTok ER (barCell (yp c)) 0 false
        ∗ (heldM c (dstM 0) f0 ∗ heldM c (dstM 1) f1 ∗ heldM c (dstM 2) f2 ∗ heldM c (dstM 3) f3 ∗ heldM c (dstM 4) f4 ∗ heldM c (dstM 5) f5)
        ∗ (reached ER (recvCell 0 c) 0 ∗ reached ER (recvCell 1 c) 0 ∗ reached ER (recvCell 2 c) 0 ∗ reached ER (recvCell 3 c) 0
            ∗ reached ER (recvCell 4 c) 0 ∗ reached ER (recvCell 5 c) 0)
        ∗ reached ER (barCell (yp c)) 0)
      ⊢ iprop((owes (c : Thread nD τ) (Oafter c 1) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  iintro ⟨HI, HO, Htok, ⟨H0, H1, H2, H3, H4, H5⟩, ⟨R0, R1, R2, R3, R4, R5⟩, HrB⟩
  iapply (Rounds.wp_signal 𝒱₀ ER (sched SV) (c : Thread nD τ) none (dst := (yp c : Thread nD τ)) (κ := K (yp c, kBar))
      (d := false) (by rw [duties_bar]; exact Finset.mem_univ _) (amount_bar SV (yp c) false) () (Oafter c 1) (Oafter_peel0 c))
  isplitl [HI]; · iexact HI
  isplitl [HO]; · iexact HO
  isplitl [Htok]; · iexact Htok
  isplitr [HrB]
  · rw [payload_bar_false]; unfold barPayY slotOf; rw [yp_yp]
    isplitl [H0 R0]
    · isplitl [H0]; · iexists f0; iexact H0
      iexact R0
    isplitl [H1 R1]
    · isplitl [H1]; · iexists f1; iexact H1
      iexact R1
    isplitl [H2 R2]
    · isplitl [H2]; · iexists f2; iexact H2
      iexact R2
    isplitl [H3 R3]
    · isplitl [H3]; · iexists f3; iexact H3
      iexact R3
    isplitl [H4 R4]
    · isplitl [H4]; · iexists f4; iexact H4
      iexact R4
    · isplitl [H5]; · iexists f5; iexact H5
      iexact R5
  · iexact HrB

/-- The signal to the first-axis peer's barrier cell pays its duty `true`: the signaller hands over its own three
    landing slots for the partial outputs likewise. -/
theorem step_sigX (c n : Dev nD) (hn : n = xp c) {a : ℕ} (ha : a = 1) (W : Waits sig Unit)
    (f6 : Buf (Elt F) ((dstM 6).view.loc (c : Thread nD τ))) (f7 : Buf (Elt F) ((dstM 7).view.loc (c : Thread nD τ)))
    (f8 : Buf (Elt F) ((dstM 8).view.loc (c : Thread nD τ)))
    {α : Type} {Q : α → sProp 𝕄} {k : PUnit → Prog (TpuEff nD τ sig (Elt F) Λ₀ .tc) α} :
    iprop(cellInv ER (sched SV) (K (xp c, kBar)) (barCell (xp c)) ∗ owes (c : Thread nD τ) (Oafter c 1) W ∗ dutyTok ER (barCell (xp c)) 0 true
        ∗ (heldM c (dstM 6) f6 ∗ heldM c (dstM 7) f7 ∗ heldM c (dstM 8) f8)
        ∗ (reached ER (recvCell 6 c) 0 ∗ reached ER (recvCell 7 c) 0 ∗ reached ER (recvCell 8 c) 0)
        ∗ reached ER (barCell (xp c)) 0)
      ⊢ iprop((owes (c : Thread nD τ) (Oafter c 2) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  iintro ⟨HI, HO, Htok, ⟨H6, H7, H8⟩, ⟨R6, R7, R8⟩, HrB⟩
  iapply (Rounds.wp_signal 𝒱₀ ER (sched SV) (c : Thread nD τ) none (dst := (xp c : Thread nD τ)) (κ := K (xp c, kBar))
      (d := true) (by rw [duties_bar]; exact Finset.mem_univ _) (amount_bar SV (xp c) true) () (Oafter c 2) (Oafter_peel1 c))
  isplitl [HI]; · iexact HI
  isplitl [HO]; · iexact HO
  isplitl [Htok]; · iexact Htok
  isplitr [HrB]
  · rw [payload_bar_true]; unfold barPayX slotOf; rw [xp_xp]
    isplitl [H6 R6]
    · isplitl [H6]; · iexists f6; iexact H6
      iexact R6
    isplitl [H7 R7]
    · isplitl [H7]; · iexists f7; iexact H7
      iexact R7
    · isplitl [H8]; · iexists f8; iexact H8
      iexact R8
  · iexact HrB

/-! ## The wait on the barrier cell -/

/-- The wait for both entry signals: the device comes back with both peers' landing slots. All it still owes then
    are receive cells, above the barrier cell. -/
theorem step_waitBar (c : Dev nD) {a : ℕ} (ha : a = 2) (W : Waits sig Unit) {α : Type} {Q : α → sProp 𝕄} {k : PUnit → Prog (TpuEff nD τ sig (Elt F) Λ₀ .tc) α} :
    iprop(cellInv ER (sched SV) (K (c, kBar)) (barCell c) ∗ cred (tallyAt (barCell c) () 2) ∗ owes (c : Thread nD τ) (Oafter c 2) W
        ∗ levAts L lv ∗ atPos ER (barCell c) 0 ∅ 0)
      ⊢ iprop(((owes (c : Thread nD τ) (Oafter c 2) (insert (SemLoc.reg barS, ()) W) ∗ atPos ER (barCell c) 1 ∅ 0 ∗ reached ER (barCell c) 1
              ∗ barPayY c ∗ barPayX c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  rw [← rest_bar SV c]
  exact (sep_mono_right (sep_mono_right (sep_mono_right (sep_mono_left (mayWait_bar c))))).trans
    (Rounds.wp_wait_rest_token 𝒱₀ ER (sched SV) (c : Thread nD τ) none (κ := K (c, kBar))
      (wpE_semWait_eq 𝒱₀ (c : Thread nD τ) none Set.univ) (Set.mem_univ _) () (O := Oafter c 2) (W := W) (R := 0) (m := 0) (T := ∅)
      (by rw [expect_bar]))

/-! ## An addressed transfer and its two waits -/

/-- Transfer `t`, addressed to its peer: the source slot pays the sender's own send cell (it comes back when the
    source is read), the peer's landing slot rewritten with the source's contents pays the peer's receive cell. -/
theorem step_send (t : Fin 9) (c n : Dev nD) (hn : n = peer t c)
    {hsc : (dstM t : Memref sig (Dev.tc n : Thread nD τ).2.kind .vmem S64x512 .bf16).view.ref.isScScratch = false}
    {hsrc : (srcM t : Memref sig .tc .vmem S64x512 .bf16).view.WordExact} {hdst : (dstM t : Memref sig .tc .vmem S64x512 .bf16).view.WordExact}
    {hsem : DmaTarget.Typed .vmem (.dma (recvS t)) (.remote (Dev.tc n : Thread nD τ) (dstM t : Memref sig .tc .vmem S64x512 .bf16) (.dma (sendS t)) hsc)}
    {α : Type} {Q : α → sProp 𝕄} {k : PUnit → Prog (TpuEff nD τ sig (Elt F) Λ₀ .tc) α}
    (fs : Buf (Elt F) ((srcM t).view.loc (c : Thread nD τ))) (fd : Buf (Elt F) ((dstM t).view.loc (peer t c : Thread nD τ)))
    (W : Waits sig Unit) (O₁ O₂ : CellTallies nD τ sig Unit) (hO : O₁ = O₂ + tallyAt (recvCell t (peer t c)) () N)
    (hv : (srcM t).view.read (Elt F) fs = SV t c) :
    iprop(cellInv ER (sched SV) (K (c, kSend t)) (sendCell t c) ∗ cellInv ER (sched SV) (K (peer t c, kRecv t)) (recvCell t (peer t c))
        ∗ heldM c (srcM t) fs ∗ heldM (peer t c) (dstM t) fd
        ∗ owes (c : Thread nD τ) O₁ W
        ∗ dutyTok ER (sendCell t c) 0 false ∗ reached ER (sendCell t c) 0
        ∗ dutyTok ER (recvCell t (peer t c)) 0 false ∗ reached ER (recvCell t (peer t c)) 0)
      ⊢ iprop(((cred (tallyAt (sendCell t c) () N) ∗ owes (c : Thread nD τ) O₂ W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM t) (.remote (Dev.tc n : Thread nD τ) (dstM t) (.dma (sendS t)) hsc) (.dma (recvS t)) hsrc hdst hsem) k) Q) := by
  subst hn
  exact Rounds.wp_send_pointsTo 𝒱₀ ER (sched SV) (c : Thread nD τ) none (κ₁ := K (c, kSend t)) (κ₂ := K (peer t c, kRecv t))
    (c' := (peer t c : Thread nD τ)) (src := srcM t) (dst := dstM t) (sS := .dma (sendS t)) (sem := .dma (recvS t))
    (r₁ := 0) (r₂ := 0) (d₁ := false) (d₂ := false) (fs := fs) (fd := fd)
    (by rw [duties_send]; exact Finset.mem_singleton_self _) (by rw [duties_recv]; exact Finset.mem_singleton_self _)
    () () N (N_eq t) (amount_send SV t c false) (amount_recv SV t (peer t c) false) O₂ hO (W := W)
    (by rw [payload_send]; unfold sendPay; iintro H; iexists fs; iexact H)
    (by
      rw [payload_recv]; unfold recvPay
      iintro H
      iexists (dstM t).view.write (Elt F) fd ((srcM t).view.read (Elt F) fs) Finset.univ
      isplitl [H]; · iexact H
      ipureintro; rw [View.read_write_univ, hv, peer_peer])

/-- The wait on the send cell of transfer `t`: the source slot comes back. -/
theorem step_waitSend (t : Fin 9) (c : Dev nD) (W : Waits sig Unit) (O : CellTallies nD τ sig Unit)
    {sp sp' : Space} {s s' : Shape} {e e' : EltTy} {src : Memref sig .tc sp' s' e'} {κ' : Kind} {dst : Memref sig κ' sp s e}
    {hs : src.view.WordExact} {hd : dst.view.WordExact} (hamt : dst.view.dmaCredit = N) {α : Type} {Q : α → sProp 𝕄} {k : PUnit → Prog (TpuEff nD τ sig (Elt F) Λ₀ .tc) α} :
    iprop(cellInv ER (sched SV) (K (c, kSend t)) (sendCell t c) ∗ cred (tallyAt (sendCell t c) () N) ∗ owes (c : Thread nD τ) O W
        ∗ MayWait (c : Thread nD τ) (.dma (sendS t)) () O ∗ atPos ER (sendCell t c) 0 ∅ 0)
      ⊢ iprop(((owes (c : Thread nD τ) O (insert (SemLoc.dma (sendS t), ()) W) ∗ atPos ER (sendCell t c) 1 ∅ 0 ∗ reached ER (sendCell t c) 1
              ∗ sendPay t c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS t) src dst hs hd) k) Q) := by
  rw [← rest_send SV t c]
  exact Rounds.wp_wait_rest_token 𝒱₀ ER (sched SV) (c : Thread nD τ) none (κ := K (c, kSend t))
    (fun Kc => (wpE_waitDma2_eq 𝒱₀ (c : Thread nD τ) none Set.univ Kc).trans (by rw [hamt])) (Set.mem_univ _) ()
    (O := O) (W := W) (R := 0) (m := 0) (T := ∅) (by rw [Nat.zero_add, expect_send])

/-- The wait on the receive cell of transfer `t`: the landing slot comes back holding the sender's value. -/
theorem step_waitRecv (t : Fin 9) (c : Dev nD) (W : Waits sig Unit) (O : CellTallies nD τ sig Unit)
    {sp sp' : Space} {s s' : Shape} {e e' : EltTy} {src : Memref sig .tc sp' s' e'} {κ' : Kind} {dst : Memref sig κ' sp s e}
    {hs : src.view.WordExact} {hd : dst.view.WordExact} (hamt : dst.view.dmaCredit = N) {α : Type} {Q : α → sProp 𝕄} {k : PUnit → Prog (TpuEff nD τ sig (Elt F) Λ₀ .tc) α} :
    iprop(cellInv ER (sched SV) (K (c, kRecv t)) (recvCell t c) ∗ cred (tallyAt (recvCell t c) () N) ∗ owes (c : Thread nD τ) O W
        ∗ MayWait (c : Thread nD τ) (.dma (recvS t)) () O ∗ atPos ER (recvCell t c) 0 ∅ 0)
      ⊢ iprop(((owes (c : Thread nD τ) O (insert (SemLoc.dma (recvS t), ()) W) ∗ atPos ER (recvCell t c) 1 ∅ 0 ∗ reached ER (recvCell t c) 1
              ∗ recvPay SV t c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS t) src dst hs hd) k) Q) := by
  rw [← rest_recv SV t c]
  exact Rounds.wp_wait_rest_token 𝒱₀ ER (sched SV) (c : Thread nD τ) none (κ := K (c, kRecv t))
    (fun Kc => (wpE_waitDma2_eq 𝒱₀ (c : Thread nD τ) none Set.univ Kc).trans (by rw [hamt])) (Set.mem_univ _) ()
    (O := O) (W := W) (R := 0) (m := 0) (T := ∅) (by rw [Nat.zero_add, expect_recv])

/-! ## Closing a transfer's cells -/

/-- A send cell past its one round closes: its counter, at zero, is the device's again. -/
theorem close_send (t : Fin 9) (c : Dev nD) :
    iprop(cellInv ER (sched SV) (K (c, kSend t)) (sendCell t c) ∗ atPos ER (sendCell t c) 1 ∅ 0)
      ⊢ iprop(|={Set.univ}=> semVal (sendCell t c) 0) :=
  Rounds.cell_close ER (sched SV) (Set.mem_univ (K (c, kSend t))) (fun h => h) (R := 1) (duties_later SV (sendCell t c))

/-- A receive cell likewise. -/
theorem close_recv (t : Fin 9) (c : Dev nD) :
    iprop(cellInv ER (sched SV) (K (c, kRecv t)) (recvCell t c) ∗ atPos ER (recvCell t c) 1 ∅ 0)
      ⊢ iprop(|={Set.univ}=> semVal (recvCell t c) 0) :=
  Rounds.cell_close ER (sched SV) (Set.mem_univ (K (c, kRecv t))) (fun h => h) (R := 1) (duties_later SV (recvCell t c))

end Cert.KernelIdealProof

end
-- ==== Proof.LoadForms.lean ====
/-
  What the body's loads read. Each loaded value is a read of a buffer's contents through a
  rectangle of the whole buffer; here each is read at an index given by its coordinates: the
  staged blocks whole, a weight slot after its copy landed, a received slot through the whole
  receive buffer, a sent slot after the store that filled it.
-/
import proofs.«900581_g7700000000000582_dist_mlpseq_tp2d_cs_cs_b64_d512_h1024_v7x_xy2x2_f32_1_alg».proof.Proof.Cells
import Idealize.ShloMosaic.Lib.Pipeline.Value
import Idealize.ShloMosaic.Lib.ValueIdx
import Idealize.ShloMosaic.Lib.ValueLayout
import Idealize.ShloMosaic.Lib.Writes

noncomputable section

namespace Cert.KernelIdealProof

open Cert.KernelIdeal Cert.KernelIdeal.Gen
open Idealize.ShloMosaic
open Idealize.ShloMosaic.TcCoe
open Idealize.ShloMosaic.ValueIdx

/-! ## Slots of a view: a unit slice with its unit axes dropped -/

section Generic

variable {σ : RefSig} {κ : Kind} {sp : Space} {e : EltTy} {Val : EltTy → Type}

/-- Reading through a re-indexed view is reading through the view at the matched index. -/
theorem read_reshape_apply {s s' : Shape} (v : View σ κ sp s e) (h : s'.numel = s.numel) (f : v.ty.Contents Val) (x : s'.Idx) :
    (v.reshape s' h).read Val f x = v.read Val f (Shape.reshapeEquiv h x) := rfl

/-- A load at a rectangle with one leading unit axis reads, at `(0, i, j)`, what the squeezed slot reads at `(i, j)`. -/
theorem readAt_unit1 {d : Fin 3 → ℕ} {a b : ℕ} (v : View σ κ sp ⟨3, d⟩ e) (off : Fin 3 → ℕ)
    (inb : ∀ x, off x + (![1, a, b] : Fin 3 → ℕ) x ≤ (⟨3, d⟩ : Shape).size x)
    (h : (⟨2, ![a, b]⟩ : Shape).numel = (⟨3, ![1, a, b]⟩ : Shape).numel) (g : v.ty.Contents Val) (i : Fin a) (j : Fin b) :
    v.readAt Val (Rect.unit (s := ⟨3, d⟩) off ![1, a, b] inb).toLoadRect g (ix3 (0 : Fin 1) i j)
      = ((v.slice (Rect.unit (s := ⟨3, d⟩) off ![1, a, b] inb)).reshape ⟨2, ![a, b]⟩ h).read Val g (ix2 i j) := by
  show (v.slice (Rect.unit (s := ⟨3, d⟩) off ![1, a, b] inb)).read Val g (ix3 (0 : Fin 1) i j)
    = (v.slice (Rect.unit (s := ⟨3, d⟩) off ![1, a, b] inb)).read Val g (Shape.reshapeEquiv h (ix2 i j))
  rw [reshapeEquiv_ix2_1ab]
  rfl

/-- The same with two leading unit axes. -/
theorem readAt_unit11 {d : Fin 4 → ℕ} {a b : ℕ} (v : View σ κ sp ⟨4, d⟩ e) (off : Fin 4 → ℕ)
    (inb : ∀ x, off x + (![1, 1, a, b] : Fin 4 → ℕ) x ≤ (⟨4, d⟩ : Shape).size x)
    (h : (⟨2, ![a, b]⟩ : Shape).numel = (⟨4, ![1, 1, a, b]⟩ : Shape).numel) (g : v.ty.Contents Val) (i : Fin a) (j : Fin b) :
    v.readAt Val (Rect.unit (s := ⟨4, d⟩) off ![1, 1, a, b] inb).toLoadRect g (ix4 (0 : Fin 1) (0 : Fin 1) i j)
      = ((v.slice (Rect.unit (s := ⟨4, d⟩) off ![1, 1, a, b] inb)).reshape ⟨2, ![a, b]⟩ h).read Val g (ix2 i j) := by
  show (v.slice (Rect.unit (s := ⟨4, d⟩) off ![1, 1, a, b] inb)).read Val g (ix4 (0 : Fin 1) (0 : Fin 1) i j)
    = (v.slice (Rect.unit (s := ⟨4, d⟩) off ![1, 1, a, b] inb)).read Val g (Shape.reshapeEquiv h (ix2 i j))
  rw [reshapeEquiv_ix2_11ab]
  rfl

/-- A slot after an unmasked store through its rectangle reads the payload. -/
theorem read_slot_write1 {d : Fin 3 → ℕ} {a b : ℕ} (v : View σ κ sp ⟨3, d⟩ e) (off : Fin 3 → ℕ)
    (inb : ∀ x, off x + (![1, a, b] : Fin 3 → ℕ) x ≤ (⟨3, d⟩ : Shape).size x)
    (h : (⟨2, ![a, b]⟩ : Shape).numel = (⟨3, ![1, a, b]⟩ : Shape).numel) (f₀ : v.ty.Contents Val)
    (w : (⟨3, ![1, a, b]⟩ : Shape).Idx → Val e) (i : Fin a) (j : Fin b) :
    ((v.slice (Rect.unit (s := ⟨3, d⟩) off ![1, a, b] inb)).reshape ⟨2, ![a, b]⟩ h).read Val
        ((v.slice (Rect.unit (s := ⟨3, d⟩) off ![1, a, b] inb)).write Val f₀ w Finset.univ) (ix2 i j) = w (ix3 (0 : Fin 1) i j) := by
  show (v.slice (Rect.unit (s := ⟨3, d⟩) off ![1, a, b] inb)).read Val _ (Shape.reshapeEquiv h (ix2 i j)) = _
  rw [reshapeEquiv_ix2_1ab]
  exact View.read_write_of_mem (v := v.slice (Rect.unit (s := ⟨3, d⟩) off ![1, a, b] inb)) f₀ w (Finset.mem_univ _)

theorem read_slot_write11 {d : Fin 4 → ℕ} {a b : ℕ} (v : View σ κ sp ⟨4, d⟩ e) (off : Fin 4 → ℕ)
    (inb : ∀ x, off x + (![1, 1, a, b] : Fin 4 → ℕ) x ≤ (⟨4, d⟩ : Shape).size x)
    (h : (⟨2, ![a, b]⟩ : Shape).numel = (⟨4, ![1, 1, a, b]⟩ : Shape).numel) (f₀ : v.ty.Contents Val)
    (w : (⟨4, ![1, 1, a, b]⟩ : Shape).Idx → Val e) (i : Fin a) (j : Fin b) :
    ((v.slice (Rect.unit (s := ⟨4, d⟩) off ![1, 1, a, b] inb)).reshape ⟨2, ![a, b]⟩ h).read Val
        ((v.slice (Rect.unit (s := ⟨4, d⟩) off ![1, 1, a, b] inb)).write Val f₀ w Finset.univ) (ix2 i j) = w (ix4 (0 : Fin 1) (0 : Fin 1) i j) := by
  show (v.slice (Rect.unit (s := ⟨4, d⟩) off ![1, 1, a, b] inb)).read Val _ (Shape.reshapeEquiv h (ix2 i j)) = _
  rw [reshapeEquiv_ix2_11ab]
  exact View.read_write_of_mem (v := v.slice (Rect.unit (s := ⟨4, d⟩) off ![1, 1, a, b] inb)) f₀ w (Finset.mem_univ _)

/-- A load at a slot's rectangle, after the slot was filled whole through its squeeze, reads the payload. -/
theorem readAt_unit1_filled {d : Fin 3 → ℕ} {a b : ℕ} (v : View σ κ sp ⟨3, d⟩ e) (off : Fin 3 → ℕ)
    (inb : ∀ x, off x + (![1, a, b] : Fin 3 → ℕ) x ≤ (⟨3, d⟩ : Shape).size x)
    (h : (⟨2, ![a, b]⟩ : Shape).numel = (⟨3, ![1, a, b]⟩ : Shape).numel) (f₀ : v.ty.Contents Val)
    (p : (⟨2, ![a, b]⟩ : Shape).Idx → Val e) (k : Fin a) (j : Fin b) :
    v.readAt Val (Rect.unit (s := ⟨3, d⟩) off ![1, a, b] inb).toLoadRect
        (((v.slice (Rect.unit (s := ⟨3, d⟩) off ![1, a, b] inb)).reshape ⟨2, ![a, b]⟩ h).writes Val f₀ [⟨Rect.whole ⟨2, ![a, b]⟩, p⟩])
        (ix3 (0 : Fin 1) k j) = p (ix2 k j) := by
  rw [readAt_unit1 v off inb h]
  have e := View.read_writes_cons_emb ((v.slice (Rect.unit (s := ⟨3, d⟩) off ![1, a, b] inb)).reshape ⟨2, ![a, b]⟩ h) f₀
    (Rect.whole ⟨2, ![a, b]⟩) p [] (ix2 k j)
  rwa [Rect.emb_whole_apply] at e

end Generic

variable {F : FTy → Type} [FloatOps F]

/-! ## The staged blocks, whole -/

theorem zero2 : (![0, 0] : Fin 2 → Nat) = fun _ => 0 := funext fun a => by fin_cases a <;> rfl

/-- The staged activation block is read whole. -/
theorem read_stg0 (g : (cc0_stg0_0 : Ref sig .tc).ty.Contents (Elt F)) :
    View.readAt (Elt F) (Memref.whole cc0_stg0_0).view (Rect.unit (s := S64x512) ![0, 0] S64x512.size inb_S64x512_S64x512_0_0).toLoadRect g = g :=
  Memref.readAt_unit_zero (Elt F) cc0_stg0_0 zero2 _ g

/-- The staged result block is read whole. -/
theorem read_stg1 (g : (cc0_stg1_0 : Ref sig .tc).ty.Contents (Elt F)) :
    View.readAt (Elt F) (Memref.whole cc0_stg1_0).view (Rect.unit (s := S64x512) ![0, 0] S64x512.size inb_S64x512_S64x512_0_0).toLoadRect g = g :=
  Memref.readAt_unit_zero (Elt F) cc0_stg1_0 zero2 _ g

/-! ## A copy's payload -/

/-- A whole buffer reads as its contents, and a transfer that moves the source's own elements moves them. -/
theorem read_whole_same (b : Ref sig .tc) (A : b.ty.Contents (Elt F)) :
    (ReadAs.same : ReadAs (Elt F) _ _ _ _).apply (View.read (Elt F) (Memref.whole b).view A) = A := rfl

theorem read_whole' (b : Ref sig .tc) (A : b.ty.Contents (Elt F)) : View.read (Elt F) (Memref.whole b).view A = A := rfl

/-! ## A weight slot after its copy landed -/

/-- Layer 0's slot of the first weights' landing buffer, filled whole, reads the payload. -/
theorem read_w0M0 (p : S512x1024.Idx → Elt F .f32) (k : Fin 512) (j : Fin 1024) :
    View.readAt (Elt F) (Memref.whole cc0_scratch0).view (Rect.unit (s := S3x512x1024) ![0, 0, 0] S1x512x1024.size inb_S3x512x1024_S1x512x1024_0_0_0).toLoadRect
        (w0M0.view.writes (Elt F) w0M0.view.junk [⟨Rect.whole S512x1024, p⟩]) (ix3 (0 : Fin 1) k j) = p (ix2 k j) :=
  readAt_unit1_filled (Memref.whole cc0_scratch0).view ![0, 0, 0] inb_S3x512x1024_S1x512x1024_0_0_0 _ _ p k j

/-- Layer 1's slot of the first weights' landing buffer, filled whole, reads the payload. -/
theorem read_w0M1 (p : S512x1024.Idx → Elt F .f32) (k : Fin 512) (j : Fin 1024) :
    View.readAt (Elt F) (Memref.whole cc0_scratch0).view (Rect.unit (s := S3x512x1024) ![1, 0, 0] S1x512x1024.size inb_S3x512x1024_S1x512x1024_1_0_0).toLoadRect
        (w0M1.view.writes (Elt F) w0M1.view.junk [⟨Rect.whole S512x1024, p⟩]) (ix3 (0 : Fin 1) k j) = p (ix2 k j) :=
  readAt_unit1_filled (Memref.whole cc0_scratch0).view ![1, 0, 0] inb_S3x512x1024_S1x512x1024_1_0_0 _ _ p k j

/-- Layer 2's slot of the first weights' landing buffer, filled whole, reads the payload. -/
theorem read_w0M2 (p : S512x1024.Idx → Elt F .f32) (k : Fin 512) (j : Fin 1024) :
    View.readAt (Elt F) (Memref.whole cc0_scratch0).view (Rect.unit (s := S3x512x1024) ![2, 0, 0] S1x512x1024.size inb_S3x512x1024_S1x512x1024_2_0_0).toLoadRect
        (w0M2.view.writes (Elt F) w0M2.view.junk [⟨Rect.whole S512x1024, p⟩]) (ix3 (0 : Fin 1) k j) = p (ix2 k j) :=
  readAt_unit1_filled (Memref.whole cc0_scratch0).view ![2, 0, 0] inb_S3x512x1024_S1x512x1024_2_0_0 _ _ p k j

/-- Layer 0's slot of the second weights' landing buffer, filled whole, reads the payload. -/
theorem read_w1M0 (p : S1024x512.Idx → Elt F .f32) (k : Fin 1024) (j : Fin 512) :
    View.readAt (Elt F) (Memref.whole cc0_scratch1).view (Rect.unit (s := S3x1024x512) ![0, 0, 0] S1x1024x512.size inb_S3x1024x512_S1x1024x512_0_0_0).toLoadRect
        (w1M0.view.writes (Elt F) w1M0.view.junk [⟨Rect.whole S1024x512, p⟩]) (ix3 (0 : Fin 1) k j) = p (ix2 k j) :=
  readAt_unit1_filled (Memref.whole cc0_scratch1).view ![0, 0, 0] inb_S3x1024x512_S1x1024x512_0_0_0 _ _ p k j

/-- Layer 1's slot of the second weights' landing buffer, filled whole, reads the payload. -/
theorem read_w1M1 (p : S1024x512.Idx → Elt F .f32) (k : Fin 1024) (j : Fin 512) :
    View.readAt (Elt F) (Memref.whole cc0_scratch1).view (Rect.unit (s := S3x1024x512) ![1, 0, 0] S1x1024x512.size inb_S3x1024x512_S1x1024x512_1_0_0).toLoadRect
        (w1M1.view.writes (Elt F) w1M1.view.junk [⟨Rect.whole S1024x512, p⟩]) (ix3 (0 : Fin 1) k j) = p (ix2 k j) :=
  readAt_unit1_filled (Memref.whole cc0_scratch1).view ![1, 0, 0] inb_S3x1024x512_S1x1024x512_1_0_0 _ _ p k j

/-- Layer 2's slot of the second weights' landing buffer, filled whole, reads the payload. -/
theorem read_w1M2 (p : S1024x512.Idx → Elt F .f32) (k : Fin 1024) (j : Fin 512) :
    View.readAt (Elt F) (Memref.whole cc0_scratch1).view (Rect.unit (s := S3x1024x512) ![2, 0, 0] S1x1024x512.size inb_S3x1024x512_S1x1024x512_2_0_0).toLoadRect
        (w1M2.view.writes (Elt F) w1M2.view.junk [⟨Rect.whole S1024x512, p⟩]) (ix3 (0 : Fin 1) k j) = p (ix2 k j) :=
  readAt_unit1_filled (Memref.whole cc0_scratch1).view ![2, 0, 0] inb_S3x1024x512_S1x1024x512_2_0_0 _ _ p k j

/-! ## A received slot read through the whole receive buffer -/

theorem read_recv0 (g : (cc0_scratch6 : Ref sig .tc).ty.Contents (Elt F)) (i : Fin 64) (j : Fin 512) :
    View.readAt (Elt F) (Memref.whole cc0_scratch6).view (Rect.unit (s := S3x2x64x512) ![0, 0, 0, 0] S1x1x64x512.size inb_S3x2x64x512_S1x1x64x512_0_0_0_0).toLoadRect g
        (ix4 (0 : Fin 1) (0 : Fin 1) i j) = (dstM 0).view.read (Elt F) g (ix2 i j) :=
  readAt_unit11 (Memref.whole cc0_scratch6).view ![0, 0, 0, 0] inb_S3x2x64x512_S1x1x64x512_0_0_0_0 _ g i j

theorem read_recv1 (g : (cc0_scratch6 : Ref sig .tc).ty.Contents (Elt F)) (i : Fin 64) (j : Fin 512) :
    View.readAt (Elt F) (Memref.whole cc0_scratch6).view (Rect.unit (s := S3x2x64x512) ![0, 1, 0, 0] S1x1x64x512.size inb_S3x2x64x512_S1x1x64x512_0_1_0_0).toLoadRect g
        (ix4 (0 : Fin 1) (0 : Fin 1) i j) = (dstM 1).view.read (Elt F) g (ix2 i j) :=
  readAt_unit11 (Memref.whole cc0_scratch6).view ![0, 1, 0, 0] inb_S3x2x64x512_S1x1x64x512_0_1_0_0 _ g i j

theorem read_recv2 (g : (cc0_scratch6 : Ref sig .tc).ty.Contents (Elt F)) (i : Fin 64) (j : Fin 512) :
    View.readAt (Elt F) (Memref.whole cc0_scratch6).view (Rect.unit (s := S3x2x64x512) ![1, 0, 0, 0] S1x1x64x512.size inb_S3x2x64x512_S1x1x64x512_1_0_0_0).toLoadRect g
        (ix4 (0 : Fin 1) (0 : Fin 1) i j) = (dstM 2).view.read (Elt F) g (ix2 i j) :=
  readAt_unit11 (Memref.whole cc0_scratch6).view ![1, 0, 0, 0] inb_S3x2x64x512_S1x1x64x512_1_0_0_0 _ g i j

theorem read_recv3 (g : (cc0_scratch6 : Ref sig .tc).ty.Contents (Elt F)) (i : Fin 64) (j : Fin 512) :
    View.readAt (Elt F) (Memref.whole cc0_scratch6).view (Rect.unit (s := S3x2x64x512) ![1, 1, 0, 0] S1x1x64x512.size inb_S3x2x64x512_S1x1x64x512_1_1_0_0).toLoadRect g
        (ix4 (0 : Fin 1) (0 : Fin 1) i j) = (dstM 3).view.read (Elt F) g (ix2 i j) :=
  readAt_unit11 (Memref.whole cc0_scratch6).view ![1, 1, 0, 0] inb_S3x2x64x512_S1x1x64x512_1_1_0_0 _ g i j

theorem read_recv4 (g : (cc0_scratch6 : Ref sig .tc).ty.Contents (Elt F)) (i : Fin 64) (j : Fin 512) :
    View.readAt (Elt F) (Memref.whole cc0_scratch6).view (Rect.unit (s := S3x2x64x512) ![2, 0, 0, 0] S1x1x64x512.size inb_S3x2x64x512_S1x1x64x512_2_0_0_0).toLoadRect g
        (ix4 (0 : Fin 1) (0 : Fin 1) i j) = (dstM 4).view.read (Elt F) g (ix2 i j) :=
  readAt_unit11 (Memref.whole cc0_scratch6).view ![2, 0, 0, 0] inb_S3x2x64x512_S1x1x64x512_2_0_0_0 _ g i j

theorem read_recv5 (g : (cc0_scratch6 : Ref sig .tc).ty.Contents (Elt F)) (i : Fin 64) (j : Fin 512) :
    View.readAt (Elt F) (Memref.whole cc0_scratch6).view (Rect.unit (s := S3x2x64x512) ![2, 1, 0, 0] S1x1x64x512.size inb_S3x2x64x512_S1x1x64x512_2_1_0_0).toLoadRect g
        (ix4 (0 : Fin 1) (0 : Fin 1) i j) = (dstM 5).view.read (Elt F) g (ix2 i j) :=
  readAt_unit11 (Memref.whole cc0_scratch6).view ![2, 1, 0, 0] inb_S3x2x64x512_S1x1x64x512_2_1_0_0 _ g i j

theorem read_recv6 (g : (cc0_scratch7 : Ref sig .tc).ty.Contents (Elt F)) (i : Fin 64) (j : Fin 512) :
    View.readAt (Elt F) (Memref.whole cc0_scratch7).view (Rect.unit (s := S3x64x512) ![0, 0, 0] S1x64x512.size inb_S3x64x512_S1x64x512_0_0_0).toLoadRect g
        (ix3 (0 : Fin 1) i j) = (dstM 6).view.read (Elt F) g (ix2 i j) :=
  readAt_unit1 (Memref.whole cc0_scratch7).view ![0, 0, 0] inb_S3x64x512_S1x64x512_0_0_0 _ g i j

theorem read_recv7 (g : (cc0_scratch7 : Ref sig .tc).ty.Contents (Elt F)) (i : Fin 64) (j : Fin 512) :
    View.readAt (Elt F) (Memref.whole cc0_scratch7).view (Rect.unit (s := S3x64x512) ![1, 0, 0] S1x64x512.size inb_S3x64x512_S1x64x512_1_0_0).toLoadRect g
        (ix3 (0 : Fin 1) i j) = (dstM 7).view.read (Elt F) g (ix2 i j) :=
  readAt_unit1 (Memref.whole cc0_scratch7).view ![1, 0, 0] inb_S3x64x512_S1x64x512_1_0_0 _ g i j

theorem read_recv8 (g : (cc0_scratch7 : Ref sig .tc).ty.Contents (Elt F)) (i : Fin 64) (j : Fin 512) :
    View.readAt (Elt F) (Memref.whole cc0_scratch7).view (Rect.unit (s := S3x64x512) ![2, 0, 0] S1x64x512.size inb_S3x64x512_S1x64x512_2_0_0).toLoadRect g
        (ix3 (0 : Fin 1) i j) = (dstM 8).view.read (Elt F) g (ix2 i j) :=
  readAt_unit1 (Memref.whole cc0_scratch7).view ![2, 0, 0] inb_S3x64x512_S1x64x512_2_0_0 _ g i j

/-! ## A sent slot after the store that filled it -/

theorem read_sent0 (fs0 : (cc0_scratch4 : Ref sig .tc).ty.Contents (Elt F)) (v : Vec F S1x1x64x512 .bf16) (i : Fin 64) (j : Fin 512) :
    (srcM 0).view.read (Elt F)
        (View.write (Elt F) ((Memref.whole cc0_scratch4).access (Rect.unit (s := S3x2x64x512) ![0, 0, 0, 0] S1x1x64x512.size inb_S3x2x64x512_S1x1x64x512_0_0_0_0)) fs0 v Finset.univ)
        (ix2 i j) = v (ix4 (0 : Fin 1) (0 : Fin 1) i j) :=
  read_slot_write11 (Memref.whole cc0_scratch4).view ![0, 0, 0, 0] inb_S3x2x64x512_S1x1x64x512_0_0_0_0 _ fs0 v i j

theorem read_sent1 (fs0 : (cc0_scratch4 : Ref sig .tc).ty.Contents (Elt F)) (v : Vec F S1x1x64x512 .bf16) (i : Fin 64) (j : Fin 512) :
    (srcM 1).view.read (Elt F)
        (View.write (Elt F) ((Memref.whole cc0_scratch4).access (Rect.unit (s := S3x2x64x512) ![0, 1, 0, 0] S1x1x64x512.size inb_S3x2x64x512_S1x1x64x512_0_1_0_0)) fs0 v Finset.univ)
        (ix2 i j) = v (ix4 (0 : Fin 1) (0 : Fin 1) i j) :=
  read_slot_write11 (Memref.whole cc0_scratch4).view ![0, 1, 0, 0] inb_S3x2x64x512_S1x1x64x512_0_1_0_0 _ fs0 v i j

theorem read_sent2 (fs0 : (cc0_scratch4 : Ref sig .tc).ty.Contents (Elt F)) (v : Vec F S1x1x64x512 .bf16) (i : Fin 64) (j : Fin 512) :
    (srcM 2).view.read (Elt F)
        (View.write (Elt F) ((Memref.whole cc0_scratch4).access (Rect.unit (s := S3x2x64x512) ![1, 0, 0, 0] S1x1x64x512.size inb_S3x2x64x512_S1x1x64x512_1_0_0_0)) fs0 v Finset.univ)
        (ix2 i j) = v (ix4 (0 : Fin 1) (0 : Fin 1) i j) :=
  read_slot_write11 (Memref.whole cc0_scratch4).view ![1, 0, 0, 0] inb_S3x2x64x512_S1x1x64x512_1_0_0_0 _ fs0 v i j

theorem read_sent3 (fs0 : (cc0_scratch4 : Ref sig .tc).ty.Contents (Elt F)) (v : Vec F S1x1x64x512 .bf16) (i : Fin 64) (j : Fin 512) :
    (srcM 3).view.read (Elt F)
        (View.write (Elt F) ((Memref.whole cc0_scratch4).access (Rect.unit (s := S3x2x64x512) ![1, 1, 0, 0] S1x1x64x512.size inb_S3x2x64x512_S1x1x64x512_1_1_0_0)) fs0 v Finset.univ)
        (ix2 i j) = v (ix4 (0 : Fin 1) (0 : Fin 1) i j) :=
  read_slot_write11 (Memref.whole cc0_scratch4).view ![1, 1, 0, 0] inb_S3x2x64x512_S1x1x64x512_1_1_0_0 _ fs0 v i j

theorem read_sent4 (fs0 : (cc0_scratch4 : Ref sig .tc).ty.Contents (Elt F)) (v : Vec F S1x1x64x512 .bf16) (i : Fin 64) (j : Fin 512) :
    (srcM 4).view.read (Elt F)
        (View.write (Elt F) ((Memref.whole cc0_scratch4).access (Rect.unit (s := S3x2x64x512) ![2, 0, 0, 0] S1x1x64x512.size inb_S3x2x64x512_S1x1x64x512_2_0_0_0)) fs0 v Finset.univ)
        (ix2 i j) = v (ix4 (0 : Fin 1) (0 : Fin 1) i j) :=
  read_slot_write11 (Memref.whole cc0_scratch4).view ![2, 0, 0, 0] inb_S3x2x64x512_S1x1x64x512_2_0_0_0 _ fs0 v i j

theorem read_sent5 (fs0 : (cc0_scratch4 : Ref sig .tc).ty.Contents (Elt F)) (v : Vec F S1x1x64x512 .bf16) (i : Fin 64) (j : Fin 512) :
    (srcM 5).view.read (Elt F)
        (View.write (Elt F) ((Memref.whole cc0_scratch4).access (Rect.unit (s := S3x2x64x512) ![2, 1, 0, 0] S1x1x64x512.size inb_S3x2x64x512_S1x1x64x512_2_1_0_0)) fs0 v Finset.univ)
        (ix2 i j) = v (ix4 (0 : Fin 1) (0 : Fin 1) i j) :=
  read_slot_write11 (Memref.whole cc0_scratch4).view ![2, 1, 0, 0] inb_S3x2x64x512_S1x1x64x512_2_1_0_0 _ fs0 v i j

theorem read_sent6 (fs0 : (cc0_scratch5 : Ref sig .tc).ty.Contents (Elt F)) (v : Vec F S1x64x512 .bf16) (i : Fin 64) (j : Fin 512) :
    (srcM 6).view.read (Elt F)
        (View.write (Elt F) ((Memref.whole cc0_scratch5).access (Rect.unit (s := S3x64x512) ![0, 0, 0] S1x64x512.size inb_S3x64x512_S1x64x512_0_0_0)) fs0 v Finset.univ)
        (ix2 i j) = v (ix3 (0 : Fin 1) i j) :=
  read_slot_write1 (Memref.whole cc0_scratch5).view ![0, 0, 0] inb_S3x64x512_S1x64x512_0_0_0 _ fs0 v i j

theorem read_sent7 (fs0 : (cc0_scratch5 : Ref sig .tc).ty.Contents (Elt F)) (v : Vec F S1x64x512 .bf16) (i : Fin 64) (j : Fin 512) :
    (srcM 7).view.read (Elt F)
        (View.write (Elt F) ((Memref.whole cc0_scratch5).access (Rect.unit (s := S3x64x512) ![1, 0, 0] S1x64x512.size inb_S3x64x512_S1x64x512_1_0_0)) fs0 v Finset.univ)
        (ix2 i j) = v (ix3 (0 : Fin 1) i j) :=
  read_slot_write1 (Memref.whole cc0_scratch5).view ![1, 0, 0] inb_S3x64x512_S1x64x512_1_0_0 _ fs0 v i j

theorem read_sent8 (fs0 : (cc0_scratch5 : Ref sig .tc).ty.Contents (Elt F)) (v : Vec F S1x64x512 .bf16) (i : Fin 64) (j : Fin 512) :
    (srcM 8).view.read (Elt F)
        (View.write (Elt F) ((Memref.whole cc0_scratch5).access (Rect.unit (s := S3x64x512) ![2, 0, 0] S1x64x512.size inb_S3x64x512_S1x64x512_2_0_0)) fs0 v Finset.univ)
        (ix2 i j) = v (ix3 (0 : Fin 1) i j) :=
  read_slot_write1 (Memref.whole cc0_scratch5).view ![2, 0, 0] inb_S3x64x512_S1x64x512_2_0_0 _ fs0 v i j

end Cert.KernelIdealProof
end
-- ==== Proof.CastForms.lean ====
/-
  Shape casts that add or drop unit axes in front of a [64, 512] array read the same two
  coordinates, whatever the elements are; there and back is the identity.
-/
import proofs.«900581_g7700000000000582_dist_mlpseq_tp2d_cs_cs_b64_d512_h1024_v7x_xy2x2_f32_1_alg».proof.Proof.Cells
import Idealize.ShloMosaic.Lib.ValueIdx
import Idealize.ShloMosaic.Lib.ValueLayout

noncomputable section

namespace Cert.KernelIdealProof

open Cert.KernelIdeal Cert.KernelIdeal.Gen
open Idealize.ShloMosaic Idealize.ShloMosaic.ValueIdx

variable {α : Type}

/-- A [64, 512] array cast to [1, 1, 64, 512] reads, at (u, v, i, j), the operand at (i, j). -/
theorem cast_ab_11ab (x : S64x512.Idx → α) (u v : Fin 1) (i : Fin 64) (j : Fin 512) :
    shapeCast S1x1x64x512 x shapeCasts_S64x512_S1x1x64x512 (ix4 u v i j) = x (ix2 i j) :=
  shapeCast_apply x shapeCasts_S64x512_S1x1x64x512 _ _ (by
    have hu : u.val = 0 := by omega
    have hv : v.val = 0 := by omega
    rw [Shape.rowMajor_val_four, Shape.rowMajor_val_two]
    show i.val * 512 + j.val = ((u.val * 1 + v.val) * 64 + i.val) * 512 + j.val
    rw [hu, hv]; omega)

/-- A [1, 1, 64, 512] array cast to [64, 512] reads, at (i, j), the operand at (0, 0, i, j). -/
theorem cast_11ab_ab (x : S1x1x64x512.Idx → α) (i : Fin 64) (j : Fin 512) :
    shapeCast S64x512 x shapeCasts_S1x1x64x512_S64x512 (ix2 i j) = x (ix4 (0 : Fin 1) (0 : Fin 1) i j) :=
  shapeCast_apply x shapeCasts_S1x1x64x512_S64x512 _ _ (by
    rw [Shape.rowMajor_val_four, Shape.rowMajor_val_two]
    show ((0 * 1 + 0) * 64 + i.val) * 512 + j.val = i.val * 512 + j.val
    omega)

/-- A [64, 512] array cast to [1, 64, 512] reads, at (u, i, j), the operand at (i, j). -/
theorem cast_ab_1ab (x : S64x512.Idx → α) (u : Fin 1) (i : Fin 64) (j : Fin 512) :
    shapeCast S1x64x512 x shapeCasts_S64x512_S1x64x512 (ix3 u i j) = x (ix2 i j) :=
  shapeCast_ab_1ab_apply x shapeCasts_S64x512_S1x64x512 u i j

/-- A [1, 64, 512] array cast to [64, 512] reads, at (i, j), the operand at (0, i, j). -/
theorem cast_1ab_ab (x : S1x64x512.Idx → α) (i : Fin 64) (j : Fin 512) :
    shapeCast S64x512 x shapeCasts_S1x64x512_S64x512 (ix2 i j) = x (ix3 (0 : Fin 1) i j) :=
  shapeCast_1ab_ab_apply x shapeCasts_S1x64x512_S64x512 i j

/-- Through [1, 1, 64, 512] and back. -/
theorem cast_roundtrip4 (x : S64x512.Idx → α) :
    shapeCast S64x512 (shapeCast S1x1x64x512 x shapeCasts_S64x512_S1x1x64x512) shapeCasts_S1x1x64x512_S64x512 = x := by
  funext y
  obtain ⟨i, j, rfl⟩ : ∃ (i : Fin 64) (j : Fin 512), y = ix2 i j := ⟨y 0, y 1, eq_ix2 y⟩
  rw [cast_11ab_ab, cast_ab_11ab]

/-- Through [1, 64, 512] and back. -/
theorem cast_roundtrip3 (x : S64x512.Idx → α) :
    shapeCast S64x512 (shapeCast S1x64x512 x shapeCasts_S64x512_S1x64x512) shapeCasts_S1x64x512_S64x512 = x := by
  funext y
  obtain ⟨i, j, rfl⟩ : ∃ (i : Fin 64) (j : Fin 512), y = ix2 i j := ⟨y 0, y 1, eq_ix2 y⟩
  rw [cast_1ab_ab, cast_ab_1ab]

/-- The other way round: from [1, 1, 64, 512] to [64, 512] and back, and from [1, 64, 512] likewise. -/
theorem cast_roundtrip4' (x : S1x1x64x512.Idx → α) :
    shapeCast S1x1x64x512 (shapeCast S64x512 x shapeCasts_S1x1x64x512_S64x512) shapeCasts_S64x512_S1x1x64x512 = x :=
  shapeCast_shapeCast x shapeCasts_S1x1x64x512_S64x512 shapeCasts_S64x512_S1x1x64x512
theorem cast_roundtrip3' (x : S1x64x512.Idx → α) :
    shapeCast S1x64x512 (shapeCast S64x512 x shapeCasts_S1x64x512_S64x512) shapeCasts_S64x512_S1x64x512 = x :=
  shapeCast_shapeCast x shapeCasts_S1x64x512_S64x512 shapeCasts_S64x512_S1x64x512

section Check
variable {F : FTy → Type} [FloatOps F]
example (e : EltTy) (x : Vec F S64x512 e) (u v : Fin 1) (i : Fin 64) (j : Fin 512) :
    shapeCast S1x1x64x512 x shapeCasts_S64x512_S1x1x64x512 (ix4 u v i j) = x (ix2 i j) := cast_ab_11ab x u v i j
example (φ : FTy) (x : FVec F S1x64x512 φ) (i : Fin 64) (j : Fin 512) :
    shapeCast S64x512 x shapeCasts_S1x64x512_S64x512 (ix2 i j) = x (ix3 (0 : Fin 1) i j) := by rw [cast_1ab_ab]
end Check

/-- info: 'Cert.KernelIdealProof.cast_roundtrip4' depends on axioms: [propext, Classical.choice, Quot.sound] -/
#guard_msgs in #print axioms cast_roundtrip4

end Cert.KernelIdealProof

end
-- ==== Proof.StoreForms.lean ====
/-
  What the body's last store leaves: one store of a whole block into the result's staging
  buffer, over whatever it held, leaves the stored block.
-/
import proofs.«900581_g7700000000000582_dist_mlpseq_tp2d_cs_cs_b64_d512_h1024_v7x_xy2x2_f32_1_alg».proof.Proof.LoadForms
import Idealize.ShloMosaic.Lib.Writes

noncomputable section

namespace Cert.KernelIdealProof

open Cert.KernelIdeal Cert.KernelIdeal.Gen
open Idealize.ShloMosaic
open Idealize.ShloMosaic.TcCoe

variable {F : FTy → Type} [FloatOps F]

/-- One unmasked store through the whole staging buffer of the result replaces its contents. -/
theorem writes_stg1 (g v : (cc0_stg1_0 : Ref sig .tc).ty.Contents (Elt F)) :
    (Memref.whole cc0_stg1_0).view.writes (Elt F) g
        [⟨Rect.unit (s := S64x512) ![0, 0] S64x512.size inb_S64x512_S64x512_0_0, v⟩] = v := by
  rw [View.writes_singleton]
  exact Memref.write_access_unit_zero_univ (Elt F) cc0_stg1_0 zero2 _ g v

/-- The same with the payload typed as a vector of the block's shape. -/
theorem writes_stg1_vec (g : (cc0_stg1_0 : Ref sig .tc).ty.Contents (Elt F)) (v : Vec F S64x512 .f32) :
    (Memref.whole cc0_stg1_0).view.writes (Elt F) g
        [⟨Rect.unit (s := S64x512) ![0, 0] S64x512.size inb_S64x512_S64x512_0_0, v⟩] = v := by
  rw [View.writes_singleton]
  exact Memref.write_access_unit_zero_univ (Elt F) cc0_stg1_0 zero2 _ g v

/-- The same for the staging buffer of the activations. -/
theorem writes_stg0 (g v : (cc0_stg0_0 : Ref sig .tc).ty.Contents (Elt F)) :
    (Memref.whole cc0_stg0_0).view.writes (Elt F) g
        [⟨Rect.unit (s := S64x512) ![0, 0] S64x512.size inb_S64x512_S64x512_0_0, v⟩] = v := by
  rw [View.writes_singleton]
  exact Memref.write_access_unit_zero_univ (Elt F) cc0_stg0_0 zero2 _ g v

/-- info: 'Cert.KernelIdealProof.writes_stg1' depends on axioms: [propext, Classical.choice, Quot.sound] -/
#guard_msgs in #print axioms writes_stg1

end Cert.KernelIdealProof
end
-- ==== Proof.Body.lean ====
/-
  One device's body, from the invariant before the grid point to the invariant after it.

  The device starts its six weight copies, signals both peers' barrier cells — handing the
  second-axis peer its six landing slots for the hidden chunks and the first-axis peer its three
  landing slots for the partial outputs —, and per layer: multiplies its activation block by the
  two chunks of its first weights, sends each partial hidden chunk to the second-axis peer (the
  first one only after the barrier wait has handed it both peers' landing slots), adds the chunk
  it receives, applies the relu, multiplies by the matching rows of its second weights, sends the
  partial output to the first-axis peer and adds the one it receives. Every value sent is the
  term `SVs m t c`, every value received the peer's `SVs m t (peer t c)`, and the block stored
  at the end is `OUTs m c`. Waits are allowed because every cell waited on lies below all the
  receive cells the device still owes.
-/
import proofs.«900581_g7700000000000582_dist_mlpseq_tp2d_cs_cs_b64_d512_h1024_v7x_xy2x2_f32_1_alg».proof.Proof.Ghost
import proofs.«900581_g7700000000000582_dist_mlpseq_tp2d_cs_cs_b64_d512_h1024_v7x_xy2x2_f32_1_alg».proof.Proof.SchedFacts
import proofs.«900581_g7700000000000582_dist_mlpseq_tp2d_cs_cs_b64_d512_h1024_v7x_xy2x2_f32_1_alg».proof.Proof.Steps
import proofs.«900581_g7700000000000582_dist_mlpseq_tp2d_cs_cs_b64_d512_h1024_v7x_xy2x2_f32_1_alg».proof.Proof.Spec
import proofs.«900581_g7700000000000582_dist_mlpseq_tp2d_cs_cs_b64_d512_h1024_v7x_xy2x2_f32_1_alg».proof.Proof.LoadForms
import proofs.«900581_g7700000000000582_dist_mlpseq_tp2d_cs_cs_b64_d512_h1024_v7x_xy2x2_f32_1_alg».proof.Proof.CastForms
import proofs.«900581_g7700000000000582_dist_mlpseq_tp2d_cs_cs_b64_d512_h1024_v7x_xy2x2_f32_1_alg».proof.Proof.StoreForms
import proofs.«900581_g7700000000000582_dist_mlpseq_tp2d_cs_cs_b64_d512_h1024_v7x_xy2x2_f32_1_alg».proof.Proof.Gen.KernelIdeal.Skeleton

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

omit [FloatOps F] in
theorem held_eq' (c : Dev nD) (b : Ref sig .tc) (f : Buf (Elt F) ((c : Thread nD τ).loc b)) :
    held c b f = (((c : Thread nD τ).loc b) ↦{fullShare} f : sProp 𝕄) := by unfold held; rw [View.set_whole]

/-- `step_send` with the sent value's equation among the premises, so that it is proved where the source slot's
    contents are in view. -/
theorem step_send' (SV : Fin 9 → Dev nD → Vec F S64x512 .bf16) (K : Dev nD × Fin 19 → ℕ) (t : Fin 9) (c n : Dev nD) (hn : n = peer t c)
    {hsc : (dstM t : Memref sig (Dev.tc n : Thread nD τ).2.kind .vmem S64x512 .bf16).view.ref.isScScratch = false}
    {hsrc : (srcM t).view.WordExact} {hdst : (dstM t).view.WordExact}
    {hsem : DmaTarget.Typed .vmem (.dma (recvS t)) (.remote (Dev.tc n : Thread nD τ) (dstM t) (.dma (sendS t)) hsc)}
    {α : Type} {Q : α → sProp 𝕄} {k : PUnit → Prog (TpuEff nD τ sig (Elt F) Λ₀ .tc) α}
    (fs : Buf (Elt F) ((srcM t).view.loc (c : Thread nD τ))) (fd : Buf (Elt F) ((dstM t).view.loc (peer t c : Thread nD τ)))
    (W : Waits sig Unit) (O₁ O₂ : CellTallies nD τ sig Unit) (hO : O₁ = O₂ + tallyAt (recvCell t (peer t c)) () N) :
    iprop(⌜(srcM t).view.read (Elt F) fs = SV t c⌝
        ∗ cellInv ER (sched SV) (K (c, kSend t)) (sendCell t c) ∗ cellInv ER (sched SV) (K (peer t c, kRecv t)) (recvCell t (peer t c))
        ∗ heldM c (srcM t) fs ∗ heldM (peer t c) (dstM t) fd ∗ owes (c : Thread nD τ) O₁ W
        ∗ dutyTok ER (sendCell t c) 0 false ∗ reached ER (sendCell t c) 0
        ∗ dutyTok ER (recvCell t (peer t c)) 0 false ∗ reached ER (recvCell t (peer t c)) 0)
      ⊢ iprop(((cred (tallyAt (sendCell t c) () N) ∗ owes (c : Thread nD τ) O₂ W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM t) (.remote (Dev.tc n : Thread nD τ) (dstM t) (.dma (sendS t)) hsc) (.dma (recvS t)) hsrc hdst hsem) k) Q) := by
  iintro ⟨%hv, H⟩
  iapply (step_send SV K t c n hn fs fd W O₁ O₂ hO hv)
  iexact H

set_option maxHeartbeats 8000000 in
/-- The body on device `c`: the local statements step by step, the two entry signals, the barrier wait, the nine
    addressed transfers and their waits by the rounds library's rules, to the invariant after the point with the
    result block stored. -/
theorem sound_body (c : Dev nD) :
    bodyPre (SVs m) (OUTs m) m c ⊢ wp frame (wpE (defs₀ (F := F)) 𝒱₀ c none) Set.univ (theBody (F := F)) (fun _ => bodyPost (SVs m) (OUTs m) m c) := by
  unfold bodyPre Φ₀ start ghost invs wsems0 args scratch
  simp only [bigSep_fin9]
  iintro ⟨⟨⟨⟨%K, ⟨#HIbar, #HIsnd, #HIrcv, #HIbarY, #HIbarX, #HIrcvP⟩, HatB, ⟨HatS0, HatS1, HatS2, HatS3, HatS4, HatS5, HatS6, HatS7, HatS8⟩, ⟨HatR0, HatR1, HatR2, HatR3, HatR4, HatR5, HatR6, HatR7, HatR8⟩, #HrBY, #HrBX, #HrS, #HrR, HtBY, HtBX, ⟨HtR0, HtR1, HtR2, HtR3, HtR4, HtR5, HtR6, HtR7, HtR8⟩, ⟨HtS0, HtS1, HtS2, HtS3, HtS4, HtS5, HtS6, HtS7, HtS8⟩⟩, HcB, ⟨HcR0, HcR1, HcR2, HcR3, HcR4, HcR5, HcR6, HcR7, HcR8⟩, #Hlev⟩, ⟨Hw00, Hw01, Hw10, Hw11, Hw20, Hw21⟩, ⟨H1, H2, H3, H4, H5, H6⟩, ⟨⟨%f00, Hs00⟩, ⟨%f01, Hs01⟩, ⟨%f02, Hs02⟩⟩, ⟨⟨%f10, Hs10⟩, ⟨%f11, Hs11⟩, ⟨%f12, Hs12⟩⟩, ⟨%f2, Hs2⟩, ⟨%f3, Hs3⟩, ⟨⟨%fs0, Hsrc0⟩, ⟨%fs1, Hsrc1⟩, ⟨%fs2, Hsrc2⟩, ⟨%fs3, Hsrc3⟩, ⟨%fs4, Hsrc4⟩, ⟨%fs5, Hsrc5⟩, ⟨%fs6, Hsrc6⟩, ⟨%fs7, Hsrc7⟩, ⟨%fs8, Hsrc8⟩⟩, ⟨⟨%fd0, Hdst0⟩, ⟨%fd1, Hdst1⟩, ⟨%fd2, Hdst2⟩, ⟨%fd3, Hdst3⟩, ⟨%fd4, Hdst4⟩, ⟨%fd5, Hdst5⟩, ⟨%fd6, Hdst6⟩, ⟨%fd7, Hdst7⟩, ⟨%fd8, Hdst8⟩⟩⟩, Ho, ⟨%d0, %g0, %hg0, Hx⟩, ⟨%d1, %g1, %hg1, Hout⟩⟩
  icases HIsnd with ⟨#HIsnd0, #HIsnd1, #HIsnd2, #HIsnd3, #HIsnd4, #HIsnd5, #HIsnd6, #HIsnd7, #HIsnd8⟩
  icases HIrcv with ⟨#HIrcv0, #HIrcv1, #HIrcv2, #HIrcv3, #HIrcv4, #HIrcv5, #HIrcv6, #HIrcv7, #HIrcv8⟩
  icases HIrcvP with ⟨#HIrcvP0, #HIrcvP1, #HIrcvP2, #HIrcvP3, #HIrcvP4, #HIrcvP5, #HIrcvP6, #HIrcvP7, #HIrcvP8⟩
  icases HrS with ⟨#HrS0, #HrS1, #HrS2, #HrS3, #HrS4, #HrS5, #HrS6, #HrS7, #HrS8⟩
  icases HrR with ⟨#HrR0, #HrR1, #HrR2, #HrR3, #HrR4, #HrR5, #HrR6, #HrR7, #HrR8⟩
  have hx0 : (dats (SVs m) (OUTs m) m 0 c).before (0 : Fin 2) t₀ d0 = xin m c := by
    unfold Dat.before; rw [if_pos (fetch0_0 t₀)]; rfl
  rw [hx0] at hg0; subst hg0
  ihave Hx := (Entails.of_eq (held_eq' c cc0_stg0_0 (xin m c)).symm) $$ Hx
  ihave Hout := (Entails.of_eq (held_eq' c cc0_stg1_0 g1).symm) $$ Hout
  unfold Dat.owesAt Pipeline.owesWithin
  icases Ho with ⟨%W, %hW, HO⟩
  rw [show (dats (SVs m) (OUTs m) m 0 c).owed t₀.castSucc = O₀ c from rfl, ← Oafter_zero]
  -- the local weight copies' waits happen while the device still owes: their cells sit at the lowest level
  have hmw : ∀ (q : DmaSem sig) (k : ℕ), q.val < 8 → ((levAts L lv : sProp 𝕄) ⊢ MayWait (c : Thread nD τ) (.dma q) () (Oafter c k)) :=
    fun q k hq => mayWait_lo c q (fun t => by
      simp only [semTag]
      split_ifs <;> first | omega | (intro h; cases h)) k
  unfold theBody
  sl_unfold [cc0_body]
  -- the six local weight copies, then the FIRST entry signal: the device's six landing slots for the hidden chunks go to the second-axis peer
  sl_exec_parts
  iapply (step_sigY (SVs m) K c _ (dev1_eq c) rfl _ fd0 fd1 fd2 fd3 fd4 fd5) $$ [HO HtBY Hdst0 Hdst1 Hdst2 Hdst3 Hdst4 Hdst5]
  · isplitr; · iexact HIbarY
    isplitl [HO]; · iexact HO
    isplitl [HtBY]; · iexact HtBY
    isplitl [Hdst0 Hdst1 Hdst2 Hdst3 Hdst4 Hdst5]
    · isplitl [Hdst0]; · iexact Hdst0
      isplitl [Hdst1]; · iexact Hdst1
      isplitl [Hdst2]; · iexact Hdst2
      isplitl [Hdst3]; · iexact Hdst3
      isplitl [Hdst4]; · iexact Hdst4
      iexact Hdst5
    isplitr
    · isplitr; · iexact HrR0
      isplitr; · iexact HrR1
      isplitr; · iexact HrR2
      isplitr; · iexact HrR3
      isplitr; · iexact HrR4
      iexact HrR5
    iexact HrBY
  iintro HO
  try (rw [wp_ret]; imodintro)
  -- the SECOND entry signal: the device's three landing slots for the partial outputs go to the first-axis peer
  sl_exec_parts
  iapply (step_sigX (SVs m) K c _ (dev2_eq c) rfl _ fd6 fd7 fd8) $$ [HO HtBX Hdst6 Hdst7 Hdst8]
  · isplitr; · iexact HIbarX
    isplitl [HO]; · iexact HO
    isplitl [HtBX]; · iexact HtBX
    isplitl [Hdst6 Hdst7 Hdst8]
    · isplitl [Hdst6]; · iexact Hdst6
      isplitl [Hdst7]; · iexact Hdst7
      iexact Hdst8
    isplitr
    · isplitr; · iexact HrR6
      isplitr; · iexact HrR7
      iexact HrR8
    iexact HrBX
  iintro HO
  try (rw [wp_ret]; imodintro)
  -- layer 0 up to the first chunk's store, then the WAIT for both peers' entry signals: their landing slots come with it
  sl_exec_parts
  iapply (step_waitBar (SVs m) K c rfl _) $$ [HcB HO HatB]
  · isplitr; · iexact HIbar
    isplitl [HcB]; · iexact HcB
    isplitl [HO]; · iexact HO
    isplitr; · iexact Hlev
    iexact HatB
  unfold barPayY barPayX slotOf
  iintro ⟨HO, HatB, -, ⟨⟨⟨%gp0, Hp0⟩, #HrP0⟩, ⟨⟨%gp1, Hp1⟩, #HrP1⟩, ⟨⟨%gp2, Hp2⟩, #HrP2⟩, ⟨⟨%gp3, Hp3⟩, #HrP3⟩, ⟨⟨%gp4, Hp4⟩, #HrP4⟩, ⟨⟨%gp5, Hp5⟩, #HrP5⟩⟩, ⟨⟨⟨%gp6, Hp6⟩, #HrP6⟩, ⟨⟨%gp7, Hp7⟩, #HrP7⟩, ⟨⟨%gp8, Hp8⟩, #HrP8⟩⟩⟩
  try (rw [wp_ret]; imodintro)
  -- transfer 0: its source slot to the second-axis peer's landing slot
  sl_exec_parts
  iapply (step_send' (SVs m) K 0 c _ (dev3_eq c) _ gp0 _ (Oafter c 2) (Oafter c 3) (Oafter_peel2 c)) $$ [Hsrc0 Hp0 HO HtS0 HtR0]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent0]
      show _ = svH (st0 m c) (ValueIdx.ix2 i j)
      unfold svH; rw [cast_11ab_ab]
      all_goals (refine congrFun ?_ _; rfl)
    isplitr; · iexact HIsnd0
    isplitr; · iexact HIrcvP0
    isplitl [Hsrc0]; · iexact Hsrc0
    isplitl [Hp0]; · iexact Hp0
    isplitl [HO]; · iexact HO
    isplitl [HtS0]; · iexact HtS0
    isplitr; · iexact HrS0
    isplitl [HtR0]; · iexact HtR0
    iexact HrP0
  iintro ⟨HcS0, HO⟩
  try (rw [wp_ret]; imodintro)
  -- transfer 1: its source slot to the second-axis peer's landing slot
  sl_exec_parts
  iapply (step_send' (SVs m) K 1 c _ (dev4_eq c) _ gp1 _ (Oafter c 3) (Oafter c 4) (Oafter_peel3 c)) $$ [Hsrc1 Hp1 HO HtS1 HtR1]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent1]
      show _ = svH (st1 m c) (ValueIdx.ix2 i j)
      unfold svH; rw [cast_11ab_ab]
      all_goals (refine congrFun ?_ _; rfl)
    isplitr; · iexact HIsnd1
    isplitr; · iexact HIrcvP1
    isplitl [Hsrc1]; · iexact Hsrc1
    isplitl [Hp1]; · iexact Hp1
    isplitl [HO]; · iexact HO
    isplitl [HtS1]; · iexact HtS1
    isplitr; · iexact HrS1
    isplitl [HtR1]; · iexact HtR1
    iexact HrP1
  iintro ⟨HcS1, HO⟩
  try (rw [wp_ret]; imodintro)
  -- the wait on transfer 0's send cell: the source slot back
  sl_exec_parts
  iapply (step_waitSend (SVs m) K 0 c _ (Oafter c 4) (by decide)) $$ [HcS0 HO HatS0]
  · isplitr; · iexact HIsnd0
    isplitl [HcS0]; · iexact HcS0
    isplitl [HO]; · iexact HO
    isplitr; · (iapply (mayWait_lo c (sendS 0) (fun t' => by rw [semTag_send]; intro h; cases h) 4)); iexact Hlev
    iexact HatS0
  unfold sendPay
  iintro ⟨HO, HatS0, -, ⟨%fsb0, Hsrc0⟩⟩
  try (rw [wp_ret]; imodintro)
  -- the wait on transfer 0's receive cell: the landing slot holding the peer's value
  sl_exec_parts
  iapply (step_waitRecv (SVs m) K 0 c _ (Oafter c 4) (by decide)) $$ [HcR0 HO HatR0]
  · isplitr; · iexact HIrcv0
    isplitl [HcR0]; · iexact HcR0
    isplitl [HO]; · iexact HO
    isplitr; · (iapply (mayWait_recv0 c)); iexact Hlev
    iexact HatR0
  unfold recvPay
  iintro ⟨HO, HatR0, -, ⟨%gr0, Hdst0, %hr0⟩⟩
  try (rw [wp_ret]; imodintro)
  have hld0 : View.readAt (Elt F) (Memref.whole cc0_scratch6).view (Rect.unit (s := S3x2x64x512) ![0, 0, 0, 0] S1x1x64x512.size inb_S3x2x64x512_S1x1x64x512_0_0_0_0).toLoadRect gr0 = rvH (sv0 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv0, hr0]
    unfold rvH; rw [cast_ab_11ab]; rfl
  -- the wait on transfer 1's send cell: the source slot back
  sl_exec_parts
  iapply (step_waitSend (SVs m) K 1 c _ (Oafter c 4) (by decide)) $$ [HcS1 HO HatS1]
  · isplitr; · iexact HIsnd1
    isplitl [HcS1]; · iexact HcS1
    isplitl [HO]; · iexact HO
    isplitr; · (iapply (mayWait_lo c (sendS 1) (fun t' => by rw [semTag_send]; intro h; cases h) 4)); iexact Hlev
    iexact HatS1
  unfold sendPay
  iintro ⟨HO, HatS1, -, ⟨%fsb1, Hsrc1⟩⟩
  try (rw [wp_ret]; imodintro)
  -- the wait on transfer 1's receive cell: the landing slot holding the peer's value
  sl_exec_parts
  iapply (step_waitRecv (SVs m) K 1 c _ (Oafter c 4) (by decide)) $$ [HcR1 HO HatR1]
  · isplitr; · iexact HIrcv1
    isplitl [HcR1]; · iexact HcR1
    isplitl [HO]; · iexact HO
    isplitr; · (iapply (mayWait_recv1 c)); iexact Hlev
    iexact HatR1
  unfold recvPay
  iintro ⟨HO, HatR1, -, ⟨%gr1, Hdst1, %hr1⟩⟩
  try (rw [wp_ret]; imodintro)
  have hld1 : View.readAt (Elt F) (Memref.whole cc0_scratch6).view (Rect.unit (s := S3x2x64x512) ![0, 1, 0, 0] S1x1x64x512.size inb_S3x2x64x512_S1x1x64x512_0_1_0_0).toLoadRect gr1 = rvH (sv1 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv1, hr1]
    unfold rvH; rw [cast_ab_11ab]; rfl
  -- transfer 6: its source slot to the first-axis peer's landing slot
  sl_exec_parts
  iapply (step_send' (SVs m) K 6 c _ (dev5_eq c) _ gp6 _ (Oafter c 4) (Oafter c 5) (Oafter_peel4 c)) $$ [Hsrc6 Hp6 HO HtS6 HtR6]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent6]
      show _ = svX (st6 m c) (ValueIdx.ix2 i j)
      unfold svX; rw [cast_1ab_ab]
      all_goals (refine congrFun ?_ _; simp only [hld0, hld1]; rfl)
    isplitr; · iexact HIsnd6
    isplitr; · iexact HIrcvP6
    isplitl [Hsrc6]; · iexact Hsrc6
    isplitl [Hp6]; · iexact Hp6
    isplitl [HO]; · iexact HO
    isplitl [HtS6]; · iexact HtS6
    isplitr; · iexact HrS6
    isplitl [HtR6]; · iexact HtR6
    iexact HrP6
  iintro ⟨HcS6, HO⟩
  try (rw [wp_ret]; imodintro)
  -- the wait on transfer 6's send cell: the source slot back
  sl_exec_parts
  iapply (step_waitSend (SVs m) K 6 c _ (Oafter c 5) (by decide)) $$ [HcS6 HO HatS6]
  · isplitr; · iexact HIsnd6
    isplitl [HcS6]; · iexact HcS6
    isplitl [HO]; · iexact HO
    isplitr; · (iapply (mayWait_lo c (sendS 6) (fun t' => by rw [semTag_send]; intro h; cases h) 5)); iexact Hlev
    iexact HatS6
  unfold sendPay
  iintro ⟨HO, HatS6, -, ⟨%fsb6, Hsrc6⟩⟩
  try (rw [wp_ret]; imodintro)
  -- the wait on transfer 6's receive cell: the landing slot holding the peer's value
  sl_exec_parts
  iapply (step_waitRecv (SVs m) K 6 c _ (Oafter c 5) (by decide)) $$ [HcR6 HO HatR6]
  · isplitr; · iexact HIrcv6
    isplitl [HcR6]; · iexact HcR6
    isplitl [HO]; · iexact HO
    isplitr; · (iapply (mayWait_recv6 c)); iexact Hlev
    iexact HatR6
  unfold recvPay
  iintro ⟨HO, HatR6, -, ⟨%gr6, Hdst6, %hr6⟩⟩
  try (rw [wp_ret]; imodintro)
  have hld6 : View.readAt (Elt F) (Memref.whole cc0_scratch7).view (Rect.unit (s := S3x64x512) ![0, 0, 0] S1x64x512.size inb_S3x64x512_S1x64x512_0_0_0).toLoadRect gr6 = rvX (sv6 m (xp c)) := by
    funext y
    obtain ⟨u, i, j, rfl⟩ : ∃ (u : Fin 1) (i : Fin 64) (j : Fin 512), y = ValueIdx.ix3 u i j := ⟨y 0, y 1, y 2, ValueIdx.eq_ix3 y⟩
    obtain rfl : u = 0 := Subsingleton.elim _ _
    rw [read_recv6, hr6]
    unfold rvX; rw [cast_ab_1ab]; rfl
  -- transfer 2: its source slot to the second-axis peer's landing slot
  sl_exec_parts
  iapply (step_send' (SVs m) K 2 c _ (dev6_eq c) _ gp2 _ (Oafter c 5) (Oafter c 6) (Oafter_peel5 c)) $$ [Hsrc2 Hp2 HO HtS2 HtR2]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent2]
      show _ = svH (st2 m c) (ValueIdx.ix2 i j)
      unfold svH; rw [cast_11ab_ab]
      all_goals (refine congrFun ?_ _; simp only [hld0, hld1, hld6]; rfl)
    isplitr; · iexact HIsnd2
    isplitr; · iexact HIrcvP2
    isplitl [Hsrc2]; · iexact Hsrc2
    isplitl [Hp2]; · iexact Hp2
    isplitl [HO]; · iexact HO
    isplitl [HtS2]; · iexact HtS2
    isplitr; · iexact HrS2
    isplitl [HtR2]; · iexact HtR2
    iexact HrP2
  iintro ⟨HcS2, HO⟩
  try (rw [wp_ret]; imodintro)
  -- transfer 3: its source slot to the second-axis peer's landing slot
  sl_exec_parts
  iapply (step_send' (SVs m) K 3 c _ (dev7_eq c) _ gp3 _ (Oafter c 6) (Oafter c 7) (Oafter_peel6 c)) $$ [Hsrc3 Hp3 HO HtS3 HtR3]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent3]
      show _ = svH (st3 m c) (ValueIdx.ix2 i j)
      unfold svH; rw [cast_11ab_ab]
      all_goals (refine congrFun ?_ _; simp only [hld0, hld1, hld6]; rfl)
    isplitr; · iexact HIsnd3
    isplitr; · iexact HIrcvP3
    isplitl [Hsrc3]; · iexact Hsrc3
    isplitl [Hp3]; · iexact Hp3
    isplitl [HO]; · iexact HO
    isplitl [HtS3]; · iexact HtS3
    isplitr; · iexact HrS3
    isplitl [HtR3]; · iexact HtR3
    iexact HrP3
  iintro ⟨HcS3, HO⟩
  try (rw [wp_ret]; imodintro)
  -- the wait on transfer 2's send cell: the source slot back
  sl_exec_parts
  iapply (step_waitSend (SVs m) K 2 c _ (Oafter c 7) (by decide)) $$ [HcS2 HO HatS2]
  · isplitr; · iexact HIsnd2
    isplitl [HcS2]; · iexact HcS2
    isplitl [HO]; · iexact HO
    isplitr; · (iapply (mayWait_lo c (sendS 2) (fun t' => by rw [semTag_send]; intro h; cases h) 7)); iexact Hlev
    iexact HatS2
  unfold sendPay
  iintro ⟨HO, HatS2, -, ⟨%fsb2, Hsrc2⟩⟩
  try (rw [wp_ret]; imodintro)
  -- the wait on transfer 2's receive cell: the landing slot holding the peer's value
  sl_exec_parts
  iapply (step_waitRecv (SVs m) K 2 c _ (Oafter c 7) (by decide)) $$ [HcR2 HO HatR2]
  · isplitr; · iexact HIrcv2
    isplitl [HcR2]; · iexact HcR2
    isplitl [HO]; · iexact HO
    isplitr; · (iapply (mayWait_recv2 c)); iexact Hlev
    iexact HatR2
  unfold recvPay
  iintro ⟨HO, HatR2, -, ⟨%gr2, Hdst2, %hr2⟩⟩
  try (rw [wp_ret]; imodintro)
  have hld2 : View.readAt (Elt F) (Memref.whole cc0_scratch6).view (Rect.unit (s := S3x2x64x512) ![1, 0, 0, 0] S1x1x64x512.size inb_S3x2x64x512_S1x1x64x512_1_0_0_0).toLoadRect gr2 = rvH (sv2 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv2, hr2]
    unfold rvH; rw [cast_ab_11ab]; rfl
  -- the wait on transfer 3's send cell: the source slot back
  sl_exec_parts
  iapply (step_waitSend (SVs m) K 3 c _ (Oafter c 7) (by decide)) $$ [HcS3 HO HatS3]
  · isplitr; · iexact HIsnd3
    isplitl [HcS3]; · iexact HcS3
    isplitl [HO]; · iexact HO
    isplitr; · (iapply (mayWait_lo c (sendS 3) (fun t' => by rw [semTag_send]; intro h; cases h) 7)); iexact Hlev
    iexact HatS3
  unfold sendPay
  iintro ⟨HO, HatS3, -, ⟨%fsb3, Hsrc3⟩⟩
  try (rw [wp_ret]; imodintro)
  -- the wait on transfer 3's receive cell: the landing slot holding the peer's value
  sl_exec_parts
  iapply (step_waitRecv (SVs m) K 3 c _ (Oafter c 7) (by decide)) $$ [HcR3 HO HatR3]
  · isplitr; · iexact HIrcv3
    isplitl [HcR3]; · iexact HcR3
    isplitl [HO]; · iexact HO
    isplitr; · (iapply (mayWait_recv3 c)); iexact Hlev
    iexact HatR3
  unfold recvPay
  iintro ⟨HO, HatR3, -, ⟨%gr3, Hdst3, %hr3⟩⟩
  try (rw [wp_ret]; imodintro)
  have hld3 : View.readAt (Elt F) (Memref.whole cc0_scratch6).view (Rect.unit (s := S3x2x64x512) ![1, 1, 0, 0] S1x1x64x512.size inb_S3x2x64x512_S1x1x64x512_1_1_0_0).toLoadRect gr3 = rvH (sv3 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv3, hr3]
    unfold rvH; rw [cast_ab_11ab]; rfl
  -- transfer 7: its source slot to the first-axis peer's landing slot
  sl_exec_parts
  iapply (step_send' (SVs m) K 7 c _ (dev8_eq c) _ gp7 _ (Oafter c 7) (Oafter c 8) (Oafter_peel7 c)) $$ [Hsrc7 Hp7 HO HtS7 HtR7]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent7]
      show _ = svX (st7 m c) (ValueIdx.ix2 i j)
      unfold svX; rw [cast_1ab_ab]
      all_goals (refine congrFun ?_ _; simp only [hld0, hld1, hld6, hld2, hld3]; rfl)
    isplitr; · iexact HIsnd7
    isplitr; · iexact HIrcvP7
    isplitl [Hsrc7]; · iexact Hsrc7
    isplitl [Hp7]; · iexact Hp7
    isplitl [HO]; · iexact HO
    isplitl [HtS7]; · iexact HtS7
    isplitr; · iexact HrS7
    isplitl [HtR7]; · iexact HtR7
    iexact HrP7
  iintro ⟨HcS7, HO⟩
  try (rw [wp_ret]; imodintro)
  -- the wait on transfer 7's send cell: the source slot back
  sl_exec_parts
  iapply (step_waitSend (SVs m) K 7 c _ (Oafter c 8) (by decide)) $$ [HcS7 HO HatS7]
  · isplitr; · iexact HIsnd7
    isplitl [HcS7]; · iexact HcS7
    isplitl [HO]; · iexact HO
    isplitr; · (iapply (mayWait_lo c (sendS 7) (fun t' => by rw [semTag_send]; intro h; cases h) 8)); iexact Hlev
    iexact HatS7
  unfold sendPay
  iintro ⟨HO, HatS7, -, ⟨%fsb7, Hsrc7⟩⟩
  try (rw [wp_ret]; imodintro)
  -- the wait on transfer 7's receive cell: the landing slot holding the peer's value
  sl_exec_parts
  iapply (step_waitRecv (SVs m) K 7 c _ (Oafter c 8) (by decide)) $$ [HcR7 HO HatR7]
  · isplitr; · iexact HIrcv7
    isplitl [HcR7]; · iexact HcR7
    isplitl [HO]; · iexact HO
    isplitr; · (iapply (mayWait_recv7 c)); iexact Hlev
    iexact HatR7
  unfold recvPay
  iintro ⟨HO, HatR7, -, ⟨%gr7, Hdst7, %hr7⟩⟩
  try (rw [wp_ret]; imodintro)
  have hld7 : View.readAt (Elt F) (Memref.whole cc0_scratch7).view (Rect.unit (s := S3x64x512) ![1, 0, 0] S1x64x512.size inb_S3x64x512_S1x64x512_1_0_0).toLoadRect gr7 = rvX (sv7 m (xp c)) := by
    funext y
    obtain ⟨u, i, j, rfl⟩ : ∃ (u : Fin 1) (i : Fin 64) (j : Fin 512), y = ValueIdx.ix3 u i j := ⟨y 0, y 1, y 2, ValueIdx.eq_ix3 y⟩
    obtain rfl : u = 0 := Subsingleton.elim _ _
    rw [read_recv7, hr7]
    unfold rvX; rw [cast_ab_1ab]; rfl
  -- transfer 4: its source slot to the second-axis peer's landing slot
  sl_exec_parts
  iapply (step_send' (SVs m) K 4 c _ (dev9_eq c) _ gp4 _ (Oafter c 8) (Oafter c 9) (Oafter_peel8 c)) $$ [Hsrc4 Hp4 HO HtS4 HtR4]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent4]
      show _ = svH (st4 m c) (ValueIdx.ix2 i j)
      unfold svH; rw [cast_11ab_ab]
      all_goals (refine congrFun ?_ _; simp only [hld0, hld1, hld6, hld2, hld3, hld7]; rfl)
    isplitr; · iexact HIsnd4
    isplitr; · iexact HIrcvP4
    isplitl [Hsrc4]; · iexact Hsrc4
    isplitl [Hp4]; · iexact Hp4
    isplitl [HO]; · iexact HO
    isplitl [HtS4]; · iexact HtS4
    isplitr; · iexact HrS4
    isplitl [HtR4]; · iexact HtR4
    iexact HrP4
  iintro ⟨HcS4, HO⟩
  try (rw [wp_ret]; imodintro)
  -- transfer 5: its source slot to the second-axis peer's landing slot
  sl_exec_parts
  iapply (step_send' (SVs m) K 5 c _ (dev10_eq c) _ gp5 _ (Oafter c 9) (Oafter c 10) (Oafter_peel9 c)) $$ [Hsrc5 Hp5 HO HtS5 HtR5]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent5]
      show _ = svH (st5 m c) (ValueIdx.ix2 i j)
      unfold svH; rw [cast_11ab_ab]
      all_goals (refine congrFun ?_ _; simp only [hld0, hld1, hld6, hld2, hld3, hld7]; rfl)
    isplitr; · iexact HIsnd5
    isplitr; · iexact HIrcvP5
    isplitl [Hsrc5]; · iexact Hsrc5
    isplitl [Hp5]; · iexact Hp5
    isplitl [HO]; · iexact HO
    isplitl [HtS5]; · iexact HtS5
    isplitr; · iexact HrS5
    isplitl [HtR5]; · iexact HtR5
    iexact HrP5
  iintro ⟨HcS5, HO⟩
  try (rw [wp_ret]; imodintro)
  -- the wait on transfer 4's send cell: the source slot back
  sl_exec_parts
  iapply (step_waitSend (SVs m) K 4 c _ (Oafter c 10) (by decide)) $$ [HcS4 HO HatS4]
  · isplitr; · iexact HIsnd4
    isplitl [HcS4]; · iexact HcS4
    isplitl [HO]; · iexact HO
    isplitr; · (iapply (mayWait_lo c (sendS 4) (fun t' => by rw [semTag_send]; intro h; cases h) 10)); iexact Hlev
    iexact HatS4
  unfold sendPay
  iintro ⟨HO, HatS4, -, ⟨%fsb4, Hsrc4⟩⟩
  try (rw [wp_ret]; imodintro)
  -- the wait on transfer 4's receive cell: the landing slot holding the peer's value
  sl_exec_parts
  iapply (step_waitRecv (SVs m) K 4 c _ (Oafter c 10) (by decide)) $$ [HcR4 HO HatR4]
  · isplitr; · iexact HIrcv4
    isplitl [HcR4]; · iexact HcR4
    isplitl [HO]; · iexact HO
    isplitr; · (iapply (mayWait_recv4 c)); iexact Hlev
    iexact HatR4
  unfold recvPay
  iintro ⟨HO, HatR4, -, ⟨%gr4, Hdst4, %hr4⟩⟩
  try (rw [wp_ret]; imodintro)
  have hld4 : View.readAt (Elt F) (Memref.whole cc0_scratch6).view (Rect.unit (s := S3x2x64x512) ![2, 0, 0, 0] S1x1x64x512.size inb_S3x2x64x512_S1x1x64x512_2_0_0_0).toLoadRect gr4 = rvH (sv4 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv4, hr4]
    unfold rvH; rw [cast_ab_11ab]; rfl
  -- the wait on transfer 5's send cell: the source slot back
  sl_exec_parts
  iapply (step_waitSend (SVs m) K 5 c _ (Oafter c 10) (by decide)) $$ [HcS5 HO HatS5]
  · isplitr; · iexact HIsnd5
    isplitl [HcS5]; · iexact HcS5
    isplitl [HO]; · iexact HO
    isplitr; · (iapply (mayWait_lo c (sendS 5) (fun t' => by rw [semTag_send]; intro h; cases h) 10)); iexact Hlev
    iexact HatS5
  unfold sendPay
  iintro ⟨HO, HatS5, -, ⟨%fsb5, Hsrc5⟩⟩
  try (rw [wp_ret]; imodintro)
  -- the wait on transfer 5's receive cell: the landing slot holding the peer's value
  sl_exec_parts
  iapply (step_waitRecv (SVs m) K 5 c _ (Oafter c 10) (by decide)) $$ [HcR5 HO HatR5]
  · isplitr; · iexact HIrcv5
    isplitl [HcR5]; · iexact HcR5
    isplitl [HO]; · iexact HO
    isplitr; · (iapply (mayWait_recv5 c)); iexact Hlev
    iexact HatR5
  unfold recvPay
  iintro ⟨HO, HatR5, -, ⟨%gr5, Hdst5, %hr5⟩⟩
  try (rw [wp_ret]; imodintro)
  have hld5 : View.readAt (Elt F) (Memref.whole cc0_scratch6).view (Rect.unit (s := S3x2x64x512) ![2, 1, 0, 0] S1x1x64x512.size inb_S3x2x64x512_S1x1x64x512_2_1_0_0).toLoadRect gr5 = rvH (sv5 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv5, hr5]
    unfold rvH; rw [cast_ab_11ab]; rfl
  -- transfer 8: its source slot to the first-axis peer's landing slot
  sl_exec_parts
  iapply (step_send' (SVs m) K 8 c _ (dev11_eq c) _ gp8 _ (Oafter c 10) (Oafter c 11) (Oafter_peel10 c)) $$ [Hsrc8 Hp8 HO HtS8 HtR8]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent8]
      show _ = svX (st8 m c) (ValueIdx.ix2 i j)
      unfold svX; rw [cast_1ab_ab]
      all_goals (refine congrFun ?_ _; simp only [hld0, hld1, hld6, hld2, hld3, hld7, hld4, hld5]; rfl)
    isplitr; · iexact HIsnd8
    isplitr; · iexact HIrcvP8
    isplitl [Hsrc8]; · iexact Hsrc8
    isplitl [Hp8]; · iexact Hp8
    isplitl [HO]; · iexact HO
    isplitl [HtS8]; · iexact HtS8
    isplitr; · iexact HrS8
    isplitl [HtR8]; · iexact HtR8
    iexact HrP8
  iintro ⟨HcS8, HO⟩
  try (rw [wp_ret]; imodintro)
  -- the last transfer's two waits: the device owes nothing any more when it waits on these two cells; their payloads are the source slot back and the landing slot
  sl_exec_parts
  ihave Hs8p := (Entails.of_eq (show (bigSep ((sched (SVs m)).duties (sendCell 8 c) 0) fun d => (sched (SVs m)).payload (sendCell 8 c) 0 d) = sendPay 8 c from by
    rw [duties_send, bigSep_singleton, payload_send])) $$ HatS8_pay1
  ihave Hr8p := (Entails.of_eq (show (bigSep ((sched (SVs m)).duties (recvCell 8 c) 0) fun d => (sched (SVs m)).payload (recvCell 8 c) 0 d) = recvPay (SVs m) 8 c from by
    rw [duties_recv, bigSep_singleton, payload_recv])) $$ HatR8_pay1
  unfold sendPay recvPay
  icases Hs8p with ⟨%fsb8, Hsrc8⟩
  icases Hr8p with ⟨%gr8, Hdst8, %hr8⟩
  have hld8 : View.readAt (Elt F) (Memref.whole cc0_scratch7).view (Rect.unit (s := S3x64x512) ![2, 0, 0] S1x64x512.size inb_S3x64x512_S1x64x512_2_0_0).toLoadRect gr8 = rvX (sv8 m (xp c)) := by
    funext y
    obtain ⟨u, i, j, rfl⟩ : ∃ (u : Fin 1) (i : Fin 64) (j : Fin 512), y = ValueIdx.ix3 u i j := ⟨y 0, y 1, y 2, ValueIdx.eq_ix3 y⟩
    obtain rfl : u = 0 := Subsingleton.elim _ _
    rw [read_recv8, hr8]
    unfold rvX; rw [cast_ab_1ab]; rfl
  -- every transfer cell has consumed its one round: close them, their counters at zero are the device's again
  imod (close_send (SVs m) K 0 c) $$ [HatS0] with HzS0
  · isplitr; · iexact HIsnd0
    iexact HatS0
  imod (close_recv (SVs m) K 0 c) $$ [HatR0] with HzR0
  · isplitr; · iexact HIrcv0
    iexact HatR0
  imod (close_send (SVs m) K 1 c) $$ [HatS1] with HzS1
  · isplitr; · iexact HIsnd1
    iexact HatS1
  imod (close_recv (SVs m) K 1 c) $$ [HatR1] with HzR1
  · isplitr; · iexact HIrcv1
    iexact HatR1
  imod (close_send (SVs m) K 2 c) $$ [HatS2] with HzS2
  · isplitr; · iexact HIsnd2
    iexact HatS2
  imod (close_recv (SVs m) K 2 c) $$ [HatR2] with HzR2
  · isplitr; · iexact HIrcv2
    iexact HatR2
  imod (close_send (SVs m) K 3 c) $$ [HatS3] with HzS3
  · isplitr; · iexact HIsnd3
    iexact HatS3
  imod (close_recv (SVs m) K 3 c) $$ [HatR3] with HzR3
  · isplitr; · iexact HIrcv3
    iexact HatR3
  imod (close_send (SVs m) K 4 c) $$ [HatS4] with HzS4
  · isplitr; · iexact HIsnd4
    iexact HatS4
  imod (close_recv (SVs m) K 4 c) $$ [HatR4] with HzR4
  · isplitr; · iexact HIrcv4
    iexact HatR4
  imod (close_send (SVs m) K 5 c) $$ [HatS5] with HzS5
  · isplitr; · iexact HIsnd5
    iexact HatS5
  imod (close_recv (SVs m) K 5 c) $$ [HatR5] with HzR5
  · isplitr; · iexact HIrcv5
    iexact HatR5
  imod (close_send (SVs m) K 6 c) $$ [HatS6] with HzS6
  · isplitr; · iexact HIsnd6
    iexact HatS6
  imod (close_recv (SVs m) K 6 c) $$ [HatR6] with HzR6
  · isplitr; · iexact HIrcv6
    iexact HatR6
  imod (close_send (SVs m) K 7 c) $$ [HatS7] with HzS7
  · isplitr; · iexact HIsnd7
    iexact HatS7
  imod (close_recv (SVs m) K 7 c) $$ [HatR7] with HzR7
  · isplitr; · iexact HIrcv7
    iexact HatR7
  imod (close_send (SVs m) K 8 c) $$ [HatS8] with HzS8
  · isplitr; · iexact HIsnd8
    iexact HatS8
  imod (close_recv (SVs m) K 8 c) $$ [HatR8] with HzR8
  · isplitr; · iexact HIrcv8
    iexact HatR8
  -- the last load, the sum with the peer's partial output, the store of the result block
  sl_exec_parts
  -- the return: the invariant after the point, nothing owed, the two staging buffers
  rw [wp_ret]; imodintro
  unfold bodyPost Φ₁ wsems0 args scratch Dat.owesAt Pipeline.owesWithin
  rw [show (dats (SVs m) (OUTs m) m 0 c).owed t₀.succ = 0 from rfl, Oafter_done]
  simp only [bigSep_fin9]
  isplitl [Hw00 Hw01 Hw10 Hw11 Hw20 Hw21 H1 H2 H3 H4 H5 H6 Hs00 Hs01 Hs02 Hs10 Hs11 Hs12 Hs2 Hs3 Hsrc0 Hsrc1 Hsrc2 Hsrc3 Hsrc4 Hsrc5 Hsrc6 Hsrc7 Hsrc8 Hdst0 Hdst1 Hdst2 Hdst3 Hdst4 Hdst5 Hdst6 Hdst7 Hdst8 HzS0 HzS1 HzS2 HzS3 HzS4 HzS5 HzS6 HzS7 HzS8 HzR0 HzR1 HzR2 HzR3 HzR4 HzR5 HzR6 HzR7 HzR8]
  · isplitl [Hw00 Hw01 Hw10 Hw11 Hw20 Hw21]
    · isplitl [Hw00]; · iexact Hw00
      isplitl [Hw01]; · iexact Hw01
      isplitl [Hw10]; · iexact Hw10
      isplitl [Hw11]; · iexact Hw11
      isplitl [Hw20]; · iexact Hw20
      iexact Hw21
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [Hs00 Hs01 Hs02 Hs10 Hs11 Hs12 Hs2 Hs3 Hsrc0 Hsrc1 Hsrc2 Hsrc3 Hsrc4 Hsrc5 Hsrc6 Hsrc7 Hsrc8 Hdst0 Hdst1 Hdst2 Hdst3 Hdst4 Hdst5 Hdst6 Hdst7 Hdst8]
    · isplitl [Hs00 Hs01 Hs02]
      · isplitl [Hs00]; · (iexists _; iexact Hs00)
        isplitl [Hs01]; · (iexists _; iexact Hs01)
        iexists _; iexact Hs02
      isplitl [Hs10 Hs11 Hs12]
      · isplitl [Hs10]; · (iexists _; iexact Hs10)
        isplitl [Hs11]; · (iexists _; iexact Hs11)
        iexists _; iexact Hs12
      isplitl [Hs2]; · (iexists _; iexact Hs2)
      isplitl [Hs3]; · (iexists _; iexact Hs3)
      isplitl [Hsrc0 Hsrc1 Hsrc2 Hsrc3 Hsrc4 Hsrc5 Hsrc6 Hsrc7 Hsrc8]
      · isplitl [Hsrc0]; · (iexists _; iexact Hsrc0)
        isplitl [Hsrc1]; · (iexists _; iexact Hsrc1)
        isplitl [Hsrc2]; · (iexists _; iexact Hsrc2)
        isplitl [Hsrc3]; · (iexists _; iexact Hsrc3)
        isplitl [Hsrc4]; · (iexists _; iexact Hsrc4)
        isplitl [Hsrc5]; · (iexists _; iexact Hsrc5)
        isplitl [Hsrc6]; · (iexists _; iexact Hsrc6)
        isplitl [Hsrc7]; · (iexists _; iexact Hsrc7)
        iexists _; iexact Hsrc8
      isplitl [Hdst0]; · (iexists _; iexact Hdst0)
      isplitl [Hdst1]; · (iexists _; iexact Hdst1)
      isplitl [Hdst2]; · (iexists _; iexact Hdst2)
      isplitl [Hdst3]; · (iexists _; iexact Hdst3)
      isplitl [Hdst4]; · (iexists _; iexact Hdst4)
      isplitl [Hdst5]; · (iexists _; iexact Hdst5)
      isplitl [Hdst6]; · (iexists _; iexact Hdst6)
      isplitl [Hdst7]; · (iexists _; iexact Hdst7)
      iexists _; iexact Hdst8
    isplitl [HzS0 HzS1 HzS2 HzS3 HzS4 HzS5 HzS6 HzS7 HzS8]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      iexact HzS8
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    isplitl [HzR7]; · iexact HzR7
    iexact HzR8
  isplitl [HO]
  · iexists _
    isplitr
    on_goal 2 => iexact HO
    ipureintro; exact fun _ _ => Or.inl trivial
  isplitl [Hx]
  · iexists _
    isplitr; · (ipureintro; rfl)
    iapply (Entails.of_eq (held_eq' c cc0_stg0_0 (xin m c))); iexact Hx
  iexists _
  isplitr
  on_goal 2 => (iapply (Entails.of_eq (held_eq' c cc0_stg1_0 _)); iexact Hout)
  ipureintro
  sl_unfold_run_names
  first | rw [writes_stg1] | rw [writes_stg1_vec]
  simp only [hld0, hld1, hld2, hld3, hld4, hld5, hld6, hld7, hld8]
  rfl

end Cert.KernelIdealProof

end
-- ==== Proof.LoadCov.lean ====
/-
  What a load reads back from a buffer filled by slot stores. The bf16 weight buffers are
  written one layer's slot at a time and read back a chunk at a time; a chunk of layer `l`
  lies inside layer `l`'s slot and outside every other layer's, so the load reads the payload
  of layer `l`'s store at the chunk's place in the slot, wherever that store sits in the list.
-/
import proofs.«900581_g7700000000000582_dist_mlpseq_tp2d_cs_cs_b64_d512_h1024_v7x_xy2x2_f32_1_alg».proof.Proof.Cells
import Idealize.ShloMosaic.Lib.Pipeline.Value
import Idealize.ShloMosaic.Lib.Pipeline.FrameBody
import Idealize.ShloMosaic.Lib.ValueIdx
import Idealize.ShloMosaic.Lib.Exec

noncomputable section

namespace Cert.KernelIdealProof

open Cert.KernelIdeal Cert.KernelIdeal.Gen
open Idealize.ShloMosaic
open Idealize.ShloMosaic.TcCoe
open Idealize.ShloMosaic.ValueIdx

section Generic

variable {σ : RefSig} {κ : Kind} {sp : Space} {e : EltTy} {Val : EltTy → Type} [∀ e, Nonempty (Val e)]

/-- Leading pieces that miss an index do not show in what the list leaves there. -/
theorem canon_append_of_not_mem {s : Shape} (L₁ L₂ : List (View.Piece Val s e)) (y : s.Idx) (h : ∀ p ∈ L₁, y ∉ p.1.set) :
    View.canon (L₁ ++ L₂) y = View.canon L₂ y := by
  induction L₁ with
  | nil => rfl
  | cons p L ih =>
    rw [List.cons_append, View.canon_cons_of_not_mem p _ (h p List.mem_cons_self)]
    exact ih fun p' hp' => h p' (List.mem_cons_of_mem _ hp')

/-- A slot at leading coordinate `l'` holds no index whose leading coordinate is another. -/
theorem lead_ne_of_mem_slot {d : Fin 3 → ℕ} {a b : ℕ} (l l' : ℕ) (hne : l' ≠ l)
    (inb : ∀ x, (![l', 0, 0] : Fin 3 → ℕ) x + (![1, a, b] : Fin 3 → ℕ) x ≤ (⟨3, d⟩ : Shape).size x) :
    ∀ y ∈ (Rect.unit (s := ⟨3, d⟩) ![l', 0, 0] ![1, a, b] inb).set, (y 0).val ≠ l := by
  intro y hy
  have h0 : l' ≤ (y 0).val ∧ (y 0).val < l' + 1 := (Rect.mem_set_unit.mp hy) 0
  omega

/-- A chunk of the columns of layer `l`'s slot, read back after slot stores of which layer `l`'s is the first
    that reaches leading coordinate `l`: the payload at the chunk's columns. -/
theorem readCov_chunk_cols {d : Fin 3 → ℕ} {a b b' : ℕ} (v : View σ κ sp ⟨3, d⟩ e) (L₁ L₂ : List (View.Piece Val ⟨3, d⟩ e)) (l c : ℕ)
    (inb : ∀ x, (![l, 0, 0] : Fin 3 → ℕ) x + (![1, a, b] : Fin 3 → ℕ) x ≤ (⟨3, d⟩ : Shape).size x)
    (inb' : ∀ x, (![l, 0, c] : Fin 3 → ℕ) x + (![1, a, b'] : Fin 3 → ℕ) x ≤ (⟨3, d⟩ : Shape).size x)
    (q : (⟨3, ![1, a, b]⟩ : Shape).Idx → Val e)
    (h₁ : ∀ p ∈ L₁, ∀ y ∈ p.1.set, (y 0).val ≠ l)
    (k : Fin a) (j : Fin b') (hc : c + j.val < b) :
    v.readCov (L₁ ++ ⟨Rect.unit (s := ⟨3, d⟩) ![l, 0, 0] ![1, a, b] inb, q⟩ :: L₂)
        (Rect.unit (s := ⟨3, d⟩) ![l, 0, c] ![1, a, b'] inb').toLoadRect (ix3 (0 : Fin 1) k j)
      = q (ix3 (0 : Fin 1) k ⟨c + j.val, hc⟩) := by
  rw [View.readCov_eq_canon']
  have hy : (Rect.unit (s := ⟨3, d⟩) ![l, 0, c] ![1, a, b'] inb').toLoadRect.idx (ix3 (0 : Fin 1) k j)
      = (Rect.unit (s := ⟨3, d⟩) ![l, 0, 0] ![1, a, b] inb).emb (ix3 (0 : Fin 1) k ⟨c + j.val, hc⟩) := by
    funext x
    apply Fin.ext
    match x with
    | ⟨0, _⟩ => rfl
    | ⟨1, _⟩ => rfl
    | ⟨2, _⟩ =>
      show c + 1 * j.val = 0 + 1 * (c + j.val)
      omega
  show View.canon _ ((Rect.unit (s := ⟨3, d⟩) ![l, 0, c] ![1, a, b'] inb').toLoadRect.idx (ix3 (0 : Fin 1) k j)) = _
  rw [hy, canon_append_of_not_mem _ _ _ (fun p hp hm => h₁ p hp _ hm (by show l + 1 * 0 = l; omega)), View.canon_cons_emb]

/-- The same for a chunk of the slot's rows. -/
theorem readCov_chunk_rows {d : Fin 3 → ℕ} {a a' b : ℕ} (v : View σ κ sp ⟨3, d⟩ e) (L₁ L₂ : List (View.Piece Val ⟨3, d⟩ e)) (l c : ℕ)
    (inb : ∀ x, (![l, 0, 0] : Fin 3 → ℕ) x + (![1, a, b] : Fin 3 → ℕ) x ≤ (⟨3, d⟩ : Shape).size x)
    (inb' : ∀ x, (![l, c, 0] : Fin 3 → ℕ) x + (![1, a', b] : Fin 3 → ℕ) x ≤ (⟨3, d⟩ : Shape).size x)
    (q : (⟨3, ![1, a, b]⟩ : Shape).Idx → Val e)
    (h₁ : ∀ p ∈ L₁, ∀ y ∈ p.1.set, (y 0).val ≠ l)
    (j : Fin a') (n : Fin b) (hc : c + j.val < a) :
    v.readCov (L₁ ++ ⟨Rect.unit (s := ⟨3, d⟩) ![l, 0, 0] ![1, a, b] inb, q⟩ :: L₂)
        (Rect.unit (s := ⟨3, d⟩) ![l, c, 0] ![1, a', b] inb').toLoadRect (ix3 (0 : Fin 1) j n)
      = q (ix3 (0 : Fin 1) ⟨c + j.val, hc⟩ n) := by
  rw [View.readCov_eq_canon']
  have hy : (Rect.unit (s := ⟨3, d⟩) ![l, c, 0] ![1, a', b] inb').toLoadRect.idx (ix3 (0 : Fin 1) j n)
      = (Rect.unit (s := ⟨3, d⟩) ![l, 0, 0] ![1, a, b] inb).emb (ix3 (0 : Fin 1) ⟨c + j.val, hc⟩ n) := by
    funext x
    apply Fin.ext
    match x with
    | ⟨0, _⟩ => rfl
    | ⟨1, _⟩ =>
      show c + 1 * j.val = 0 + 1 * (c + j.val)
      omega
    | ⟨2, _⟩ => rfl
  show View.canon _ ((Rect.unit (s := ⟨3, d⟩) ![l, c, 0] ![1, a', b] inb').toLoadRect.idx (ix3 (0 : Fin 1) j n)) = _
  rw [hy, canon_append_of_not_mem _ _ _ (fun p hp hm => h₁ p hp _ hm (by show l + 1 * 0 = l; omega)), View.canon_cons_emb]

end Generic

section Positions

variable {σ : RefSig} {κ : Kind} {sp : Space} {e : EltTy} {Val : EltTy → Type} [∀ e, Nonempty (Val e)]

/-- Layer `l`'s store is the last one made. -/
theorem readCov_chunk_cols_hd {d : Fin 3 → ℕ} {a b b' : ℕ} (v : View σ κ sp ⟨3, d⟩ e) (L₂ : List (View.Piece Val ⟨3, d⟩ e)) (l c : ℕ)
    (inb : ∀ x, (![l, 0, 0] : Fin 3 → ℕ) x + (![1, a, b] : Fin 3 → ℕ) x ≤ (⟨3, d⟩ : Shape).size x)
    (inb' : ∀ x, (![l, 0, c] : Fin 3 → ℕ) x + (![1, a, b'] : Fin 3 → ℕ) x ≤ (⟨3, d⟩ : Shape).size x)
    (q : (⟨3, ![1, a, b]⟩ : Shape).Idx → Val e) (k : Fin a) (j : Fin b') (hc : c + j.val < b) :
    v.readCov (⟨Rect.unit (s := ⟨3, d⟩) ![l, 0, 0] ![1, a, b] inb, q⟩ :: L₂) (Rect.unit (s := ⟨3, d⟩) ![l, 0, c] ![1, a, b'] inb').toLoadRect (ix3 (0 : Fin 1) k j) = q (ix3 (0 : Fin 1) k ⟨c + j.val, hc⟩) :=
  readCov_chunk_cols v [] L₂ l c inb inb' q (fun p hp => absurd hp List.not_mem_nil) k j hc

/-- One store to another layer's slot was made after layer `l`'s. -/
theorem readCov_chunk_cols_2nd {d : Fin 3 → ℕ} {a b b' : ℕ} (v : View σ κ sp ⟨3, d⟩ e) (L₂ : List (View.Piece Val ⟨3, d⟩ e)) (l c : ℕ)
    (inb : ∀ x, (![l, 0, 0] : Fin 3 → ℕ) x + (![1, a, b] : Fin 3 → ℕ) x ≤ (⟨3, d⟩ : Shape).size x)
    (inb' : ∀ x, (![l, 0, c] : Fin 3 → ℕ) x + (![1, a, b'] : Fin 3 → ℕ) x ≤ (⟨3, d⟩ : Shape).size x)
    (q : (⟨3, ![1, a, b]⟩ : Shape).Idx → Val e)
    (l₁ : ℕ) (hl₁ : l₁ ≠ l) (inb₁ : ∀ x, (![l₁, 0, 0] : Fin 3 → ℕ) x + (![1, a, b] : Fin 3 → ℕ) x ≤ (⟨3, d⟩ : Shape).size x)
    (q₁ : (⟨3, ![1, a, b]⟩ : Shape).Idx → Val e) (k : Fin a) (j : Fin b') (hc : c + j.val < b) :
    v.readCov (⟨Rect.unit (s := ⟨3, d⟩) ![l₁, 0, 0] ![1, a, b] inb₁, q₁⟩ :: ⟨Rect.unit (s := ⟨3, d⟩) ![l, 0, 0] ![1, a, b] inb, q⟩ :: L₂) (Rect.unit (s := ⟨3, d⟩) ![l, 0, c] ![1, a, b'] inb').toLoadRect (ix3 (0 : Fin 1) k j) = q (ix3 (0 : Fin 1) k ⟨c + j.val, hc⟩) :=
  readCov_chunk_cols v [⟨Rect.unit (s := ⟨3, d⟩) ![l₁, 0, 0] ![1, a, b] inb₁, q₁⟩] L₂ l c inb inb' q
    (List.forall_mem_singleton.mpr (lead_ne_of_mem_slot l l₁ hl₁ inb₁)) k j hc

/-- Two stores to other layers' slots were made after layer `l`'s. -/
theorem readCov_chunk_cols_3rd {d : Fin 3 → ℕ} {a b b' : ℕ} (v : View σ κ sp ⟨3, d⟩ e) (L₂ : List (View.Piece Val ⟨3, d⟩ e)) (l c : ℕ)
    (inb : ∀ x, (![l, 0, 0] : Fin 3 → ℕ) x + (![1, a, b] : Fin 3 → ℕ) x ≤ (⟨3, d⟩ : Shape).size x)
    (inb' : ∀ x, (![l, 0, c] : Fin 3 → ℕ) x + (![1, a, b'] : Fin 3 → ℕ) x ≤ (⟨3, d⟩ : Shape).size x)
    (q : (⟨3, ![1, a, b]⟩ : Shape).Idx → Val e)
    (l₁ : ℕ) (hl₁ : l₁ ≠ l) (inb₁ : ∀ x, (![l₁, 0, 0] : Fin 3 → ℕ) x + (![1, a, b] : Fin 3 → ℕ) x ≤ (⟨3, d⟩ : Shape).size x)
    (q₁ : (⟨3, ![1, a, b]⟩ : Shape).Idx → Val e)
    (l₂ : ℕ) (hl₂ : l₂ ≠ l) (inb₂ : ∀ x, (![l₂, 0, 0] : Fin 3 → ℕ) x + (![1, a, b] : Fin 3 → ℕ) x ≤ (⟨3, d⟩ : Shape).size x)
    (q₂ : (⟨3, ![1, a, b]⟩ : Shape).Idx → Val e) (k : Fin a) (j : Fin b') (hc : c + j.val < b) :
    v.readCov (⟨Rect.unit (s := ⟨3, d⟩) ![l₁, 0, 0] ![1, a, b] inb₁, q₁⟩ :: ⟨Rect.unit (s := ⟨3, d⟩) ![l₂, 0, 0] ![1, a, b] inb₂, q₂⟩ :: ⟨Rect.unit (s := ⟨3, d⟩) ![l, 0, 0] ![1, a, b] inb, q⟩ :: L₂) (Rect.unit (s := ⟨3, d⟩) ![l, 0, c] ![1, a, b'] inb').toLoadRect (ix3 (0 : Fin 1) k j) = q (ix3 (0 : Fin 1) k ⟨c + j.val, hc⟩) :=
  readCov_chunk_cols v [⟨Rect.unit (s := ⟨3, d⟩) ![l₁, 0, 0] ![1, a, b] inb₁, q₁⟩, ⟨Rect.unit (s := ⟨3, d⟩) ![l₂, 0, 0] ![1, a, b] inb₂, q₂⟩] L₂ l c inb inb' q
    (List.forall_mem_cons.mpr ⟨lead_ne_of_mem_slot l l₁ hl₁ inb₁, List.forall_mem_singleton.mpr (lead_ne_of_mem_slot l l₂ hl₂ inb₂)⟩) k j hc

/-- Layer `l`'s store is the last one made. -/
theorem readCov_chunk_rows_hd {d : Fin 3 → ℕ} {a a' b : ℕ} (v : View σ κ sp ⟨3, d⟩ e) (L₂ : List (View.Piece Val ⟨3, d⟩ e)) (l c : ℕ)
    (inb : ∀ x, (![l, 0, 0] : Fin 3 → ℕ) x + (![1, a, b] : Fin 3 → ℕ) x ≤ (⟨3, d⟩ : Shape).size x)
    (inb' : ∀ x, (![l, c, 0] : Fin 3 → ℕ) x + (![1, a', b] : Fin 3 → ℕ) x ≤ (⟨3, d⟩ : Shape).size x)
    (q : (⟨3, ![1, a, b]⟩ : Shape).Idx → Val e) (j : Fin a') (n : Fin b) (hc : c + j.val < a) :
    v.readCov (⟨Rect.unit (s := ⟨3, d⟩) ![l, 0, 0] ![1, a, b] inb, q⟩ :: L₂) (Rect.unit (s := ⟨3, d⟩) ![l, c, 0] ![1, a', b] inb').toLoadRect (ix3 (0 : Fin 1) j n) = q (ix3 (0 : Fin 1) ⟨c + j.val, hc⟩ n) :=
  readCov_chunk_rows v [] L₂ l c inb inb' q (fun p hp => absurd hp List.not_mem_nil) j n hc

/-- One store to another layer's slot was made after layer `l`'s. -/
theorem readCov_chunk_rows_2nd {d : Fin 3 → ℕ} {a a' b : ℕ} (v : View σ κ sp ⟨3, d⟩ e) (L₂ : List (View.Piece Val ⟨3, d⟩ e)) (l c : ℕ)
    (inb : ∀ x, (![l, 0, 0] : Fin 3 → ℕ) x + (![1, a, b] : Fin 3 → ℕ) x ≤ (⟨3, d⟩ : Shape).size x)
    (inb' : ∀ x, (![l, c, 0] : Fin 3 → ℕ) x + (![1, a', b] : Fin 3 → ℕ) x ≤ (⟨3, d⟩ : Shape).size x)
    (q : (⟨3, ![1, a, b]⟩ : Shape).Idx → Val e)
    (l₁ : ℕ) (hl₁ : l₁ ≠ l) (inb₁ : ∀ x, (![l₁, 0, 0] : Fin 3 → ℕ) x + (![1, a, b] : Fin 3 → ℕ) x ≤ (⟨3, d⟩ : Shape).size x)
    (q₁ : (⟨3, ![1, a, b]⟩ : Shape).Idx → Val e) (j : Fin a') (n : Fin b) (hc : c + j.val < a) :
    v.readCov (⟨Rect.unit (s := ⟨3, d⟩) ![l₁, 0, 0] ![1, a, b] inb₁, q₁⟩ :: ⟨Rect.unit (s := ⟨3, d⟩) ![l, 0, 0] ![1, a, b] inb, q⟩ :: L₂) (Rect.unit (s := ⟨3, d⟩) ![l, c, 0] ![1, a', b] inb').toLoadRect (ix3 (0 : Fin 1) j n) = q (ix3 (0 : Fin 1) ⟨c + j.val, hc⟩ n) :=
  readCov_chunk_rows v [⟨Rect.unit (s := ⟨3, d⟩) ![l₁, 0, 0] ![1, a, b] inb₁, q₁⟩] L₂ l c inb inb' q
    (List.forall_mem_singleton.mpr (lead_ne_of_mem_slot l l₁ hl₁ inb₁)) j n hc

/-- Two stores to other layers' slots were made after layer `l`'s. -/
theorem readCov_chunk_rows_3rd {d : Fin 3 → ℕ} {a a' b : ℕ} (v : View σ κ sp ⟨3, d⟩ e) (L₂ : List (View.Piece Val ⟨3, d⟩ e)) (l c : ℕ)
    (inb : ∀ x, (![l, 0, 0] : Fin 3 → ℕ) x + (![1, a, b] : Fin 3 → ℕ) x ≤ (⟨3, d⟩ : Shape).size x)
    (inb' : ∀ x, (![l, c, 0] : Fin 3 → ℕ) x + (![1, a', b] : Fin 3 → ℕ) x ≤ (⟨3, d⟩ : Shape).size x)
    (q : (⟨3, ![1, a, b]⟩ : Shape).Idx → Val e)
    (l₁ : ℕ) (hl₁ : l₁ ≠ l) (inb₁ : ∀ x, (![l₁, 0, 0] : Fin 3 → ℕ) x + (![1, a, b] : Fin 3 → ℕ) x ≤ (⟨3, d⟩ : Shape).size x)
    (q₁ : (⟨3, ![1, a, b]⟩ : Shape).Idx → Val e)
    (l₂ : ℕ) (hl₂ : l₂ ≠ l) (inb₂ : ∀ x, (![l₂, 0, 0] : Fin 3 → ℕ) x + (![1, a, b] : Fin 3 → ℕ) x ≤ (⟨3, d⟩ : Shape).size x)
    (q₂ : (⟨3, ![1, a, b]⟩ : Shape).Idx → Val e) (j : Fin a') (n : Fin b) (hc : c + j.val < a) :
    v.readCov (⟨Rect.unit (s := ⟨3, d⟩) ![l₁, 0, 0] ![1, a, b] inb₁, q₁⟩ :: ⟨Rect.unit (s := ⟨3, d⟩) ![l₂, 0, 0] ![1, a, b] inb₂, q₂⟩ :: ⟨Rect.unit (s := ⟨3, d⟩) ![l, 0, 0] ![1, a, b] inb, q⟩ :: L₂) (Rect.unit (s := ⟨3, d⟩) ![l, c, 0] ![1, a', b] inb').toLoadRect (ix3 (0 : Fin 1) j n) = q (ix3 (0 : Fin 1) ⟨c + j.val, hc⟩ n) :=
  readCov_chunk_rows v [⟨Rect.unit (s := ⟨3, d⟩) ![l₁, 0, 0] ![1, a, b] inb₁, q₁⟩, ⟨Rect.unit (s := ⟨3, d⟩) ![l₂, 0, 0] ![1, a, b] inb₂, q₂⟩] L₂ l c inb inb' q
    (List.forall_mem_cons.mpr ⟨lead_ne_of_mem_slot l l₁ hl₁ inb₁, List.forall_mem_singleton.mpr (lead_ne_of_mem_slot l l₂ hl₂ inb₂)⟩) j n hc

end Positions

/-- info: 'Cert.KernelIdealProof.readCov_chunk_cols_3rd' depends on axioms: [propext, Classical.choice, Quot.sound] -/
#guard_msgs in #print axioms readCov_chunk_cols_3rd
/-- info: 'Cert.KernelIdealProof.readCov_chunk_rows_3rd' depends on axioms: [propext, Classical.choice, Quot.sound] -/
#guard_msgs in #print axioms readCov_chunk_rows_3rd

end Cert.KernelIdealProof
end
-- ==== Proof.PayIdeal.lean ====
/-
  The kernel's arithmetic at the ideal values, read at an index. Each value the kernel's body
  computes is a function of the values read before it; here each is read at explicit
  coordinates in plain terms of extended reals: a cast between float types changes no value, a
  shape cast that adds or drops unit axes reads the same coordinates, a matrix product into an
  accumulator is the accumulator plus the sum over the contracted coordinate of the products, and
  the rectifier is the maximum with zero.
-/
import proofs.«900581_g7700000000000582_dist_mlpseq_tp2d_cs_cs_b64_d512_h1024_v7x_xy2x2_f32_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KValue

open Cert.KernelIdeal Cert.KernelIdeal.Gen Idealize.ShloMosaic Idealize.ShloMosaic.ValueIdx

/-! ## Two unit axes added or dropped by a shape cast -/

section Casts
variable {α : Type}

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Casts

/-! ## The one matrix product of the kernel: [64, 512] times [512, 512] -/

theorem lhs_0 (i : S64x512.Idx) (q : dot_S64x512_S512x512_S64x512_1_0_0_1_n_n.contr.Idx) :
    (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem lhs_1 (i : S64x512.Idx) (q : dot_S64x512_S512x512_S64x512_1_0_0_1_n_n.contr.Idx) :
    (dot_S64x512_S512x512_S64x512_1_0_0_1_n_n.lhsIdx i q 1).val = (q ⟨0, by decide⟩).val :=
  dot_S64x512_S512x512_S64x512_1_0_0_1_n_n.lhsIdx_val_of_single rfl i q
theorem rhs_0 (i : S64x512.Idx) (q : dot_S64x512_S512x512_S64x512_1_0_0_1_n_n.contr.Idx) :
    (dot_S64x512_S512x512_S64x512_1_0_0_1_n_n.rhsIdx i q 0).val = (q ⟨0, by decide⟩).val :=
  dot_S64x512_S512x512_S64x512_1_0_0_1_n_n.rhsIdx_val_of_single rfl i q
theorem rhs_1 (i : S64x512.Idx) (q : dot_S64x512_S512x512_S64x512_1_0_0_1_n_n.contr.Idx) :
    (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

/-- The product read at `(i, n)`: the accumulator there plus the sum over the contracted coordinate. -/
theorem matmul_ix {φ₁ φ₂ : FTy} (A : FVec Ideal S64x512 φ₁) (B : FVec Ideal S512x512 φ₂) (acc : FVec Ideal S64x512 .f32)
    (i : Fin 64) (n : Fin 512) :
    matmul dot_S64x512_S512x512_S64x512_1_0_0_1_n_n none A B acc (ix2 i n)
      = acc (ix2 i n) + ∑ j : Fin 512, A (ix2 i j) * B (ix2 j n) := by
  simp only [matmul]
  rw [Ideal.matmul_apply, ← Equiv.sum_comp (contrEquiv1 dot_S64x512_S512x512_S64x512_1_0_0_1_n_n 512 rfl rfl).symm]
  congr 1
  refine Finset.sum_congr rfl fun k _ => ?_
  have hk := contrEquiv1_symm_val dot_S64x512_S512x512_S64x512_1_0_0_1_n_n 512 rfl rfl k
  have el : dot_S64x512_S512x512_S64x512_1_0_0_1_n_n.lhsIdx (ix2 i n) ((contrEquiv1 dot_S64x512_S512x512_S64x512_1_0_0_1_n_n 512 rfl rfl).symm k) = ix2 i k := funext fun a => Fin.ext (by
    match a with
    | ⟨0, _⟩ => exact lhs_0 _ _
    | ⟨1, _⟩ => exact (lhs_1 _ _).trans hk)
  have er : dot_S64x512_S512x512_S64x512_1_0_0_1_n_n.rhsIdx (ix2 i n) ((contrEquiv1 dot_S64x512_S512x512_S64x512_1_0_0_1_n_n 512 rfl rfl).symm k) = ix2 k n := funext fun a => Fin.ext (by
    match a with
    | ⟨0, _⟩ => exact (rhs_0 _ _).trans hk
    | ⟨1, _⟩ => exact rhs_1 _ _)
  rw [el, er]

/-- Into the zero accumulator: just the sum. -/
theorem matmul0_ix {φ₁ φ₂ : FTy} (A : FVec Ideal S64x512 φ₁) (B : FVec Ideal S512x512 φ₂) (i : Fin 64) (n : Fin 512) :
    matmul dot_S64x512_S512x512_S64x512_1_0_0_1_n_n none A B (constant (F := Ideal) S64x512 .f32 0x00000000#32) (ix2 i n)
      = ∑ j : Fin 512, A (ix2 i j) * B (ix2 j n) := by
  rw [matmul_ix, constant_apply, Ideal.ofBits_zero_f32, zero_add]

/-- The scalar zero the rectifier compares with. -/
theorem zero_f32 : (Scalar.ofBits (F := Ideal) .f32 0x00000000#32 : Ideal .f32) = 0 := Ideal.ofBits_zero_f32

/-! ## Each value of the body read at an index -/

theorem pay1_apply (px : FVec Ideal S64x512 .f32) (r : FVec Ideal S1x64x512 .bf16) (i : Fin 64) (n : Fin 512) :
    k0_pay1 (F := Ideal) px r (ix2 i n) = px (ix2 i n) + r (ix3 (0 : Fin 1) i n) := by
  unfold k0_pay1
  simp only [addf_apply, extf_apply, shapeCast_1ab_ab_apply]

theorem pay2_apply (v : FVec Ideal S64x512 .f32) (i : Fin 64) (k : Fin 512) :
    k0_pay2 (F := Ideal) v (ix2 i k) = v (ix2 i k) := by
  unfold k0_pay2
  simp only [truncf_apply, shapeCast_self]

theorem pay3_apply (v : FVec Ideal S1x512x1024 .f32) (k : Fin 512) (j : Fin 1024) :
    k0_pay3 (F := Ideal) v (ix2 k j) = v (ix3 (0 : Fin 1) k j) := by
  unfold k0_pay3
  simp only [truncf_apply, shapeCast_1ab_ab_apply]

theorem pay4_apply (w : FVec Ideal S512x1024 .bf16) (u : Fin 1) (k : Fin 512) (j : Fin 1024) :
    k0_pay4 (F := Ideal) w (ix3 u k j) = w (ix2 k j) := by
  unfold k0_pay4
  simp only [shapeCast_ab_1ab_apply]

theorem pay5_apply (xc : FVec Ideal S64x512 .bf16) (w : FVec Ideal S1x512x512 .bf16) (i : Fin 64) (j : Fin 512) :
    k0_pay5 (F := Ideal) xc w (ix2 i j) = ∑ k : Fin 512, xc (ix2 i k) * w (ix3 (0 : Fin 1) k j) := by
  unfold k0_pay5
  simp only [matmul0_ix, shapeCast_1ab_ab_apply]

theorem pay6_apply (xc : FVec Ideal S64x512 .bf16) (w : FVec Ideal S1x512x512 .bf16) (u v : Fin 1) (i : Fin 64) (j : Fin 512) :
    k0_pay6 (F := Ideal) xc w (ix4 u v i j) = ∑ k : Fin 512, xc (ix2 i k) * w (ix3 (0 : Fin 1) k j) := by
  unfold k0_pay6
  simp only [shapeCast_ab_11ab_apply, truncf_apply, pay5_apply]

theorem pay7_apply (xc : FVec Ideal S64x512 .bf16) (w : FVec Ideal S1x512x512 .bf16) (i : Fin 64) (j : Fin 512) :
    k0_pay7 (F := Ideal) xc w (ix2 i j) = ∑ k : Fin 512, xc (ix2 i k) * w (ix3 (0 : Fin 1) k j) := by
  unfold k0_pay7
  simp only [matmul0_ix, shapeCast_1ab_ab_apply]

theorem pay8_apply (xc : FVec Ideal S64x512 .bf16) (w : FVec Ideal S1x512x512 .bf16) (i : Fin 64) (j : Fin 512) :
    k0_pay8 (F := Ideal) xc w (ix2 i j) = ∑ k : Fin 512, xc (ix2 i k) * w (ix3 (0 : Fin 1) k j) := by
  unfold k0_pay8
  simp only [truncf_apply, pay7_apply]

theorem pay9_apply (v : FVec Ideal S64x512 .bf16) (u u' : Fin 1) (i : Fin 64) (j : Fin 512) :
    k0_pay9 (F := Ideal) v (ix4 u u' i j) = v (ix2 i j) := by
  unfold k0_pay9
  simp only [shapeCast_ab_11ab_apply]

theorem pay10_apply (v : FVec Ideal S1x1024x512 .f32) (u : Fin 1) (j : Fin 1024) (n : Fin 512) :
    k0_pay10 (F := Ideal) v (ix3 u j n) = v (ix3 (0 : Fin 1) j n) := by
  unfold k0_pay10
  simp only [shapeCast_ab_1ab_apply, truncf_apply, shapeCast_1ab_ab_apply]

theorem pay11_apply (ph : FVec Ideal S64x512 .f32) (r : FVec Ideal S1x1x64x512 .bf16) (i : Fin 64) (j : Fin 512) :
    k0_pay11 (F := Ideal) ph r (ix2 i j) = max (ph (ix2 i j) + r (ix4 (0 : Fin 1) (0 : Fin 1) i j)) 0 := by
  unfold k0_pay11
  simp only [truncf_apply, maximumf_apply, addf_apply, extf_apply, broadcast_apply, shapeCast_11ab_ab_apply, zero_f32]

theorem pay12_apply (v : FVec Ideal S1x512x512 .bf16) (j n : Fin 512) :
    k0_pay12 (F := Ideal) v (ix2 j n) = v (ix3 (0 : Fin 1) j n) := by
  unfold k0_pay12
  simp only [shapeCast_1ab_ab_apply]

theorem pay13_apply (h : FVec Ideal S64x512 .bf16) (w : FVec Ideal S512x512 .bf16) (cst : FVec Ideal S64x512 .f32) (i : Fin 64) (n : Fin 512) :
    k0_pay13 (F := Ideal) h w cst (ix2 i n) = cst (ix2 i n) + ∑ j : Fin 512, h (ix2 i j) * w (ix2 j n) := by
  unfold k0_pay13
  simp only [matmul_ix]

/-- Into the zero constant the kernel passes: the sum alone. -/
theorem pay13_zero_apply (h : FVec Ideal S64x512 .bf16) (w : FVec Ideal S512x512 .bf16) (i : Fin 64) (n : Fin 512) :
    k0_pay13 (F := Ideal) h w (constant (F := Ideal) S64x512 .f32 0x00000000#32) (ix2 i n) = ∑ j : Fin 512, h (ix2 i j) * w (ix2 j n) := by
  rw [pay13_apply, constant_apply, Ideal.ofBits_zero_f32, zero_add]

theorem pay14_apply (ph : FVec Ideal S64x512 .f32) (r : FVec Ideal S1x1x64x512 .bf16) (i : Fin 64) (j : Fin 512) :
    k0_pay14 (F := Ideal) ph r (ix2 i j) = max (ph (ix2 i j) + r (ix4 (0 : Fin 1) (0 : Fin 1) i j)) 0 := by
  unfold k0_pay14
  simp only [truncf_apply, maximumf_apply, addf_apply, extf_apply, broadcast_apply, shapeCast_11ab_ab_apply, zero_f32]

theorem pay15_apply (c0 : FVec Ideal S64x512 .f32) (h : FVec Ideal S64x512 .bf16) (w : FVec Ideal S1x512x512 .bf16) (i : Fin 64) (n : Fin 512) :
    k0_pay15 (F := Ideal) c0 h w (ix2 i n) = c0 (ix2 i n) + ∑ j : Fin 512, h (ix2 i j) * w (ix3 (0 : Fin 1) j n) := by
  unfold k0_pay15
  simp only [addf_apply, matmul0_ix, shapeCast_1ab_ab_apply]

theorem pay16_apply (c0 : FVec Ideal S64x512 .f32) (h : FVec Ideal S64x512 .bf16) (w : FVec Ideal S1x512x512 .bf16) (u : Fin 1) (i : Fin 64) (n : Fin 512) :
    k0_pay16 (F := Ideal) c0 h w (ix3 u i n) = c0 (ix2 i n) + ∑ j : Fin 512, h (ix2 i j) * w (ix3 (0 : Fin 1) j n) := by
  unfold k0_pay16
  simp only [shapeCast_ab_1ab_apply, truncf_apply, pay15_apply]

theorem pay17_apply (v : FVec Ideal S1x512x1024 .f32) (k : Fin 512) (j : Fin 1024) :
    k0_pay17 (F := Ideal) v (ix2 k j) = v (ix3 (0 : Fin 1) k j) := by
  unfold k0_pay17
  simp only [truncf_apply, shapeCast_1ab_ab_apply]

theorem pay18_apply (w : FVec Ideal S512x1024 .bf16) (u : Fin 1) (k : Fin 512) (j : Fin 1024) :
    k0_pay18 (F := Ideal) w (ix3 u k j) = w (ix2 k j) := by
  unfold k0_pay18
  simp only [shapeCast_ab_1ab_apply]

theorem pay19_apply (px : FVec Ideal S64x512 .f32) (r : FVec Ideal S1x64x512 .bf16) (i : Fin 64) (n : Fin 512) :
    k0_pay19 (F := Ideal) px r (ix2 i n) = px (ix2 i n) + r (ix3 (0 : Fin 1) i n) := by
  unfold k0_pay19
  simp only [truncf_apply, addf_apply, extf_apply, shapeCast_1ab_ab_apply]

theorem pay20_apply (px : FVec Ideal S64x512 .f32) (r : FVec Ideal S1x64x512 .bf16) (w : FVec Ideal S1x512x512 .bf16) (i : Fin 64) (j : Fin 512) :
    k0_pay20 (F := Ideal) px r w (ix2 i j) = ∑ k : Fin 512, (px (ix2 i k) + r (ix3 (0 : Fin 1) i k)) * w (ix3 (0 : Fin 1) k j) := by
  unfold k0_pay20
  simp only [matmul0_ix, pay19_apply, shapeCast_1ab_ab_apply]

theorem pay21_apply (px : FVec Ideal S64x512 .f32) (r : FVec Ideal S1x64x512 .bf16) (w : FVec Ideal S1x512x512 .bf16) (i : Fin 64) (j : Fin 512) :
    k0_pay21 (F := Ideal) px r w (ix2 i j) = ∑ k : Fin 512, (px (ix2 i k) + r (ix3 (0 : Fin 1) i k)) * w (ix3 (0 : Fin 1) k j) := by
  unfold k0_pay21
  simp only [truncf_apply, pay20_apply]

theorem pay22_apply (v : FVec Ideal S64x512 .bf16) (u u' : Fin 1) (i : Fin 64) (j : Fin 512) :
    k0_pay22 (F := Ideal) v (ix4 u u' i j) = v (ix2 i j) := by
  unfold k0_pay22
  simp only [shapeCast_ab_11ab_apply]

theorem pay23_apply (xc : FVec Ideal S64x512 .bf16) (w : FVec Ideal S1x512x512 .bf16) (i : Fin 64) (j : Fin 512) :
    k0_pay23 (F := Ideal) xc w (ix2 i j) = ∑ k : Fin 512, xc (ix2 i k) * w (ix3 (0 : Fin 1) k j) := by
  unfold k0_pay23
  simp only [matmul0_ix, shapeCast_1ab_ab_apply]

theorem pay24_apply (xc : FVec Ideal S64x512 .bf16) (w : FVec Ideal S1x512x512 .bf16) (u v : Fin 1) (i : Fin 64) (j : Fin 512) :
    k0_pay24 (F := Ideal) xc w (ix4 u v i j) = ∑ k : Fin 512, xc (ix2 i k) * w (ix3 (0 : Fin 1) k j) := by
  unfold k0_pay24
  simp only [shapeCast_ab_11ab_apply, truncf_apply, pay23_apply]

theorem pay25_apply (v : FVec Ideal S1x1024x512 .f32) (u : Fin 1) (j : Fin 1024) (n : Fin 512) :
    k0_pay25 (F := Ideal) v (ix3 u j n) = v (ix3 (0 : Fin 1) j n) := by
  unfold k0_pay25
  simp only [shapeCast_ab_1ab_apply, truncf_apply, shapeCast_1ab_ab_apply]

theorem pay26_apply (c : FVec Ideal S64x512 .f32) (r : FVec Ideal S1x1x64x512 .bf16) (w : FVec Ideal S1x512x512 .bf16) (i : Fin 64) (n : Fin 512) :
    k0_pay26 (F := Ideal) c r w (ix2 i n)
      = ∑ j : Fin 512, max (c (ix2 i j) + r (ix4 (0 : Fin 1) (0 : Fin 1) i j)) 0 * w (ix3 (0 : Fin 1) j n) := by
  unfold k0_pay26
  simp only [matmul0_ix, truncf_apply, maximumf_apply, addf_apply, extf_apply, broadcast_apply, shapeCast_11ab_ab_apply, shapeCast_1ab_ab_apply, zero_f32]

theorem pay27_apply (a acc : FVec Ideal S64x512 .f32) (r : FVec Ideal S1x1x64x512 .bf16) (w : FVec Ideal S1x512x512 .bf16) (i : Fin 64) (n : Fin 512) :
    k0_pay27 (F := Ideal) a acc r w (ix2 i n)
      = acc (ix2 i n) + ∑ j : Fin 512, max (a (ix2 i j) + r (ix4 (0 : Fin 1) (0 : Fin 1) i j)) 0 * w (ix3 (0 : Fin 1) j n) := by
  unfold k0_pay27
  simp only [matmul0_ix, truncf_apply, maximumf_apply, addf_apply, extf_apply, broadcast_apply, shapeCast_11ab_ab_apply, shapeCast_1ab_ab_apply, zero_f32]

theorem pay28_apply (a acc : FVec Ideal S64x512 .f32) (r : FVec Ideal S1x1x64x512 .bf16) (w : FVec Ideal S1x512x512 .bf16) (u : Fin 1) (i : Fin 64) (n : Fin 512) :
    k0_pay28 (F := Ideal) a acc r w (ix3 u i n)
      = acc (ix2 i n) + ∑ j : Fin 512, max (a (ix2 i j) + r (ix4 (0 : Fin 1) (0 : Fin 1) i j)) 0 * w (ix3 (0 : Fin 1) j n) := by
  unfold k0_pay28
  simp only [shapeCast_ab_1ab_apply, truncf_apply, pay27_apply]

theorem pay29_apply (v : FVec Ideal S1x512x1024 .f32) (u : Fin 1) (k : Fin 512) (j : Fin 1024) :
    k0_pay29 (F := Ideal) v (ix3 u k j) = v (ix3 (0 : Fin 1) k j) := by
  unfold k0_pay29
  simp only [shapeCast_ab_1ab_apply, truncf_apply, shapeCast_1ab_ab_apply]

theorem pay30_apply (px : FVec Ideal S64x512 .f32) (r : FVec Ideal S1x64x512 .bf16) (i : Fin 64) (n : Fin 512) :
    k0_pay30 (F := Ideal) px r (ix2 i n) = px (ix2 i n) + r (ix3 (0 : Fin 1) i n) := by
  unfold k0_pay30
  simp only [truncf_apply, addf_apply, extf_apply, shapeCast_1ab_ab_apply]

theorem pay31_apply (px : FVec Ideal S64x512 .f32) (r : FVec Ideal S1x64x512 .bf16) (w : FVec Ideal S1x512x512 .bf16) (i : Fin 64) (j : Fin 512) :
    k0_pay31 (F := Ideal) px r w (ix2 i j) = ∑ k : Fin 512, (px (ix2 i k) + r (ix3 (0 : Fin 1) i k)) * w (ix3 (0 : Fin 1) k j) := by
  unfold k0_pay31
  simp only [matmul0_ix, pay30_apply, shapeCast_1ab_ab_apply]

theorem pay32_apply (px : FVec Ideal S64x512 .f32) (r : FVec Ideal S1x64x512 .bf16) (w : FVec Ideal S1x512x512 .bf16) (u v : Fin 1) (i : Fin 64) (j : Fin 512) :
    k0_pay32 (F := Ideal) px r w (ix4 u v i j) = ∑ k : Fin 512, (px (ix2 i k) + r (ix3 (0 : Fin 1) i k)) * w (ix3 (0 : Fin 1) k j) := by
  unfold k0_pay32
  simp only [shapeCast_ab_11ab_apply, truncf_apply, pay31_apply]

theorem pay33_apply (xc : FVec Ideal S64x512 .bf16) (w : FVec Ideal S1x512x512 .bf16) (i : Fin 64) (j : Fin 512) :
    k0_pay33 (F := Ideal) xc w (ix2 i j) = ∑ k : Fin 512, xc (ix2 i k) * w (ix3 (0 : Fin 1) k j) := by
  unfold k0_pay33
  simp only [matmul0_ix, shapeCast_1ab_ab_apply]

theorem pay34_apply (xc : FVec Ideal S64x512 .bf16) (w : FVec Ideal S1x512x512 .bf16) (u v : Fin 1) (i : Fin 64) (j : Fin 512) :
    k0_pay34 (F := Ideal) xc w (ix4 u v i j) = ∑ k : Fin 512, xc (ix2 i k) * w (ix3 (0 : Fin 1) k j) := by
  unfold k0_pay34
  simp only [shapeCast_ab_11ab_apply, truncf_apply, pay33_apply]

theorem pay35_apply (v : FVec Ideal S1x1024x512 .f32) (u : Fin 1) (j : Fin 1024) (n : Fin 512) :
    k0_pay35 (F := Ideal) v (ix3 u j n) = v (ix3 (0 : Fin 1) j n) := by
  unfold k0_pay35
  simp only [shapeCast_ab_1ab_apply, truncf_apply, shapeCast_1ab_ab_apply]

theorem pay36_apply (c : FVec Ideal S64x512 .f32) (r : FVec Ideal S1x1x64x512 .bf16) (w : FVec Ideal S1x512x512 .bf16) (i : Fin 64) (n : Fin 512) :
    k0_pay36 (F := Ideal) c r w (ix2 i n)
      = ∑ j : Fin 512, max (c (ix2 i j) + r (ix4 (0 : Fin 1) (0 : Fin 1) i j)) 0 * w (ix3 (0 : Fin 1) j n) := by
  unfold k0_pay36
  simp only [matmul0_ix, truncf_apply, maximumf_apply, addf_apply, extf_apply, broadcast_apply, shapeCast_11ab_ab_apply, shapeCast_1ab_ab_apply, zero_f32]

theorem pay37_apply (a acc : FVec Ideal S64x512 .f32) (r : FVec Ideal S1x1x64x512 .bf16) (w : FVec Ideal S1x512x512 .bf16) (i : Fin 64) (n : Fin 512) :
    k0_pay37 (F := Ideal) a acc r w (ix2 i n)
      = acc (ix2 i n) + ∑ j : Fin 512, max (a (ix2 i j) + r (ix4 (0 : Fin 1) (0 : Fin 1) i j)) 0 * w (ix3 (0 : Fin 1) j n) := by
  unfold k0_pay37
  simp only [matmul0_ix, truncf_apply, maximumf_apply, addf_apply, extf_apply, broadcast_apply, shapeCast_11ab_ab_apply, shapeCast_1ab_ab_apply, zero_f32]

theorem pay38_apply (a acc : FVec Ideal S64x512 .f32) (r : FVec Ideal S1x1x64x512 .bf16) (w : FVec Ideal S1x512x512 .bf16) (u : Fin 1) (i : Fin 64) (n : Fin 512) :
    k0_pay38 (F := Ideal) a acc r w (ix3 u i n)
      = acc (ix2 i n) + ∑ j : Fin 512, max (a (ix2 i j) + r (ix4 (0 : Fin 1) (0 : Fin 1) i j)) 0 * w (ix3 (0 : Fin 1) j n) := by
  unfold k0_pay38
  simp only [shapeCast_ab_1ab_apply, truncf_apply, pay37_apply]

/-- info: 'Cert.KValue.pay38_apply' depends on axioms: [propext, Classical.choice, Quot.sound] -/
#guard_msgs in #print axioms pay38_apply

end Cert.KValue

end
-- ==== Proof.MlpMath.lean ====
/-
  The network over the extended reals, with no program in sight: one layer of the
  reference over whole arrays, and the same layer as the four devices of a 2×2 mesh
  compute it from their blocks. A device with mesh coordinates (a, b) holds the
  columns `lo b ·` of the activations, the rows `lo b ·` and columns `col a · ·` of the
  first weight matrix, and the rows `col a · ·` and columns `lo b ·` of the second.
-/
import Mathlib.Data.EReal.Basic
import Mathlib.Algebra.BigOperators.Fin

noncomputable section

namespace Cert.MlpMath

open scoped BigOperators

/-- One layer over whole arrays: relu (x · W) · V. -/
def layer (x : Fin 64 → Fin 1024 → EReal) (W : Fin 1024 → Fin 2048 → EReal) (V : Fin 2048 → Fin 1024 → EReal) :
    Fin 64 → Fin 1024 → EReal :=
  fun i n => ∑ j : Fin 2048, max (∑ k : Fin 1024, x i k * W k j) 0 * V j n

/-- The three layers in sequence. -/
def mlp (X : Fin 64 → Fin 1024 → EReal)
    (W0 : Fin 1024 → Fin 2048 → EReal) (V0 : Fin 2048 → Fin 1024 → EReal)
    (W1 : Fin 1024 → Fin 2048 → EReal) (V1 : Fin 2048 → Fin 1024 → EReal)
    (W2 : Fin 1024 → Fin 2048 → EReal) (V2 : Fin 2048 → Fin 1024 → EReal) : Fin 64 → Fin 1024 → EReal :=
  layer (layer (layer X W0 V0) W1 V1) W2 V2

/-- Entry `k` of block `b` of an axis of 1024 cut in two. -/
def lo (b : Fin 2) (k : Fin 512) : Fin 1024 := ⟨b.val * 512 + k.val, by omega⟩
/-- Entry `j` of chunk `ch` of block `a` of an axis of 2048 cut in two blocks of two chunks. -/
def col (a ch : Fin 2) (j : Fin 512) : Fin 2048 := ⟨a.val * 1024 + ch.val * 512 + j.val, by omega⟩
/-- The other coordinate on a mesh axis of two. -/
def flip (b : Fin 2) : Fin 2 := ⟨1 - b.val, by omega⟩

/-- Device (a, b)'s partial hidden chunk: its activation block times its block of the first weights. -/
def ph (xc : Fin 2 → Fin 2 → Fin 64 → Fin 512 → EReal) (W : Fin 1024 → Fin 2048 → EReal)
    (a b ch : Fin 2) (i : Fin 64) (j : Fin 512) : EReal :=
  ∑ k : Fin 512, xc a b i k * W (lo b k) (col a ch j)

/-- The hidden chunk after the exchange along the second mesh axis and the relu. -/
def hid (xc : Fin 2 → Fin 2 → Fin 64 → Fin 512 → EReal) (W : Fin 1024 → Fin 2048 → EReal)
    (a b ch : Fin 2) (i : Fin 64) (j : Fin 512) : EReal :=
  max (ph xc W a b ch i j + ph xc W a (flip b) ch i j) 0

/-- Device (a, b)'s partial output block: chunk 0's product plus chunk 1's. -/
def px (xc : Fin 2 → Fin 2 → Fin 64 → Fin 512 → EReal) (W : Fin 1024 → Fin 2048 → EReal) (V : Fin 2048 → Fin 1024 → EReal)
    (a b : Fin 2) (i : Fin 64) (n : Fin 512) : EReal :=
  (∑ j : Fin 512, hid xc W a b 0 i j * V (col a 0 j) (lo b n)) + ∑ j : Fin 512, hid xc W a b 1 i j * V (col a 1 j) (lo b n)

/-- The layer as the mesh computes it: the partial output plus the first-axis peer's. -/
def devLayer (xc : Fin 2 → Fin 2 → Fin 64 → Fin 512 → EReal) (W : Fin 1024 → Fin 2048 → EReal) (V : Fin 2048 → Fin 1024 → EReal) :
    Fin 2 → Fin 2 → Fin 64 → Fin 512 → EReal :=
  fun a b i n => px xc W V a b i n + px xc W V (flip a) b i n

/-- The three layers as the mesh computes them, from the devices' blocks of the input. -/
def devMlp (xc : Fin 2 → Fin 2 → Fin 64 → Fin 512 → EReal)
    (W0 : Fin 1024 → Fin 2048 → EReal) (V0 : Fin 2048 → Fin 1024 → EReal)
    (W1 : Fin 1024 → Fin 2048 → EReal) (V1 : Fin 2048 → Fin 1024 → EReal)
    (W2 : Fin 1024 → Fin 2048 → EReal) (V2 : Fin 2048 → Fin 1024 → EReal) : Fin 2 → Fin 2 → Fin 64 → Fin 512 → EReal :=
  devLayer (devLayer (devLayer xc W0 V0) W1 V1) W2 V2

end Cert.MlpMath

end
-- ==== Proof.BlockIdx.lean ====
/-
  How a device's block of an array sits in the whole array, on the 2 × 2 mesh: device `c` has
  mesh coordinates `(cx c, cy c) = (c / 2, c % 2)` (the first mesh axis is the slow one), and an
  array axis cut along a mesh axis gives the device the block its coordinate on that axis names.
  The activations are cut along their columns by the second mesh axis; the first weight matrix
  along its rows by the second and its columns by the first; the second weight matrix along its
  rows by the first and its columns by the second.
-/
import Idealize.ShloMosaic.Lib.Layout
import Idealize.ShloMosaic.Lib.ValueIdx
import proofs.«900581_g7700000000000582_dist_mlpseq_tp2d_cs_cs_b64_d512_h1024_v7x_xy2x2_f32_1_alg».proof.Proof.MlpMath

namespace Cert.BlockIdx

open Idealize.ShloMosaic
open Idealize.ShloMosaic.ValueIdx
open Cert.MlpMath

/-- Device `c`'s coordinate on the first (slow) mesh axis. -/
def cx (c : Fin 4) : Fin 2 := ⟨c.val / 2, by omega⟩
/-- Device `c`'s coordinate on the second (fast) mesh axis. -/
def cy (c : Fin 4) : Fin 2 := ⟨c.val % 2, by omega⟩
/-- The device at mesh coordinates `(a, b)`. -/
def dev (a b : Fin 2) : Fin 4 := ⟨a.val * 2 + b.val, by omega⟩

theorem cx_dev (a b : Fin 2) : cx (dev a b) = a := by revert a b; decide
theorem cy_dev (a b : Fin 2) : cy (dev a b) = b := by revert a b; decide
theorem dev_cx_cy (c : Fin 4) : dev (cx c) (cy c) = c := by revert c; decide
theorem val_eq (c : Fin 4) : c.val = (cx c).val * 2 + (cy c).val := by revert c; decide

/-- Entry `j` of block `a` of an axis of 2048 cut in two. -/
def hi (a : Fin 2) (j : Fin 1024) : Fin 2048 := ⟨a.val * 1024 + j.val, by omega⟩

/-- Entry `j` of chunk `ch` of a block of 1024. -/
def chunk (ch : Fin 2) (j : Fin 512) : Fin 1024 := ⟨ch.val * 512 + j.val, by omega⟩

/-- A block's chunk entry in the whole axis of 2048. -/
theorem hi_chunk (a ch : Fin 2) (j : Fin 512) : hi a (chunk ch j) = col a ch j := by
  apply Fin.ext
  show a.val * 1024 + (ch.val * 512 + j.val) = a.val * 1024 + ch.val * 512 + j.val
  omega

/-- An axis that is not cut is one block. -/
theorem lin_nil (c : Fin 4) : Layout.meshLin [2, 2] c.val [] = 0 := rfl
/-- An axis cut along the first mesh axis: the device holds block `cx c`. -/
theorem lin_x (c : Fin 4) : Layout.meshLin [2, 2] c.val [0] = (cx c).val := by revert c; decide
/-- An axis cut along the second mesh axis: the device holds block `cy c`. -/
theorem lin_y (c : Fin 4) : Layout.meshLin [2, 2] c.val [1] = (cy c).val := by revert c; decide

variable {α : Type}

/-- The device's activation block: all rows, the columns `lo (cy c) ·`. -/
theorem blockX_apply (c : Fin 4) (A : (⟨2, ![64, 1024]⟩ : Shape).Idx → α) (i : Fin 64) (k : Fin 512) :
    (Layout.blockN ⟨2, ![64, 512]⟩ ⟨2, ![64, 1024]⟩ (Layout.meshBlock [2, 2] ![[], [1]] c) A) (ix2 i k)
      = A (ix2 i (lo (cy c) k)) := by
  rw [Layout.blockN_apply]
  congr 1
  funext b
  match b with
  | ⟨0, _⟩ =>
    apply Fin.ext
    show Layout.meshLin [2, 2] c.val [] * 64 + i.val = i.val
    rw [lin_nil]; omega
  | ⟨1, _⟩ =>
    apply Fin.ext
    show Layout.meshLin [2, 2] c.val [1] * 512 + k.val = (cy c).val * 512 + k.val
    rw [lin_y]

/-- The device's block of the first weight matrix: the rows `lo (cy c) ·`, the columns `hi (cx c) ·`. -/
theorem blockW_apply (c : Fin 4) (A : (⟨2, ![1024, 2048]⟩ : Shape).Idx → α) (k : Fin 512) (j : Fin 1024) :
    (Layout.blockN ⟨2, ![512, 1024]⟩ ⟨2, ![1024, 2048]⟩ (Layout.meshBlock [2, 2] ![[1], [0]] c) A) (ix2 k j)
      = A (ix2 (lo (cy c) k) (hi (cx c) j)) := by
  rw [Layout.blockN_apply]
  congr 1
  funext b
  match b with
  | ⟨0, _⟩ =>
    apply Fin.ext
    show Layout.meshLin [2, 2] c.val [1] * 512 + k.val = (cy c).val * 512 + k.val
    rw [lin_y]
  | ⟨1, _⟩ =>
    apply Fin.ext
    show Layout.meshLin [2, 2] c.val [0] * 1024 + j.val = (cx c).val * 1024 + j.val
    rw [lin_x]

/-- The device's block of the second weight matrix: the rows `hi (cx c) ·`, the columns `lo (cy c) ·`. -/
theorem blockV_apply (c : Fin 4) (A : (⟨2, ![2048, 1024]⟩ : Shape).Idx → α) (j : Fin 1024) (n : Fin 512) :
    (Layout.blockN ⟨2, ![1024, 512]⟩ ⟨2, ![2048, 1024]⟩ (Layout.meshBlock [2, 2] ![[0], [1]] c) A) (ix2 j n)
      = A (ix2 (hi (cx c) j) (lo (cy c) n)) := by
  rw [Layout.blockN_apply]
  congr 1
  funext b
  match b with
  | ⟨0, _⟩ =>
    apply Fin.ext
    show Layout.meshLin [2, 2] c.val [0] * 1024 + j.val = (cx c).val * 1024 + j.val
    rw [lin_x]
  | ⟨1, _⟩ =>
    apply Fin.ext
    show Layout.meshLin [2, 2] c.val [1] * 512 + n.val = (cy c).val * 512 + n.val
    rw [lin_y]

/-- The first weight block read by chunks of its columns. -/
theorem blockW_chunk (c : Fin 4) (A : (⟨2, ![1024, 2048]⟩ : Shape).Idx → α) (k : Fin 512) (ch : Fin 2) (j : Fin 512) :
    (Layout.blockN ⟨2, ![512, 1024]⟩ ⟨2, ![1024, 2048]⟩ (Layout.meshBlock [2, 2] ![[1], [0]] c) A) (ix2 k (chunk ch j))
      = A (ix2 (lo (cy c) k) (col (cx c) ch j)) := by
  rw [blockW_apply, hi_chunk]

/-- The second weight block read by chunks of its rows. -/
theorem blockV_chunk (c : Fin 4) (A : (⟨2, ![2048, 1024]⟩ : Shape).Idx → α) (ch : Fin 2) (j : Fin 512) (n : Fin 512) :
    (Layout.blockN ⟨2, ![1024, 512]⟩ ⟨2, ![2048, 1024]⟩ (Layout.meshBlock [2, 2] ![[0], [1]] c) A) (ix2 (chunk ch j) n)
      = A (ix2 (col (cx c) ch j) (lo (cy c) n)) := by
  rw [blockV_apply, hi_chunk]

/-- An array that agrees entry by entry with the device's columns of the whole is the device's block. -/
theorem blockX_ext (c : Fin 4) (v0 : (⟨2, ![64, 1024]⟩ : Shape).Idx → α) (B : (⟨2, ![64, 512]⟩ : Shape).Idx → α)
    (h : ∀ i k, B (ix2 i k) = v0 (ix2 i (lo (cy c) k))) :
    B = Layout.blockN ⟨2, ![64, 512]⟩ ⟨2, ![64, 1024]⟩ (Layout.meshBlock [2, 2] ![[], [1]] c) v0 := by
  funext q
  obtain ⟨i, k, rfl⟩ : ∃ i k, q = ix2 i k := ⟨q 0, q 1, eq_ix2 q⟩
  rw [blockX_apply]
  exact h i k

/-- info: 'Cert.BlockIdx.blockX_ext' depends on axioms: [propext, Quot.sound] -/
#guard_msgs in #print axioms blockX_ext
/-- info: 'Cert.BlockIdx.blockW_chunk' depends on axioms: [propext, Quot.sound] -/
#guard_msgs in #print axioms blockW_chunk
/-- info: 'Cert.BlockIdx.blockV_chunk' depends on axioms: [propext, Quot.sound] -/
#guard_msgs in #print axioms blockV_chunk

end Cert.BlockIdx
-- ==== Proof.RefValue.lean ====
/-
  The reference's run read back: its result, entry by entry, is the three-layer network
  of `MlpMath` applied to its argument arrays.
-/
import proofs.«900581_g7700000000000582_dist_mlpseq_tp2d_cs_cs_b64_d512_h1024_v7x_xy2x2_f32_1_alg».proof.Defs
import proofs.«900581_g7700000000000582_dist_mlpseq_tp2d_cs_cs_b64_d512_h1024_v7x_xy2x2_f32_1_alg».proof.Proof.Gen.ReferenceIdeal
import proofs.«900581_g7700000000000582_dist_mlpseq_tp2d_cs_cs_b64_d512_h1024_v7x_xy2x2_f32_1_alg».proof.Proof.Gen.ReferenceIdeal.Run
import proofs.«900581_g7700000000000582_dist_mlpseq_tp2d_cs_cs_b64_d512_h1024_v7x_xy2x2_f32_1_alg».proof.Proof.Gen.ReferenceIdeal.Read
import proofs.«900581_g7700000000000582_dist_mlpseq_tp2d_cs_cs_b64_d512_h1024_v7x_xy2x2_f32_1_alg».proof.Proof.MlpMath
import proofs.«900581_g7700000000000582_dist_mlpseq_tp2d_cs_cs_b64_d512_h1024_v7x_xy2x2_f32_1_alg».proof.Proof.Gen.Pre_finite_inputs_ReferenceIdeal
import Idealize.ShloMosaic.Lib.ValueIdx
import Idealize.ShloMosaic.PureOps.Ideal.Laws

noncomputable section

namespace Cert.RefValue

open Idealize.ShloMosaic Idealize.SL.Sem
open Cert.ReferenceIdeal Cert.ReferenceIdeal.Gen

/-- An activation array (64 × 1024) over the extended reals. -/
abbrev ArrX : Type := (⟨S64x1024, .f32⟩ : BufTy).Contents (Elt Ideal)
/-- A first weight matrix (1024 × 2048). -/
abbrev ArrW : Type := (⟨S1024x2048, .f32⟩ : BufTy).Contents (Elt Ideal)
/-- A second weight matrix (2048 × 1024). -/
abbrev ArrV : Type := (⟨S2048x1024, .f32⟩ : BufTy).Contents (Elt Ideal)

/-- An array as a function of its two coordinates. -/
def mat {n0 n1 : Nat} (A : (⟨2, ![n0, n1]⟩ : Shape).Idx → EReal) : Fin n0 → Fin n1 → EReal :=
  fun a b => A (ValueIdx.ix2 a b)

/-- A function of two coordinates as an array. -/
def arr {n0 n1 : Nat} (f : Fin n0 → Fin n1 → EReal) : (⟨2, ![n0, n1]⟩ : Shape).Idx → EReal :=
  fun idx => f (idx 0) (idx 1)

theorem mat_arr {n0 n1 : Nat} (f : Fin n0 → Fin n1 → EReal) : mat (arr f) = f := rfl

/-- One layer of the reference, as an array: relu (x · W) · V. -/
def layerG (x : ArrX) (W : ArrW) (V : ArrV) : ArrX :=
  arr (Cert.MlpMath.layer (mat x) (mat W) (mat V))

/-- The reference's result as a function of its seven argument arrays: the three-layer
    network, entry (i, n) at the index `ix2 i n`. -/
def refG (A0 : ArrX) (A1 : ArrW) (A2 : ArrV) (A3 : ArrW) (A4 : ArrV) (A5 : ArrW) (A6 : ArrV) : ArrX :=
  fun idx => Cert.MlpMath.mlp (fun i k => A0 (ValueIdx.ix2 i k)) (fun k j => A1 (ValueIdx.ix2 k j))
    (fun j n => A2 (ValueIdx.ix2 j n)) (fun k j => A3 (ValueIdx.ix2 k j)) (fun j n => A4 (ValueIdx.ix2 j n))
    (fun k j => A5 (ValueIdx.ix2 k j)) (fun j n => A6 (ValueIdx.ix2 j n)) (idx 0) (idx 1)

/-- Three layers in sequence are the network. -/
theorem layerG_three (A0 : ArrX) (A1 : ArrW) (A2 : ArrV) (A3 : ArrW) (A4 : ArrV) (A5 : ArrW) (A6 : ArrV) :
    layerG (layerG (layerG A0 A1 A2) A3 A4) A5 A6 = refG A0 A1 A2 A3 A4 A5 A6 := rfl

/-- The first three stages of the reference (product, relu, product) are one layer: the
    contraction of a product is the sum over the shared coordinate, and the maximum with
    the zero constant is the relu. -/
theorem stage_layer (x : ArrX) (W : ArrW) (V : ArrV) :
    Read.val_main_v3 (F := Ideal) x W V = layerG x W V := by
  funext idx
  obtain ⟨i, n, rfl⟩ : ∃ (i : Fin 64) (n : Fin 1024), idx = ValueIdx.ix2 i n := ⟨idx 0, idx 1, ValueIdx.eq_ix2 idx⟩
  have el3 : ∀ j : Fin 2048, Read.lidx_main_v3 (ValueIdx.ix2 i n) j = ValueIdx.ix2 i j := fun j =>
    funext fun a => by match a with | ⟨0, _⟩ => rfl | ⟨1, _⟩ => rfl
  have er3 : ∀ j : Fin 2048, Read.ridx_main_v3 (ValueIdx.ix2 i n) j = ValueIdx.ix2 j n := fun j =>
    funext fun a => by match a with | ⟨0, _⟩ => rfl | ⟨1, _⟩ => rfl
  have el0 : ∀ (j : Fin 2048) (k : Fin 1024), Read.lidx_main_v0 (ValueIdx.ix2 i j) k = ValueIdx.ix2 i k := fun j k =>
    funext fun a => by match a with | ⟨0, _⟩ => rfl | ⟨1, _⟩ => rfl
  have er0 : ∀ (j : Fin 2048) (k : Fin 1024), Read.ridx_main_v0 (ValueIdx.ix2 i j) k = ValueIdx.ix2 k j := fun j k =>
    funext fun a => by match a with | ⟨0, _⟩ => rfl | ⟨1, _⟩ => rfl
  rw [Read.val_main_v3_apply]
  show _ = ∑ j : Fin 2048, max (∑ k : Fin 1024, x (ValueIdx.ix2 i k) * W (ValueIdx.ix2 k j)) 0 * V (ValueIdx.ix2 j n)
  refine Finset.sum_congr rfl fun j _ => ?_
  rw [el3, er3, Read.val_main_v2_apply, Read.val_main_v0_apply, Read.val_main_v1_apply, Read.val_main_cst_apply,
    Ideal.maximumf_def, Ideal.ofBits_def, Ideal.ofBits_zero_f32]
  simp only [el0, er0]

/-- The reference's result stage is the network of its seven arguments: each group of three
    stages is one layer of the one before. -/
theorem val_eq (A0 : ArrX) (A1 : ArrW) (A2 : ArrV) (A3 : ArrW) (A4 : ArrV) (A5 : ArrW) (A6 : ArrV) :
    Read.val_main_v11 (F := Ideal) A0 A1 A2 A3 A4 A5 A6 = refG A0 A1 A2 A3 A4 A5 A6 :=
  calc Read.val_main_v11 (F := Ideal) A0 A1 A2 A3 A4 A5 A6
      = Read.val_main_v3 (F := Ideal) (Read.val_main_v3 (F := Ideal) (Read.val_main_v3 (F := Ideal) A0 A1 A2) A3 A4) A5 A6 := rfl
    _ = layerG (layerG (layerG A0 A1 A2) A3 A4) A5 A6 := by rw [stage_layer, stage_layer, stage_layer]
    _ = refG A0 A1 A2 A3 A4 A5 A6 := layerG_three A0 A1 A2 A3 A4 A5 A6

/-- Every fair execution of the reference terminates with its result buffer holding the
    network of its argument arrays, and those arrays unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v11) = refG (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
      ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
      ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
      ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)) :=
  (θ_run Cert.ReferenceIdeal.defs _ _).mono
    (fun _ h => ⟨(h 0).1.trans ((Read.val_main_v11_eq _ _ _ _ _ _ _).trans (val_eq _ _ _ _ _ _ _)), (h 0).2⟩)
    (Cert.ReferenceIdeal.Value.run (F := Ideal) m' g')

/-- The reference runs and leaves its argument arrays unchanged: its run with the value dropped. -/
theorem ref_frame : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

end Cert.RefValue

end
-- ==== Proof.MlpSplit.lean ====
/-
  The layer as the four devices of the 2×2 mesh compute it equals the layer over whole
  arrays. Only two facts are used: a sum over an axis of 1024 (of 2048) is the sum over
  its blocks (its blocks and their chunks) of the sums inside each, and addition in a
  commutative monoid may be regrouped. Nothing is distributed or cancelled, so no
  finiteness of the extended reals is needed.
-/
import proofs.«900581_g7700000000000582_dist_mlpseq_tp2d_cs_cs_b64_d512_h1024_v7x_xy2x2_f32_1_alg».proof.Proof.MlpMath
import Mathlib.Data.EReal.Basic
import Mathlib.Algebra.BigOperators.Fin

noncomputable section

namespace Cert.MlpMath

open scoped BigOperators

variable {M : Type*} [AddCommMonoid M]

/-- The two coordinates of a mesh axis, exchanged. -/
theorem flip_zero : flip 0 = 1 := rfl
theorem flip_one : flip 1 = 0 := rfl

/-- A value at a coordinate plus the value at the other coordinate is the sum over both. -/
theorem add_flip (g : Fin 2 → M) (b : Fin 2) : g b + g (flip b) = ∑ c : Fin 2, g c := by
  rw [Fin.sum_univ_two]
  rcases Fin.exists_fin_two.mp ⟨b, rfl⟩ with h | h
  · rw [h, flip_zero]
  · rw [h, flip_one, add_comm]

/-- Block 0 of an axis of 1024 is its first half, block 1 its second half. -/
theorem lo_zero (k : Fin 512) : lo 0 k = Fin.castAdd 512 k := by
  apply Fin.ext; simp [lo]
theorem lo_one (k : Fin 512) : lo 1 k = Fin.natAdd 512 k := by
  apply Fin.ext; simp [lo]; omega

/-- A sum over an axis of 1024 is the sum over its two blocks of the sums inside each. -/
theorem sum_lo (f : Fin 1024 → M) : ∑ k : Fin 1024, f k = ∑ b : Fin 2, ∑ k : Fin 512, f (lo b k) := by
  rw [Fin.sum_univ_two]
  have h := Fin.sum_univ_add (a := 512) (b := 512) f
  rw [show (∑ k : Fin 1024, f k) = ∑ k : Fin (512 + 512), f k from rfl, h]
  simp only [lo_zero, lo_one]

/-- Chunk `ch` of block 0 of an axis of 2048 lies in its first half at the place `lo ch ·`,
that of block 1 in its second half at the same place. -/
theorem col_zero (ch : Fin 2) (j : Fin 512) : col 0 ch j = Fin.castAdd 1024 (lo ch j) := by
  apply Fin.ext; simp [lo, col]
theorem col_one (ch : Fin 2) (j : Fin 512) : col 1 ch j = Fin.natAdd 1024 (lo ch j) := by
  apply Fin.ext; simp [lo, col]; omega

/-- A sum over an axis of 2048 is the sum over its two blocks, the two chunks of each, and the
entries of each chunk. -/
theorem sum_col (g : Fin 2048 → M) :
    ∑ j : Fin 2048, g j = ∑ a : Fin 2, ∑ ch : Fin 2, ∑ j : Fin 512, g (col a ch j) := by
  rw [Fin.sum_univ_two (fun a : Fin 2 => ∑ ch : Fin 2, ∑ j : Fin 512, g (col a ch j))]
  have h := Fin.sum_univ_add (a := 1024) (b := 1024) g
  rw [show (∑ j : Fin 2048, g j) = ∑ j : Fin (1024 + 1024), g j from rfl, h,
    sum_lo (fun j => g (Fin.castAdd 1024 j)), sum_lo (fun j => g (Fin.natAdd 1024 j))]
  simp only [col_zero, col_one]

section layer

variable (x : Fin 64 → Fin 1024 → EReal) (W : Fin 1024 → Fin 2048 → EReal) (V : Fin 2048 → Fin 1024 → EReal)
  (xc : Fin 2 → Fin 2 → Fin 64 → Fin 512 → EReal) (hx : ∀ a b i k, xc a b i k = x i (lo b k))

include hx

/-- A device's partial hidden entry plus its second-axis peer's is the whole inner product. -/
theorem ph_add_ph (a b ch : Fin 2) (i : Fin 64) (j : Fin 512) :
    ph xc W a b ch i j + ph xc W a (flip b) ch i j = ∑ k : Fin 1024, x i k * W k (col a ch j) := by
  rw [sum_lo (fun k => x i k * W k (col a ch j))]
  rw [← add_flip (fun c => ∑ k : Fin 512, x i (lo c k) * W (lo c k) (col a ch j)) b]
  simp only [ph, hx]

/-- So the hidden entry after the exchange is the whole layer's hidden entry at that column. -/
theorem hid_eq (a b ch : Fin 2) (i : Fin 64) (j : Fin 512) :
    hid xc W a b ch i j = max (∑ k : Fin 1024, x i k * W k (col a ch j)) 0 := by
  rw [hid, ph_add_ph x W xc hx]

/-- A device's partial output is the part of the output sum over the hidden columns it holds. -/
theorem px_eq (a b : Fin 2) (i : Fin 64) (n : Fin 512) :
    px xc W V a b i n
      = ∑ ch : Fin 2, ∑ j : Fin 512,
          max (∑ k : Fin 1024, x i k * W k (col a ch j)) 0 * V (col a ch j) (lo b n) := by
  rw [Fin.sum_univ_two, px]
  simp only [hid_eq x W xc hx]

theorem devLayer_eq : ∀ a b i n, devLayer xc W V a b i n = layer x W V i (lo b n) := by
  intro a b i n
  rw [layer, sum_col (fun j => max (∑ k : Fin 1024, x i k * W k j) 0 * V j (lo b n))]
  rw [← add_flip (fun a' => ∑ ch : Fin 2, ∑ j : Fin 512,
        max (∑ k : Fin 1024, x i k * W k (col a' ch j)) 0 * V (col a' ch j) (lo b n)) a]
  rw [devLayer, px_eq x W V xc hx, px_eq x W V xc hx]

end layer

/-- Three layers: each layer's result on the mesh is the blocks of the whole layer's result,
which is what the next layer asks of its input. -/
theorem devMlp_eq (X : Fin 64 → Fin 1024 → EReal)
    (W0 : Fin 1024 → Fin 2048 → EReal) (V0 : Fin 2048 → Fin 1024 → EReal)
    (W1 : Fin 1024 → Fin 2048 → EReal) (V1 : Fin 2048 → Fin 1024 → EReal)
    (W2 : Fin 1024 → Fin 2048 → EReal) (V2 : Fin 2048 → Fin 1024 → EReal)
    (xc : Fin 2 → Fin 2 → Fin 64 → Fin 512 → EReal) (hx : ∀ a b i k, xc a b i k = X i (lo b k)) :
    ∀ a b i n, devMlp xc W0 V0 W1 V1 W2 V2 a b i n = mlp X W0 V0 W1 V1 W2 V2 i (lo b n) := by
  have h0 := devLayer_eq X W0 V0 xc hx
  have h1 := devLayer_eq (layer X W0 V0) W1 V1 (devLayer xc W0 V0) h0
  exact devLayer_eq (layer (layer X W0 V0) W1 V1) W2 V2 (devLayer (devLayer xc W0 V0) W1 V1) h1

/-- info: 'Cert.MlpMath.devMlp_eq' depends on axioms: [propext, Classical.choice, Quot.sound] -/
#guard_msgs in #print axioms devMlp_eq

end Cert.MlpMath

end
-- ==== Proof.ValueStages.lean ====
/-
  What the mesh computes, stage by stage, at the ideal values. Device `c` sits at mesh
  coordinates (cx c, cy c). Each value of the kernel's body, read at an index, is the matching
  term of the layer as the mesh computes it: a partial hidden chunk is `ph`, the exchange along
  the second axis turns the pair of them into `hid`, the two chunks' products add up to `px`, and
  the exchange along the first axis gives `devLayer`, which is the next layer's activation
  block. After three layers the stored block is the device's columns of the whole network's result.
-/
import proofs.«900581_g7700000000000582_dist_mlpseq_tp2d_cs_cs_b64_d512_h1024_v7x_xy2x2_f32_1_alg».proof.Proof.Spec
import proofs.«900581_g7700000000000582_dist_mlpseq_tp2d_cs_cs_b64_d512_h1024_v7x_xy2x2_f32_1_alg».proof.Proof.PayIdeal
import proofs.«900581_g7700000000000582_dist_mlpseq_tp2d_cs_cs_b64_d512_h1024_v7x_xy2x2_f32_1_alg».proof.Proof.CastForms
import proofs.«900581_g7700000000000582_dist_mlpseq_tp2d_cs_cs_b64_d512_h1024_v7x_xy2x2_f32_1_alg».proof.Proof.BlockIdx
import proofs.«900581_g7700000000000582_dist_mlpseq_tp2d_cs_cs_b64_d512_h1024_v7x_xy2x2_f32_1_alg».proof.Proof.MlpSplit

noncomputable section

namespace Cert.KValue

open Cert.KernelIdeal Cert.KernelIdeal.Gen Cert.KernelIdealProof
open Idealize.ShloMosaic Idealize.ShloMosaic.ValueIdx Idealize.ShloMosaic.TcCoe Idealize.SL.Sem
open Cert.MlpMath Cert.BlockIdx

/-! ## The peers' mesh coordinates -/

theorem cx_yp (c : Dev nD) : cx (yp c) = cx c := by revert c; decide
theorem cy_yp (c : Dev nD) : cy (yp c) = flip (cy c) := by revert c; decide
theorem cx_xp (c : Dev nD) : cx (xp c) = flip (cx c) := by revert c; decide
theorem cy_xp (c : Dev nD) : cy (xp c) = cy c := by revert c; decide

/-! ## What is assumed of the loaded values -/

/-- The activation block as loaded is the device's columns of the whole activations; each weight chunk as read back is
    the device's chunk of the whole weight matrix. -/
structure InFacts (m : (ℓ : Loc nD τ sig) → Buf (Elt Ideal) ℓ) (X : Fin 64 → Fin 1024 → EReal)
    (W0 : Fin 1024 → Fin 2048 → EReal) (V0 : Fin 2048 → Fin 1024 → EReal)
    (W1 : Fin 1024 → Fin 2048 → EReal) (V1 : Fin 2048 → Fin 1024 → EReal)
    (W2 : Fin 1024 → Fin 2048 → EReal) (V2 : Fin 2048 → Fin 1024 → EReal) : Prop where
  hI1 : ∀ c i k, xc0 (F := Ideal) m c (ix2 i k) = X i (lo (cy c) k)
  hci00 : ∀ c (k j : Fin 512), ci00 (F := Ideal) m c (ix3 (0 : Fin 1) k j) = W0 (lo (cy c) k) (col (cx c) 0 j)
  hci01 : ∀ c (k j : Fin 512), ci01 (F := Ideal) m c (ix3 (0 : Fin 1) k j) = W0 (lo (cy c) k) (col (cx c) 1 j)
  hci10 : ∀ c (k j : Fin 512), ci10 (F := Ideal) m c (ix3 (0 : Fin 1) k j) = W1 (lo (cy c) k) (col (cx c) 0 j)
  hci11 : ∀ c (k j : Fin 512), ci11 (F := Ideal) m c (ix3 (0 : Fin 1) k j) = W1 (lo (cy c) k) (col (cx c) 1 j)
  hci20 : ∀ c (k j : Fin 512), ci20 (F := Ideal) m c (ix3 (0 : Fin 1) k j) = W2 (lo (cy c) k) (col (cx c) 0 j)
  hci21 : ∀ c (k j : Fin 512), ci21 (F := Ideal) m c (ix3 (0 : Fin 1) k j) = W2 (lo (cy c) k) (col (cx c) 1 j)
  hco00 : ∀ c (j n : Fin 512), co00 (F := Ideal) m c (ix3 (0 : Fin 1) j n) = V0 (col (cx c) 0 j) (lo (cy c) n)
  hco01 : ∀ c (j n : Fin 512), co01 (F := Ideal) m c (ix3 (0 : Fin 1) j n) = V0 (col (cx c) 1 j) (lo (cy c) n)
  hco10 : ∀ c (j n : Fin 512), co10 (F := Ideal) m c (ix3 (0 : Fin 1) j n) = V1 (col (cx c) 0 j) (lo (cy c) n)
  hco11 : ∀ c (j n : Fin 512), co11 (F := Ideal) m c (ix3 (0 : Fin 1) j n) = V1 (col (cx c) 1 j) (lo (cy c) n)
  hco20 : ∀ c (j n : Fin 512), co20 (F := Ideal) m c (ix3 (0 : Fin 1) j n) = V2 (col (cx c) 0 j) (lo (cy c) n)
  hco21 : ∀ c (j n : Fin 512), co21 (F := Ideal) m c (ix3 (0 : Fin 1) j n) = V2 (col (cx c) 1 j) (lo (cy c) n)

/-- The mesh's input blocks: device (a, b) holds the columns `lo b ·` of the activations. -/
def xcD (X : Fin 64 → Fin 1024 → EReal) : Fin 2 → Fin 2 → Fin 64 → Fin 512 → EReal := fun _ b i k => X i (lo b k)

theorem zero64_apply (y : S64x512.Idx) : zero64 (F := Ideal) y = 0 := Ideal.ofBits_zero_f32

section Stages

variable {m : (ℓ : Loc nD τ sig) → Buf (Elt Ideal) ℓ} {X : Fin 64 → Fin 1024 → EReal}
  {W0 : Fin 1024 → Fin 2048 → EReal} {V0 : Fin 2048 → Fin 1024 → EReal}
  {W1 : Fin 1024 → Fin 2048 → EReal} {V1 : Fin 2048 → Fin 1024 → EReal}
  {W2 : Fin 1024 → Fin 2048 → EReal} {V2 : Fin 2048 → Fin 1024 → EReal}
  (H : InFacts m X W0 V0 W1 V1 W2 V2)

include H

/-! ## Layer 0 -/

theorem ph00_apply (c : Dev nD) (i : Fin 64) (j : Fin 512) :
    ph00 (F := Ideal) m c (ix2 i j) = ph (xcD X) W0 (cx c) (cy c) 0 i j := by
  unfold ph00 ph xcD
  rw [pay5_apply]
  exact Finset.sum_congr rfl fun k _ => by rw [H.hI1, H.hci00]

theorem ph01_apply (c : Dev nD) (i : Fin 64) (j : Fin 512) :
    ph01 (F := Ideal) m c (ix2 i j) = ph (xcD X) W0 (cx c) (cy c) 1 i j := by
  unfold ph01 ph xcD
  rw [pay7_apply]
  exact Finset.sum_congr rfl fun k _ => by rw [H.hI1, H.hci01]

/-- What is sent along the second axis is the partial hidden chunk. -/
theorem sv0_apply (c : Dev nD) (i : Fin 64) (j : Fin 512) :
    sv0 (F := Ideal) m c (ix2 i j) = ph (xcD X) W0 (cx c) (cy c) 0 i j := by
  unfold sv0 svH st0 ph xcD
  rw [cast_11ab_ab, pay6_apply]
  exact Finset.sum_congr rfl fun k _ => by rw [H.hI1, H.hci00]

theorem sv1_apply (c : Dev nD) (i : Fin 64) (j : Fin 512) :
    sv1 (F := Ideal) m c (ix2 i j) = ph (xcD X) W0 (cx c) (cy c) 1 i j := by
  unfold sv1 svH st1 ph xcD
  rw [cast_11ab_ab, pay9_apply, pay8_apply]
  exact Finset.sum_congr rfl fun k _ => by rw [H.hI1, H.hci01]

/-- What arrives from the second-axis peer is that peer's partial hidden chunk. -/
theorem rv0_apply (c : Dev nD) (i : Fin 64) (j : Fin 512) :
    rvH (sv0 (F := Ideal) m (yp c)) (ix4 (0 : Fin 1) (0 : Fin 1) i j) = ph (xcD X) W0 (cx c) (flip (cy c)) 0 i j := by
  unfold rvH
  rw [cast_ab_11ab, sv0_apply H, cx_yp, cy_yp]

theorem rv1_apply (c : Dev nD) (i : Fin 64) (j : Fin 512) :
    rvH (sv1 (F := Ideal) m (yp c)) (ix4 (0 : Fin 1) (0 : Fin 1) i j) = ph (xcD X) W0 (cx c) (flip (cy c)) 1 i j := by
  unfold rvH
  rw [cast_ab_11ab, sv1_apply H, cx_yp, cy_yp]

theorem c00_apply (c : Dev nD) (i : Fin 64) (n : Fin 512) :
    c00 (F := Ideal) m c (ix2 i n) = ∑ j : Fin 512, hid (xcD X) W0 (cx c) (cy c) 0 i j * V0 (col (cx c) 0 j) (lo (cy c) n) := by
  unfold c00
  rw [pay13_apply, zero64_apply, zero_add]
  exact Finset.sum_congr rfl fun j _ => by rw [pay11_apply, pay12_apply, ph00_apply H, rv0_apply H, H.hco00]; rfl

theorem h01_apply (c : Dev nD) (i : Fin 64) (j : Fin 512) :
    h01 (F := Ideal) m c (ix2 i j) = hid (xcD X) W0 (cx c) (cy c) 1 i j := by
  unfold h01
  rw [pay14_apply, ph01_apply H, rv1_apply H]; rfl

theorem px0_apply (c : Dev nD) (i : Fin 64) (n : Fin 512) :
    px0 (F := Ideal) m c (ix2 i n) = px (xcD X) W0 V0 (cx c) (cy c) i n := by
  unfold px0 px
  rw [pay15_apply, c00_apply H]
  congr 1
  exact Finset.sum_congr rfl fun j _ => by rw [h01_apply H, H.hco01]

/-- What is sent along the first axis is the partial output. -/
theorem sv6_apply (c : Dev nD) (i : Fin 64) (n : Fin 512) :
    sv6 (F := Ideal) m c (ix2 i n) = px (xcD X) W0 V0 (cx c) (cy c) i n := by
  unfold sv6 svX st6 px
  rw [cast_1ab_ab, pay16_apply, c00_apply H]
  congr 1
  exact Finset.sum_congr rfl fun j _ => by rw [h01_apply H, H.hco01]

/-- The partial output plus the first-axis peer's: the layer's result block, the next layer's activation. -/
theorem act1_apply (c : Dev nD) (i : Fin 64) (k : Fin 512) :
    px0 (F := Ideal) m c (ix2 i k) + rvX (sv6 (F := Ideal) m (xp c)) (ix3 (0 : Fin 1) i k)
      = devLayer (xcD X) W0 V0 (cx c) (cy c) i k := by
  unfold rvX
  rw [cast_ab_1ab, px0_apply H, sv6_apply H, cx_xp, cy_xp]
  rfl

/-! ## Layer 1 -/

theorem xc1_apply (c : Dev nD) (i : Fin 64) (k : Fin 512) :
    xc1 (F := Ideal) m c (ix2 i k) = devLayer (xcD X) W0 V0 (cx c) (cy c) i k := by
  unfold xc1
  rw [pay19_apply, act1_apply H]

theorem ph10_apply (c : Dev nD) (i : Fin 64) (j : Fin 512) :
    ph10 (F := Ideal) m c (ix2 i j) = ph (devLayer (xcD X) W0 V0) W1 (cx c) (cy c) 0 i j := by
  unfold ph10 ph
  rw [pay20_apply]
  exact Finset.sum_congr rfl fun k _ => by rw [act1_apply H, H.hci10]

theorem ph11_apply (c : Dev nD) (i : Fin 64) (j : Fin 512) :
    ph11 (F := Ideal) m c (ix2 i j) = ph (devLayer (xcD X) W0 V0) W1 (cx c) (cy c) 1 i j := by
  unfold ph11 ph
  rw [pay23_apply]
  exact Finset.sum_congr rfl fun k _ => by rw [xc1_apply H, H.hci11]

theorem sv2_apply (c : Dev nD) (i : Fin 64) (j : Fin 512) :
    sv2 (F := Ideal) m c (ix2 i j) = ph (devLayer (xcD X) W0 V0) W1 (cx c) (cy c) 0 i j := by
  unfold sv2 svH st2 ph
  rw [cast_11ab_ab, pay22_apply, pay21_apply]
  exact Finset.sum_congr rfl fun k _ => by rw [act1_apply H, H.hci10]

theorem sv3_apply (c : Dev nD) (i : Fin 64) (j : Fin 512) :
    sv3 (F := Ideal) m c (ix2 i j) = ph (devLayer (xcD X) W0 V0) W1 (cx c) (cy c) 1 i j := by
  unfold sv3 svH st3 ph
  rw [cast_11ab_ab, pay24_apply]
  exact Finset.sum_congr rfl fun k _ => by rw [xc1_apply H, H.hci11]

theorem rv2_apply (c : Dev nD) (i : Fin 64) (j : Fin 512) :
    rvH (sv2 (F := Ideal) m (yp c)) (ix4 (0 : Fin 1) (0 : Fin 1) i j) = ph (devLayer (xcD X) W0 V0) W1 (cx c) (flip (cy c)) 0 i j := by
  unfold rvH
  rw [cast_ab_11ab, sv2_apply H, cx_yp, cy_yp]

theorem rv3_apply (c : Dev nD) (i : Fin 64) (j : Fin 512) :
    rvH (sv3 (F := Ideal) m (yp c)) (ix4 (0 : Fin 1) (0 : Fin 1) i j) = ph (devLayer (xcD X) W0 V0) W1 (cx c) (flip (cy c)) 1 i j := by
  unfold rvH
  rw [cast_ab_11ab, sv3_apply H, cx_yp, cy_yp]

theorem c10_apply (c : Dev nD) (i : Fin 64) (n : Fin 512) :
    c10 (F := Ideal) m c (ix2 i n) = ∑ j : Fin 512, hid (devLayer (xcD X) W0 V0) W1 (cx c) (cy c) 0 i j * V1 (col (cx c) 0 j) (lo (cy c) n) := by
  unfold c10
  rw [pay26_apply]
  exact Finset.sum_congr rfl fun j _ => by rw [ph10_apply H, rv2_apply H, H.hco10]; rfl

theorem px1_apply (c : Dev nD) (i : Fin 64) (n : Fin 512) :
    px1 (F := Ideal) m c (ix2 i n) = px (devLayer (xcD X) W0 V0) W1 V1 (cx c) (cy c) i n := by
  unfold px1 px
  rw [pay27_apply, c10_apply H]
  congr 1
  exact Finset.sum_congr rfl fun j _ => by rw [ph11_apply H, rv3_apply H, H.hco11]; rfl

theorem sv7_apply (c : Dev nD) (i : Fin 64) (n : Fin 512) :
    sv7 (F := Ideal) m c (ix2 i n) = px (devLayer (xcD X) W0 V0) W1 V1 (cx c) (cy c) i n := by
  unfold sv7 svX st7 px
  rw [cast_1ab_ab, pay28_apply, c10_apply H]
  congr 1
  exact Finset.sum_congr rfl fun j _ => by rw [ph11_apply H, rv3_apply H, H.hco11]; rfl

theorem act2_apply (c : Dev nD) (i : Fin 64) (k : Fin 512) :
    px1 (F := Ideal) m c (ix2 i k) + rvX (sv7 (F := Ideal) m (xp c)) (ix3 (0 : Fin 1) i k)
      = devLayer (devLayer (xcD X) W0 V0) W1 V1 (cx c) (cy c) i k := by
  unfold rvX
  rw [cast_ab_1ab, px1_apply H, sv7_apply H, cx_xp, cy_xp]
  rfl

/-! ## Layer 2 -/

theorem xc2_apply (c : Dev nD) (i : Fin 64) (k : Fin 512) :
    xc2 (F := Ideal) m c (ix2 i k) = devLayer (devLayer (xcD X) W0 V0) W1 V1 (cx c) (cy c) i k := by
  unfold xc2
  rw [pay30_apply, act2_apply H]

theorem ph20_apply (c : Dev nD) (i : Fin 64) (j : Fin 512) :
    ph20 (F := Ideal) m c (ix2 i j) = ph (devLayer (devLayer (xcD X) W0 V0) W1 V1) W2 (cx c) (cy c) 0 i j := by
  unfold ph20 ph
  rw [pay31_apply]
  exact Finset.sum_congr rfl fun k _ => by rw [act2_apply H, H.hci20]

theorem ph21_apply (c : Dev nD) (i : Fin 64) (j : Fin 512) :
    ph21 (F := Ideal) m c (ix2 i j) = ph (devLayer (devLayer (xcD X) W0 V0) W1 V1) W2 (cx c) (cy c) 1 i j := by
  unfold ph21 ph
  rw [pay33_apply]
  exact Finset.sum_congr rfl fun k _ => by rw [xc2_apply H, H.hci21]

theorem sv4_apply (c : Dev nD) (i : Fin 64) (j : Fin 512) :
    sv4 (F := Ideal) m c (ix2 i j) = ph (devLayer (devLayer (xcD X) W0 V0) W1 V1) W2 (cx c) (cy c) 0 i j := by
  unfold sv4 svH st4 ph
  rw [cast_11ab_ab, pay32_apply]
  exact Finset.sum_congr rfl fun k _ => by rw [act2_apply H, H.hci20]

theorem sv5_apply (c : Dev nD) (i : Fin 64) (j : Fin 512) :
    sv5 (F := Ideal) m c (ix2 i j) = ph (devLayer (devLayer (xcD X) W0 V0) W1 V1) W2 (cx c) (cy c) 1 i j := by
  unfold sv5 svH st5 ph
  rw [cast_11ab_ab, pay34_apply]
  exact Finset.sum_congr rfl fun k _ => by rw [xc2_apply H, H.hci21]

theorem rv4_apply (c : Dev nD) (i : Fin 64) (j : Fin 512) :
    rvH (sv4 (F := Ideal) m (yp c)) (ix4 (0 : Fin 1) (0 : Fin 1) i j) = ph (devLayer (devLayer (xcD X) W0 V0) W1 V1) W2 (cx c) (flip (cy c)) 0 i j := by
  unfold rvH
  rw [cast_ab_11ab, sv4_apply H, cx_yp, cy_yp]

theorem rv5_apply (c : Dev nD) (i : Fin 64) (j : Fin 512) :
    rvH (sv5 (F := Ideal) m (yp c)) (ix4 (0 : Fin 1) (0 : Fin 1) i j) = ph (devLayer (devLayer (xcD X) W0 V0) W1 V1) W2 (cx c) (flip (cy c)) 1 i j := by
  unfold rvH
  rw [cast_ab_11ab, sv5_apply H, cx_yp, cy_yp]

theorem c20_apply (c : Dev nD) (i : Fin 64) (n : Fin 512) :
    c20 (F := Ideal) m c (ix2 i n) = ∑ j : Fin 512, hid (devLayer (devLayer (xcD X) W0 V0) W1 V1) W2 (cx c) (cy c) 0 i j * V2 (col (cx c) 0 j) (lo (cy c) n) := by
  unfold c20
  rw [pay36_apply]
  exact Finset.sum_congr rfl fun j _ => by rw [ph20_apply H, rv4_apply H, H.hco20]; rfl

theorem px2_apply (c : Dev nD) (i : Fin 64) (n : Fin 512) :
    px2 (F := Ideal) m c (ix2 i n) = px (devLayer (devLayer (xcD X) W0 V0) W1 V1) W2 V2 (cx c) (cy c) i n := by
  unfold px2 px
  rw [pay37_apply, c20_apply H]
  congr 1
  exact Finset.sum_congr rfl fun j _ => by rw [ph21_apply H, rv5_apply H, H.hco21]; rfl

theorem sv8_apply (c : Dev nD) (i : Fin 64) (n : Fin 512) :
    sv8 (F := Ideal) m c (ix2 i n) = px (devLayer (devLayer (xcD X) W0 V0) W1 V1) W2 V2 (cx c) (cy c) i n := by
  unfold sv8 svX st8 px
  rw [cast_1ab_ab, pay38_apply, c20_apply H]
  congr 1
  exact Finset.sum_congr rfl fun j _ => by rw [ph21_apply H, rv5_apply H, H.hco21]; rfl

theorem act3_apply (c : Dev nD) (i : Fin 64) (k : Fin 512) :
    px2 (F := Ideal) m c (ix2 i k) + rvX (sv8 (F := Ideal) m (xp c)) (ix3 (0 : Fin 1) i k)
      = devLayer (devLayer (devLayer (xcD X) W0 V0) W1 V1) W2 V2 (cx c) (cy c) i k := by
  unfold rvX
  rw [cast_ab_1ab, px2_apply H, sv8_apply H, cx_xp, cy_xp]
  rfl

/-! ## The stored block -/

/-- The stored block read at an index is the mesh's three layers there, -/
theorem out_devMlp (c : Dev nD) (i : Fin 64) (n : Fin 512) :
    OUTs (F := Ideal) m c (ix2 i n) = devMlp (xcD X) W0 V0 W1 V1 W2 V2 (cx c) (cy c) i n := by
  unfold OUTs devMlp
  rw [pay1_apply, act3_apply H]

/-- which is the device's columns of the whole network's result. -/
theorem val_out' (c : Dev nD) (i : Fin 64) (n : Fin 512) :
    OUTs (F := Ideal) m c (ix2 i n) = mlp X W0 V0 W1 V1 W2 V2 i (lo (cy c) n) := by
  rw [out_devMlp H]
  exact devMlp_eq X W0 V0 W1 V1 W2 V2 (xcD X) (fun a b i k => rfl) (cx c) (cy c) i n

end Stages

/-- The stored block of device `c`, read at (i, n), is the whole network's result at row `i` and the device's column `n`. -/
theorem val_out (m : (ℓ : Loc nD τ sig) → Buf (Elt Ideal) ℓ) (X : Fin 64 → Fin 1024 → EReal)
    (W0 : Fin 1024 → Fin 2048 → EReal) (V0 : Fin 2048 → Fin 1024 → EReal)
    (W1 : Fin 1024 → Fin 2048 → EReal) (V1 : Fin 2048 → Fin 1024 → EReal)
    (W2 : Fin 1024 → Fin 2048 → EReal) (V2 : Fin 2048 → Fin 1024 → EReal)
    (hI1 : ∀ c i k, xc0 (F := Ideal) m c (ix2 i k) = X i (lo (cy c) k))
    (hci00 : ∀ c (k j : Fin 512), ci00 (F := Ideal) m c (ix3 (0 : Fin 1) k j) = W0 (lo (cy c) k) (col (cx c) 0 j))
    (hci01 : ∀ c (k j : Fin 512), ci01 (F := Ideal) m c (ix3 (0 : Fin 1) k j) = W0 (lo (cy c) k) (col (cx c) 1 j))
    (hci10 : ∀ c (k j : Fin 512), ci10 (F := Ideal) m c (ix3 (0 : Fin 1) k j) = W1 (lo (cy c) k) (col (cx c) 0 j))
    (hci11 : ∀ c (k j : Fin 512), ci11 (F := Ideal) m c (ix3 (0 : Fin 1) k j) = W1 (lo (cy c) k) (col (cx c) 1 j))
    (hci20 : ∀ c (k j : Fin 512), ci20 (F := Ideal) m c (ix3 (0 : Fin 1) k j) = W2 (lo (cy c) k) (col (cx c) 0 j))
    (hci21 : ∀ c (k j : Fin 512), ci21 (F := Ideal) m c (ix3 (0 : Fin 1) k j) = W2 (lo (cy c) k) (col (cx c) 1 j))
    (hco00 : ∀ c (j n : Fin 512), co00 (F := Ideal) m c (ix3 (0 : Fin 1) j n) = V0 (col (cx c) 0 j) (lo (cy c) n))
    (hco01 : ∀ c (j n : Fin 512), co01 (F := Ideal) m c (ix3 (0 : Fin 1) j n) = V0 (col (cx c) 1 j) (lo (cy c) n))
    (hco10 : ∀ c (j n : Fin 512), co10 (F := Ideal) m c (ix3 (0 : Fin 1) j n) = V1 (col (cx c) 0 j) (lo (cy c) n))
    (hco11 : ∀ c (j n : Fin 512), co11 (F := Ideal) m c (ix3 (0 : Fin 1) j n) = V1 (col (cx c) 1 j) (lo (cy c) n))
    (hco20 : ∀ c (j n : Fin 512), co20 (F := Ideal) m c (ix3 (0 : Fin 1) j n) = V2 (col (cx c) 0 j) (lo (cy c) n))
    (hco21 : ∀ c (j n : Fin 512), co21 (F := Ideal) m c (ix3 (0 : Fin 1) j n) = V2 (col (cx c) 1 j) (lo (cy c) n))
    (c : Dev nD) (i : Fin 64) (n : Fin 512) :
    OUTs (F := Ideal) m c (ix2 i n) = mlp X W0 V0 W1 V1 W2 V2 i (lo (cy c) n) :=
  val_out' ⟨hI1, hci00, hci01, hci10, hci11, hci20, hci21, hco00, hco01, hco10, hco11, hco20, hco21⟩ c i n

/-- info: 'Cert.KValue.val_out' depends on axioms: [propext, Classical.choice, Quot.sound] -/
#guard_msgs in #print axioms val_out

end Cert.KValue

end
-- ==== Proof.ValueIn.lean ====
/-
  The kernel's inputs over the extended reals, read at an index as entries of the reference's whole
  arrays. A device holds blocks of those arrays: its activation block is the columns its second mesh
  coordinate names; a chunk of its first weights is the rows that coordinate names and a chunk of the
  columns its first coordinate names; a chunk of its second weights the other way round. The weights
  reach the arithmetic through a copy into a landing slot, a cast and a store into the list of layers
  stored so far, and a read back of the chunk; none of these changes a value.
-/
import proofs.«900581_g7700000000000582_dist_mlpseq_tp2d_cs_cs_b64_d512_h1024_v7x_xy2x2_f32_1_alg».proof.Defs
import proofs.«900581_g7700000000000582_dist_mlpseq_tp2d_cs_cs_b64_d512_h1024_v7x_xy2x2_f32_1_alg».proof.Proof.Spec
import proofs.«900581_g7700000000000582_dist_mlpseq_tp2d_cs_cs_b64_d512_h1024_v7x_xy2x2_f32_1_alg».proof.Proof.LoadForms
import proofs.«900581_g7700000000000582_dist_mlpseq_tp2d_cs_cs_b64_d512_h1024_v7x_xy2x2_f32_1_alg».proof.Proof.LoadCov
import proofs.«900581_g7700000000000582_dist_mlpseq_tp2d_cs_cs_b64_d512_h1024_v7x_xy2x2_f32_1_alg».proof.Proof.PayIdeal
import proofs.«900581_g7700000000000582_dist_mlpseq_tp2d_cs_cs_b64_d512_h1024_v7x_xy2x2_f32_1_alg».proof.Proof.BlockIdx
import proofs.«900581_g7700000000000582_dist_mlpseq_tp2d_cs_cs_b64_d512_h1024_v7x_xy2x2_f32_1_alg».proof.Proof.RefValue
import proofs.«900581_g7700000000000582_dist_mlpseq_tp2d_cs_cs_b64_d512_h1024_v7x_xy2x2_f32_1_alg».proof.Proof.ValueStages

noncomputable section

namespace Cert.KValue

open Cert.KernelIdeal Cert.KernelIdeal.Gen
open Idealize.ShloMosaic Idealize.ShloMosaic.TcCoe Idealize.ShloMosaic.ValueIdx Idealize.SL.Sem
open Cert.KernelIdealProof Cert.BlockIdx Cert.MlpMath

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-! ## The reference's whole arrays, and the devices' blocks of them -/

/-- The whole activation array. -/
abbrev X : Fin 64 → Fin 1024 → EReal := fun i k => (m' (((0 : Dev Cert.ReferenceIdeal.nD).tc : Thread Cert.ReferenceIdeal.nD Cert.ReferenceIdeal.τ).loc Cert.ReferenceIdeal.main_arg0)) (ix2 i k)
/-- The first and second weight matrices of the three layers. -/
abbrev W0 : Fin 1024 → Fin 2048 → EReal := fun k j => (m' (((0 : Dev Cert.ReferenceIdeal.nD).tc : Thread Cert.ReferenceIdeal.nD Cert.ReferenceIdeal.τ).loc Cert.ReferenceIdeal.main_arg1)) (ix2 k j)
abbrev V0 : Fin 2048 → Fin 1024 → EReal := fun j n => (m' (((0 : Dev Cert.ReferenceIdeal.nD).tc : Thread Cert.ReferenceIdeal.nD Cert.ReferenceIdeal.τ).loc Cert.ReferenceIdeal.main_arg2)) (ix2 j n)
abbrev W1 : Fin 1024 → Fin 2048 → EReal := fun k j => (m' (((0 : Dev Cert.ReferenceIdeal.nD).tc : Thread Cert.ReferenceIdeal.nD Cert.ReferenceIdeal.τ).loc Cert.ReferenceIdeal.main_arg3)) (ix2 k j)
abbrev V1 : Fin 2048 → Fin 1024 → EReal := fun j n => (m' (((0 : Dev Cert.ReferenceIdeal.nD).tc : Thread Cert.ReferenceIdeal.nD Cert.ReferenceIdeal.τ).loc Cert.ReferenceIdeal.main_arg4)) (ix2 j n)
abbrev W2 : Fin 1024 → Fin 2048 → EReal := fun k j => (m' (((0 : Dev Cert.ReferenceIdeal.nD).tc : Thread Cert.ReferenceIdeal.nD Cert.ReferenceIdeal.τ).loc Cert.ReferenceIdeal.main_arg5)) (ix2 k j)
abbrev V2 : Fin 2048 → Fin 1024 → EReal := fun j n => (m' (((0 : Dev Cert.ReferenceIdeal.nD).tc : Thread Cert.ReferenceIdeal.nD Cert.ReferenceIdeal.τ).loc Cert.ReferenceIdeal.main_arg6)) (ix2 j n)

/-- Every device's argument buffers hold its blocks of the reference's arrays. -/
abbrev Hblk : Prop :=
    ∀ c : Dev Cert.KernelIdeal.nD,
      m ((c.tc : Thread Cert.KernelIdeal.nD Cert.KernelIdeal.τ).loc Cert.KernelIdeal.main_arg0) = Layout.blockN ⟨2, ![64, 512]⟩ ⟨2, ![64, 1024]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg6))

/-! ## The activation block -/

/-- The staged activation block is the device's argument array: the window is the whole array. -/
theorem xin_eq (c : Dev nD) : xin m c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

variable {m m'}

/-- The activation block as loaded and cast: the device's columns of the whole activations. -/
theorem in_x (hblk : Hblk m m') (c : Dev nD) (i : Fin 64) (k : Fin 512) :
    xc0 (F := Ideal) m c (ix2 i k) = X m' i (lo (cy c) k) := by
  unfold xc0
  rw [pay2_apply, read_stg0, xin_eq, (hblk c).1, blockX_apply]

/-! ## The first weights, chunk by chunk -/

set_option maxHeartbeats 1000000 in
/-- Layer 0's chunk 0 of the first weights, as read back: the device's rows and that chunk's columns of the whole matrix. -/
theorem in_ci00 (hblk : Hblk m m') (c : Dev nD) (k j : Fin 512) :
    ci00 (F := Ideal) m c (ix3 (0 : Fin 1) k j) = W0 m' (lo (cy c) k) (col (cx c) 0 j) := by
  have hj : (⟨0 + j.val, by omega⟩ : Fin 1024) = chunk 0 j := Fin.ext (by show 0 + j.val = (0 : Fin 2).val * 512 + j.val; simp)
  have hd : dmaI0 m c = m ((c : Thread nD τ).loc main_arg1) := rfl
  unfold ci00 LI0
  refine (readCov_chunk_cols_hd (Val := Elt Ideal) (Memref.whole cc0_scratch2).view [] 0 0 inb_S3x512x1024_S1x512x1024_0_0_0
    inb_S3x512x1024_S1x512x512_0_0_0 (k0_pay4 (k0_pay3 (vWI0 m c))) k j (by omega)).trans ?_
  rw [pay4_apply, pay3_apply]
  unfold vWI0
  rw [read_w0M0, hd, hj, (hblk c).2.1, blockW_chunk]

set_option maxHeartbeats 1000000 in
/-- Layer 0's chunk 1 of the first weights, as read back: the device's rows and that chunk's columns of the whole matrix. -/
theorem in_ci01 (hblk : Hblk m m') (c : Dev nD) (k j : Fin 512) :
    ci01 (F := Ideal) m c (ix3 (0 : Fin 1) k j) = W0 m' (lo (cy c) k) (col (cx c) 1 j) := by
  have hj : (⟨512 + j.val, by omega⟩ : Fin 1024) = chunk 1 j := Fin.ext (by show 512 + j.val = (1 : Fin 2).val * 512 + j.val; simp)
  have hd : dmaI0 m c = m ((c : Thread nD τ).loc main_arg1) := rfl
  unfold ci01 LI0
  refine (readCov_chunk_cols_hd (Val := Elt Ideal) (Memref.whole cc0_scratch2).view [] 0 512 inb_S3x512x1024_S1x512x1024_0_0_0
    inb_S3x512x1024_S1x512x512_0_0_512 (k0_pay4 (k0_pay3 (vWI0 m c))) k j (by omega)).trans ?_
  rw [pay4_apply, pay3_apply]
  unfold vWI0
  rw [read_w0M0, hd, hj, (hblk c).2.1, blockW_chunk]

set_option maxHeartbeats 1000000 in
/-- Layer 1's chunk 0 of the first weights, as read back: the device's rows and that chunk's columns of the whole matrix. -/
theorem in_ci10 (hblk : Hblk m m') (c : Dev nD) (k j : Fin 512) :
    ci10 (F := Ideal) m c (ix3 (0 : Fin 1) k j) = W1 m' (lo (cy c) k) (col (cx c) 0 j) := by
  have hj : (⟨0 + j.val, by omega⟩ : Fin 1024) = chunk 0 j := Fin.ext (by show 0 + j.val = (0 : Fin 2).val * 512 + j.val; simp)
  have hd : dmaI1 m c = m ((c : Thread nD τ).loc main_arg3) := rfl
  unfold ci10 LI1
  refine (readCov_chunk_cols_hd (Val := Elt Ideal) (Memref.whole cc0_scratch2).view (LI0 m c) 1 0 inb_S3x512x1024_S1x512x1024_1_0_0
    inb_S3x512x1024_S1x512x512_1_0_0 (k0_pay18 (k0_pay17 (vWI1 m c))) k j (by omega)).trans ?_
  rw [pay18_apply, pay17_apply]
  unfold vWI1
  rw [read_w0M1, hd, hj, (hblk c).2.2.2.1, blockW_chunk]

set_option maxHeartbeats 1000000 in
/-- Layer 1's chunk 1 of the first weights, as read back: the device's rows and that chunk's columns of the whole matrix. -/
theorem in_ci11 (hblk : Hblk m m') (c : Dev nD) (k j : Fin 512) :
    ci11 (F := Ideal) m c (ix3 (0 : Fin 1) k j) = W1 m' (lo (cy c) k) (col (cx c) 1 j) := by
  have hj : (⟨512 + j.val, by omega⟩ : Fin 1024) = chunk 1 j := Fin.ext (by show 512 + j.val = (1 : Fin 2).val * 512 + j.val; simp)
  have hd : dmaI1 m c = m ((c : Thread nD τ).loc main_arg3) := rfl
  unfold ci11 LI1
  refine (readCov_chunk_cols_hd (Val := Elt Ideal) (Memref.whole cc0_scratch2).view (LI0 m c) 1 512 inb_S3x512x1024_S1x512x1024_1_0_0
    inb_S3x512x1024_S1x512x512_1_0_512 (k0_pay18 (k0_pay17 (vWI1 m c))) k j (by omega)).trans ?_
  rw [pay18_apply, pay17_apply]
  unfold vWI1
  rw [read_w0M1, hd, hj, (hblk c).2.2.2.1, blockW_chunk]

set_option maxHeartbeats 1000000 in
/-- Layer 2's chunk 0 of the first weights, as read back: the device's rows and that chunk's columns of the whole matrix. -/
theorem in_ci20 (hblk : Hblk m m') (c : Dev nD) (k j : Fin 512) :
    ci20 (F := Ideal) m c (ix3 (0 : Fin 1) k j) = W2 m' (lo (cy c) k) (col (cx c) 0 j) := by
  have hj : (⟨0 + j.val, by omega⟩ : Fin 1024) = chunk 0 j := Fin.ext (by show 0 + j.val = (0 : Fin 2).val * 512 + j.val; simp)
  have hd : dmaI2 m c = m ((c : Thread nD τ).loc main_arg5) := rfl
  unfold ci20 LI2
  refine (readCov_chunk_cols_hd (Val := Elt Ideal) (Memref.whole cc0_scratch2).view (LI1 m c) 2 0 inb_S3x512x1024_S1x512x1024_2_0_0
    inb_S3x512x1024_S1x512x512_2_0_0 (k0_pay29 (vWI2 m c)) k j (by omega)).trans ?_
  rw [pay29_apply]
  unfold vWI2
  rw [read_w0M2, hd, hj, (hblk c).2.2.2.2.2.1, blockW_chunk]

set_option maxHeartbeats 1000000 in
/-- Layer 2's chunk 1 of the first weights, as read back: the device's rows and that chunk's columns of the whole matrix. -/
theorem in_ci21 (hblk : Hblk m m') (c : Dev nD) (k j : Fin 512) :
    ci21 (F := Ideal) m c (ix3 (0 : Fin 1) k j) = W2 m' (lo (cy c) k) (col (cx c) 1 j) := by
  have hj : (⟨512 + j.val, by omega⟩ : Fin 1024) = chunk 1 j := Fin.ext (by show 512 + j.val = (1 : Fin 2).val * 512 + j.val; simp)
  have hd : dmaI2 m c = m ((c : Thread nD τ).loc main_arg5) := rfl
  unfold ci21 LI2
  refine (readCov_chunk_cols_hd (Val := Elt Ideal) (Memref.whole cc0_scratch2).view (LI1 m c) 2 512 inb_S3x512x1024_S1x512x1024_2_0_0
    inb_S3x512x1024_S1x512x512_2_0_512 (k0_pay29 (vWI2 m c)) k j (by omega)).trans ?_
  rw [pay29_apply]
  unfold vWI2
  rw [read_w0M2, hd, hj, (hblk c).2.2.2.2.2.1, blockW_chunk]

/-! ## The second weights, chunk by chunk -/

set_option maxHeartbeats 1000000 in
/-- Layer 0's chunk 0 of the second weights, as read back: that chunk's rows and the device's columns of the whole matrix. -/
theorem in_co00 (hblk : Hblk m m') (c : Dev nD) (j n : Fin 512) :
    co00 (F := Ideal) m c (ix3 (0 : Fin 1) j n) = V0 m' (col (cx c) 0 j) (lo (cy c) n) := by
  have hj : (⟨0 + j.val, by omega⟩ : Fin 1024) = chunk 0 j := Fin.ext (by show 0 + j.val = (0 : Fin 2).val * 512 + j.val; simp)
  have hd : dmaO0 m c = m ((c : Thread nD τ).loc main_arg2) := rfl
  unfold co00 LO0
  refine (readCov_chunk_rows_hd (Val := Elt Ideal) (Memref.whole cc0_scratch3).view [] 0 0 inb_S3x1024x512_S1x1024x512_0_0_0
    inb_S3x1024x512_S1x512x512_0_0_0 (k0_pay10 (vWO0 m c)) j n (by omega)).trans ?_
  rw [pay10_apply]
  unfold vWO0
  rw [read_w1M0, hd, hj, (hblk c).2.2.1, blockV_chunk]

set_option maxHeartbeats 1000000 in
/-- Layer 0's chunk 1 of the second weights, as read back: that chunk's rows and the device's columns of the whole matrix. -/
theorem in_co01 (hblk : Hblk m m') (c : Dev nD) (j n : Fin 512) :
    co01 (F := Ideal) m c (ix3 (0 : Fin 1) j n) = V0 m' (col (cx c) 1 j) (lo (cy c) n) := by
  have hj : (⟨512 + j.val, by omega⟩ : Fin 1024) = chunk 1 j := Fin.ext (by show 512 + j.val = (1 : Fin 2).val * 512 + j.val; simp)
  have hd : dmaO0 m c = m ((c : Thread nD τ).loc main_arg2) := rfl
  unfold co01 LO0
  refine (readCov_chunk_rows_hd (Val := Elt Ideal) (Memref.whole cc0_scratch3).view [] 0 512 inb_S3x1024x512_S1x1024x512_0_0_0
    inb_S3x1024x512_S1x512x512_0_512_0 (k0_pay10 (vWO0 m c)) j n (by omega)).trans ?_
  rw [pay10_apply]
  unfold vWO0
  rw [read_w1M0, hd, hj, (hblk c).2.2.1, blockV_chunk]

set_option maxHeartbeats 1000000 in
/-- Layer 1's chunk 0 of the second weights, as read back: that chunk's rows and the device's columns of the whole matrix. -/
theorem in_co10 (hblk : Hblk m m') (c : Dev nD) (j n : Fin 512) :
    co10 (F := Ideal) m c (ix3 (0 : Fin 1) j n) = V1 m' (col (cx c) 0 j) (lo (cy c) n) := by
  have hj : (⟨0 + j.val, by omega⟩ : Fin 1024) = chunk 0 j := Fin.ext (by show 0 + j.val = (0 : Fin 2).val * 512 + j.val; simp)
  have hd : dmaO1 m c = m ((c : Thread nD τ).loc main_arg4) := rfl
  unfold co10 LO1
  refine (readCov_chunk_rows_hd (Val := Elt Ideal) (Memref.whole cc0_scratch3).view (LO0 m c) 1 0 inb_S3x1024x512_S1x1024x512_1_0_0
    inb_S3x1024x512_S1x512x512_1_0_0 (k0_pay25 (vWO1 m c)) j n (by omega)).trans ?_
  rw [pay25_apply]
  unfold vWO1
  rw [read_w1M1, hd, hj, (hblk c).2.2.2.2.1, blockV_chunk]

set_option maxHeartbeats 1000000 in
/-- Layer 1's chunk 1 of the second weights, as read back: that chunk's rows and the device's columns of the whole matrix. -/
theorem in_co11 (hblk : Hblk m m') (c : Dev nD) (j n : Fin 512) :
    co11 (F := Ideal) m c (ix3 (0 : Fin 1) j n) = V1 m' (col (cx c) 1 j) (lo (cy c) n) := by
  have hj : (⟨512 + j.val, by omega⟩ : Fin 1024) = chunk 1 j := Fin.ext (by show 512 + j.val = (1 : Fin 2).val * 512 + j.val; simp)
  have hd : dmaO1 m c = m ((c : Thread nD τ).loc main_arg4) := rfl
  unfold co11 LO1
  refine (readCov_chunk_rows_hd (Val := Elt Ideal) (Memref.whole cc0_scratch3).view (LO0 m c) 1 512 inb_S3x1024x512_S1x1024x512_1_0_0
    inb_S3x1024x512_S1x512x512_1_512_0 (k0_pay25 (vWO1 m c)) j n (by omega)).trans ?_
  rw [pay25_apply]
  unfold vWO1
  rw [read_w1M1, hd, hj, (hblk c).2.2.2.2.1, blockV_chunk]

set_option maxHeartbeats 1000000 in
/-- Layer 2's chunk 0 of the second weights, as read back: that chunk's rows and the device's columns of the whole matrix. -/
theorem in_co20 (hblk : Hblk m m') (c : Dev nD) (j n : Fin 512) :
    co20 (F := Ideal) m c (ix3 (0 : Fin 1) j n) = V2 m' (col (cx c) 0 j) (lo (cy c) n) := by
  have hj : (⟨0 + j.val, by omega⟩ : Fin 1024) = chunk 0 j := Fin.ext (by show 0 + j.val = (0 : Fin 2).val * 512 + j.val; simp)
  have hd : dmaO2 m c = m ((c : Thread nD τ).loc main_arg6) := rfl
  unfold co20 LO2
  refine (readCov_chunk_rows_hd (Val := Elt Ideal) (Memref.whole cc0_scratch3).view (LO1 m c) 2 0 inb_S3x1024x512_S1x1024x512_2_0_0
    inb_S3x1024x512_S1x512x512_2_0_0 (k0_pay35 (vWO2 m c)) j n (by omega)).trans ?_
  rw [pay35_apply]
  unfold vWO2
  rw [read_w1M2, hd, hj, (hblk c).2.2.2.2.2.2, blockV_chunk]

set_option maxHeartbeats 1000000 in
/-- Layer 2's chunk 1 of the second weights, as read back: that chunk's rows and the device's columns of the whole matrix. -/
theorem in_co21 (hblk : Hblk m m') (c : Dev nD) (j n : Fin 512) :
    co21 (F := Ideal) m c (ix3 (0 : Fin 1) j n) = V2 m' (col (cx c) 1 j) (lo (cy c) n) := by
  have hj : (⟨512 + j.val, by omega⟩ : Fin 1024) = chunk 1 j := Fin.ext (by show 512 + j.val = (1 : Fin 2).val * 512 + j.val; simp)
  have hd : dmaO2 m c = m ((c : Thread nD τ).loc main_arg6) := rfl
  unfold co21 LO2
  refine (readCov_chunk_rows_hd (Val := Elt Ideal) (Memref.whole cc0_scratch3).view (LO1 m c) 2 512 inb_S3x1024x512_S1x1024x512_2_0_0
    inb_S3x1024x512_S1x512x512_2_512_0 (k0_pay35 (vWO2 m c)) j n (by omega)).trans ?_
  rw [pay35_apply]
  unfold vWO2
  rw [read_w1M2, hd, hj, (hblk c).2.2.2.2.2.2, blockV_chunk]

/-! ## The inputs together, and a device's result as its block of the reference's -/

/-- Every input of the kernel is the device's part of the reference's whole arrays. -/
theorem in_facts (hblk : Hblk m m') : InFacts m (X m') (W0 m') (V0 m') (W1 m') (V1 m') (W2 m') (V2 m') :=
  ⟨in_x hblk, in_ci00 hblk, in_ci01 hblk, in_ci10 hblk, in_ci11 hblk, in_ci20 hblk, in_ci21 hblk,
    in_co00 hblk, in_co01 hblk, in_co10 hblk, in_co11 hblk, in_co20 hblk, in_co21 hblk⟩

end Cert.KValue

namespace Cert.KernelIdealProof

open Idealize.ShloMosaic Idealize.ShloMosaic.TcCoe Idealize.ShloMosaic.ValueIdx Idealize.SL.Sem

/-- From blocks of the reference's arrays, the block a device stores is its block of the network of the whole
    arrays: entry (i, n) of it is the network's entry at row i and the device's n-th column. -/
theorem out_eq_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hblk : (∀ c : Dev Cert.KernelIdeal.nD,
      m ((c.tc : Thread Cert.KernelIdeal.nD Cert.KernelIdeal.τ).loc Cert.KernelIdeal.main_arg0) = Layout.blockN ⟨2, ![64, 512]⟩ ⟨2, ![64, 1024]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg6))))
    (c : Dev Cert.KernelIdeal.nD) :
    OUTs (F := Ideal) m c = Layout.blockN ⟨2, ![64, 512]⟩ ⟨2, ![64, 1024]⟩ (Layout.meshBlock [2, 2] ![[], [1]] c)
      (Cert.RefValue.refG (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6))) :=
  Cert.BlockIdx.blockX_ext c _ _ fun i n => (Cert.KValue.val_out' (Cert.KValue.in_facts hblk) c i n).trans rfl

/-- info: 'Cert.KernelIdealProof.out_eq_block' depends on axioms: [propext, Classical.choice, Quot.sound] -/
#guard_msgs in #print axioms out_eq_block

end Cert.KernelIdealProof

end
-- ==== Proof.Bits.Cells.lean ====
/-
  The mesh, the kernel's semaphores and buffers, and the cells of its protocol.

  Device `d` of the 2×2 mesh has coordinates (d / 2, d % 2). Its peer along the second axis
  (`yp`) receives its partial hidden chunks, its peer along the first axis (`xp`) its partial
  outputs. Nine addressed transfers leave each device, numbered `t : Fin 9`: transfer
  2·l + ch carries chunk `ch` of layer `l` to `yp`, transfer 6 + l carries layer `l`'s partial
  output to `xp`. Each has a send cell (credited on the sender once the source is read) and a
  receive cell (credited on the receiver once the slot is written).
-/
import proofs.«900581_g7700000000000582_dist_mlpseq_tp2d_cs_cs_b64_d512_h1024_v7x_xy2x2_f32_1_alg».proof.Proof.Gen.Kernel.Frame
import Idealize.ShloMosaic.Lib.Pipeline.Launch
import Idealize.ShloMosaic.Lib.Pipeline.Kit
import Idealize.ShloMosaic.Lib.Tactic

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the protocol's (duties `Bool`), the local transfers' counters -/

abbrev UB : Type := URounds (GSem nD τ sig) Bool
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB UC).trans embR

abbrev 𝒱₀ : Variants := Variants.none

/-! ## The mesh -/

/-- The peer along the second mesh axis: same first coordinate, the other second coordinate. -/
def yp (c : Dev nD) : Dev nD := ⟨2 * (c.val / 2) + 1 - c.val % 2, by have h : c.val < 4 := c.isLt; show _ < 4; omega⟩
/-- The peer along the first mesh axis. -/
def xp (c : Dev nD) : Dev nD := ⟨c.val % 2 + 2 - 2 * (c.val / 2), by have h : c.val < 4 := c.isLt; show _ < 4; omega⟩

theorem yp_yp (c : Dev nD) : yp (yp c) = c := by revert c; decide
theorem xp_xp (c : Dev nD) : xp (xp c) = c := by revert c; decide
theorem yp_ne (c : Dev nD) : yp c ≠ c := by revert c; decide
theorem xp_ne (c : Dev nD) : xp c ≠ c := by revert c; decide
theorem yp_ne_xp (c : Dev nD) : yp c ≠ xp c := by revert c; decide

def ypE : Dev nD ≃ Dev nD := ⟨yp, yp, yp_yp, yp_yp⟩
def xpE : Dev nD ≃ Dev nD := ⟨xp, xp, xp_xp, xp_xp⟩

/-- The printed device chains: the two entry signals, then per layer two transfers to `yp` and one to `xp`. -/
theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = xp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = yp c := Fin.ext (k0_dev10_eq c)
theorem dev11_eq (c : Dev nD) : (⟨k0_dev11 c, k0_dev11_lt c⟩ : Dev nD) = xp c := Fin.ext (k0_dev11_eq c)

/-- The destination of transfer `t`. -/
def peer (t : Fin 9) (c : Dev nD) : Dev nD := if t.val < 6 then yp c else xp c
theorem peer_peer (t : Fin 9) (c : Dev nD) : peer t (peer t c) = c := by
  unfold peer; split <;> [exact yp_yp c; exact xp_xp c]

/-! ## The semaphores -/

/-- The runtime's barrier semaphore of collective id 0. -/
abbrev barS : Sem sig := (SemArray.scalar (sig.barrier 0 rfl) : Sems sig S_).sem

/-- The six local weight copies' semaphores: layer `l`, first (`k = 0`) or second (`k = 1`) weight matrix. -/
abbrev wS00 : DmaSem sig := ((SemArray.slice cc0_scratch8 (Rect.unit (s := S3x2) ![0, 0] S1x1.size inb_S3x2_S1x1_0_0)).squeeze S_ squeezes_S1x1_S_).sem
abbrev wS01 : DmaSem sig := ((SemArray.slice cc0_scratch8 (Rect.unit (s := S3x2) ![0, 1] S1x1.size inb_S3x2_S1x1_0_1)).squeeze S_ squeezes_S1x1_S_).sem
abbrev wS10 : DmaSem sig := ((SemArray.slice cc0_scratch8 (Rect.unit (s := S3x2) ![1, 0] S1x1.size inb_S3x2_S1x1_1_0)).squeeze S_ squeezes_S1x1_S_).sem
abbrev wS11 : DmaSem sig := ((SemArray.slice cc0_scratch8 (Rect.unit (s := S3x2) ![1, 1] S1x1.size inb_S3x2_S1x1_1_1)).squeeze S_ squeezes_S1x1_S_).sem
abbrev wS20 : DmaSem sig := ((SemArray.slice cc0_scratch8 (Rect.unit (s := S3x2) ![2, 0] S1x1.size inb_S3x2_S1x1_2_0)).squeeze S_ squeezes_S1x1_S_).sem
abbrev wS21 : DmaSem sig := ((SemArray.slice cc0_scratch8 (Rect.unit (s := S3x2) ![2, 1] S1x1.size inb_S3x2_S1x1_2_1)).squeeze S_ squeezes_S1x1_S_).sem

/-- The send semaphore of transfer `t`. -/
abbrev sendS : Fin 9 → DmaSem sig
  | 0 => ((SemArray.slice cc0_scratch9 (Rect.unit (s := S3x2) ![0, 0] S1x1.size inb_S3x2_S1x1_0_0)).squeeze S_ squeezes_S1x1_S_).sem
  | 1 => ((SemArray.slice cc0_scratch9 (Rect.unit (s := S3x2) ![0, 1] S1x1.size inb_S3x2_S1x1_0_1)).squeeze S_ squeezes_S1x1_S_).sem
  | 2 => ((SemArray.slice cc0_scratch9 (Rect.unit (s := S3x2) ![1, 0] S1x1.size inb_S3x2_S1x1_1_0)).squeeze S_ squeezes_S1x1_S_).sem
  | 3 => ((SemArray.slice cc0_scratch9 (Rect.unit (s := S3x2) ![1, 1] S1x1.size inb_S3x2_S1x1_1_1)).squeeze S_ squeezes_S1x1_S_).sem
  | 4 => ((SemArray.slice cc0_scratch9 (Rect.unit (s := S3x2) ![2, 0] S1x1.size inb_S3x2_S1x1_2_0)).squeeze S_ squeezes_S1x1_S_).sem
  | 5 => ((SemArray.slice cc0_scratch9 (Rect.unit (s := S3x2) ![2, 1] S1x1.size inb_S3x2_S1x1_2_1)).squeeze S_ squeezes_S1x1_S_).sem
  | 6 => ((SemArray.slice cc0_scratch11 (Rect.unit (s := S3) ![0] S1.size inb_S3_S1_0)).squeeze S_ squeezes_S1_S_).sem
  | 7 => ((SemArray.slice cc0_scratch11 (Rect.unit (s := S3) ![1] S1.size inb_S3_S1_1)).squeeze S_ squeezes_S1_S_).sem
  | 8 => ((SemArray.slice cc0_scratch11 (Rect.unit (s := S3) ![2] S1.size inb_S3_S1_2)).squeeze S_ squeezes_S1_S_).sem

/-- The receive semaphore of transfer `t`. -/
abbrev recvS : Fin 9 → DmaSem sig
  | 0 => ((SemArray.slice cc0_scratch10 (Rect.unit (s := S3x2) ![0, 0] S1x1.size inb_S3x2_S1x1_0_0)).squeeze S_ squeezes_S1x1_S_).sem
  | 1 => ((SemArray.slice cc0_scratch10 (Rect.unit (s := S3x2) ![0, 1] S1x1.size inb_S3x2_S1x1_0_1)).squeeze S_ squeezes_S1x1_S_).sem
  | 2 => ((SemArray.slice cc0_scratch10 (Rect.unit (s := S3x2) ![1, 0] S1x1.size inb_S3x2_S1x1_1_0)).squeeze S_ squeezes_S1x1_S_).sem
  | 3 => ((SemArray.slice cc0_scratch10 (Rect.unit (s := S3x2) ![1, 1] S1x1.size inb_S3x2_S1x1_1_1)).squeeze S_ squeezes_S1x1_S_).sem
  | 4 => ((SemArray.slice cc0_scratch10 (Rect.unit (s := S3x2) ![2, 0] S1x1.size inb_S3x2_S1x1_2_0)).squeeze S_ squeezes_S1x1_S_).sem
  | 5 => ((SemArray.slice cc0_scratch10 (Rect.unit (s := S3x2) ![2, 1] S1x1.size inb_S3x2_S1x1_2_1)).squeeze S_ squeezes_S1x1_S_).sem
  | 6 => ((SemArray.slice cc0_scratch12 (Rect.unit (s := S3) ![0] S1.size inb_S3_S1_0)).squeeze S_ squeezes_S1_S_).sem
  | 7 => ((SemArray.slice cc0_scratch12 (Rect.unit (s := S3) ![1] S1.size inb_S3_S1_1)).squeeze S_ squeezes_S1_S_).sem
  | 8 => ((SemArray.slice cc0_scratch12 (Rect.unit (s := S3) ![2] S1.size inb_S3_S1_2)).squeeze S_ squeezes_S1_S_).sem

/-! ## The buffers' pieces -/

/-- Layer `l`'s slot of the f32 landing buffer of the first weights, and of the second. -/
abbrev w0M0 : Memref sig .tc .vmem S512x1024 .f32 := ((Memref.whole cc0_scratch0).slice (Rect.unit (s := S3x512x1024) ![0, 0, 0] S1x512x1024.size inb_S3x512x1024_S1x512x1024_0_0_0) (fun _ => rfl)).squeeze S512x1024 squeezes_S1x512x1024_S512x1024
abbrev w0M1 : Memref sig .tc .vmem S512x1024 .f32 := ((Memref.whole cc0_scratch0).slice (Rect.unit (s := S3x512x1024) ![1, 0, 0] S1x512x1024.size inb_S3x512x1024_S1x512x1024_1_0_0) (fun _ => rfl)).squeeze S512x1024 squeezes_S1x512x1024_S512x1024
abbrev w0M2 : Memref sig .tc .vmem S512x1024 .f32 := ((Memref.whole cc0_scratch0).slice (Rect.unit (s := S3x512x1024) ![2, 0, 0] S1x512x1024.size inb_S3x512x1024_S1x512x1024_2_0_0) (fun _ => rfl)).squeeze S512x1024 squeezes_S1x512x1024_S512x1024
abbrev w1M0 : Memref sig .tc .vmem S1024x512 .f32 := ((Memref.whole cc0_scratch1).slice (Rect.unit (s := S3x1024x512) ![0, 0, 0] S1x1024x512.size inb_S3x1024x512_S1x1024x512_0_0_0) (fun _ => rfl)).squeeze S1024x512 squeezes_S1x1024x512_S1024x512
abbrev w1M1 : Memref sig .tc .vmem S1024x512 .f32 := ((Memref.whole cc0_scratch1).slice (Rect.unit (s := S3x1024x512) ![1, 0, 0] S1x1024x512.size inb_S3x1024x512_S1x1024x512_1_0_0) (fun _ => rfl)).squeeze S1024x512 squeezes_S1x1024x512_S1024x512
abbrev w1M2 : Memref sig .tc .vmem S1024x512 .f32 := ((Memref.whole cc0_scratch1).slice (Rect.unit (s := S3x1024x512) ![2, 0, 0] S1x1024x512.size inb_S3x1024x512_S1x1024x512_2_0_0) (fun _ => rfl)).squeeze S1024x512 squeezes_S1x1024x512_S1024x512

/-- The source slot of transfer `t` (a slot of the send buffers). -/
abbrev srcM : Fin 9 → Memref sig .tc .vmem S64x512 .bf16
  | 0 => ((Memref.whole cc0_scratch4).slice (Rect.unit (s := S3x2x64x512) ![0, 0, 0, 0] S1x1x64x512.size inb_S3x2x64x512_S1x1x64x512_0_0_0_0) (fun _ => rfl)).squeeze S64x512 squeezes_S1x1x64x512_S64x512
  | 1 => ((Memref.whole cc0_scratch4).slice (Rect.unit (s := S3x2x64x512) ![0, 1, 0, 0] S1x1x64x512.size inb_S3x2x64x512_S1x1x64x512_0_1_0_0) (fun _ => rfl)).squeeze S64x512 squeezes_S1x1x64x512_S64x512
  | 2 => ((Memref.whole cc0_scratch4).slice (Rect.unit (s := S3x2x64x512) ![1, 0, 0, 0] S1x1x64x512.size inb_S3x2x64x512_S1x1x64x512_1_0_0_0) (fun _ => rfl)).squeeze S64x512 squeezes_S1x1x64x512_S64x512
  | 3 => ((Memref.whole cc0_scratch4).slice (Rect.unit (s := S3x2x64x512) ![1, 1, 0, 0] S1x1x64x512.size inb_S3x2x64x512_S1x1x64x512_1_1_0_0) (fun _ => rfl)).squeeze S64x512 squeezes_S1x1x64x512_S64x512
  | 4 => ((Memref.whole cc0_scratch4).slice (Rect.unit (s := S3x2x64x512) ![2, 0, 0, 0] S1x1x64x512.size inb_S3x2x64x512_S1x1x64x512_2_0_0_0) (fun _ => rfl)).squeeze S64x512 squeezes_S1x1x64x512_S64x512
  | 5 => ((Memref.whole cc0_scratch4).slice (Rect.unit (s := S3x2x64x512) ![2, 1, 0, 0] S1x1x64x512.size inb_S3x2x64x512_S1x1x64x512_2_1_0_0) (fun _ => rfl)).squeeze S64x512 squeezes_S1x1x64x512_S64x512
  | 6 => ((Memref.whole cc0_scratch5).slice (Rect.unit (s := S3x64x512) ![0, 0, 0] S1x64x512.size inb_S3x64x512_S1x64x512_0_0_0) (fun _ => rfl)).squeeze S64x512 squeezes_S1x64x512_S64x512
  | 7 => ((Memref.whole cc0_scratch5).slice (Rect.unit (s := S3x64x512) ![1, 0, 0] S1x64x512.size inb_S3x64x512_S1x64x512_1_0_0) (fun _ => rfl)).squeeze S64x512 squeezes_S1x64x512_S64x512
  | 8 => ((Memref.whole cc0_scratch5).slice (Rect.unit (s := S3x64x512) ![2, 0, 0] S1x64x512.size inb_S3x64x512_S1x64x512_2_0_0) (fun _ => rfl)).squeeze S64x512 squeezes_S1x64x512_S64x512

/-- The destination slot of transfer `t` (a slot of the receive buffers, on the peer). -/
abbrev dstM : Fin 9 → Memref sig .tc .vmem S64x512 .bf16
  | 0 => ((Memref.whole cc0_scratch6).slice (Rect.unit (s := S3x2x64x512) ![0, 0, 0, 0] S1x1x64x512.size inb_S3x2x64x512_S1x1x64x512_0_0_0_0) (fun _ => rfl)).squeeze S64x512 squeezes_S1x1x64x512_S64x512
  | 1 => ((Memref.whole cc0_scratch6).slice (Rect.unit (s := S3x2x64x512) ![0, 1, 0, 0] S1x1x64x512.size inb_S3x2x64x512_S1x1x64x512_0_1_0_0) (fun _ => rfl)).squeeze S64x512 squeezes_S1x1x64x512_S64x512
  | 2 => ((Memref.whole cc0_scratch6).slice (Rect.unit (s := S3x2x64x512) ![1, 0, 0, 0] S1x1x64x512.size inb_S3x2x64x512_S1x1x64x512_1_0_0_0) (fun _ => rfl)).squeeze S64x512 squeezes_S1x1x64x512_S64x512
  | 3 => ((Memref.whole cc0_scratch6).slice (Rect.unit (s := S3x2x64x512) ![1, 1, 0, 0] S1x1x64x512.size inb_S3x2x64x512_S1x1x64x512_1_1_0_0) (fun _ => rfl)).squeeze S64x512 squeezes_S1x1x64x512_S64x512
  | 4 => ((Memref.whole cc0_scratch6).slice (Rect.unit (s := S3x2x64x512) ![2, 0, 0, 0] S1x1x64x512.size inb_S3x2x64x512_S1x1x64x512_2_0_0_0) (fun _ => rfl)).squeeze S64x512 squeezes_S1x1x64x512_S64x512
  | 5 => ((Memref.whole cc0_scratch6).slice (Rect.unit (s := S3x2x64x512) ![2, 1, 0, 0] S1x1x64x512.size inb_S3x2x64x512_S1x1x64x512_2_1_0_0) (fun _ => rfl)).squeeze S64x512 squeezes_S1x1x64x512_S64x512
  | 6 => ((Memref.whole cc0_scratch7).slice (Rect.unit (s := S3x64x512) ![0, 0, 0] S1x64x512.size inb_S3x64x512_S1x64x512_0_0_0) (fun _ => rfl)).squeeze S64x512 squeezes_S1x64x512_S64x512
  | 7 => ((Memref.whole cc0_scratch7).slice (Rect.unit (s := S3x64x512) ![1, 0, 0] S1x64x512.size inb_S3x64x512_S1x64x512_1_0_0) (fun _ => rfl)).squeeze S64x512 squeezes_S1x64x512_S64x512
  | 8 => ((Memref.whole cc0_scratch7).slice (Rect.unit (s := S3x64x512) ![2, 0, 0] S1x64x512.size inb_S3x64x512_S1x64x512_2_0_0) (fun _ => rfl)).squeeze S64x512 squeezes_S1x64x512_S64x512

/-- A piece of a buffer held through a memref: exactly the memref's elements, at the full share. -/
abbrev heldM {sp : Space} {S : Shape} {e : EltTy} (c : Dev nD) (M : Memref sig .tc sp S e) (f : Buf (Elt F) (M.view.loc (c : Thread nD τ))) : sProp 𝕄 :=
  M.view.loc (c : Thread nD τ) ↦[M.view.set]{fullShare} f

/-- A whole buffer held. -/
abbrev held (c : Dev nD) (b : Ref sig .tc) (f : Buf (Elt F) ((c : Thread nD τ).loc b)) : sProp 𝕄 :=
  (Memref.whole b).view.loc (c : Thread nD τ) ↦[(Memref.whole b).view.set]{fullShare} f

/-! ## The cells -/

abbrev barCell (c : Dev nD) : GSem nD τ sig := ((c : Thread nD τ), .reg barS)
abbrev sendCell (t : Fin 9) (c : Dev nD) : GSem nD τ sig := ((c : Thread nD τ), .dma (sendS t))
abbrev recvCell (t : Fin 9) (c : Dev nD) : GSem nD τ sig := ((c : Thread nD τ), .dma (recvS t))

/-- The credit of one transfer: every slot is 64×512 bf16. -/
abbrev N : ℕ := (dstM 0).view.dmaCredit
theorem N_pos : 0 < N := View.dmaCredit_pos _ (by decide)
theorem N_eq (t : Fin 9) : (dstM t).view.dmaCredit = N := by revert t; decide

end Cert.KernelProof

end
-- ==== Proof.Bits.Sched.lean ====
/-
  The protocol as a schedule of rounds. Every cell has one round. A device's barrier cell has two
  duties of one unit: `false`, paid by its peer along the second axis, hands it that peer's six
  landing slots for the hidden chunks and the fact that the peer's six receive cells are at round 0;
  `true`, paid by its peer along the first axis, hands it that peer's three landing slots for the
  partial outputs likewise. The send cell of transfer `t` has one duty of the slot's credit, whose
  payload is the source slot back; the receive cell of transfer `t` one duty of the same credit,
  whose payload is the landing slot holding the sender's value `SV t (peer t c)`.
-/
import proofs.«900581_g7700000000000582_dist_mlpseq_tp2d_cs_cs_b64_d512_h1024_v7x_xy2x2_f32_1_alg».proof.Proof.Bits.Cells

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- The value transfer `t` carries from device `c`: a parameter here (the schedule is the same whatever the transfers carry).
variable (SV : Fin 9 → Dev nD → Vec F S64x512 .bf16)

/-! ## Which cell a semaphore is -/

/-- The role of a semaphore in the protocol: `some (false, t)` the send cell of transfer `t`, `some (true, t)` its receive cell. -/
def semTag : SemLoc sig → Option (Bool × Fin 9)
  | .dma s =>
    if h : 8 ≤ s.val ∧ s.val < 14 then some (false, ⟨s.val - 8, by omega⟩)
    else if h : 20 ≤ s.val ∧ s.val < 23 then some (false, ⟨s.val - 14, by omega⟩)
    else if h : 14 ≤ s.val ∧ s.val < 20 then some (true, ⟨s.val - 14, by omega⟩)
    else if h : 23 ≤ s.val ∧ s.val < 26 then some (true, ⟨s.val - 17, by omega⟩)
    else none
  | .reg _ => none

theorem semTag_send (t : Fin 9) : semTag (.dma (sendS t)) = some (false, t) := by revert t; decide
theorem semTag_recv (t : Fin 9) : semTag (.dma (recvS t)) = some (true, t) := by revert t; decide
theorem semTag_bar : semTag (.reg barS) = none := rfl

/-! ## The payloads -/

def sendPay (t : Fin 9) (c : Dev nD) : sProp 𝕄 := iprop(∃ g, heldM c (srcM t) g)
def recvPay (t : Fin 9) (c : Dev nD) : sProp 𝕄 :=
  iprop(∃ g, heldM c (dstM t) g ∗ ⌜(dstM t).view.read (Elt F) g = SV t (peer t c)⌝)

/-- A landing slot of device `d` at some contents, with the fact that `d` is at round 0 of the slot's receive cell. -/
def slotOf (t : Fin 9) (d : Dev nD) : sProp 𝕄 := iprop((∃ f, heldM d (dstM t) f) ∗ reached ER (recvCell t d) 0)

/-- What the second-axis peer's entry signal hands `c`: that peer's six landing slots for the hidden chunks. -/
def barPayY (c : Dev nD) : sProp 𝕄 :=
  iprop(slotOf 0 (yp c) ∗ slotOf 1 (yp c) ∗ slotOf 2 (yp c) ∗ slotOf 3 (yp c) ∗ slotOf 4 (yp c) ∗ slotOf 5 (yp c))
/-- What the first-axis peer's entry signal hands `c`: that peer's three landing slots for the partial outputs. -/
def barPayX (c : Dev nD) : sProp 𝕄 := iprop(slotOf 6 (xp c) ∗ slotOf 7 (xp c) ∗ slotOf 8 (xp c))

def payOf (sm : SemLoc sig) (c : Dev nD) : sProp 𝕄 :=
  match semTag sm with
  | some (false, t) => sendPay t c
  | some (true, t) => recvPay SV t c
  | none => iprop(emp)

/-! ## The schedule -/

abbrev IsBar (g : GSem nD τ sig) : Prop := g.1.2 = .tc ∧ g.2 = .reg barS
abbrev IsXfer (g : GSem nD τ sig) : Prop := g.1.2 = .tc ∧ (semTag g.2).isSome = true

def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := if g.2 = .reg barS then (if d then barPayX g.1.1 else barPayY g.1.1) else payOf SV g.2 g.1.1
  amount_pos g _ _ _ := by
    by_cases h : g.2 = .reg barS
    · rw [if_pos h]; exact Nat.one_pos
    · rw [if_neg h]; exact N_pos

/-! ## What each device owes at launch, in the order it pays -/

/-- The eleven payments of device `c`, in program order: the two entry signals, then per layer the two chunk
    transfers and the partial-output transfer. -/
def pays (c : Dev nD) : List (GSem nD τ sig × ℕ) :=
  [(barCell (yp c), 1), (barCell (xp c), 1),
   (recvCell 0 (yp c), N), (recvCell 1 (yp c), N), (recvCell 6 (xp c), N),
   (recvCell 2 (yp c), N), (recvCell 3 (yp c), N), (recvCell 7 (xp c), N),
   (recvCell 4 (yp c), N), (recvCell 5 (yp c), N), (recvCell 8 (xp c), N)]

/-- The tallies of a list of payments, the FIRST payment the LAST summand (so that paying it peels it). -/
def owedFrom : List (GSem nD τ sig × ℕ) → CellTallies nD τ sig Unit
  | [] => 0
  | p :: ps => owedFrom ps + tallyAt p.1 () p.2

def O₀ (c : Dev nD) : CellTallies nD τ sig Unit := owedFrom (pays c)
/-- What `c` still owes after its first `k` payments. -/
def Oafter (c : Dev nD) (k : ℕ) : CellTallies nD τ sig Unit := owedFrom ((pays c).drop k)

/-! ## The levels -/

def L (g : GSem nD τ sig) : Finset Unit := if g.1.2 = .tc then {()} else ∅
/-- Staging, local-copy and send cells at 0; barrier cells at 1; the receive cells in program order above:
    layer `l`'s chunk cells at 2·l + 2, its partial-output cell at 2·l + 3. -/
def lvT (t : Fin 9) : ℕ := if t.val < 6 then 2 * (t.val / 2) + 2 else 2 * (t.val - 6) + 3
def lv (g : GSem nD τ sig) (_ : Unit) : ℕ :=
  if g.2 = .reg barS then 1 else
  match semTag g.2 with
  | some (true, t) => lvT t
  | _ => 0

end Cert.KernelProof

end
-- ==== Proof.Bits.Ghost.lean ====
/-
  What a device's body starts from and what it leaves: the ghost state of the protocol dealt at
  launch, the pipeline's proof data, and the invariant before and after the one grid point.
-/
import proofs.«900581_g7700000000000582_dist_mlpseq_tp2d_cs_cs_b64_d512_h1024_v7x_xy2x2_f32_1_alg».proof.Proof.Bits.Sched

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- the value transfer `t` carries from device `c`, and the result block device `c` stores: parameters here
variable (SV : Fin 9 → Dev nD → Vec F S64x512 .bf16)
variable (OUT : Dev nD → (cc0_stg1_0 : Ref sig .tc).ty.Contents (Elt F))
variable (m : (ℓ : Loc nD τ sig) → Buf (Elt F) ℓ) (ρ : Dev nD → PrngReg)

/-! ## The cells of one device, numbered: 0 the barrier cell, 1 + t the send cell of transfer t, 10 + t its receive cell -/

def csem (k : Fin 19) : SemLoc sig :=
  if k.val = 0 then .reg barS
  else if h : k.val < 10 then .dma (sendS ⟨k.val - 1, by omega⟩)
  else .dma (recvS ⟨k.val - 10, by omega⟩)
abbrev kcell (ck : Dev nD × Fin 19) : GSem nD τ sig := ((ck.1 : Thread nD τ), csem ck.2)
def kBar : Fin 19 := 0
def kSend (t : Fin 9) : Fin 19 := ⟨1 + t.val, by omega⟩
def kRecv (t : Fin 9) : Fin 19 := ⟨10 + t.val, by omega⟩
theorem csem_bar : csem kBar = .reg barS := rfl
theorem csem_send (t : Fin 9) : csem (kSend t) = .dma (sendS t) := by revert t; decide
theorem csem_recv (t : Fin 9) : csem (kRecv t) = .dma (recvS t) := by revert t; decide

omit [FloatOps F] in
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## The ghost state a device's body starts from -/

/-- The invariants device `c`'s body opens, under the names the launch allocated them at: its own nineteen cells,
    both peers' barrier cells (its entry signals), and the receive cell of each of its transfers on that transfer's peer. -/
def invs (K : Dev nD × Fin 19 → ℕ) (c : Dev nD) : sProp 𝕄 :=
  iprop(cellInv ER (sched SV) (K (c, kBar)) (barCell c)
    ∗ (bigSep Finset.univ fun t : Fin 9 => cellInv ER (sched SV) (K (c, kSend t)) (sendCell t c))
    ∗ (bigSep Finset.univ fun t : Fin 9 => cellInv ER (sched SV) (K (c, kRecv t)) (recvCell t c))
    ∗ cellInv ER (sched SV) (K (yp c, kBar)) (barCell (yp c)) ∗ cellInv ER (sched SV) (K (xp c, kBar)) (barCell (xp c))
    ∗ (bigSep Finset.univ fun t : Fin 9 => cellInv ER (sched SV) (K (peer t c, kRecv t)) (recvCell t (peer t c))))

instance invs_persistent (K : Dev nD × Fin 19 → ℕ) (c : Dev nD) : BI.Persistent (invs SV K c) := by unfold invs; infer_instance

/-- The invariants; its positions at round 0 of its nineteen cells; round 0 reached at both peers' barrier cells and at
    its own send and receive cells; the duty tokens it pays with: the second-axis peer's barrier duty `false`, the
    first-axis peer's barrier duty `true`, each transfer's receive duty on its peer, each transfer's own send duty. -/
def ghost (K : Dev nD × Fin 19 → ℕ) (c : Dev nD) : sProp 𝕄 :=
  iprop(invs SV K c
    ∗ atPos ER (barCell c) 0 ∅ 0
    ∗ (bigSep Finset.univ fun t : Fin 9 => atPos ER (sendCell t c) 0 ∅ 0)
    ∗ (bigSep Finset.univ fun t : Fin 9 => atPos ER (recvCell t c) 0 ∅ 0)
    ∗ reached ER (barCell (yp c)) 0 ∗ reached ER (barCell (xp c)) 0
    ∗ (bigSep Finset.univ fun t : Fin 9 => reached ER (sendCell t c) 0)
    ∗ (bigSep Finset.univ fun t : Fin 9 => reached ER (recvCell t c) 0)
    ∗ dutyTok ER (barCell (yp c)) 0 false ∗ dutyTok ER (barCell (xp c)) 0 true
    ∗ (bigSep Finset.univ fun t : Fin 9 => dutyTok ER (recvCell t (peer t c)) 0 false)
    ∗ (bigSep Finset.univ fun t : Fin 9 => dutyTok ER (sendCell t c) 0 false))

/-- The six local weight copies' counters at zero. -/
def wsems0 (c : Dev nD) : sProp 𝕄 :=
  iprop(semVal ((c : Thread nD τ), .dma wS00) 0 ∗ semVal ((c : Thread nD τ), .dma wS01) 0 ∗ semVal ((c : Thread nD τ), .dma wS10) 0
    ∗ semVal ((c : Thread nD τ), .dma wS11) 0 ∗ semVal ((c : Thread nD τ), .dma wS20) 0 ∗ semVal ((c : Thread nD τ), .dma wS21) 0)

/-- The six weight arrays, as launched. -/
def args (c : Dev nD) : sProp 𝕄 :=
  iprop(held c main_arg1 (m ((c : Thread nD τ).loc main_arg1)) ∗ held c main_arg2 (m ((c : Thread nD τ).loc main_arg2))
    ∗ held c main_arg3 (m ((c : Thread nD τ).loc main_arg3)) ∗ held c main_arg4 (m ((c : Thread nD τ).loc main_arg4))
    ∗ held c main_arg5 (m ((c : Thread nD τ).loc main_arg5)) ∗ held c main_arg6 (m ((c : Thread nD τ).loc main_arg6)))

/-- The scratch buffers at some contents: the sliced ones slot by slot, the two bf16 weight buffers whole. -/
def scratch (c : Dev nD) : sProp 𝕄 :=
  iprop(((∃ f, heldM c w0M0 f) ∗ (∃ f, heldM c w0M1 f) ∗ (∃ f, heldM c w0M2 f))
    ∗ ((∃ f, heldM c w1M0 f) ∗ (∃ f, heldM c w1M1 f) ∗ (∃ f, heldM c w1M2 f))
    ∗ (∃ f, held c cc0_scratch2 f) ∗ (∃ f, held c cc0_scratch3 f)
    ∗ ((∃ f, heldM c (srcM 0) f) ∗ (∃ f, heldM c (srcM 1) f) ∗ (∃ f, heldM c (srcM 2) f) ∗ (∃ f, heldM c (srcM 3) f) ∗ (∃ f, heldM c (srcM 4) f) ∗ (∃ f, heldM c (srcM 5) f) ∗ (∃ f, heldM c (srcM 6) f) ∗ (∃ f, heldM c (srcM 7) f) ∗ (∃ f, heldM c (srcM 8) f))
    ∗ ((∃ f, heldM c (dstM 0) f) ∗ (∃ f, heldM c (dstM 1) f) ∗ (∃ f, heldM c (dstM 2) f) ∗ (∃ f, heldM c (dstM 3) f) ∗ (∃ f, heldM c (dstM 4) f) ∗ (∃ f, heldM c (dstM 5) f) ∗ (∃ f, heldM c (dstM 6) f) ∗ (∃ f, heldM c (dstM 7) f) ∗ (∃ f, heldM c (dstM 8) f)))

/-- What device `c`'s body starts from besides the buffers: the ghost state at some names, the credit for the units its
    cells are owed from launch (its barrier's two, each receive cell's slot credit), and the level facts. -/
def start (c : Dev nD) : sProp 𝕄 :=
  iprop((∃ K, ghost SV K c) ∗ cred (tallyAt (barCell c) () 2)
    ∗ (bigSep Finset.univ fun t : Fin 9 => cred (tallyAt (recvCell t c) () N)) ∗ levAts L lv)

/-- Before the grid point. -/
def Φ₀ (c : Dev nD) : sProp 𝕄 := iprop(start SV c ∗ wsems0 c ∗ args m c ∗ scratch c)
/-- After it: the weight arrays untouched, every own counter at zero (the eighteen transfer cells closed), the scratch
    buffers at some contents. -/
def Φ₁ (c : Dev nD) : sProp 𝕄 :=
  iprop(wsems0 c ∗ args m c ∗ scratch c
    ∗ (bigSep Finset.univ fun t : Fin 9 => semVal (sendCell t c) 0) ∗ (bigSep Finset.univ fun t : Fin 9 => semVal (recvCell t c) 0))

/-! ## The pipeline's proof data -/

/-- The activation block as staged: the one block of window 0 read off the argument array. -/
def xin (c : Dev nD) : (cc0_stg0_0 : Ref sig .tc).ty.Contents (Elt F) :=
  (win0_0.blk (0 : Fin 1)).view.read (Elt F) (m ((c : Thread nD τ).loc main_arg0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => OUT c
  Φ t := match t with
    | ⟨0, _⟩ => Φ₀ SV m c
    | ⟨_ + 1, _⟩ => Φ₁ m c
  q _ := fullShare
  owed t := match t with
    | ⟨0, _⟩ => O₀ c
    | ⟨_ + 1, _⟩ => 0

/-- A staging buffer whole at stated contents, as the pipeline hands it to the body and takes it back. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition: the invariant before the point, what the device owes, the two staging buffers. -/
def bodyPre (c : Dev nD) : sProp 𝕄 :=
  iprop(Φ₀ SV m c ∗ (dats SV OUT m 0 c).owesAt () t₀.castSucc
    ∗ (∃ d, stg c cc0_stg0_0 ((dats SV OUT m 0 c).before (0 : Fin 2) t₀ d))
    ∗ (∃ d, stg c cc0_stg1_0 ((dats SV OUT m 0 c).before (1 : Fin 2) t₀ d)))

/-- The body's postcondition: the invariant after the point, nothing owed, the activation block untouched and the
    result block stored. -/
def bodyPost (c : Dev nD) : sProp 𝕄 :=
  iprop(Φ₁ m c ∗ (dats SV OUT m 0 c).owesAt () t₀.succ ∗ stg c cc0_stg0_0 (xin m c) ∗ stg c cc0_stg1_0 (OUT c))

/-- The body, as the pipeline calls it at the one grid point. -/
abbrev theBody : Prog (TpuEff nD τ sig (Elt F) Λ₀ .tc) PUnit :=
  cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12

end Cert.KernelProof

end
-- ==== Proof.Bits.Spec.lean ====
/-
  What the kernel computes, one term per value, in the order of the program.

  A local value is a term over the launch memory: a weight slot read after its copy has landed
  (the copied array through the slot's view), a bf16 weight chunk read back from the list of
  the layers' stores (newest first), a payload of the printed arithmetic over those. A value
  RECEIVED from a peer is the peer's own sent value: transfer `t` lands `SVs m t (peer t c)` in
  device `c`'s slot, and the slot is read back with its two (or one) unit axes restored. The
  recursion is on the transfer's stage: a layer's chunk transfers depend on the previous layer's
  partial-output transfer, which depends on that layer's chunk transfers.
-/
import proofs.«900581_g7700000000000582_dist_mlpseq_tp2d_cs_cs_b64_d512_h1024_v7x_xy2x2_f32_1_alg».proof.Proof.Bits.Ghost
import proofs.«900581_g7700000000000582_dist_mlpseq_tp2d_cs_cs_b64_d512_h1024_v7x_xy2x2_f32_1_alg».proof.Proof.Gen.Kernel.Skeleton

noncomputable section

namespace Cert.KernelProof

open Cert.Kernel Cert.Kernel.Gen
open Idealize.ShloMosaic
open Idealize.ShloMosaic.TcCoe
open Idealize.SL Idealize.SL.Sem

variable {F : FTy → Type} [FloatOps F]
variable (m : (ℓ : Loc nD τ sig) → Buf (Elt F) ℓ)

/-! ## The weights: each layer's two slots as read after their copies landed, and the bf16 lists -/

def dmaI0 (c : Dev nD) : S512x1024.Idx → Elt F .f32 :=
  ReadAs.same.apply (View.read (Elt F) (Memref.whole main_arg1).view (m ((c : Thread nD τ).loc main_arg1)))
def dmaO0 (c : Dev nD) : S1024x512.Idx → Elt F .f32 :=
  ReadAs.same.apply (View.read (Elt F) (Memref.whole main_arg2).view (m ((c : Thread nD τ).loc main_arg2)))
def vWI0 (c : Dev nD) : Vec F S1x512x1024 .f32 :=
  View.readAt (Elt F) (Memref.whole cc0_scratch0).view
    (Rect.unit (s := S3x512x1024) ![0, 0, 0] S1x512x1024.size inb_S3x512x1024_S1x512x1024_0_0_0).toLoadRect
    (w0M0.view.writes (Elt F) w0M0.view.junk [⟨Rect.whole S512x1024, dmaI0 m c⟩])
def vWO0 (c : Dev nD) : Vec F S1x1024x512 .f32 :=
  View.readAt (Elt F) (Memref.whole cc0_scratch1).view
    (Rect.unit (s := S3x1024x512) ![0, 0, 0] S1x1024x512.size inb_S3x1024x512_S1x1024x512_0_0_0).toLoadRect
    (w1M0.view.writes (Elt F) w1M0.view.junk [⟨Rect.whole S1024x512, dmaO0 m c⟩])
def dmaI1 (c : Dev nD) : S512x1024.Idx → Elt F .f32 :=
  ReadAs.same.apply (View.read (Elt F) (Memref.whole main_arg3).view (m ((c : Thread nD τ).loc main_arg3)))
def dmaO1 (c : Dev nD) : S1024x512.Idx → Elt F .f32 :=
  ReadAs.same.apply (View.read (Elt F) (Memref.whole main_arg4).view (m ((c : Thread nD τ).loc main_arg4)))
def vWI1 (c : Dev nD) : Vec F S1x512x1024 .f32 :=
  View.readAt (Elt F) (Memref.whole cc0_scratch0).view
    (Rect.unit (s := S3x512x1024) ![1, 0, 0] S1x512x1024.size inb_S3x512x1024_S1x512x1024_1_0_0).toLoadRect
    (w0M1.view.writes (Elt F) w0M1.view.junk [⟨Rect.whole S512x1024, dmaI1 m c⟩])
def vWO1 (c : Dev nD) : Vec F S1x1024x512 .f32 :=
  View.readAt (Elt F) (Memref.whole cc0_scratch1).view
    (Rect.unit (s := S3x1024x512) ![1, 0, 0] S1x1024x512.size inb_S3x1024x512_S1x1024x512_1_0_0).toLoadRect
    (w1M1.view.writes (Elt F) w1M1.view.junk [⟨Rect.whole S1024x512, dmaO1 m c⟩])
def dmaI2 (c : Dev nD) : S512x1024.Idx → Elt F .f32 :=
  ReadAs.same.apply (View.read (Elt F) (Memref.whole main_arg5).view (m ((c : Thread nD τ).loc main_arg5)))
def dmaO2 (c : Dev nD) : S1024x512.Idx → Elt F .f32 :=
  ReadAs.same.apply (View.read (Elt F) (Memref.whole main_arg6).view (m ((c : Thread nD τ).loc main_arg6)))
def vWI2 (c : Dev nD) : Vec F S1x512x1024 .f32 :=
  View.readAt (Elt F) (Memref.whole cc0_scratch0).view
    (Rect.unit (s := S3x512x1024) ![2, 0, 0] S1x512x1024.size inb_S3x512x1024_S1x512x1024_2_0_0).toLoadRect
    (w0M2.view.writes (Elt F) w0M2.view.junk [⟨Rect.whole S512x1024, dmaI2 m c⟩])
def vWO2 (c : Dev nD) : Vec F S1x1024x512 .f32 :=
  View.readAt (Elt F) (Memref.whole cc0_scratch1).view
    (Rect.unit (s := S3x1024x512) ![2, 0, 0] S1x1024x512.size inb_S3x1024x512_S1x1024x512_2_0_0).toLoadRect
    (w1M2.view.writes (Elt F) w1M2.view.junk [⟨Rect.whole S1024x512, dmaO2 m c⟩])

/-- The bf16 copies of the first weights stored so far, newest first: after layer 0, 1, 2. -/
def LI0 (c : Dev nD) : List (View.Piece (Elt F) cc0_scratch2.ty.shape cc0_scratch2.ty.elt) :=
  [⟨(Rect.unit (s := S3x512x1024) ![0, 0, 0] S1x512x1024.size inb_S3x512x1024_S1x512x1024_0_0_0), k0_pay4 (k0_pay3 (vWI0 m c))⟩]
def LI1 (c : Dev nD) : List (View.Piece (Elt F) cc0_scratch2.ty.shape cc0_scratch2.ty.elt) :=
  ⟨(Rect.unit (s := S3x512x1024) ![1, 0, 0] S1x512x1024.size inb_S3x512x1024_S1x512x1024_1_0_0), k0_pay18 (k0_pay17 (vWI1 m c))⟩ :: LI0 m c
def LI2 (c : Dev nD) : List (View.Piece (Elt F) cc0_scratch2.ty.shape cc0_scratch2.ty.elt) :=
  ⟨(Rect.unit (s := S3x512x1024) ![2, 0, 0] S1x512x1024.size inb_S3x512x1024_S1x512x1024_2_0_0), k0_pay29 (vWI2 m c)⟩ :: LI1 m c
/-- The bf16 copies of the second weights likewise. -/
def LO0 (c : Dev nD) : List (View.Piece (Elt F) cc0_scratch3.ty.shape cc0_scratch3.ty.elt) :=
  [⟨(Rect.unit (s := S3x1024x512) ![0, 0, 0] S1x1024x512.size inb_S3x1024x512_S1x1024x512_0_0_0), k0_pay10 (vWO0 m c)⟩]
def LO1 (c : Dev nD) : List (View.Piece (Elt F) cc0_scratch3.ty.shape cc0_scratch3.ty.elt) :=
  ⟨(Rect.unit (s := S3x1024x512) ![1, 0, 0] S1x1024x512.size inb_S3x1024x512_S1x1024x512_1_0_0), k0_pay25 (vWO1 m c)⟩ :: LO0 m c
def LO2 (c : Dev nD) : List (View.Piece (Elt F) cc0_scratch3.ty.shape cc0_scratch3.ty.elt) :=
  ⟨(Rect.unit (s := S3x1024x512) ![2, 0, 0] S1x1024x512.size inb_S3x1024x512_S1x1024x512_2_0_0), k0_pay35 (vWO2 m c)⟩ :: LO1 m c

/-- Layer `l`'s chunk `ch` of the first weights (columns ch·512 …) and of the second (rows ch·512 …), as read back. -/
def ci00 (c : Dev nD) : Vec F S1x512x512 .bf16 :=
  (Memref.whole cc0_scratch2).view.readCov (LI0 m c) (Rect.unit (s := S3x512x1024) ![0, 0, 0] S1x512x512.size inb_S3x512x1024_S1x512x512_0_0_0).toLoadRect
def co00 (c : Dev nD) : Vec F S1x512x512 .bf16 :=
  (Memref.whole cc0_scratch3).view.readCov (LO0 m c) (Rect.unit (s := S3x1024x512) ![0, 0, 0] S1x512x512.size inb_S3x1024x512_S1x512x512_0_0_0).toLoadRect
def ci01 (c : Dev nD) : Vec F S1x512x512 .bf16 :=
  (Memref.whole cc0_scratch2).view.readCov (LI0 m c) (Rect.unit (s := S3x512x1024) ![0, 0, 512] S1x512x512.size inb_S3x512x1024_S1x512x512_0_0_512).toLoadRect
def co01 (c : Dev nD) : Vec F S1x512x512 .bf16 :=
  (Memref.whole cc0_scratch3).view.readCov (LO0 m c) (Rect.unit (s := S3x1024x512) ![0, 512, 0] S1x512x512.size inb_S3x1024x512_S1x512x512_0_512_0).toLoadRect
def ci10 (c : Dev nD) : Vec F S1x512x512 .bf16 :=
  (Memref.whole cc0_scratch2).view.readCov (LI1 m c) (Rect.unit (s := S3x512x1024) ![1, 0, 0] S1x512x512.size inb_S3x512x1024_S1x512x512_1_0_0).toLoadRect
def co10 (c : Dev nD) : Vec F S1x512x512 .bf16 :=
  (Memref.whole cc0_scratch3).view.readCov (LO1 m c) (Rect.unit (s := S3x1024x512) ![1, 0, 0] S1x512x512.size inb_S3x1024x512_S1x512x512_1_0_0).toLoadRect
def ci11 (c : Dev nD) : Vec F S1x512x512 .bf16 :=
  (Memref.whole cc0_scratch2).view.readCov (LI1 m c) (Rect.unit (s := S3x512x1024) ![1, 0, 512] S1x512x512.size inb_S3x512x1024_S1x512x512_1_0_512).toLoadRect
def co11 (c : Dev nD) : Vec F S1x512x512 .bf16 :=
  (Memref.whole cc0_scratch3).view.readCov (LO1 m c) (Rect.unit (s := S3x1024x512) ![1, 512, 0] S1x512x512.size inb_S3x1024x512_S1x512x512_1_512_0).toLoadRect
def ci20 (c : Dev nD) : Vec F S1x512x512 .bf16 :=
  (Memref.whole cc0_scratch2).view.readCov (LI2 m c) (Rect.unit (s := S3x512x1024) ![2, 0, 0] S1x512x512.size inb_S3x512x1024_S1x512x512_2_0_0).toLoadRect
def co20 (c : Dev nD) : Vec F S1x512x512 .bf16 :=
  (Memref.whole cc0_scratch3).view.readCov (LO2 m c) (Rect.unit (s := S3x1024x512) ![2, 0, 0] S1x512x512.size inb_S3x1024x512_S1x512x512_2_0_0).toLoadRect
def ci21 (c : Dev nD) : Vec F S1x512x512 .bf16 :=
  (Memref.whole cc0_scratch2).view.readCov (LI2 m c) (Rect.unit (s := S3x512x1024) ![2, 0, 512] S1x512x512.size inb_S3x512x1024_S1x512x512_2_0_512).toLoadRect
def co21 (c : Dev nD) : Vec F S1x512x512 .bf16 :=
  (Memref.whole cc0_scratch3).view.readCov (LO2 m c) (Rect.unit (s := S3x1024x512) ![2, 512, 0] S1x512x512.size inb_S3x1024x512_S1x512x512_2_512_0).toLoadRect

/-! ## The values, stage by stage -/

/-- The activation block as loaded and cast. -/
def xc0 (c : Dev nD) : FVec F S64x512 .bf16 :=
  k0_pay2 (View.readAt (Elt F) (Memref.whole cc0_stg0_0).view
    (Rect.unit (s := S64x512) ![0, 0] S64x512.size inb_S64x512_S64x512_0_0).toLoadRect (xin m c))

/-- A hidden chunk received from the second-axis peer, and a partial output received from the first-axis peer, from the
    64×512 value the peer sent. -/
def rvH (v : Vec F S64x512 .bf16) : Vec F S1x1x64x512 .bf16 := shapeCast S1x1x64x512 v shapeCasts_S64x512_S1x1x64x512
def rvX (v : Vec F S64x512 .bf16) : Vec F S1x64x512 .bf16 := shapeCast S1x64x512 v shapeCasts_S64x512_S1x64x512
/-- The 64×512 value a stored slot holds. -/
def svH (st : Vec F S1x1x64x512 .bf16) : Vec F S64x512 .bf16 := shapeCast S64x512 st shapeCasts_S1x1x64x512_S64x512
def svX (st : Vec F S1x64x512 .bf16) : Vec F S64x512 .bf16 := shapeCast S64x512 st shapeCasts_S1x64x512_S64x512

def zero64 : FVec F S64x512 .f32 := constant S64x512 .f32 0#32

-- layer 0
def ph00 (c : Dev nD) : FVec F S64x512 .f32 := k0_pay5 (xc0 m c) (ci00 m c)
def ph01 (c : Dev nD) : FVec F S64x512 .f32 := k0_pay7 (xc0 m c) (ci01 m c)
def st0 (c : Dev nD) : Vec F S1x1x64x512 .bf16 := k0_pay6 (xc0 m c) (ci00 m c)
def st1 (c : Dev nD) : Vec F S1x1x64x512 .bf16 := k0_pay9 (k0_pay8 (xc0 m c) (ci01 m c))
def sv0 (c : Dev nD) : Vec F S64x512 .bf16 := svH (st0 m c)
def sv1 (c : Dev nD) : Vec F S64x512 .bf16 := svH (st1 m c)
def c00 (c : Dev nD) : FVec F S64x512 .f32 := k0_pay13 (k0_pay11 (ph00 m c) (rvH (sv0 m (yp c)))) (k0_pay12 (co00 m c)) zero64
def h01 (c : Dev nD) : FVec F S64x512 .bf16 := k0_pay14 (ph01 m c) (rvH (sv1 m (yp c)))
def px0 (c : Dev nD) : FVec F S64x512 .f32 := k0_pay15 (c00 m c) (h01 m c) (co01 m c)
def st6 (c : Dev nD) : Vec F S1x64x512 .bf16 := k0_pay16 (c00 m c) (h01 m c) (co01 m c)
def sv6 (c : Dev nD) : Vec F S64x512 .bf16 := svX (st6 m c)
-- layer 1
def xc1 (c : Dev nD) : FVec F S64x512 .bf16 := k0_pay19 (px0 m c) (rvX (sv6 m (xp c)))
def ph10 (c : Dev nD) : FVec F S64x512 .f32 := k0_pay20 (px0 m c) (rvX (sv6 m (xp c))) (ci10 m c)
def st2 (c : Dev nD) : Vec F S1x1x64x512 .bf16 := k0_pay22 (k0_pay21 (px0 m c) (rvX (sv6 m (xp c))) (ci10 m c))
def ph11 (c : Dev nD) : FVec F S64x512 .f32 := k0_pay23 (xc1 m c) (ci11 m c)
def st3 (c : Dev nD) : Vec F S1x1x64x512 .bf16 := k0_pay24 (xc1 m c) (ci11 m c)
def sv2 (c : Dev nD) : Vec F S64x512 .bf16 := svH (st2 m c)
def sv3 (c : Dev nD) : Vec F S64x512 .bf16 := svH (st3 m c)
def c10 (c : Dev nD) : FVec F S64x512 .f32 := k0_pay26 (ph10 m c) (rvH (sv2 m (yp c))) (co10 m c)
def px1 (c : Dev nD) : FVec F S64x512 .f32 := k0_pay27 (ph11 m c) (c10 m c) (rvH (sv3 m (yp c))) (co11 m c)
def st7 (c : Dev nD) : Vec F S1x64x512 .bf16 := k0_pay28 (ph11 m c) (c10 m c) (rvH (sv3 m (yp c))) (co11 m c)
def sv7 (c : Dev nD) : Vec F S64x512 .bf16 := svX (st7 m c)
-- layer 2
def xc2 (c : Dev nD) : FVec F S64x512 .bf16 := k0_pay30 (px1 m c) (rvX (sv7 m (xp c)))
def ph20 (c : Dev nD) : FVec F S64x512 .f32 := k0_pay31 (px1 m c) (rvX (sv7 m (xp c))) (ci20 m c)
def st4 (c : Dev nD) : Vec F S1x1x64x512 .bf16 := k0_pay32 (px1 m c) (rvX (sv7 m (xp c))) (ci20 m c)
def ph21 (c : Dev nD) : FVec F S64x512 .f32 := k0_pay33 (xc2 m c) (ci21 m c)
def st5 (c : Dev nD) : Vec F S1x1x64x512 .bf16 := k0_pay34 (xc2 m c) (ci21 m c)
def sv4 (c : Dev nD) : Vec F S64x512 .bf16 := svH (st4 m c)
def sv5 (c : Dev nD) : Vec F S64x512 .bf16 := svH (st5 m c)
def c20 (c : Dev nD) : FVec F S64x512 .f32 := k0_pay36 (ph20 m c) (rvH (sv4 m (yp c))) (co20 m c)
def px2 (c : Dev nD) : FVec F S64x512 .f32 := k0_pay37 (ph21 m c) (c20 m c) (rvH (sv5 m (yp c))) (co21 m c)
def st8 (c : Dev nD) : Vec F S1x64x512 .bf16 := k0_pay38 (ph21 m c) (c20 m c) (rvH (sv5 m (yp c))) (co21 m c)
def sv8 (c : Dev nD) : Vec F S64x512 .bf16 := svX (st8 m c)

/-- The value transfer `t` carries from device `c`. -/
def SVs : Fin 9 → Dev nD → Vec F S64x512 .bf16
  | 0 => sv0 m | 1 => sv1 m | 2 => sv2 m | 3 => sv3 m | 4 => sv4 m | 5 => sv5 m | 6 => sv6 m | 7 => sv7 m | 8 => sv8 m

/-- The result block device `c` stores: its partial output of the last layer plus the first-axis peer's. -/
def OUTs (c : Dev nD) : (cc0_stg1_0 : Ref sig .tc).ty.Contents (Elt F) := k0_pay1 (px2 m c) (rvX (sv8 m (xp c)))

end Cert.KernelProof

end
-- ==== Proof.Bits.SchedFacts.lean ====
/-
  The schedule's tables read at each kind of cell, and the levels: every wait of a device sits
  strictly below everything the device still owes when it waits. A device pays in program order,
  and the receive cells' levels rise in that order, so what is still owed after the first `k`
  payments lies above every cell already waited for.
-/
import proofs.«900581_g7700000000000582_dist_mlpseq_tp2d_cs_cs_b64_d512_h1024_v7x_xy2x2_f32_1_alg».proof.Proof.Bits.Sched

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Fin 9 → Dev nD → Vec F S64x512 .bf16)

/-! ## Which kind a cell is -/

theorem send_ne_bar (t : Fin 9) : (SemLoc.dma (sendS t) : SemLoc sig) ≠ .reg barS := fun h => by cases h
theorem recv_ne_bar (t : Fin 9) : (SemLoc.dma (recvS t) : SemLoc sig) ≠ .reg barS := fun h => by cases h
theorem not_bar_send (t : Fin 9) (c : Dev nD) : ¬ IsBar (sendCell t c) := fun h => send_ne_bar t h.2
theorem not_bar_recv (t : Fin 9) (c : Dev nD) : ¬ IsBar (recvCell t c) := fun h => recv_ne_bar t h.2
theorem isXfer_send (t : Fin 9) (c : Dev nD) : IsXfer (sendCell t c) := ⟨rfl, by rw [semTag_send]; rfl⟩
theorem isXfer_recv (t : Fin 9) (c : Dev nD) : IsXfer (recvCell t c) := ⟨rfl, by rw [semTag_recv]; rfl⟩

/-! ## The tables -/

section Tables
variable (t : Fin 9) (c : Dev nD)

theorem duties_bar : (sched SV).duties (barCell c) 0 = Finset.univ := by
  dsimp only [sched]; exact if_pos ⟨rfl, rfl, rfl⟩
theorem duties_send : (sched SV).duties (sendCell t c) 0 = {false} := by
  dsimp only [sched]; rw [if_neg (fun h => not_bar_send t c h.2)]; exact if_pos ⟨rfl, isXfer_send t c⟩
theorem duties_recv : (sched SV).duties (recvCell t c) 0 = {false} := by
  dsimp only [sched]; rw [if_neg (fun h => not_bar_recv t c h.2)]; exact if_pos ⟨rfl, isXfer_recv t c⟩
theorem duties_later (g : GSem nD τ sig) : ∀ r, 1 ≤ r → (sched SV).duties g r = ∅ :=
  fun r hr => by dsimp only [sched]; rw [if_neg fun h => by omega, if_neg fun h => by omega]

theorem amount_bar (d : Bool) : (sched SV).amount (barCell c) 0 d = 1 := by dsimp only [sched]; exact if_pos rfl
theorem amount_send (d : Bool) : (sched SV).amount (sendCell t c) 0 d = N := by dsimp only [sched]; exact if_neg (send_ne_bar t)
theorem amount_recv (d : Bool) : (sched SV).amount (recvCell t c) 0 d = N := by dsimp only [sched]; exact if_neg (recv_ne_bar t)

theorem expect_bar : (sched SV).expect (barCell c) 0 = 2 := by
  unfold Schedule.expect Schedule.amountOf
  rw [duties_bar, Finset.sum_congr rfl fun d _ => amount_bar SV c d, Finset.sum_const, Finset.card_univ, Fintype.card_bool, smul_eq_mul]
theorem expect_send : (sched SV).expect (sendCell t c) 0 = N := by
  unfold Schedule.expect Schedule.amountOf; rw [duties_send, Finset.sum_singleton, amount_send]
theorem expect_recv : (sched SV).expect (recvCell t c) 0 = N := by
  unfold Schedule.expect Schedule.amountOf; rw [duties_recv, Finset.sum_singleton, amount_recv]

theorem payload_bar_false : (sched SV).payload (barCell c) 0 false = barPayY c := by
  dsimp only [sched]; rw [if_pos rfl]; exact if_neg Bool.false_ne_true
theorem payload_bar_true : (sched SV).payload (barCell c) 0 true = barPayX c := by
  dsimp only [sched]; rw [if_pos rfl, if_pos rfl]
theorem payload_send (d : Bool) : (sched SV).payload (sendCell t c) 0 d = sendPay t c := by
  dsimp only [sched]; rw [if_neg (send_ne_bar t)]; unfold payOf; rw [semTag_send]
theorem payload_recv (d : Bool) : (sched SV).payload (recvCell t c) 0 d = recvPay SV t c := by
  dsimp only [sched]; rw [if_neg (recv_ne_bar t)]; unfold payOf; rw [semTag_recv]

/-- The rest of the barrier cell's round, no duty taken: both peers' payloads. -/
theorem rest_bar : bigSep ((sched SV).duties (barCell c) 0 \ ∅) (fun d => (sched SV).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_send : bigSep ((sched SV).duties (sendCell t c) 0 \ ∅) (fun d => (sched SV).payload (sendCell t c) 0 d) = sendPay t c := by
  rw [Finset.sdiff_empty, duties_send, bigSep_singleton, payload_send]
theorem rest_recv : bigSep ((sched SV).duties (recvCell t c) 0 \ ∅) (fun d => (sched SV).payload (recvCell t c) 0 d) = recvPay SV t c := by
  rw [Finset.sdiff_empty, duties_recv, bigSep_singleton, payload_recv]

end Tables

/-! ## Every payload can be stored in a cell's invariant -/

instance slotOf_storable (t : Fin 9) (d : Dev nD) : BI.Storable (upEmb : UEmb _ 𝕄) (slotOf (F := F) t d) := by
  unfold slotOf; infer_instance
instance barPayY_storable (c : Dev nD) : BI.Storable (upEmb : UEmb _ 𝕄) (barPayY (F := F) c) := by
  unfold barPayY; infer_instance
instance barPayX_storable (c : Dev nD) : BI.Storable (upEmb : UEmb _ 𝕄) (barPayX (F := F) c) := by
  unfold barPayX; infer_instance
instance sendPay_storable (t : Fin 9) (c : Dev nD) : BI.Storable (upEmb : UEmb _ 𝕄) (sendPay (F := F) t c) := by
  unfold sendPay; infer_instance
instance recvPay_storable (t : Fin 9) (c : Dev nD) : BI.Storable (upEmb : UEmb _ 𝕄) (recvPay SV t c) := by
  unfold recvPay; infer_instance
instance payOf_storable (sm : SemLoc sig) (c : Dev nD) : BI.Storable (upEmb : UEmb _ 𝕄) (payOf SV sm c) := by
  unfold payOf; split <;> infer_instance

instance sched_payload_storable (g : GSem nD τ sig) (r : ℕ) (d : Bool) :
    BI.Storable (upEmb : UEmb _ 𝕄) ((sched SV).payload g r d) := by
  show BI.Storable upEmb (if g.2 = .reg barS then (if d then barPayX g.1.1 else barPayY g.1.1) else payOf SV g.2 g.1.1)
  (repeat' split) <;> infer_instance

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (t : Fin 9) (c : Dev nD) : lv (recvCell t c) () = lvT t := by
  dsimp only [lv]; rw [if_neg (recv_ne_bar t), semTag_recv]
/-- A cell that is neither the barrier's nor a receive cell sits at level 0. -/
theorem lv_lo (c : Dev nD) (q : DmaSem sig) (hq : ∀ t, semTag (.dma q) ≠ some (true, t)) : lv ((c : Thread nD τ), .dma q) () = 0 := by
  dsimp only [lv]; rw [if_neg (fun h => by cases h)]
  split
  · next t h => exact absurd h (hq t)
  · rfl

/-! ## What is still owed after the first `k` payments -/

theorem Oafter_zero (c : Dev nD) : Oafter c 0 = O₀ c := rfl
theorem Oafter_peel0 (c : Dev nD) : Oafter c 0 = Oafter c 1 + tallyAt (barCell (yp c)) () 1 := rfl
theorem Oafter_peel1 (c : Dev nD) : Oafter c 1 = Oafter c 2 + tallyAt (barCell (xp c)) () 1 := rfl
theorem Oafter_peel2 (c : Dev nD) : Oafter c 2 = Oafter c 3 + tallyAt (recvCell 0 (yp c)) () N := rfl
theorem Oafter_peel3 (c : Dev nD) : Oafter c 3 = Oafter c 4 + tallyAt (recvCell 1 (yp c)) () N := rfl
theorem Oafter_peel4 (c : Dev nD) : Oafter c 4 = Oafter c 5 + tallyAt (recvCell 6 (xp c)) () N := rfl
theorem Oafter_peel5 (c : Dev nD) : Oafter c 5 = Oafter c 6 + tallyAt (recvCell 2 (yp c)) () N := rfl
theorem Oafter_peel6 (c : Dev nD) : Oafter c 6 = Oafter c 7 + tallyAt (recvCell 3 (yp c)) () N := rfl
theorem Oafter_peel7 (c : Dev nD) : Oafter c 7 = Oafter c 8 + tallyAt (recvCell 7 (xp c)) () N := rfl
theorem Oafter_peel8 (c : Dev nD) : Oafter c 8 = Oafter c 9 + tallyAt (recvCell 4 (yp c)) () N := rfl
theorem Oafter_peel9 (c : Dev nD) : Oafter c 9 = Oafter c 10 + tallyAt (recvCell 5 (yp c)) () N := rfl
theorem Oafter_peel10 (c : Dev nD) : Oafter c 10 = Oafter c 11 + tallyAt (recvCell 8 (xp c)) () N := rfl
theorem Oafter_done (c : Dev nD) : Oafter c 11 = 0 := rfl

/-- A cell at which a list of payments leaves something owed is the cell of one of them. -/
theorem owedFrom_pos : ∀ (l : List (GSem nD τ sig × ℕ)) {g : GSem nD τ sig} {u : Unit}, 0 < owedFrom l g u → ∃ p ∈ l, g = p.1
  | [], g, u, h => absurd h (Nat.lt_irrefl 0)
  | p :: ps, g, u, h => by
    unfold owedFrom at h
    rw [Pi.add_apply, Finsupp.add_apply, tallyAt_apply] at h
    by_cases hg : g = p.1 ∧ u = ()
    · exact ⟨p, List.mem_cons_self, hg.1⟩
    · rw [if_neg hg, Nat.add_zero] at h
      obtain ⟨q, hq, e⟩ := owedFrom_pos ps h
      exact ⟨q, List.mem_cons_of_mem _ hq, e⟩

theorem Oafter_pos {c : Dev nD} {k : ℕ} {g : GSem nD τ sig} {u : Unit} (h : 0 < Oafter c k g u) :
    ∃ p ∈ (pays c).drop k, g = p.1 := owedFrom_pos _ h

/-- Every payment goes to a cell of a TensorCore thread. -/
theorem pays_tc (c : Dev nD) : ∀ p ∈ pays c, p.1.1.2 = .tc := by
  intro p hp
  simp only [pays, List.mem_cons, List.not_mem_nil, or_false] at hp
  rcases hp with rfl | rfl | rfl | rfl | rfl | rfl | rfl | rfl | rfl | rfl | rfl <;> rfl

/-- The levels of the eleven payments' cells, in program order. -/
def payLv : List ℕ := [1, 1, 2, 2, 3, 4, 4, 5, 6, 6, 7]

theorem pays_lv (c : Dev nD) : (pays c).map (fun p => lv p.1 ()) = payLv := by
  simp only [pays, List.map_cons, List.map_nil, lv_bar, lv_recv]
  rfl

/-- A bound on the levels from the `k`-th on bounds the levels of the cells still owed after `k` payments. -/
theorem lv_drop (c : Dev nD) (k b : ℕ) (h : ∀ x ∈ payLv.drop k, b < x) : ∀ p ∈ (pays c).drop k, b < lv p.1 () := by
  intro p hp
  apply h
  rw [← pays_lv c, ← List.map_drop]
  exact List.mem_map.mpr ⟨p, hp, rfl⟩

theorem payLv_pos : ∀ x ∈ payLv, 0 < x := by decide

/-! ## The wait evidence -/

/-- A device may wait on a cell of its own that lies strictly below every cell it still owes. -/
theorem mayWait_of (c : Dev nD) (sm : SemLoc sig) (k : ℕ)
    (hlt : ∀ p ∈ (pays c).drop k, lv ((c : Thread nD τ), sm) () < lv p.1 ()) :
    (levAts L lv : sProp 𝕄) ⊢ MayWait (c : Thread nD τ) sm () (Oafter c k) :=
  MayOwe.of_levAts (L := L) (lev := lv)
    (fun p hp => by rw [Finset.mem_singleton.mp hp, L_tc]; exact Finset.mem_singleton_self _)
    (fun g u hg => by
      obtain ⟨p, hp, rfl⟩ := Oafter_pos hg
      unfold L; rw [if_pos (pays_tc c p (List.mem_of_mem_drop hp))]; exact Finset.mem_singleton_self _)
    (fun g u hg p hp => by
      obtain ⟨q, hq, rfl⟩ := Oafter_pos hg
      rw [Finset.mem_singleton.mp hp]; exact hlt q hq)

/-- At its barrier wait a device has paid both entry signals: all it still owes are receive cells, above the barrier's. -/
theorem mayWait_bar (c : Dev nD) : (levAts L lv : sProp 𝕄) ⊢ MayWait (c : Thread nD τ) (.reg barS) () (Oafter c 2) :=
  mayWait_of c (.reg barS) 2 (by rw [show lv ((c : Thread nD τ), SemLoc.reg barS) () = 1 from lv_bar c]; exact lv_drop c 2 1 (by decide))

/-- A send cell, a local copy's cell or a staging cell sits at level 0, below everything a device can owe. -/
theorem mayWait_lo (c : Dev nD) (q : DmaSem sig) (hq : ∀ t, semTag (.dma q) ≠ some (true, t)) (k : ℕ) :
    (levAts L lv : sProp 𝕄) ⊢ MayWait (c : Thread nD τ) (.dma q) () (Oafter c k) :=
  mayWait_of c (.dma q) k (by rw [lv_lo c q hq]; exact lv_drop c k 0 fun x hx => payLv_pos x (List.mem_of_mem_drop hx))

/-- The receive cell of transfer `t` may be waited once everything still owed lies above it. -/
theorem mayWait_recv (t : Fin 9) (c : Dev nD) (k : ℕ) (h : ∀ x ∈ payLv.drop k, lvT t < x) :
    (levAts L lv : sProp 𝕄) ⊢ MayWait (c : Thread nD τ) (.dma (recvS t)) () (Oafter c k) :=
  mayWait_of c (.dma (recvS t)) k (by rw [show lv ((c : Thread nD τ), SemLoc.dma (recvS t)) () = lvT t from lv_recv t c]; exact lv_drop c k _ h)

/-- The nine receive waits, each after the payments made by then. -/
theorem mayWait_recv0 (c : Dev nD) : (levAts L lv : sProp 𝕄) ⊢ MayWait (c : Thread nD τ) (.dma (recvS 0)) () (Oafter c 4) := mayWait_recv 0 c 4 (by decide)
theorem mayWait_recv1 (c : Dev nD) : (levAts L lv : sProp 𝕄) ⊢ MayWait (c : Thread nD τ) (.dma (recvS 1)) () (Oafter c 4) := mayWait_recv 1 c 4 (by decide)
theorem mayWait_recv6 (c : Dev nD) : (levAts L lv : sProp 𝕄) ⊢ MayWait (c : Thread nD τ) (.dma (recvS 6)) () (Oafter c 5) := mayWait_recv 6 c 5 (by decide)
theorem mayWait_recv2 (c : Dev nD) : (levAts L lv : sProp 𝕄) ⊢ MayWait (c : Thread nD τ) (.dma (recvS 2)) () (Oafter c 7) := mayWait_recv 2 c 7 (by decide)
theorem mayWait_recv3 (c : Dev nD) : (levAts L lv : sProp 𝕄) ⊢ MayWait (c : Thread nD τ) (.dma (recvS 3)) () (Oafter c 7) := mayWait_recv 3 c 7 (by decide)
theorem mayWait_recv7 (c : Dev nD) : (levAts L lv : sProp 𝕄) ⊢ MayWait (c : Thread nD τ) (.dma (recvS 7)) () (Oafter c 8) := mayWait_recv 7 c 8 (by decide)
theorem mayWait_recv4 (c : Dev nD) : (levAts L lv : sProp 𝕄) ⊢ MayWait (c : Thread nD τ) (.dma (recvS 4)) () (Oafter c 10) := mayWait_recv 4 c 10 (by decide)
theorem mayWait_recv5 (c : Dev nD) : (levAts L lv : sProp 𝕄) ⊢ MayWait (c : Thread nD τ) (.dma (recvS 5)) () (Oafter c 10) := mayWait_recv 5 c 10 (by decide)
theorem mayWait_recv8 (c : Dev nD) : (levAts L lv : sProp 𝕄) ⊢ MayWait (c : Thread nD τ) (.dma (recvS 8)) () (Oafter c 11) := mayWait_recv 8 c 11 (by decide)

end Cert.KernelProof

end
-- ==== Proof.Bits.Pieces.lean ====
/-
  The kernel's slotted scratch buffers, whole and by their slots. Six buffers are only ever
  touched through slots (a unit slice along the leading axis, or the two leading axes, squeezed);
  the slots of one buffer are pairwise disjoint and cover it, so the buffer held whole is its
  slots held, and slots held at contents of their own join back to the buffer held at some contents.
-/
import proofs.«900581_g7700000000000582_dist_mlpseq_tp2d_cs_cs_b64_d512_h1024_v7x_xy2x2_f32_1_alg».proof.Proof.Bits.Cells
import Idealize.ShloMosaic.Lib.Ring

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sets told apart by a key -/

/-- Sets that are the fibres of a key are pairwise disjoint, -/
theorem key_disjoint {X : Type} [DecidableEq X] {n : ℕ} (J : Fin n → Finset X) (key : X → ℕ)
    (h : ∀ b i, i ∈ J b ↔ key i = b.val) : ∀ b b', b ≠ b' → Disjoint (J b) (J b') := by
  intro b b' hne
  rw [Finset.disjoint_left]
  intro i hi hi'
  exact hne (Fin.ext (((h b i).mp hi).symm.trans ((h b' i).mp hi')))

/-- and cover everything when the key stays below their number. -/
theorem key_cover {X : Type} [Fintype X] [DecidableEq X] {n : ℕ} (J : Fin n → Finset X) (key : X → ℕ)
    (hk : ∀ i, key i < n) (h : ∀ b i, i ∈ J b ↔ key i = b.val) : Finset.univ.biUnion J = Finset.univ := by
  ext i
  simp only [Finset.mem_biUnion, Finset.mem_univ, true_and, iff_true]
  exact ⟨⟨key i, hk i⟩, (h _ i).mpr rfl⟩

/-! ## Unit slots of a rectangle -/

/-- A rectangle that is one entry long at `k` on axis `a₀` and whole on every other axis holds the
    indices whose coordinate on `a₀` is `k`. -/
theorem mem_unit_lead {s : Shape} (a₀ : Fin s.rank) {off size : Fin s.rank → ℕ} {inb : ∀ a, off a + size a ≤ s.size a} (k : ℕ)
    (h0 : off a₀ = k) (hs0 : size a₀ = 1) (hoff : ∀ a, a ≠ a₀ → off a = 0) (hsz : ∀ a, a ≠ a₀ → size a = s.size a)
    (i : s.Idx) : i ∈ (Rect.unit off size inb).set ↔ (i a₀).val = k := by
  rw [Rect.mem_set_unit]
  constructor
  · intro H
    have := H a₀
    rw [h0, hs0] at this
    omega
  · intro H a
    by_cases ha : a = a₀
    · subst ha; rw [h0, hs0]; omega
    · rw [hoff a ha, hsz a ha]
      exact ⟨Nat.zero_le _, by have := (i a).isLt; omega⟩

/-- The same with two unit axes. -/
theorem mem_unit_lead2 {s : Shape} (a₀ a₁ : Fin s.rank) {off size : Fin s.rank → ℕ} {inb : ∀ a, off a + size a ≤ s.size a} (k l : ℕ)
    (h0 : off a₀ = k) (h1 : off a₁ = l) (hs0 : size a₀ = 1) (hs1 : size a₁ = 1)
    (hoff : ∀ a, a ≠ a₀ → a ≠ a₁ → off a = 0) (hsz : ∀ a, a ≠ a₀ → a ≠ a₁ → size a = s.size a)
    (i : s.Idx) : i ∈ (Rect.unit off size inb).set ↔ (i a₀).val = k ∧ (i a₁).val = l := by
  rw [Rect.mem_set_unit]
  constructor
  · intro H
    have e0 := H a₀
    have e1 := H a₁
    rw [h0, hs0] at e0
    rw [h1, hs1] at e1
    omega
  · intro H a
    by_cases ha : a = a₀
    · subst ha; rw [h0, hs0]; omega
    · by_cases ha' : a = a₁
      · subst ha'; rw [h1, hs1]; omega
      · rw [hoff a ha ha', hsz a ha ha']
        exact ⟨Nat.zero_le _, by have := (i a).isLt; omega⟩

/-- Six conjuncts over `Fin 6`. -/
theorem bigSep_fin6 {M : Type} [URA M] (Φ : Fin 6 → sProp M) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## The f32 landing buffer of the first weights -/

/-- The slots' elements, by slot. -/
abbrev J0 : Fin 3 → Finset S3x512x1024.Idx := ![w0M0.view.set, w0M1.view.set, w0M2.view.set]

/-- Slot `b` holds the indices whose leading coordinate is `b`. -/
theorem mem_J0 (b : Fin 3) (i : S3x512x1024.Idx) : i ∈ J0 b ↔ (i 0).val = b.val := by
  fin_cases b
  · show i ∈ w0M0.view.set ↔ _
    rw [show w0M0.view.set = _ from (View.set_reshape _ _).trans (View.set_slice_whole _ _)]
    exact mem_unit_lead 0 0 rfl rfl (by decide) (by decide) i
  · show i ∈ w0M1.view.set ↔ _
    rw [show w0M1.view.set = _ from (View.set_reshape _ _).trans (View.set_slice_whole _ _)]
    exact mem_unit_lead 0 1 rfl rfl (by decide) (by decide) i
  · show i ∈ w0M2.view.set ↔ _
    rw [show w0M2.view.set = _ from (View.set_reshape _ _).trans (View.set_slice_whole _ _)]
    exact mem_unit_lead 0 2 rfl rfl (by decide) (by decide) i

/-- The buffer held whole is its three slots held, at the same contents; -/
theorem split_scratch0 (c : Dev nD) (f : Buf (Elt F) ((c : Thread nD τ).loc cc0_scratch0)) :
    ((c : Thread nD τ).loc cc0_scratch0 ↦{fullShare} f : sProp 𝕄) ⊢ iprop(heldM c w0M0 f ∗ heldM c w0M1 f ∗ heldM c w0M2 f) :=
  Entails.of_eq ((Ring.pointsTo_blocks (ℓ := (c : Thread nD τ).loc cc0_scratch0) (q := fullShare) J0
    (key_disjoint J0 (fun i => (i 0).val) mem_J0) (key_cover J0 (fun i => (i 0).val) (fun i => (i 0).isLt) mem_J0) f).trans (Ring.bigSep_fin3 _))

/-- and the slots held at contents of their own join to the buffer held at some contents. -/
theorem join_scratch0 (c : Dev nD) (f0 f1 f2 : Buf (Elt F) ((c : Thread nD τ).loc cc0_scratch0)) :
    iprop(heldM c w0M0 f0 ∗ heldM c w0M1 f1 ∗ heldM c w0M2 f2) ⊢ (iprop(∃ f, (c : Thread nD τ).loc cc0_scratch0 ↦{fullShare} f) : sProp 𝕄) := by
  refine (Entails.of_eq (Ring.bigSep_fin3 (fun b => ((c : Thread nD τ).loc cc0_scratch0 ↦[J0 b]{fullShare} (![f0, f1, f2] : Fin 3 → _) b : sProp 𝕄))).symm).trans ?_
  exact Ring.pointsTo_blocks_join (ℓ := (c : Thread nD τ).loc cc0_scratch0) (q := fullShare) J0
    (key_disjoint J0 (fun i => (i 0).val) mem_J0) (key_cover J0 (fun i => (i 0).val) (fun i => (i 0).isLt) mem_J0) ![f0, f1, f2] f0

/-! ## The f32 landing buffer of the second weights -/

/-- The slots' elements, by slot. -/
abbrev J1 : Fin 3 → Finset S3x1024x512.Idx := ![w1M0.view.set, w1M1.view.set, w1M2.view.set]

/-- Slot `b` holds the indices whose leading coordinate is `b`. -/
theorem mem_J1 (b : Fin 3) (i : S3x1024x512.Idx) : i ∈ J1 b ↔ (i 0).val = b.val := by
  fin_cases b
  · show i ∈ w1M0.view.set ↔ _
    rw [show w1M0.view.set = _ from (View.set_reshape _ _).trans (View.set_slice_whole _ _)]
    exact mem_unit_lead 0 0 rfl rfl (by decide) (by decide) i
  · show i ∈ w1M1.view.set ↔ _
    rw [show w1M1.view.set = _ from (View.set_reshape _ _).trans (View.set_slice_whole _ _)]
    exact mem_unit_lead 0 1 rfl rfl (by decide) (by decide) i
  · show i ∈ w1M2.view.set ↔ _
    rw [show w1M2.view.set = _ from (View.set_reshape _ _).trans (View.set_slice_whole _ _)]
    exact mem_unit_lead 0 2 rfl rfl (by decide) (by decide) i

/-- The buffer held whole is its three slots held, at the same contents; -/
theorem split_scratch1 (c : Dev nD) (f : Buf (Elt F) ((c : Thread nD τ).loc cc0_scratch1)) :
    ((c : Thread nD τ).loc cc0_scratch1 ↦{fullShare} f : sProp 𝕄) ⊢ iprop(heldM c w1M0 f ∗ heldM c w1M1 f ∗ heldM c w1M2 f) :=
  Entails.of_eq ((Ring.pointsTo_blocks (ℓ := (c : Thread nD τ).loc cc0_scratch1) (q := fullShare) J1
    (key_disjoint J1 (fun i => (i 0).val) mem_J1) (key_cover J1 (fun i => (i 0).val) (fun i => (i 0).isLt) mem_J1) f).trans (Ring.bigSep_fin3 _))

/-- and the slots held at contents of their own join to the buffer held at some contents. -/
theorem join_scratch1 (c : Dev nD) (f0 f1 f2 : Buf (Elt F) ((c : Thread nD τ).loc cc0_scratch1)) :
    iprop(heldM c w1M0 f0 ∗ heldM c w1M1 f1 ∗ heldM c w1M2 f2) ⊢ (iprop(∃ f, (c : Thread nD τ).loc cc0_scratch1 ↦{fullShare} f) : sProp 𝕄) := by
  refine (Entails.of_eq (Ring.bigSep_fin3 (fun b => ((c : Thread nD τ).loc cc0_scratch1 ↦[J1 b]{fullShare} (![f0, f1, f2] : Fin 3 → _) b : sProp 𝕄))).symm).trans ?_
  exact Ring.pointsTo_blocks_join (ℓ := (c : Thread nD τ).loc cc0_scratch1) (q := fullShare) J1
    (key_disjoint J1 (fun i => (i 0).val) mem_J1) (key_cover J1 (fun i => (i 0).val) (fun i => (i 0).isLt) mem_J1) ![f0, f1, f2] f0

/-! ## The send buffer of the hidden chunks -/

/-- The slots' elements, by slot. -/
abbrev J4 : Fin 6 → Finset S3x2x64x512.Idx := ![(srcM 0).view.set, (srcM 1).view.set, (srcM 2).view.set, (srcM 3).view.set, (srcM 4).view.set, (srcM 5).view.set]

/-- Slot `2·l + ch` holds the indices whose two leading coordinates are `(l, ch)`. -/
theorem mem_J4 (b : Fin 6) (i : S3x2x64x512.Idx) : i ∈ J4 b ↔ (i 0).val * 2 + (i 1).val = b.val := by
  have h1 : (i 1).val < 2 := (i 1).isLt
  fin_cases b
  · show i ∈ (srcM 0).view.set ↔ _
    rw [show (srcM 0).view.set = _ from (View.set_reshape _ _).trans (View.set_slice_whole _ _)]
    refine (mem_unit_lead2 0 1 0 0 rfl rfl rfl rfl (by decide) (by decide) i).trans ?_
    show (i 0).val = 0 ∧ (i 1).val = 0 ↔ (i 0).val * 2 + (i 1).val = 0
    omega
  · show i ∈ (srcM 1).view.set ↔ _
    rw [show (srcM 1).view.set = _ from (View.set_reshape _ _).trans (View.set_slice_whole _ _)]
    refine (mem_unit_lead2 0 1 0 1 rfl rfl rfl rfl (by decide) (by decide) i).trans ?_
    show (i 0).val = 0 ∧ (i 1).val = 1 ↔ (i 0).val * 2 + (i 1).val = 1
    omega
  · show i ∈ (srcM 2).view.set ↔ _
    rw [show (srcM 2).view.set = _ from (View.set_reshape _ _).trans (View.set_slice_whole _ _)]
    refine (mem_unit_lead2 0 1 1 0 rfl rfl rfl rfl (by decide) (by decide) i).trans ?_
    show (i 0).val = 1 ∧ (i 1).val = 0 ↔ (i 0).val * 2 + (i 1).val = 2
    omega
  · show i ∈ (srcM 3).view.set ↔ _
    rw [show (srcM 3).view.set = _ from (View.set_reshape _ _).trans (View.set_slice_whole _ _)]
    refine (mem_unit_lead2 0 1 1 1 rfl rfl rfl rfl (by decide) (by decide) i).trans ?_
    show (i 0).val = 1 ∧ (i 1).val = 1 ↔ (i 0).val * 2 + (i 1).val = 3
    omega
  · show i ∈ (srcM 4).view.set ↔ _
    rw [show (srcM 4).view.set = _ from (View.set_reshape _ _).trans (View.set_slice_whole _ _)]
    refine (mem_unit_lead2 0 1 2 0 rfl rfl rfl rfl (by decide) (by decide) i).trans ?_
    show (i 0).val = 2 ∧ (i 1).val = 0 ↔ (i 0).val * 2 + (i 1).val = 4
    omega
  · show i ∈ (srcM 5).view.set ↔ _
    rw [show (srcM 5).view.set = _ from (View.set_reshape _ _).trans (View.set_slice_whole _ _)]
    refine (mem_unit_lead2 0 1 2 1 rfl rfl rfl rfl (by decide) (by decide) i).trans ?_
    show (i 0).val = 2 ∧ (i 1).val = 1 ↔ (i 0).val * 2 + (i 1).val = 5
    omega

theorem key_lt_J4 (i : S3x2x64x512.Idx) : (i 0).val * 2 + (i 1).val < 6 := by
  have h0 : (i 0).val < 3 := (i 0).isLt
  have h1 : (i 1).val < 2 := (i 1).isLt
  omega

/-- The buffer held whole is its six slots held, at the same contents; -/
theorem split_scratch4 (c : Dev nD) (f : Buf (Elt F) ((c : Thread nD τ).loc cc0_scratch4)) :
    ((c : Thread nD τ).loc cc0_scratch4 ↦{fullShare} f : sProp 𝕄) ⊢ iprop(heldM c (srcM 0) f ∗ heldM c (srcM 1) f ∗ heldM c (srcM 2) f ∗ heldM c (srcM 3) f ∗ heldM c (srcM 4) f ∗ heldM c (srcM 5) f) :=
  Entails.of_eq ((Ring.pointsTo_blocks (ℓ := (c : Thread nD τ).loc cc0_scratch4) (q := fullShare) J4
    (key_disjoint J4 (fun i => (i 0).val * 2 + (i 1).val) mem_J4) (key_cover J4 (fun i => (i 0).val * 2 + (i 1).val) key_lt_J4 mem_J4) f).trans (bigSep_fin6 _))

/-- and the slots held at contents of their own join to the buffer held at some contents. -/
theorem join_scratch4 (c : Dev nD) (f0 f1 f2 f3 f4 f5 : Buf (Elt F) ((c : Thread nD τ).loc cc0_scratch4)) :
    iprop(heldM c (srcM 0) f0 ∗ heldM c (srcM 1) f1 ∗ heldM c (srcM 2) f2 ∗ heldM c (srcM 3) f3 ∗ heldM c (srcM 4) f4 ∗ heldM c (srcM 5) f5) ⊢ (iprop(∃ f, (c : Thread nD τ).loc cc0_scratch4 ↦{fullShare} f) : sProp 𝕄) := by
  refine (Entails.of_eq (bigSep_fin6 (fun b => ((c : Thread nD τ).loc cc0_scratch4 ↦[J4 b]{fullShare} (![f0, f1, f2, f3, f4, f5] : Fin 6 → _) b : sProp 𝕄))).symm).trans ?_
  exact Ring.pointsTo_blocks_join (ℓ := (c : Thread nD τ).loc cc0_scratch4) (q := fullShare) J4
    (key_disjoint J4 (fun i => (i 0).val * 2 + (i 1).val) mem_J4) (key_cover J4 (fun i => (i 0).val * 2 + (i 1).val) key_lt_J4 mem_J4) ![f0, f1, f2, f3, f4, f5] f0

/-! ## The send buffer of the partial outputs -/

/-- The slots' elements, by slot. -/
abbrev J5 : Fin 3 → Finset S3x64x512.Idx := ![(srcM 6).view.set, (srcM 7).view.set, (srcM 8).view.set]

/-- Slot `b` holds the indices whose leading coordinate is `b`. -/
theorem mem_J5 (b : Fin 3) (i : S3x64x512.Idx) : i ∈ J5 b ↔ (i 0).val = b.val := by
  fin_cases b
  · show i ∈ (srcM 6).view.set ↔ _
    rw [show (srcM 6).view.set = _ from (View.set_reshape _ _).trans (View.set_slice_whole _ _)]
    exact mem_unit_lead 0 0 rfl rfl (by decide) (by decide) i
  · show i ∈ (srcM 7).view.set ↔ _
    rw [show (srcM 7).view.set = _ from (View.set_reshape _ _).trans (View.set_slice_whole _ _)]
    exact mem_unit_lead 0 1 rfl rfl (by decide) (by decide) i
  · show i ∈ (srcM 8).view.set ↔ _
    rw [show (srcM 8).view.set = _ from (View.set_reshape _ _).trans (View.set_slice_whole _ _)]
    exact mem_unit_lead 0 2 rfl rfl (by decide) (by decide) i

/-- The buffer held whole is its three slots held, at the same contents; -/
theorem split_scratch5 (c : Dev nD) (f : Buf (Elt F) ((c : Thread nD τ).loc cc0_scratch5)) :
    ((c : Thread nD τ).loc cc0_scratch5 ↦{fullShare} f : sProp 𝕄) ⊢ iprop(heldM c (srcM 6) f ∗ heldM c (srcM 7) f ∗ heldM c (srcM 8) f) :=
  Entails.of_eq ((Ring.pointsTo_blocks (ℓ := (c : Thread nD τ).loc cc0_scratch5) (q := fullShare) J5
    (key_disjoint J5 (fun i => (i 0).val) mem_J5) (key_cover J5 (fun i => (i 0).val) (fun i => (i 0).isLt) mem_J5) f).trans (Ring.bigSep_fin3 _))

/-- and the slots held at contents of their own join to the buffer held at some contents. -/
theorem join_scratch5 (c : Dev nD) (f0 f1 f2 : Buf (Elt F) ((c : Thread nD τ).loc cc0_scratch5)) :
    iprop(heldM c (srcM 6) f0 ∗ heldM c (srcM 7) f1 ∗ heldM c (srcM 8) f2) ⊢ (iprop(∃ f, (c : Thread nD τ).loc cc0_scratch5 ↦{fullShare} f) : sProp 𝕄) := by
  refine (Entails.of_eq (Ring.bigSep_fin3 (fun b => ((c : Thread nD τ).loc cc0_scratch5 ↦[J5 b]{fullShare} (![f0, f1, f2] : Fin 3 → _) b : sProp 𝕄))).symm).trans ?_
  exact Ring.pointsTo_blocks_join (ℓ := (c : Thread nD τ).loc cc0_scratch5) (q := fullShare) J5
    (key_disjoint J5 (fun i => (i 0).val) mem_J5) (key_cover J5 (fun i => (i 0).val) (fun i => (i 0).isLt) mem_J5) ![f0, f1, f2] f0

/-! ## The receive buffer of the hidden chunks -/

/-- The slots' elements, by slot. -/
abbrev J6 : Fin 6 → Finset S3x2x64x512.Idx := ![(dstM 0).view.set, (dstM 1).view.set, (dstM 2).view.set, (dstM 3).view.set, (dstM 4).view.set, (dstM 5).view.set]

/-- Slot `2·l + ch` holds the indices whose two leading coordinates are `(l, ch)`. -/
theorem mem_J6 (b : Fin 6) (i : S3x2x64x512.Idx) : i ∈ J6 b ↔ (i 0).val * 2 + (i 1).val = b.val := by
  have h1 : (i 1).val < 2 := (i 1).isLt
  fin_cases b
  · show i ∈ (dstM 0).view.set ↔ _
    rw [show (dstM 0).view.set = _ from (View.set_reshape _ _).trans (View.set_slice_whole _ _)]
    refine (mem_unit_lead2 0 1 0 0 rfl rfl rfl rfl (by decide) (by decide) i).trans ?_
    show (i 0).val = 0 ∧ (i 1).val = 0 ↔ (i 0).val * 2 + (i 1).val = 0
    omega
  · show i ∈ (dstM 1).view.set ↔ _
    rw [show (dstM 1).view.set = _ from (View.set_reshape _ _).trans (View.set_slice_whole _ _)]
    refine (mem_unit_lead2 0 1 0 1 rfl rfl rfl rfl (by decide) (by decide) i).trans ?_
    show (i 0).val = 0 ∧ (i 1).val = 1 ↔ (i 0).val * 2 + (i 1).val = 1
    omega
  · show i ∈ (dstM 2).view.set ↔ _
    rw [show (dstM 2).view.set = _ from (View.set_reshape _ _).trans (View.set_slice_whole _ _)]
    refine (mem_unit_lead2 0 1 1 0 rfl rfl rfl rfl (by decide) (by decide) i).trans ?_
    show (i 0).val = 1 ∧ (i 1).val = 0 ↔ (i 0).val * 2 + (i 1).val = 2
    omega
  · show i ∈ (dstM 3).view.set ↔ _
    rw [show (dstM 3).view.set = _ from (View.set_reshape _ _).trans (View.set_slice_whole _ _)]
    refine (mem_unit_lead2 0 1 1 1 rfl rfl rfl rfl (by decide) (by decide) i).trans ?_
    show (i 0).val = 1 ∧ (i 1).val = 1 ↔ (i 0).val * 2 + (i 1).val = 3
    omega
  · show i ∈ (dstM 4).view.set ↔ _
    rw [show (dstM 4).view.set = _ from (View.set_reshape _ _).trans (View.set_slice_whole _ _)]
    refine (mem_unit_lead2 0 1 2 0 rfl rfl rfl rfl (by decide) (by decide) i).trans ?_
    show (i 0).val = 2 ∧ (i 1).val = 0 ↔ (i 0).val * 2 + (i 1).val = 4
    omega
  · show i ∈ (dstM 5).view.set ↔ _
    rw [show (dstM 5).view.set = _ from (View.set_reshape _ _).trans (View.set_slice_whole _ _)]
    refine (mem_unit_lead2 0 1 2 1 rfl rfl rfl rfl (by decide) (by decide) i).trans ?_
    show (i 0).val = 2 ∧ (i 1).val = 1 ↔ (i 0).val * 2 + (i 1).val = 5
    omega

theorem key_lt_J6 (i : S3x2x64x512.Idx) : (i 0).val * 2 + (i 1).val < 6 := by
  have h0 : (i 0).val < 3 := (i 0).isLt
  have h1 : (i 1).val < 2 := (i 1).isLt
  omega

/-- The buffer held whole is its six slots held, at the same contents; -/
theorem split_scratch6 (c : Dev nD) (f : Buf (Elt F) ((c : Thread nD τ).loc cc0_scratch6)) :
    ((c : Thread nD τ).loc cc0_scratch6 ↦{fullShare} f : sProp 𝕄) ⊢ iprop(heldM c (dstM 0) f ∗ heldM c (dstM 1) f ∗ heldM c (dstM 2) f ∗ heldM c (dstM 3) f ∗ heldM c (dstM 4) f ∗ heldM c (dstM 5) f) :=
  Entails.of_eq ((Ring.pointsTo_blocks (ℓ := (c : Thread nD τ).loc cc0_scratch6) (q := fullShare) J6
    (key_disjoint J6 (fun i => (i 0).val * 2 + (i 1).val) mem_J6) (key_cover J6 (fun i => (i 0).val * 2 + (i 1).val) key_lt_J6 mem_J6) f).trans (bigSep_fin6 _))

/-- and the slots held at contents of their own join to the buffer held at some contents. -/
theorem join_scratch6 (c : Dev nD) (f0 f1 f2 f3 f4 f5 : Buf (Elt F) ((c : Thread nD τ).loc cc0_scratch6)) :
    iprop(heldM c (dstM 0) f0 ∗ heldM c (dstM 1) f1 ∗ heldM c (dstM 2) f2 ∗ heldM c (dstM 3) f3 ∗ heldM c (dstM 4) f4 ∗ heldM c (dstM 5) f5) ⊢ (iprop(∃ f, (c : Thread nD τ).loc cc0_scratch6 ↦{fullShare} f) : sProp 𝕄) := by
  refine (Entails.of_eq (bigSep_fin6 (fun b => ((c : Thread nD τ).loc cc0_scratch6 ↦[J6 b]{fullShare} (![f0, f1, f2, f3, f4, f5] : Fin 6 → _) b : sProp 𝕄))).symm).trans ?_
  exact Ring.pointsTo_blocks_join (ℓ := (c : Thread nD τ).loc cc0_scratch6) (q := fullShare) J6
    (key_disjoint J6 (fun i => (i 0).val * 2 + (i 1).val) mem_J6) (key_cover J6 (fun i => (i 0).val * 2 + (i 1).val) key_lt_J6 mem_J6) ![f0, f1, f2, f3, f4, f5] f0

/-! ## The receive buffer of the partial outputs -/

/-- The slots' elements, by slot. -/
abbrev J7 : Fin 3 → Finset S3x64x512.Idx := ![(dstM 6).view.set, (dstM 7).view.set, (dstM 8).view.set]

/-- Slot `b` holds the indices whose leading coordinate is `b`. -/
theorem mem_J7 (b : Fin 3) (i : S3x64x512.Idx) : i ∈ J7 b ↔ (i 0).val = b.val := by
  fin_cases b
  · show i ∈ (dstM 6).view.set ↔ _
    rw [show (dstM 6).view.set = _ from (View.set_reshape _ _).trans (View.set_slice_whole _ _)]
    exact mem_unit_lead 0 0 rfl rfl (by decide) (by decide) i
  · show i ∈ (dstM 7).view.set ↔ _
    rw [show (dstM 7).view.set = _ from (View.set_reshape _ _).trans (View.set_slice_whole _ _)]
    exact mem_unit_lead 0 1 rfl rfl (by decide) (by decide) i
  · show i ∈ (dstM 8).view.set ↔ _
    rw [show (dstM 8).view.set = _ from (View.set_reshape _ _).trans (View.set_slice_whole _ _)]
    exact mem_unit_lead 0 2 rfl rfl (by decide) (by decide) i

/-- The buffer held whole is its three slots held, at the same contents; -/
theorem split_scratch7 (c : Dev nD) (f : Buf (Elt F) ((c : Thread nD τ).loc cc0_scratch7)) :
    ((c : Thread nD τ).loc cc0_scratch7 ↦{fullShare} f : sProp 𝕄) ⊢ iprop(heldM c (dstM 6) f ∗ heldM c (dstM 7) f ∗ heldM c (dstM 8) f) :=
  Entails.of_eq ((Ring.pointsTo_blocks (ℓ := (c : Thread nD τ).loc cc0_scratch7) (q := fullShare) J7
    (key_disjoint J7 (fun i => (i 0).val) mem_J7) (key_cover J7 (fun i => (i 0).val) (fun i => (i 0).isLt) mem_J7) f).trans (Ring.bigSep_fin3 _))

/-- and the slots held at contents of their own join to the buffer held at some contents. -/
theorem join_scratch7 (c : Dev nD) (f0 f1 f2 : Buf (Elt F) ((c : Thread nD τ).loc cc0_scratch7)) :
    iprop(heldM c (dstM 6) f0 ∗ heldM c (dstM 7) f1 ∗ heldM c (dstM 8) f2) ⊢ (iprop(∃ f, (c : Thread nD τ).loc cc0_scratch7 ↦{fullShare} f) : sProp 𝕄) := by
  refine (Entails.of_eq (Ring.bigSep_fin3 (fun b => ((c : Thread nD τ).loc cc0_scratch7 ↦[J7 b]{fullShare} (![f0, f1, f2] : Fin 3 → _) b : sProp 𝕄))).symm).trans ?_
  exact Ring.pointsTo_blocks_join (ℓ := (c : Thread nD τ).loc cc0_scratch7) (q := fullShare) J7
    (key_disjoint J7 (fun i => (i 0).val) mem_J7) (key_cover J7 (fun i => (i 0).val) (fun i => (i 0).isLt) mem_J7) ![f0, f1, f2] f0

/-- info: 'Cert.KernelProof.split_scratch4' depends on axioms: [propext, Classical.choice, Quot.sound] -/
#guard_msgs in #print axioms split_scratch4
/-- info: 'Cert.KernelProof.join_scratch4' depends on axioms: [propext, Classical.choice, Quot.sound] -/
#guard_msgs in #print axioms join_scratch4
/-- info: 'Cert.KernelProof.split_scratch0' depends on axioms: [propext, Classical.choice, Quot.sound] -/
#guard_msgs in #print axioms split_scratch0
/-- info: 'Cert.KernelProof.join_scratch7' depends on axioms: [propext, Classical.choice, Quot.sound] -/
#guard_msgs in #print axioms join_scratch7

end Cert.KernelProof

end
-- ==== Proof.Bits.LaunchGhost.lean ====
/-
  The ghost state of the protocol as the launch deals it: the cells of every device and the
  duty tokens of their rounds, funded from one element of the protocol's algebra; each
  device's cell invariants allocated from its counters at zero; and the tokens handed to the
  devices that pay the duties. A barrier cell's `false` duty is paid by the second-axis peer
  and its `true` duty by the first-axis peer, the receive duty of transfer `t` by that
  transfer's peer, a send duty by the device itself.
-/
import proofs.«900581_g7700000000000582_dist_mlpseq_tp2d_cs_cs_b64_d512_h1024_v7x_xy2x2_f32_1_alg».proof.Proof.Bits.Ghost
import proofs.«900581_g7700000000000582_dist_mlpseq_tp2d_cs_cs_b64_d512_h1024_v7x_xy2x2_f32_1_alg».proof.Proof.Bits.SchedFacts

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Fin 9 → Dev nD → Vec F S64x512 .bf16)

/-! ## A device's nineteen cells are distinct, and are its barrier cell, nine send cells and nine receive cells -/

/-- The number of the cell a semaphore is. -/
def kOf (sm : SemLoc sig) : Fin 19 :=
  match semTag sm with
  | none => kBar
  | some (false, t) => kSend t
  | some (true, t) => kRecv t

theorem kOf_csem (k : Fin 19) : kOf (csem k) = k := by revert k; decide

theorem csem_injective : Function.Injective csem := Function.LeftInverse.injective kOf_csem

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem kcell_bar (c : Dev nD) : kcell (c, kBar) = barCell c := rfl
theorem kcell_send (t : Fin 9) (c : Dev nD) : kcell (c, kSend t) = sendCell t c := by
  show (((c : Dev nD) : Thread nD τ), csem (kSend t)) = _; rw [csem_send]
theorem kcell_recv (t : Fin 9) (c : Dev nD) : kcell (c, kRecv t) = recvCell t c := by
  show (((c : Dev nD) : Thread nD τ), csem (kRecv t)) = _; rw [csem_recv]

/-- The nineteen numbers as the barrier's, the sends' and the receives'. -/
def e19 : Unit ⊕ (Fin 9 ⊕ Fin 9) ≃ Fin 19 where
  toFun
    | .inl _ => kBar
    | .inr (.inl t) => kSend t
    | .inr (.inr t) => kRecv t
  invFun k :=
    if k.val = 0 then .inl ()
    else if h : k.val < 10 then .inr (.inl ⟨k.val - 1, by omega⟩)
    else .inr (.inr ⟨k.val - 10, by omega⟩)
  left_inv := by decide
  right_inv := by decide

theorem bigSep_fin19 (Φ : Fin 19 → sProp 𝕄) :
    bigSep Finset.univ Φ
      = iprop(Φ kBar ∗ (bigSep Finset.univ fun t : Fin 9 => Φ (kSend t)) ∗ (bigSep Finset.univ fun t : Fin 9 => Φ (kRecv t))) := by
  rw [bigSep_univ_equiv e19, bigSep_univ_sum, bigSep_univ_sum, bigSep_univ_of_subsingleton ()]
  rfl

/-! ## The launch element -/

def ringCells : Finset (GSem nD τ sig) := Finset.univ.map ⟨kcell, kcell_injective⟩

/-- A device's own cells' duty tokens as minted: the `false` duty of each of its nineteen cells, and its barrier
    cell's `true` duty. -/
abbrev tokOf (cj : Dev nD × (Fin 19 ⊕ Unit)) : GSem nD τ sig × ℕ × Bool :=
  match cj.2 with
  | .inl k => (kcell (cj.1, k), 0, false)
  | .inr _ => (barCell cj.1, 0, true)

theorem tokOf_injective : Function.Injective (tokOf : Dev nD × (Fin 19 ⊕ Unit) → GSem nD τ sig × ℕ × Bool) := by
  rintro ⟨c, j⟩ ⟨c', j'⟩ h
  rcases j with k | u <;> rcases j' with k' | u'
  · have h1 : kcell (c, k) = kcell (c', k') := congrArg (fun x : GSem nD τ sig × ℕ × Bool => x.1) h
    have h2 := kcell_injective h1
    cases h2; rfl
  · have h3 : false = true := congrArg (fun x : GSem nD τ sig × ℕ × Bool => x.2.2) h
    cases h3
  · have h3 : true = false := congrArg (fun x : GSem nD τ sig × ℕ × Bool => x.2.2) h
    cases h3
  · have h1 : c = c' := congrArg (fun x : GSem nD τ sig × ℕ × Bool => x.1.1.1) h
    subst h1; rfl

def ringToks : Finset (GSem nD τ sig × ℕ × Bool) := Finset.univ.map ⟨tokOf, tokOf_injective⟩

/-- The launch element: the pipeline's copy funds its staging cells; the protocol's copy funds the cells above; the
    local transfers' counters need nothing. -/
def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop((bigSep Finset.univ fun k : Fin 19 => dutyTok ER (kcell (c, k)) 0 false) ∗ dutyTok ER (barCell c) 0 true)

/-- What the launch element deals device `c`. -/
def G (c : Dev nD) : sProp 𝕄 :=
  iprop((bigSep Finset.univ fun k : Fin 19 => roundState ER (sched SV) (kcell (c, k)) 0)
    ∗ (bigSep Finset.univ fun k : Fin 19 => iprop(atPos ER (kcell (c, k)) 0 ∅ 0 ∗ reached ER (kcell (c, k)) 0)) ∗ toks c)

/-- What the global step makes of it, beside the local transfers' counters, which it passes on. -/
def G' (c : Dev nD) : sProp 𝕄 := iprop((∃ K, ghost SV K c) ∗ wsems0 c)

theorem fund_ring : BI.own (ER (initOf ringCells ringToks)) ⊢ (|==> bigSep Finset.univ (G SV) : sProp 𝕄) := by
  have hX (Φ : GSem nD τ sig → sProp 𝕄) : bigSep ringCells Φ = bigSep Finset.univ fun c : Dev nD => bigSep Finset.univ fun k : Fin 19 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_of_subsingleton ()]; rfl
  iintro HX
  imod (Rounds.fund ER (sched SV) ringCells ringToks) $$ HX with ⟨Hst, Hr, Hat, Htok⟩
  imodintro
  ihave Hst' := (Entails.of_eq (hX fun g => roundState ER (sched SV) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's own semaphores -/

abbrev wSi : Fin 6 → DmaSem sig
  | 0 => wS00 | 1 => wS01 | 2 => wS10 | 3 => wS11 | 4 => wS20 | 5 => wS21

/-- The kernel's own scoped semaphores: the six of the local weight copies, the nine send and the nine receive ones. -/
def osem (k : Fin 24) : SemLoc sig :=
  if h : k.val < 6 then .dma (wSi ⟨k.val, h⟩)
  else if h' : k.val < 15 then .dma (sendS ⟨k.val - 6, by omega⟩)
  else .dma (recvS ⟨k.val - 15, by omega⟩)

theorem ownSemFacts : Pipeline.OwnSemFacts cfg0.spec osem := by decide

def e24 : Fin 6 ⊕ (Fin 9 ⊕ Fin 9) ≃ Fin 24 where
  toFun
    | .inl i => ⟨i.val, by omega⟩
    | .inr (.inl t) => ⟨6 + t.val, by omega⟩
    | .inr (.inr t) => ⟨15 + t.val, by omega⟩
  invFun k :=
    if h : k.val < 6 then .inl ⟨k.val, h⟩
    else if h' : k.val < 15 then .inr (.inl ⟨k.val - 6, by omega⟩)
    else .inr (.inr ⟨k.val - 15, by omega⟩)
  left_inv := by decide
  right_inv := by decide

theorem osem_send (t : Fin 9) : osem (e24 (.inr (.inl t))) = .dma (sendS t) := by revert t; decide
theorem osem_recv (t : Fin 9) : osem (e24 (.inr (.inr t))) = .dma (recvS t) := by revert t; decide

/-- The own semaphores at zero: the six local-copy counters, the send cells' and the receive cells'. -/
theorem ownSems0_eq (c : Dev nD) : (Pipeline.ownSems0 (Ix := Unit) (Name := ℕ) (U := UU) (Lvl := ℕ) (Val := Elt F) (τ := τ) osem c : sProp 𝕄)
    = iprop(wsems0 c ∗ (bigSep Finset.univ fun t : Fin 9 => semVal (sendCell t c) 0) ∗ (bigSep Finset.univ fun t : Fin 9 => semVal (recvCell t c) 0)) := by
  unfold Pipeline.ownSems0
  rw [bigSep_univ_equiv e24, bigSep_univ_sum, bigSep_univ_sum,
    bigSep_univ_eq_bigSepL [(0 : Fin 6), 1, 2, 3, 4, 5] (by decide) (by decide)]
  simp only [osem_send, osem_recv]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The global step: each device's cell invariants allocated, the tokens handed to their payers -/

/-- A device's nineteen cell counters and its six local-copy counters, from its own and its unscoped semaphores. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 19 => semVal (kcell (c, k)) 0) ∗ wsems0 c : sProp 𝕄) := by
  rw [ownSems0_eq, unscopedSems0_eq, bigSep_fin19]
  simp only [kcell_bar, kcell_send, kcell_recv]
  iintro ⟨⟨Hw, HS, HV⟩, HB⟩
  isplitr [Hw]
  · isplitl [HB]; · iexact HB
    isplitl [HS] <;> iassumption
  · iexact Hw

theorem core_alloc (c : Dev nD) :
    iprop(Pipeline.ownSems0 (Ix := Unit) (Name := ℕ) (U := UU) (Lvl := ℕ) (Val := Elt F) (τ := τ) osem c ∗ unscopedSems0 c ∗ G SV c)
      ⊢ |={Set.univ}=> iprop((bigSep Finset.univ fun k => iprop(∃ κ : ℕ, cellInv ER (sched SV) κ (kcell (c, k))))
          ∗ (bigSep Finset.univ fun k => iprop(atPos ER (kcell (c, k)) 0 ∅ 0 ∗ reached ER (kcell (c, k)) 0)) ∗ toks c ∗ wsems0 c) := by
  unfold G
  iintro ⟨Hos, Hus, Hst, Hat, Htok⟩
  ihave Hv := (sems0_eq (F := F) c) $$ [Hos Hus]
  · isplitl [Hos] <;> iassumption
  icases Hv with ⟨Hv, Hw⟩
  imod (show iprop((bigSep Finset.univ fun k : Fin 19 => semVal (kcell (c, k)) 0) ∗ bigSep Finset.univ fun k : Fin 19 => roundState ER (sched SV) (kcell (c, k)) 0)
      ⊢ (|={Set.univ}=> bigSep Finset.univ fun k => iprop(∃ κ : ℕ, cellInv ER (sched SV) κ (kcell (c, k))) : sProp 𝕄) from by
        rw [← bigSep_sep']
        exact (bigSep_mono fun k _ => (Rounds.body_intro ER (sched SV) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hw

/-- Every cell's invariant at its name, and round 0 reached at every cell: what every device may read. -/
def records (K : Dev nD × Fin 19 → ℕ) : sProp 𝕄 :=
  iprop((bigSep Finset.univ fun ck : Dev nD × Fin 19 => cellInv ER (sched SV) (K ck) (kcell ck))
    ∗ bigSep Finset.univ fun ck : Dev nD × Fin 19 => reached ER (kcell ck) 0)

instance records_persistent (K : Dev nD × Fin 19 → ℕ) : BI.Persistent (records SV K) := by unfold records; infer_instance

theorem inv_at' (K : Dev nD × Fin 19 → ℕ) (ck : Dev nD × Fin 19) :
    (bigSep Finset.univ fun ck : Dev nD × Fin 19 => (cellInv ER (sched SV) (K ck) (kcell ck) : sProp 𝕄)) ⊢ cellInv ER (sched SV) (K ck) (kcell ck) :=
  bigSep_elim (Finset.mem_univ ck)
theorem reached_at' (ck : Dev nD × Fin 19) :
    (bigSep Finset.univ fun ck : Dev nD × Fin 19 => (reached ER (kcell ck) 0 : sProp 𝕄)) ⊢ reached ER (kcell ck) 0 :=
  bigSep_elim (Finset.mem_univ ck)
theorem inv_at (K : Dev nD × Fin 19 → ℕ) (ck : Dev nD × Fin 19) :
    records SV K ⊢ cellInv ER (sched SV) (K ck) (kcell ck) := by
  unfold records; iintro ⟨H, -⟩; iapply (inv_at' SV K ck); iexact H
theorem reached_at (K : Dev nD × Fin 19 → ℕ) (ck : Dev nD × Fin 19) :
    records SV K ⊢ reached ER (kcell ck) 0 := by
  unfold records; iintro ⟨-, H⟩; iapply (reached_at' (F := F) ck); iexact H

/-- The invariants a device's body opens, read off the records. -/
theorem invs_intro (K : Dev nD × Fin 19 → ℕ) (c : Dev nD) : records SV K ⊢ invs SV K c := by
  unfold invs
  iintro #H
  isplitr; · iapply (inv_at SV K (c, kBar)); iexact H
  isplitr
  · iapply (bigSep_intro_persistent (R := records SV K) fun t _ => (inv_at SV K (c, kSend t)).trans (Entails.of_eq (by rw [kcell_send]))); iexact H
  isplitr
  · iapply (bigSep_intro_persistent (R := records SV K) fun t _ => (inv_at SV K (c, kRecv t)).trans (Entails.of_eq (by rw [kcell_recv]))); iexact H
  isplitr; · iapply (inv_at SV K (yp c, kBar)); iexact H
  isplitr; · iapply (inv_at SV K (xp c, kBar)); iexact H
  iapply (bigSep_intro_persistent (R := records SV K) fun t _ => (inv_at SV K (peer t c, kRecv t)).trans (Entails.of_eq (by rw [kcell_recv]))); iexact H

/-- The tokens of the duties device `c` pays. -/
def payToks (c : Dev nD) : sProp 𝕄 :=
  iprop(dutyTok ER (barCell (yp c)) 0 false ∗ dutyTok ER (barCell (xp c)) 0 true
    ∗ (bigSep Finset.univ fun t : Fin 9 => dutyTok ER (recvCell t (peer t c)) 0 false)
    ∗ (bigSep Finset.univ fun t : Fin 9 => dutyTok ER (sendCell t c) 0 false))

/-- What stays with device `c` alone: its positions, the tokens it pays with, its local-copy counters. -/
def linear (c : Dev nD) : sProp 𝕄 :=
  iprop((atPos ER (barCell c) 0 ∅ 0 ∗ (bigSep Finset.univ fun t : Fin 9 => atPos ER (sendCell t c) 0 ∅ 0)
      ∗ (bigSep Finset.univ fun t : Fin 9 => atPos ER (recvCell t c) 0 ∅ 0)) ∗ payToks c ∗ wsems0 c)

theorem ghost_intro (K : Dev nD × Fin 19 → ℕ) (c : Dev nD) : iprop(records SV K ∗ linear c) ⊢ G' SV c := by
  unfold linear payToks G' ghost
  iintro ⟨#HR, ⟨HaB, HaS, HaV⟩, ⟨HtY, HtX, HtV, HtS⟩, Hw⟩
  isplitr [Hw]
  · iexists K
    isplitr; · iapply (invs_intro SV K c); iexact HR
    isplitl [HaB]; · iexact HaB
    isplitl [HaS]; · iexact HaS
    isplitl [HaV]; · iexact HaV
    isplitr; · iapply (reached_at SV K (yp c, kBar)); iexact HR
    isplitr; · iapply (reached_at SV K (xp c, kBar)); iexact HR
    isplitr
    · iapply (bigSep_intro_persistent (R := records SV K) fun t _ => (reached_at SV K (c, kSend t)).trans (Entails.of_eq (by rw [kcell_send]))); iexact HR
    isplitr
    · iapply (bigSep_intro_persistent (R := records SV K) fun t _ => (reached_at SV K (c, kRecv t)).trans (Entails.of_eq (by rw [kcell_recv]))); iexact HR
    isplitl [HtY]; · iexact HtY
    isplitl [HtX]; · iexact HtX
    isplitl [HtV]; · iexact HtV
    iexact HtS
  · iexact Hw

def peerE (t : Fin 9) : Dev nD ≃ Dev nD := ⟨peer t, peer t, peer_peer t, peer_peer t⟩

/-- The tokens dealt across the mesh: a barrier's `false` token to the second-axis peer, its `true` token to the
    first-axis peer, the receive token of transfer `t` to that transfer's peer. -/
theorem toks_around : (bigSep Finset.univ fun c : Dev nD => (toks c : sProp 𝕄)) ⊢ bigSep Finset.univ fun c : Dev nD => payToks c := by
  have hV : (bigSep Finset.univ fun c : Dev nD => bigSep Finset.univ fun t : Fin 9 => (dutyTok ER (recvCell t c) 0 false : sProp 𝕄))
      = bigSep Finset.univ fun c : Dev nD => bigSep Finset.univ fun t : Fin 9 => dutyTok ER (recvCell t (peer t c)) 0 false := by
    rw [bigSep_univ_comm (fun (c : Dev nD) (t : Fin 9) => (dutyTok ER (recvCell t c) 0 false : sProp 𝕄)),
      bigSep_congr (s := Finset.univ) (fun (t : Fin 9) _ => bigSep_univ_equiv (peerE t) (fun c : Dev nD => (dutyTok ER (recvCell t c) 0 false : sProp 𝕄))),
      bigSep_univ_comm]
    rfl
  have hT (c : Dev nD) : toks c = iprop((dutyTok ER (barCell c) 0 false ∗ (bigSep Finset.univ fun t : Fin 9 => dutyTok ER (sendCell t c) 0 false)
      ∗ (bigSep Finset.univ fun t : Fin 9 => dutyTok ER (recvCell t c) 0 false)) ∗ dutyTok ER (barCell c) 0 true : sProp 𝕄) := by
    unfold toks; rw [bigSep_fin19]; simp only [kcell_bar, kcell_send, kcell_recv]
  unfold payToks
  rw [bigSep_congr (s := Finset.univ) (fun c _ => hT c)]
  rw [bigSep_sep', bigSep_sep', bigSep_sep', bigSep_sep', bigSep_sep', bigSep_sep', hV,
    bigSep_univ_equiv ypE (fun c : Dev nD => (dutyTok ER (barCell c) 0 false : sProp 𝕄)),
    bigSep_univ_equiv xpE (fun c : Dev nD => (dutyTok ER (barCell c) 0 true : sProp 𝕄))]
  iintro ⟨⟨H1, H2, H3⟩, H4⟩
  isplitl [H1]; · iexact H1
  isplitl [H4]; · iexact H4
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched SV) κ (kcell (c, k))))
          ∗ (bigSep Finset.univ fun k => iprop(atPos ER (kcell (c, k)) 0 ∅ 0 ∗ reached ER (kcell (c, k)) 0)) ∗ toks c ∗ wsems0 c) : sProp 𝕄)
      ⊢ bigSep Finset.univ (G' SV) := by
  rw [bigSep_sep', bigSep_sep', bigSep_sep', ← bigSep_univ_prod (fun ck : Dev nD × Fin 19 => iprop(∃ κ : ℕ, cellInv ER (sched SV) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok, Hw⟩
  ihave HK := (BI.bigSep_exists_pi Finset.univ (fun (ck : Dev nD × Fin 19) (κ : ℕ) => (cellInv ER (sched SV) κ (kcell ck) : sProp 𝕄))) $$ HI
  icases HK with ⟨%K, #HI⟩
  ihave Htk := (toks_around (F := F)) $$ Htok
  iapply (bigSep_with_persistent (R := records SV K) fun c _ => ghost_intro SV K c)
  isplitr
  · unfold records; isplitl; · iexact HI
    iexact HR
  · have hlin : iprop((bigSep Finset.univ fun c : Dev nD => bigSep Finset.univ fun k : Fin 19 => (atPos ER (kcell (c, k)) 0 ∅ 0 : sProp 𝕄))
        ∗ (bigSep Finset.univ fun c : Dev nD => payToks c) ∗ (bigSep Finset.univ fun c : Dev nD => wsems0 c)) ⊢ (bigSep Finset.univ fun c : Dev nD => linear c : sProp 𝕄) := by
      rw [← bigSep_sep', ← bigSep_sep']
      exact bigSep_mono fun c _ => show _ ⊢ linear c from Entails.of_eq (by unfold linear; rw [bigSep_fin19]; simp only [kcell_bar, kcell_send, kcell_recv])
    iapply hlin
    isplitl [Hat]; · iexact Hat
    isplitl [Htk]; · iexact Htk
    iexact Hw

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G SV c) : sProp 𝕄)
    ⊢ |={Set.univ}=> bigSep Finset.univ (G' SV) :=
  ((bigSep_mono fun c _ => core_alloc SV c).trans (bigSep_fupd _ _)).trans (BI.fupd_mono (regroup SV))

/-- The launch element split: the pipeline's copy handed on, the protocol's copy funding every device's share, the
    counters' unit dropped. -/
theorem hu₀ : (ownU u₀ : sProp 𝕄)
    ⊢ |={Set.univ}=> iprop(BI.own (EP (initOf (Pipeline.cells cfgs cellOf_inj) (Pipeline.launchToks cfgs cellOf_inj))) ∗ bigSep Finset.univ (G SV)) := by
  unfold u₀
  iintro Hu
  ihave H := (ownU_pair _ _) $$ Hu
  icases H with ⟨HP, HX⟩
  ihave H2 := (own_pair_emb embR _ _) $$ HX
  icases H2 with ⟨HB, -⟩
  imod (fund_ring SV) $$ HB with HG
  imodintro
  isplitl [HP] <;> iassumption

/-- info: 'Cert.KernelProof.glob' depends on axioms: [propext, Classical.choice, Quot.sound] -/
#guard_msgs in #print axioms glob
/-- info: 'Cert.KernelProof.hu₀' depends on axioms: [propext, Classical.choice, Quot.sound] -/
#guard_msgs in #print axioms hu₀

end Cert.KernelProof

end
-- ==== Proof.Bits.Launch.lean ====
/-
  The launch: what every device is dealt before the grid point and what it gives back after it,
  the credit each device's cells are owed by its two peers, and the run of the whole mesh, given
  that every device's body takes its precondition to its postcondition.
-/
import proofs.«900581_g7700000000000582_dist_mlpseq_tp2d_cs_cs_b64_d512_h1024_v7x_xy2x2_f32_1_alg».proof.Proof.Bits.Ghost
import proofs.«900581_g7700000000000582_dist_mlpseq_tp2d_cs_cs_b64_d512_h1024_v7x_xy2x2_f32_1_alg».proof.Proof.Bits.SchedFacts
import proofs.«900581_g7700000000000582_dist_mlpseq_tp2d_cs_cs_b64_d512_h1024_v7x_xy2x2_f32_1_alg».proof.Proof.Bits.Pieces
import proofs.«900581_g7700000000000582_dist_mlpseq_tp2d_cs_cs_b64_d512_h1024_v7x_xy2x2_f32_1_alg».proof.Proof.Bits.LaunchGhost

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Fin 9 → Dev nD → Vec F S64x512 .bf16)
variable (OUT : Dev nD → (cc0_stg1_0 : Ref sig .tc).ty.Contents (Elt F))
variable (m : (ℓ : Loc nD τ sig) → Buf (Elt F) ℓ) (ρ : Dev nD → PrngReg)

/-! ## The launch credit -/

omit [FloatOps F] in
/-- What every device owes at launch, payment by payment (the first payment the last summand). -/
theorem O₀_eq : (O₀ : Dev nD → CellTallies nD τ sig Unit) = fun d =>
    0 + tallyAt (recvCell 8 (xp d)) () N + tallyAt (recvCell 5 (yp d)) () N + tallyAt (recvCell 4 (yp d)) () N
      + tallyAt (recvCell 7 (xp d)) () N + tallyAt (recvCell 3 (yp d)) () N + tallyAt (recvCell 2 (yp d)) () N
      + tallyAt (recvCell 6 (xp d)) () N + tallyAt (recvCell 1 (yp d)) () N + tallyAt (recvCell 0 (yp d)) () N
      + tallyAt (barCell (xp d)) () 1 + tallyAt (barCell (yp d)) () 1 := rfl

omit [FloatOps F] in
/-- The credit device c is dealt at launch: both peers owe its barrier cell a unit, and the sender of
    transfer t owes its receive cell of that transfer the slot's credit. -/
theorem creds (c : Dev nD) :
    (Pipeline.launchCred O₀ c : sProp 𝕄)
      ⊢ iprop(cred (tallyAt (barCell c) () 2) ∗ bigSep Finset.univ fun t : Fin 9 => cred (tallyAt (recvCell t c) () N)) := by
  rw [O₀_eq]
  simp only [Pipeline.launchCred_add, Pipeline.launchCred_zero]
  rw [bigSep_fin9]
  iintro ⟨⟨⟨⟨⟨⟨⟨⟨⟨⟨⟨-, H8⟩, H5⟩, H4⟩, H7⟩, H3⟩, H2⟩, H6⟩, H1⟩, H0⟩, HX⟩, HY⟩
  isplitl [HX HY]
  · iapply (Entails.of_eq (congrArg cred (tallyAt_add (barCell c) () 1 1)))
    iapply (cred_add _ _).2
    isplitl [HY]
    · iapply (Pipeline.launchCred_tallyAt (.reg barS) yp yp yp_yp yp_yp () 1 c); iexact HY
    · iapply (Pipeline.launchCred_tallyAt (.reg barS) xp xp xp_xp xp_xp () 1 c); iexact HX
  isplitl [H0]; · iapply (Pipeline.launchCred_tallyAt (.dma (recvS 0)) yp yp yp_yp yp_yp () N c); iexact H0
  isplitl [H1]; · iapply (Pipeline.launchCred_tallyAt (.dma (recvS 1)) yp yp yp_yp yp_yp () N c); iexact H1
  isplitl [H2]; · iapply (Pipeline.launchCred_tallyAt (.dma (recvS 2)) yp yp yp_yp yp_yp () N c); iexact H2
  isplitl [H3]; · iapply (Pipeline.launchCred_tallyAt (.dma (recvS 3)) yp yp yp_yp yp_yp () N c); iexact H3
  isplitl [H4]; · iapply (Pipeline.launchCred_tallyAt (.dma (recvS 4)) yp yp yp_yp yp_yp () N c); iexact H4
  isplitl [H5]; · iapply (Pipeline.launchCred_tallyAt (.dma (recvS 5)) yp yp yp_yp yp_yp () N c); iexact H5
  isplitl [H6]; · iapply (Pipeline.launchCred_tallyAt (.dma (recvS 6)) xp xp xp_xp xp_xp () N c); iexact H6
  isplitl [H7]; · iapply (Pipeline.launchCred_tallyAt (.dma (recvS 7)) xp xp xp_xp xp_xp () N c); iexact H7
  iapply (Pipeline.launchCred_tallyAt (.dma (recvS 8)) xp xp xp_xp xp_xp () N c); iexact H8

/-! ## Whole buffers -/

omit [FloatOps F] in
/-- A whole buffer held is the buffer's points-to at the full share. -/
theorem held_eq (c : Dev nD) (b : Ref sig .tc) (f : Buf (Elt F) ((c : Thread nD τ).loc b)) :
    (held c b f : sProp 𝕄) = (((c : Thread nD τ).loc b) ↦{fullShare} f) := by
  show ((Memref.whole b).view.loc (c : Thread nD τ) ↦[(Memref.whole b).view.set]{fullShare} f : sProp 𝕄) = _
  rw [View.set_whole]

omit [FloatOps F] in
theorem args_eq (c : Dev nD) : (args m c : sProp 𝕄)
    = iprop((((c : Thread nD τ).loc main_arg1) ↦{fullShare} m ((c : Thread nD τ).loc main_arg1)) ∗ (((c : Thread nD τ).loc main_arg2) ↦{fullShare} m ((c : Thread nD τ).loc main_arg2))
      ∗ (((c : Thread nD τ).loc main_arg3) ↦{fullShare} m ((c : Thread nD τ).loc main_arg3)) ∗ (((c : Thread nD τ).loc main_arg4) ↦{fullShare} m ((c : Thread nD τ).loc main_arg4))
      ∗ (((c : Thread nD τ).loc main_arg5) ↦{fullShare} m ((c : Thread nD τ).loc main_arg5)) ∗ (((c : Thread nD τ).loc main_arg6) ↦{fullShare} m ((c : Thread nD τ).loc main_arg6))) := by
  unfold args
  rw [held_eq, held_eq, held_eq, held_eq, held_eq, held_eq]

/-! ## The theorem's side conditions -/

/-- What device c holds when the region is entered, besides the scoped buffers. -/
def X₀ (c : Dev nD) : sProp 𝕄 := iprop(start SV c ∗ wsems0 c ∗ args m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' SV c)
      ⊢ |={Set.univ}=> iprop(X₀ SV m c ∗ emp) := by
  rw [Pipeline.unscopedRestP_none, unscopedRest0_eq]
  iintro ⟨HA, Hlev, Hcr, -, HG⟩
  ihave Hc := (creds (F := F) c) $$ Hcr
  icases Hc with ⟨H1, HN⟩
  ihave HA' := (Entails.of_eq (args_eq m c).symm) $$ HA
  unfold G'
  icases HG with ⟨HK, HW⟩
  imodintro
  unfold X₀ start
  isplitl
  · isplitl [HK H1 HN Hlev]
    · isplitl [HK]; · iexact HK
      isplitl [H1]; · iexact H1
      isplitl [HN]; · iexact HN
      iexact Hlev
    isplitl [HW]; · iexact HW
    iexact HA'
  · iempintro

theorem phi0_intro (c : Dev nD) :
    iprop(X₀ SV m c ∗ Pipeline.prefHeld Pipeline.Prefetch.none c (fun _ => fullShare.right) (fun k => k.elim0) ∗ Pipeline.scopedRest cfg0.spec c)
      ⊢ (dats SV OUT m 0 c).Φ 0 := by
  rw [show (dats SV OUT m 0 c).Φ 0 = Φ₀ SV m c from rfl, scopedRest0_eq]
  unfold Φ₀ X₀ scratch
  iintro ⟨⟨Hs, Hw, Ha⟩, -, ⟨%f0, S0⟩, ⟨%f1, S1⟩, ⟨%f2, S2⟩, ⟨%f3, S3⟩, ⟨%f4, S4⟩, ⟨%f5, S5⟩, ⟨%f6, S6⟩, ⟨%f7, S7⟩⟩
  ihave P0 := (split_scratch0 c f0) $$ S0
  icases P0 with ⟨P00, P01, P02⟩
  ihave P1 := (split_scratch1 c f1) $$ S1
  icases P1 with ⟨P10, P11, P12⟩
  ihave P4 := (split_scratch4 c f4) $$ S4
  icases P4 with ⟨P40, P41, P42, P43, P44, P45⟩
  ihave P5 := (split_scratch5 c f5) $$ S5
  icases P5 with ⟨P50, P51, P52⟩
  ihave P6 := (split_scratch6 c f6) $$ S6
  icases P6 with ⟨P60, P61, P62, P63, P64, P65⟩
  ihave P7 := (split_scratch7 c f7) $$ S7
  icases P7 with ⟨P70, P71, P72⟩
  isplitl [Hs]; · iexact Hs
  isplitl [Hw]; · iexact Hw
  isplitl [Ha]; · iexact Ha
  isplitl [P00 P01 P02]
  · isplitl [P00]; · iexists f0; iexact P00
    isplitl [P01]; · iexists f0; iexact P01
    iexists f0; iexact P02
  isplitl [P10 P11 P12]
  · isplitl [P10]; · iexists f1; iexact P10
    isplitl [P11]; · iexists f1; iexact P11
    iexists f1; iexact P12
  isplitl [S2]; · iexists f2; rw [held_eq]; iexact S2
  isplitl [S3]; · iexists f3; rw [held_eq]; iexact S3
  isplitl [P40 P41 P42 P43 P44 P45 P50 P51 P52]
  · isplitl [P40]; · iexists f4; iexact P40
    isplitl [P41]; · iexists f4; iexact P41
    isplitl [P42]; · iexists f4; iexact P42
    isplitl [P43]; · iexists f4; iexact P43
    isplitl [P44]; · iexists f4; iexact P44
    isplitl [P45]; · iexists f4; iexact P45
    isplitl [P50]; · iexists f5; iexact P50
    isplitl [P51]; · iexists f5; iexact P51
    iexists f5; iexact P52
  · isplitl [P60]; · iexists f6; iexact P60
    isplitl [P61]; · iexists f6; iexact P61
    isplitl [P62]; · iexists f6; iexact P62
    isplitl [P63]; · iexists f6; iexact P63
    isplitl [P64]; · iexists f6; iexact P64
    isplitl [P65]; · iexists f6; iexact P65
    isplitl [P70]; · iexists f7; iexact P70
    isplitl [P71]; · iexists f7; iexact P71
    iexists f7; iexact P72

theorem phi1_exit (c : Dev nD) :
    (dats SV OUT m 0 c).Φ (Fin.last cfg0.N) ⊢ iprop(args m c ∗ Pipeline.ownSems0 osem c ∗ Pipeline.scopedRest cfg0.spec c) := by
  rw [show (dats SV OUT m 0 c).Φ (Fin.last cfg0.N) = Φ₁ m c from rfl, scopedRest0_eq, ownSems0_eq]
  unfold Φ₁ scratch
  iintro ⟨Hw, Ha, ⟨⟨⟨%a0, A0⟩, ⟨%a1, A1⟩, ⟨%a2, A2⟩⟩, ⟨⟨%b0, B0⟩, ⟨%b1, B1⟩, ⟨%b2, B2⟩⟩, ⟨%g2, C2⟩, ⟨%g3, C3⟩,
    ⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩,
    ⟨⟨%d0, D0⟩, ⟨%d1, D1⟩, ⟨%d2, D2⟩, ⟨%d3, D3⟩, ⟨%d4, D4⟩, ⟨%d5, D5⟩, ⟨%d6, D6⟩, ⟨%d7, D7⟩, ⟨%d8, D8⟩⟩⟩, HzS, HzV⟩
  isplitl [Ha]; · iexact Ha
  isplitl [Hw HzS HzV]
  · isplitl [Hw]; · iexact Hw
    isplitl [HzS] <;> iassumption
  isplitl [A0 A1 A2]
  · iapply (join_scratch0 c a0 a1 a2)
    isplitl [A0]; · iexact A0
    isplitl [A1] <;> iassumption
  isplitl [B0 B1 B2]
  · iapply (join_scratch1 c b0 b1 b2)
    isplitl [B0]; · iexact B0
    isplitl [B1] <;> iassumption
  isplitl [C2]; · iexists g2; iapply (Entails.of_eq (held_eq c cc0_scratch2 g2)); iexact C2
  isplitl [C3]; · iexists g3; iapply (Entails.of_eq (held_eq c cc0_scratch3 g3)); iexact C3
  isplitl [S0 S1 S2 S3 S4 S5]
  · iapply (join_scratch4 c s0 s1 s2 s3 s4 s5)
    isplitl [S0]; · iexact S0
    isplitl [S1]; · iexact S1
    isplitl [S2]; · iexact S2
    isplitl [S3]; · iexact S3
    isplitl [S4] <;> iassumption
  isplitl [S6 S7 S8]
  · iapply (join_scratch5 c s6 s7 s8)
    isplitl [S6]; · iexact S6
    isplitl [S7] <;> iassumption
  isplitl [D0 D1 D2 D3 D4 D5]
  · iapply (join_scratch6 c d0 d1 d2 d3 d4 d5)
    isplitl [D0]; · iexact D0
    isplitl [D1]; · iexact D1
    isplitl [D2]; · iexact D2
    isplitl [D3]; · iexact D3
    isplitl [D4] <;> iassumption
  iapply (join_scratch7 c d6 d7 d8)
  isplitl [D6]; · iexact D6
  isplitl [D7] <;> iassumption

/-- The staging cells sit below everything a device owes. -/
theorem waits (c : Dev nD) : (levAts L lv : sProp 𝕄) ⊢ Pipeline.cellsWaits cfgs (dats SV OUT m) () 0 c :=
  Pipeline.cellsWaits_intro cfgs (dats SV OUT m) () 0 c fun w s t => by
    have hq : ∀ t' : Fin 9, semTag (.dma ((cfg0.win w).sem s)) ≠ some (true, t') := by
      fin_cases w <;> fin_cases s <;> decide
    rcases t with ⟨_ | _, ht⟩
    · exact mayWait_lo c _ hq 0
    · exact mayWait_lo c _ hq 11

theorem share_eq (c : Dev nD) (w : Fin cfg0.W) : (dats SV OUT m 0 c).share w = fullShare := by unfold Dat.share; split <;> rfl

/-! ## The body obligation from the body's triple -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 16384 in
/-- The pipeline's body obligation on device c, from the triple of its body. -/
theorem body_obligation_of
    (hsound : ∀ c, bodyPre SV OUT m c ⊢ wp frame (wpE (defs₀ (F := F)) 𝒱₀ c none) Set.univ (theBody (F := F)) (fun _ => bodyPost SV OUT m c))
    (c : Dev nD) : BodyObligation (dats (F := F) SV OUT m 0 c) (defs₀ (F := F)) 𝒱₀ () Set.univ := fun t => by
  rw [fin_N t]
  rw [bigSep_W0, bigSep_W0]
  simp only [owns_whole_eq]
  show bodyPre SV OUT m c ⊢ wp frame (wpE (defs₀ (F := F)) 𝒱₀ c none) Set.univ (theBody (F := F)) (fun _ => bodyPost SV OUT m c)
  exact hsound c

/-! ## The run -/

/-- The weight arrays hold what they held. -/
def QY₀ (c : Dev nD) (s : MemSt nD τ sig (Elt F)) : Prop :=
  s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

omit [FloatOps F] in
/-- Holding the weight arrays whole at their launch contents against the memory says the memory holds them. -/
theorem read_args (c : Dev nD) (s' : Phys nD τ sig (Elt F)) :
    iprop(args m c ∗ emp ∗ SI s') ⊢ (|={Set.univ}=> iprop(⌜QY₀ m c s'.mem⌝ ∗ SI s') : sProp 𝕄) := by
  rw [args_eq]
  iintro ⟨⟨A1, A2, A3, A4, A5, A6⟩, -, HSI⟩
  icombine HSI A1 gives %h1
  icombine HSI A2 gives %h2
  icombine HSI A3 gives %h3
  icombine HSI A4 gives %h4
  icombine HSI A5 gives %h5
  icombine HSI A6 gives %h6
  imodintro
  isplitr
  · ipureintro
    exact ⟨Buf.eq_of_forall_mem_univ h1, Buf.eq_of_forall_mem_univ h2, Buf.eq_of_forall_mem_univ h3,
      Buf.eq_of_forall_mem_univ h4, Buf.eq_of_forall_mem_univ h5, Buf.eq_of_forall_mem_univ h6⟩
  iexact HSI

/-- The result array after the run: its one block is the whole array, and the write-back of the one grid
    point stores what the body left in the staging buffer. -/
theorem final_out (c : Dev nD) : (dats SV OUT m 0 c).arrAt (1 : Fin 2) cfg0.N = OUT c := by
  have hz : (fun a => (win0_1.index t₀) a * main_v1.ty.shape.size a) = fun _ => 0 :=
    funext fun a => by fin_cases a <;> decide
  have hr := fun f => Memref.read_access_unit_zero (Elt F) main_v1 hz (fun a => by fin_cases a <;> decide) f
  rw [← hr ((dats SV OUT m 0 c).arrAt (1 : Fin 2) cfg0.N)]
  rw [show cfg0.N = (t₀ : Fin cfg0.N).val + 1 from rfl, (dats SV OUT m 0 c).arrAt_succ (1 : Fin 2) t₀, if_pos (flush0_1 t₀)]
  exact View.read_write_univ _ _

/-- The activation array is an input: it holds what it held. -/
theorem final_in (c : Dev nD) : (dats SV OUT m 0 c).arrAt (0 : Fin 2) cfg0.N = m ((c : Thread nD τ).loc main_arg0) :=
  (dats SV OUT m 0 c).arrAt_in (0 : Fin 2) rfl _

set_option maxRecDepth 16384 in
/-- At the compiled mesh of four devices, for any float values, from any memory with zero counters, given that
    every device's body takes its precondition to its postcondition: every weakly fair execution of the four kernels terminates, and every final state has each
    device's result array at the block the body stores and every argument array unchanged. -/
theorem run_main
    (hsound : ∀ c, bodyPre SV OUT m c ⊢ wp frame (wpE (defs₀ (F := F)) 𝒱₀ c none) Set.univ (theBody (F := F)) (fun _ => bodyPost SV OUT m c)) :
    θ_run defs (onTc (τ := τ) (main (F := F))) ⟨m, fun _ => 0, ρ⟩ (fun r => ∀ c : Dev nD,
      r.2.mem ((c.tc : Thread nD τ).loc main_v1) = OUT c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_owing_glob_pf (fun p => (cfgs p).toPCfg) (fun p => (cfgs p).toPCfg_adm) (dats SV OUT m) () cellOf_inj (0 : Fin 1)
    winFacts0.to₀ ownSemFacts (Pipeline.PreFacts.none _) EP defs₀ 𝒱₀ m ρ main
    (hmain := fun _ => rfl)
    (hbody := body_obligation_of SV OUT m hsound) (hne := block_pos0) (harr := arr_whole0) (hstage := stage_whole0) (hshare := share_eq SV OUT m)
    (hdistinct := winFacts0.arr_inj)
    (O₀ := O₀) (howed₀ := fun _ => rfl) (howedN := fun _ => rfl)
    (L := L) (lv := lv) (hL := L_of_ne) (hwaits := waits SV OUT m)
    (G := G SV) (G' := G' SV) (u₀ := u₀)
    (hu₀ := hu₀ SV)
    (hglob := glob SV)
    (hA := fun _ _ => rfl) (hpf := fun _ k => k.elim0)
    (X := X₀ SV m) (Y := args m) (Z := fun _ => iprop(emp))
    (hX := start_intro SV m ρ) (hin := phi0_intro SV OUT m) (hout := phi1_exit SV OUT m)
    (QY := QY₀ m)
    (hY := read_args m)
    (hQ := fun s h c => ⟨((h c).1 (1 : Fin 2)).trans (final_out SV OUT m c), ((h c).1 (0 : Fin 2)).trans (final_in SV OUT m c), (h c).2.2⟩)

end Cert.KernelProof

end
-- ==== Proof.Bits.Steps.lean ====
/-
  The steps of the protocol, one lemma each: the two entry signals, the wait on the barrier cell, an
  addressed transfer, the waits on its send and receive cells, and the closing of those cells. Each is a
  rule of the rounds discipline read at this schedule's cells: a signal or a transfer pays a duty of the
  peer's cell with the duty's payload, a wait for a cell's whole round hands the round's payloads over.
-/
import proofs.«900581_g7700000000000582_dist_mlpseq_tp2d_cs_cs_b64_d512_h1024_v7x_xy2x2_f32_1_alg».proof.Proof.Bits.Ghost
import proofs.«900581_g7700000000000582_dist_mlpseq_tp2d_cs_cs_b64_d512_h1024_v7x_xy2x2_f32_1_alg».proof.Proof.Bits.SchedFacts

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Fin 9 → Dev nD → Vec F S64x512 .bf16) (K : Dev nD × Fin 19 → ℕ)

/-! ## The entry signals -/

/-- The signal to the second-axis peer's barrier cell pays its duty `false`: the signaller hands over its own six
    landing slots for the hidden chunks, each with the fact that it is at round 0 of the slot's receive cell. -/
theorem step_sigY (c n : Dev nD) (hn : n = yp c) {a : ℕ} (ha : a = 1) (W : Waits sig Unit)
    (f0 : Buf (Elt F) ((dstM 0).view.loc (c : Thread nD τ))) (f1 : Buf (Elt F) ((dstM 1).view.loc (c : Thread nD τ)))
    (f2 : Buf (Elt F) ((dstM 2).view.loc (c : Thread nD τ))) (f3 : Buf (Elt F) ((dstM 3).view.loc (c : Thread nD τ)))
    (f4 : Buf (Elt F) ((dstM 4).view.loc (c : Thread nD τ))) (f5 : Buf (Elt F) ((dstM 5).view.loc (c : Thread nD τ)))
    {α : Type} {Q : α → sProp 𝕄} {k : PUnit → Prog (TpuEff nD τ sig (Elt F) Λ₀ .tc) α} :
    iprop(cellInv ER (sched SV) (K (yp c, kBar)) (barCell (yp c)) ∗ owes (c : Thread nD τ) (Oafter c 0) W ∗ dutyTok ER (barCell (yp c)) 0 false
        ∗ (heldM c (dstM 0) f0 ∗ heldM c (dstM 1) f1 ∗ heldM c (dstM 2) f2 ∗ heldM c (dstM 3) f3 ∗ heldM c (dstM 4) f4 ∗ heldM c (dstM 5) f5)
        ∗ (reached ER (recvCell 0 c) 0 ∗ reached ER (recvCell 1 c) 0 ∗ reached ER (recvCell 2 c) 0 ∗ reached ER (recvCell 3 c) 0
            ∗ reached ER (recvCell 4 c) 0 ∗ reached ER (recvCell 5 c) 0)
        ∗ reached ER (barCell (yp c)) 0)
      ⊢ iprop((owes (c : Thread nD τ) (Oafter c 1) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  iintro ⟨HI, HO, Htok, ⟨H0, H1, H2, H3, H4, H5⟩, ⟨R0, R1, R2, R3, R4, R5⟩, HrB⟩
  iapply (Rounds.wp_signal 𝒱₀ ER (sched SV) (c : Thread nD τ) none (dst := (yp c : Thread nD τ)) (κ := K (yp c, kBar))
      (d := false) (by rw [duties_bar]; exact Finset.mem_univ _) (amount_bar SV (yp c) false) () (Oafter c 1) (Oafter_peel0 c))
  isplitl [HI]; · iexact HI
  isplitl [HO]; · iexact HO
  isplitl [Htok]; · iexact Htok
  isplitr [HrB]
  · rw [payload_bar_false]; unfold barPayY slotOf; rw [yp_yp]
    isplitl [H0 R0]
    · isplitl [H0]; · iexists f0; iexact H0
      iexact R0
    isplitl [H1 R1]
    · isplitl [H1]; · iexists f1; iexact H1
      iexact R1
    isplitl [H2 R2]
    · isplitl [H2]; · iexists f2; iexact H2
      iexact R2
    isplitl [H3 R3]
    · isplitl [H3]; · iexists f3; iexact H3
      iexact R3
    isplitl [H4 R4]
    · isplitl [H4]; · iexists f4; iexact H4
      iexact R4
    · isplitl [H5]; · iexists f5; iexact H5
      iexact R5
  · iexact HrB

/-- The signal to the first-axis peer's barrier cell pays its duty `true`: the signaller hands over its own three
    landing slots for the partial outputs likewise. -/
theorem step_sigX (c n : Dev nD) (hn : n = xp c) {a : ℕ} (ha : a = 1) (W : Waits sig Unit)
    (f6 : Buf (Elt F) ((dstM 6).view.loc (c : Thread nD τ))) (f7 : Buf (Elt F) ((dstM 7).view.loc (c : Thread nD τ)))
    (f8 : Buf (Elt F) ((dstM 8).view.loc (c : Thread nD τ)))
    {α : Type} {Q : α → sProp 𝕄} {k : PUnit → Prog (TpuEff nD τ sig (Elt F) Λ₀ .tc) α} :
    iprop(cellInv ER (sched SV) (K (xp c, kBar)) (barCell (xp c)) ∗ owes (c : Thread nD τ) (Oafter c 1) W ∗ dutyTok ER (barCell (xp c)) 0 true
        ∗ (heldM c (dstM 6) f6 ∗ heldM c (dstM 7) f7 ∗ heldM c (dstM 8) f8)
        ∗ (reached ER (recvCell 6 c) 0 ∗ reached ER (recvCell 7 c) 0 ∗ reached ER (recvCell 8 c) 0)
        ∗ reached ER (barCell (xp c)) 0)
      ⊢ iprop((owes (c : Thread nD τ) (Oafter c 2) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  iintro ⟨HI, HO, Htok, ⟨H6, H7, H8⟩, ⟨R6, R7, R8⟩, HrB⟩
  iapply (Rounds.wp_signal 𝒱₀ ER (sched SV) (c : Thread nD τ) none (dst := (xp c : Thread nD τ)) (κ := K (xp c, kBar))
      (d := true) (by rw [duties_bar]; exact Finset.mem_univ _) (amount_bar SV (xp c) true) () (Oafter c 2) (Oafter_peel1 c))
  isplitl [HI]; · iexact HI
  isplitl [HO]; · iexact HO
  isplitl [Htok]; · iexact Htok
  isplitr [HrB]
  · rw [payload_bar_true]; unfold barPayX slotOf; rw [xp_xp]
    isplitl [H6 R6]
    · isplitl [H6]; · iexists f6; iexact H6
      iexact R6
    isplitl [H7 R7]
    · isplitl [H7]; · iexists f7; iexact H7
      iexact R7
    · isplitl [H8]; · iexists f8; iexact H8
      iexact R8
  · iexact HrB

/-! ## The wait on the barrier cell -/

/-- The wait for both entry signals: the device comes back with both peers' landing slots. All it still owes then
    are receive cells, above the barrier cell. -/
theorem step_waitBar (c : Dev nD) {a : ℕ} (ha : a = 2) (W : Waits sig Unit) {α : Type} {Q : α → sProp 𝕄} {k : PUnit → Prog (TpuEff nD τ sig (Elt F) Λ₀ .tc) α} :
    iprop(cellInv ER (sched SV) (K (c, kBar)) (barCell c) ∗ cred (tallyAt (barCell c) () 2) ∗ owes (c : Thread nD τ) (Oafter c 2) W
        ∗ levAts L lv ∗ atPos ER (barCell c) 0 ∅ 0)
      ⊢ iprop(((owes (c : Thread nD τ) (Oafter c 2) (insert (SemLoc.reg barS, ()) W) ∗ atPos ER (barCell c) 1 ∅ 0 ∗ reached ER (barCell c) 1
              ∗ barPayY c ∗ barPayX c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  rw [← rest_bar SV c]
  exact (sep_mono_right (sep_mono_right (sep_mono_right (sep_mono_left (mayWait_bar c))))).trans
    (Rounds.wp_wait_rest_token 𝒱₀ ER (sched SV) (c : Thread nD τ) none (κ := K (c, kBar))
      (wpE_semWait_eq 𝒱₀ (c : Thread nD τ) none Set.univ) (Set.mem_univ _) () (O := Oafter c 2) (W := W) (R := 0) (m := 0) (T := ∅)
      (by rw [expect_bar]))

/-! ## An addressed transfer and its two waits -/

/-- Transfer `t`, addressed to its peer: the source slot pays the sender's own send cell (it comes back when the
    source is read), the peer's landing slot rewritten with the source's contents pays the peer's receive cell. -/
theorem step_send (t : Fin 9) (c n : Dev nD) (hn : n = peer t c)
    {hsc : (dstM t : Memref sig (Dev.tc n : Thread nD τ).2.kind .vmem S64x512 .bf16).view.ref.isScScratch = false}
    {hsrc : (srcM t : Memref sig .tc .vmem S64x512 .bf16).view.WordExact} {hdst : (dstM t : Memref sig .tc .vmem S64x512 .bf16).view.WordExact}
    {hsem : DmaTarget.Typed .vmem (.dma (recvS t)) (.remote (Dev.tc n : Thread nD τ) (dstM t : Memref sig .tc .vmem S64x512 .bf16) (.dma (sendS t)) hsc)}
    {α : Type} {Q : α → sProp 𝕄} {k : PUnit → Prog (TpuEff nD τ sig (Elt F) Λ₀ .tc) α}
    (fs : Buf (Elt F) ((srcM t).view.loc (c : Thread nD τ))) (fd : Buf (Elt F) ((dstM t).view.loc (peer t c : Thread nD τ)))
    (W : Waits sig Unit) (O₁ O₂ : CellTallies nD τ sig Unit) (hO : O₁ = O₂ + tallyAt (recvCell t (peer t c)) () N)
    (hv : (srcM t).view.read (Elt F) fs = SV t c) :
    iprop(cellInv ER (sched SV) (K (c, kSend t)) (sendCell t c) ∗ cellInv ER (sched SV) (K (peer t c, kRecv t)) (recvCell t (peer t c))
        ∗ heldM c (srcM t) fs ∗ heldM (peer t c) (dstM t) fd
        ∗ owes (c : Thread nD τ) O₁ W
        ∗ dutyTok ER (sendCell t c) 0 false ∗ reached ER (sendCell t c) 0
        ∗ dutyTok ER (recvCell t (peer t c)) 0 false ∗ reached ER (recvCell t (peer t c)) 0)
      ⊢ iprop(((cred (tallyAt (sendCell t c) () N) ∗ owes (c : Thread nD τ) O₂ W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM t) (.remote (Dev.tc n : Thread nD τ) (dstM t) (.dma (sendS t)) hsc) (.dma (recvS t)) hsrc hdst hsem) k) Q) := by
  subst hn
  exact Rounds.wp_send_pointsTo 𝒱₀ ER (sched SV) (c : Thread nD τ) none (κ₁ := K (c, kSend t)) (κ₂ := K (peer t c, kRecv t))
    (c' := (peer t c : Thread nD τ)) (src := srcM t) (dst := dstM t) (sS := .dma (sendS t)) (sem := .dma (recvS t))
    (r₁ := 0) (r₂ := 0) (d₁ := false) (d₂ := false) (fs := fs) (fd := fd)
    (by rw [duties_send]; exact Finset.mem_singleton_self _) (by rw [duties_recv]; exact Finset.mem_singleton_self _)
    () () N (N_eq t) (amount_send SV t c false) (amount_recv SV t (peer t c) false) O₂ hO (W := W)
    (by rw [payload_send]; unfold sendPay; iintro H; iexists fs; iexact H)
    (by
      rw [payload_recv]; unfold recvPay
      iintro H
      iexists (dstM t).view.write (Elt F) fd ((srcM t).view.read (Elt F) fs) Finset.univ
      isplitl [H]; · iexact H
      ipureintro; rw [View.read_write_univ, hv, peer_peer])

/-- The wait on the send cell of transfer `t`: the source slot comes back. -/
theorem step_waitSend (t : Fin 9) (c : Dev nD) (W : Waits sig Unit) (O : CellTallies nD τ sig Unit)
    {sp sp' : Space} {s s' : Shape} {e e' : EltTy} {src : Memref sig .tc sp' s' e'} {κ' : Kind} {dst : Memref sig κ' sp s e}
    {hs : src.view.WordExact} {hd : dst.view.WordExact} (hamt : dst.view.dmaCredit = N) {α : Type} {Q : α → sProp 𝕄} {k : PUnit → Prog (TpuEff nD τ sig (Elt F) Λ₀ .tc) α} :
    iprop(cellInv ER (sched SV) (K (c, kSend t)) (sendCell t c) ∗ cred (tallyAt (sendCell t c) () N) ∗ owes (c : Thread nD τ) O W
        ∗ MayWait (c : Thread nD τ) (.dma (sendS t)) () O ∗ atPos ER (sendCell t c) 0 ∅ 0)
      ⊢ iprop(((owes (c : Thread nD τ) O (insert (SemLoc.dma (sendS t), ()) W) ∗ atPos ER (sendCell t c) 1 ∅ 0 ∗ reached ER (sendCell t c) 1
              ∗ sendPay t c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS t) src dst hs hd) k) Q) := by
  rw [← rest_send SV t c]
  exact Rounds.wp_wait_rest_token 𝒱₀ ER (sched SV) (c : Thread nD τ) none (κ := K (c, kSend t))
    (fun Kc => (wpE_waitDma2_eq 𝒱₀ (c : Thread nD τ) none Set.univ Kc).trans (by rw [hamt])) (Set.mem_univ _) ()
    (O := O) (W := W) (R := 0) (m := 0) (T := ∅) (by rw [Nat.zero_add, expect_send])

/-- The wait on the receive cell of transfer `t`: the landing slot comes back holding the sender's value. -/
theorem step_waitRecv (t : Fin 9) (c : Dev nD) (W : Waits sig Unit) (O : CellTallies nD τ sig Unit)
    {sp sp' : Space} {s s' : Shape} {e e' : EltTy} {src : Memref sig .tc sp' s' e'} {κ' : Kind} {dst : Memref sig κ' sp s e}
    {hs : src.view.WordExact} {hd : dst.view.WordExact} (hamt : dst.view.dmaCredit = N) {α : Type} {Q : α → sProp 𝕄} {k : PUnit → Prog (TpuEff nD τ sig (Elt F) Λ₀ .tc) α} :
    iprop(cellInv ER (sched SV) (K (c, kRecv t)) (recvCell t c) ∗ cred (tallyAt (recvCell t c) () N) ∗ owes (c : Thread nD τ) O W
        ∗ MayWait (c : Thread nD τ) (.dma (recvS t)) () O ∗ atPos ER (recvCell t c) 0 ∅ 0)
      ⊢ iprop(((owes (c : Thread nD τ) O (insert (SemLoc.dma (recvS t), ()) W) ∗ atPos ER (recvCell t c) 1 ∅ 0 ∗ reached ER (recvCell t c) 1
              ∗ recvPay SV t c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS t) src dst hs hd) k) Q) := by
  rw [← rest_recv SV t c]
  exact Rounds.wp_wait_rest_token 𝒱₀ ER (sched SV) (c : Thread nD τ) none (κ := K (c, kRecv t))
    (fun Kc => (wpE_waitDma2_eq 𝒱₀ (c : Thread nD τ) none Set.univ Kc).trans (by rw [hamt])) (Set.mem_univ _) ()
    (O := O) (W := W) (R := 0) (m := 0) (T := ∅) (by rw [Nat.zero_add, expect_recv])

/-! ## Closing a transfer's cells -/

/-- A send cell past its one round closes: its counter, at zero, is the device's again. -/
theorem close_send (t : Fin 9) (c : Dev nD) :
    iprop(cellInv ER (sched SV) (K (c, kSend t)) (sendCell t c) ∗ atPos ER (sendCell t c) 1 ∅ 0)
      ⊢ iprop(|={Set.univ}=> semVal (sendCell t c) 0) :=
  Rounds.cell_close ER (sched SV) (Set.mem_univ (K (c, kSend t))) (fun h => h) (R := 1) (duties_later SV (sendCell t c))

/-- A receive cell likewise. -/
theorem close_recv (t : Fin 9) (c : Dev nD) :
    iprop(cellInv ER (sched SV) (K (c, kRecv t)) (recvCell t c) ∗ atPos ER (recvCell t c) 1 ∅ 0)
      ⊢ iprop(|={Set.univ}=> semVal (recvCell t c) 0) :=
  Rounds.cell_close ER (sched SV) (Set.mem_univ (K (c, kRecv t))) (fun h => h) (R := 1) (duties_later SV (recvCell t c))

end Cert.KernelProof

end
-- ==== Proof.Bits.LoadForms.lean ====
/-
  What the body's loads read. Each loaded value is a read of a buffer's contents through a
  rectangle of the whole buffer; here each is read at an index given by its coordinates: the
  staged blocks whole, a weight slot after its copy landed, a received slot through the whole
  receive buffer, a sent slot after the store that filled it.
-/
import proofs.«900581_g7700000000000582_dist_mlpseq_tp2d_cs_cs_b64_d512_h1024_v7x_xy2x2_f32_1_alg».proof.Proof.Bits.Cells
import Idealize.ShloMosaic.Lib.Pipeline.Value
import Idealize.ShloMosaic.Lib.ValueIdx
import Idealize.ShloMosaic.Lib.ValueLayout
import Idealize.ShloMosaic.Lib.Writes

noncomputable section

namespace Cert.KernelProof

open Cert.Kernel Cert.Kernel.Gen
open Idealize.ShloMosaic
open Idealize.ShloMosaic.TcCoe
open Idealize.ShloMosaic.ValueIdx

/-! ## Slots of a view: a unit slice with its unit axes dropped -/

section Generic

variable {σ : RefSig} {κ : Kind} {sp : Space} {e : EltTy} {Val : EltTy → Type}

/-- Reading through a re-indexed view is reading through the view at the matched index. -/
theorem read_reshape_apply {s s' : Shape} (v : View σ κ sp s e) (h : s'.numel = s.numel) (f : v.ty.Contents Val) (x : s'.Idx) :
    (v.reshape s' h).read Val f x = v.read Val f (Shape.reshapeEquiv h x) := rfl

/-- A load at a rectangle with one leading unit axis reads, at `(0, i, j)`, what the squeezed slot reads at `(i, j)`. -/
theorem readAt_unit1 {d : Fin 3 → ℕ} {a b : ℕ} (v : View σ κ sp ⟨3, d⟩ e) (off : Fin 3 → ℕ)
    (inb : ∀ x, off x + (![1, a, b] : Fin 3 → ℕ) x ≤ (⟨3, d⟩ : Shape).size x)
    (h : (⟨2, ![a, b]⟩ : Shape).numel = (⟨3, ![1, a, b]⟩ : Shape).numel) (g : v.ty.Contents Val) (i : Fin a) (j : Fin b) :
    v.readAt Val (Rect.unit (s := ⟨3, d⟩) off ![1, a, b] inb).toLoadRect g (ix3 (0 : Fin 1) i j)
      = ((v.slice (Rect.unit (s := ⟨3, d⟩) off ![1, a, b] inb)).reshape ⟨2, ![a, b]⟩ h).read Val g (ix2 i j) := by
  show (v.slice (Rect.unit (s := ⟨3, d⟩) off ![1, a, b] inb)).read Val g (ix3 (0 : Fin 1) i j)
    = (v.slice (Rect.unit (s := ⟨3, d⟩) off ![1, a, b] inb)).read Val g (Shape.reshapeEquiv h (ix2 i j))
  rw [reshapeEquiv_ix2_1ab]
  rfl

/-- The same with two leading unit axes. -/
theorem readAt_unit11 {d : Fin 4 → ℕ} {a b : ℕ} (v : View σ κ sp ⟨4, d⟩ e) (off : Fin 4 → ℕ)
    (inb : ∀ x, off x + (![1, 1, a, b] : Fin 4 → ℕ) x ≤ (⟨4, d⟩ : Shape).size x)
    (h : (⟨2, ![a, b]⟩ : Shape).numel = (⟨4, ![1, 1, a, b]⟩ : Shape).numel) (g : v.ty.Contents Val) (i : Fin a) (j : Fin b) :
    v.readAt Val (Rect.unit (s := ⟨4, d⟩) off ![1, 1, a, b] inb).toLoadRect g (ix4 (0 : Fin 1) (0 : Fin 1) i j)
      = ((v.slice (Rect.unit (s := ⟨4, d⟩) off ![1, 1, a, b] inb)).reshape ⟨2, ![a, b]⟩ h).read Val g (ix2 i j) := by
  show (v.slice (Rect.unit (s := ⟨4, d⟩) off ![1, 1, a, b] inb)).read Val g (ix4 (0 : Fin 1) (0 : Fin 1) i j)
    = (v.slice (Rect.unit (s := ⟨4, d⟩) off ![1, 1, a, b] inb)).read Val g (Shape.reshapeEquiv h (ix2 i j))
  rw [reshapeEquiv_ix2_11ab]
  rfl

/-- A slot after an unmasked store through its rectangle reads the payload. -/
theorem read_slot_write1 {d : Fin 3 → ℕ} {a b : ℕ} (v : View σ κ sp ⟨3, d⟩ e) (off : Fin 3 → ℕ)
    (inb : ∀ x, off x + (![1, a, b] : Fin 3 → ℕ) x ≤ (⟨3, d⟩ : Shape).size x)
    (h : (⟨2, ![a, b]⟩ : Shape).numel = (⟨3, ![1, a, b]⟩ : Shape).numel) (f₀ : v.ty.Contents Val)
    (w : (⟨3, ![1, a, b]⟩ : Shape).Idx → Val e) (i : Fin a) (j : Fin b) :
    ((v.slice (Rect.unit (s := ⟨3, d⟩) off ![1, a, b] inb)).reshape ⟨2, ![a, b]⟩ h).read Val
        ((v.slice (Rect.unit (s := ⟨3, d⟩) off ![1, a, b] inb)).write Val f₀ w Finset.univ) (ix2 i j) = w (ix3 (0 : Fin 1) i j) := by
  show (v.slice (Rect.unit (s := ⟨3, d⟩) off ![1, a, b] inb)).read Val _ (Shape.reshapeEquiv h (ix2 i j)) = _
  rw [reshapeEquiv_ix2_1ab]
  exact View.read_write_of_mem (v := v.slice (Rect.unit (s := ⟨3, d⟩) off ![1, a, b] inb)) f₀ w (Finset.mem_univ _)

theorem read_slot_write11 {d : Fin 4 → ℕ} {a b : ℕ} (v : View σ κ sp ⟨4, d⟩ e) (off : Fin 4 → ℕ)
    (inb : ∀ x, off x + (![1, 1, a, b] : Fin 4 → ℕ) x ≤ (⟨4, d⟩ : Shape).size x)
    (h : (⟨2, ![a, b]⟩ : Shape).numel = (⟨4, ![1, 1, a, b]⟩ : Shape).numel) (f₀ : v.ty.Contents Val)
    (w : (⟨4, ![1, 1, a, b]⟩ : Shape).Idx → Val e) (i : Fin a) (j : Fin b) :
    ((v.slice (Rect.unit (s := ⟨4, d⟩) off ![1, 1, a, b] inb)).reshape ⟨2, ![a, b]⟩ h).read Val
        ((v.slice (Rect.unit (s := ⟨4, d⟩) off ![1, 1, a, b] inb)).write Val f₀ w Finset.univ) (ix2 i j) = w (ix4 (0 : Fin 1) (0 : Fin 1) i j) := by
  show (v.slice (Rect.unit (s := ⟨4, d⟩) off ![1, 1, a, b] inb)).read Val _ (Shape.reshapeEquiv h (ix2 i j)) = _
  rw [reshapeEquiv_ix2_11ab]
  exact View.read_write_of_mem (v := v.slice (Rect.unit (s := ⟨4, d⟩) off ![1, 1, a, b] inb)) f₀ w (Finset.mem_univ _)

/-- A load at a slot's rectangle, after the slot was filled whole through its squeeze, reads the payload. -/
theorem readAt_unit1_filled {d : Fin 3 → ℕ} {a b : ℕ} (v : View σ κ sp ⟨3, d⟩ e) (off : Fin 3 → ℕ)
    (inb : ∀ x, off x + (![1, a, b] : Fin 3 → ℕ) x ≤ (⟨3, d⟩ : Shape).size x)
    (h : (⟨2, ![a, b]⟩ : Shape).numel = (⟨3, ![1, a, b]⟩ : Shape).numel) (f₀ : v.ty.Contents Val)
    (p : (⟨2, ![a, b]⟩ : Shape).Idx → Val e) (k : Fin a) (j : Fin b) :
    v.readAt Val (Rect.unit (s := ⟨3, d⟩) off ![1, a, b] inb).toLoadRect
        (((v.slice (Rect.unit (s := ⟨3, d⟩) off ![1, a, b] inb)).reshape ⟨2, ![a, b]⟩ h).writes Val f₀ [⟨Rect.whole ⟨2, ![a, b]⟩, p⟩])
        (ix3 (0 : Fin 1) k j) = p (ix2 k j) := by
  rw [readAt_unit1 v off inb h]
  have e := View.read_writes_cons_emb ((v.slice (Rect.unit (s := ⟨3, d⟩) off ![1, a, b] inb)).reshape ⟨2, ![a, b]⟩ h) f₀
    (Rect.whole ⟨2, ![a, b]⟩) p [] (ix2 k j)
  rwa [Rect.emb_whole_apply] at e

end Generic

variable {F : FTy → Type} [FloatOps F]

/-! ## The staged blocks, whole -/

theorem zero2 : (![0, 0] : Fin 2 → Nat) = fun _ => 0 := funext fun a => by fin_cases a <;> rfl

/-- The staged activation block is read whole. -/
theorem read_stg0 (g : (cc0_stg0_0 : Ref sig .tc).ty.Contents (Elt F)) :
    View.readAt (Elt F) (Memref.whole cc0_stg0_0).view (Rect.unit (s := S64x512) ![0, 0] S64x512.size inb_S64x512_S64x512_0_0).toLoadRect g = g :=
  Memref.readAt_unit_zero (Elt F) cc0_stg0_0 zero2 _ g

/-- The staged result block is read whole. -/
theorem read_stg1 (g : (cc0_stg1_0 : Ref sig .tc).ty.Contents (Elt F)) :
    View.readAt (Elt F) (Memref.whole cc0_stg1_0).view (Rect.unit (s := S64x512) ![0, 0] S64x512.size inb_S64x512_S64x512_0_0).toLoadRect g = g :=
  Memref.readAt_unit_zero (Elt F) cc0_stg1_0 zero2 _ g

/-! ## A copy's payload -/

/-- A whole buffer reads as its contents, and a transfer that moves the source's own elements moves them. -/
theorem read_whole_same (b : Ref sig .tc) (A : b.ty.Contents (Elt F)) :
    (ReadAs.same : ReadAs (Elt F) _ _ _ _).apply (View.read (Elt F) (Memref.whole b).view A) = A := rfl

theorem read_whole' (b : Ref sig .tc) (A : b.ty.Contents (Elt F)) : View.read (Elt F) (Memref.whole b).view A = A := rfl

/-! ## A weight slot after its copy landed -/

/-- Layer 0's slot of the first weights' landing buffer, filled whole, reads the payload. -/
theorem read_w0M0 (p : S512x1024.Idx → Elt F .f32) (k : Fin 512) (j : Fin 1024) :
    View.readAt (Elt F) (Memref.whole cc0_scratch0).view (Rect.unit (s := S3x512x1024) ![0, 0, 0] S1x512x1024.size inb_S3x512x1024_S1x512x1024_0_0_0).toLoadRect
        (w0M0.view.writes (Elt F) w0M0.view.junk [⟨Rect.whole S512x1024, p⟩]) (ix3 (0 : Fin 1) k j) = p (ix2 k j) :=
  readAt_unit1_filled (Memref.whole cc0_scratch0).view ![0, 0, 0] inb_S3x512x1024_S1x512x1024_0_0_0 _ _ p k j

/-- Layer 1's slot of the first weights' landing buffer, filled whole, reads the payload. -/
theorem read_w0M1 (p : S512x1024.Idx → Elt F .f32) (k : Fin 512) (j : Fin 1024) :
    View.readAt (Elt F) (Memref.whole cc0_scratch0).view (Rect.unit (s := S3x512x1024) ![1, 0, 0] S1x512x1024.size inb_S3x512x1024_S1x512x1024_1_0_0).toLoadRect
        (w0M1.view.writes (Elt F) w0M1.view.junk [⟨Rect.whole S512x1024, p⟩]) (ix3 (0 : Fin 1) k j) = p (ix2 k j) :=
  readAt_unit1_filled (Memref.whole cc0_scratch0).view ![1, 0, 0] inb_S3x512x1024_S1x512x1024_1_0_0 _ _ p k j

/-- Layer 2's slot of the first weights' landing buffer, filled whole, reads the payload. -/
theorem read_w0M2 (p : S512x1024.Idx → Elt F .f32) (k : Fin 512) (j : Fin 1024) :
    View.readAt (Elt F) (Memref.whole cc0_scratch0).view (Rect.unit (s := S3x512x1024) ![2, 0, 0] S1x512x1024.size inb_S3x512x1024_S1x512x1024_2_0_0).toLoadRect
        (w0M2.view.writes (Elt F) w0M2.view.junk [⟨Rect.whole S512x1024, p⟩]) (ix3 (0 : Fin 1) k j) = p (ix2 k j) :=
  readAt_unit1_filled (Memref.whole cc0_scratch0).view ![2, 0, 0] inb_S3x512x1024_S1x512x1024_2_0_0 _ _ p k j

/-- Layer 0's slot of the second weights' landing buffer, filled whole, reads the payload. -/
theorem read_w1M0 (p : S1024x512.Idx → Elt F .f32) (k : Fin 1024) (j : Fin 512) :
    View.readAt (Elt F) (Memref.whole cc0_scratch1).view (Rect.unit (s := S3x1024x512) ![0, 0, 0] S1x1024x512.size inb_S3x1024x512_S1x1024x512_0_0_0).toLoadRect
        (w1M0.view.writes (Elt F) w1M0.view.junk [⟨Rect.whole S1024x512, p⟩]) (ix3 (0 : Fin 1) k j) = p (ix2 k j) :=
  readAt_unit1_filled (Memref.whole cc0_scratch1).view ![0, 0, 0] inb_S3x1024x512_S1x1024x512_0_0_0 _ _ p k j

/-- Layer 1's slot of the second weights' landing buffer, filled whole, reads the payload. -/
theorem read_w1M1 (p : S1024x512.Idx → Elt F .f32) (k : Fin 1024) (j : Fin 512) :
    View.readAt (Elt F) (Memref.whole cc0_scratch1).view (Rect.unit (s := S3x1024x512) ![1, 0, 0] S1x1024x512.size inb_S3x1024x512_S1x1024x512_1_0_0).toLoadRect
        (w1M1.view.writes (Elt F) w1M1.view.junk [⟨Rect.whole S1024x512, p⟩]) (ix3 (0 : Fin 1) k j) = p (ix2 k j) :=
  readAt_unit1_filled (Memref.whole cc0_scratch1).view ![1, 0, 0] inb_S3x1024x512_S1x1024x512_1_0_0 _ _ p k j

/-- Layer 2's slot of the second weights' landing buffer, filled whole, reads the payload. -/
theorem read_w1M2 (p : S1024x512.Idx → Elt F .f32) (k : Fin 1024) (j : Fin 512) :
    View.readAt (Elt F) (Memref.whole cc0_scratch1).view (Rect.unit (s := S3x1024x512) ![2, 0, 0] S1x1024x512.size inb_S3x1024x512_S1x1024x512_2_0_0).toLoadRect
        (w1M2.view.writes (Elt F) w1M2.view.junk [⟨Rect.whole S1024x512, p⟩]) (ix3 (0 : Fin 1) k j) = p (ix2 k j) :=
  readAt_unit1_filled (Memref.whole cc0_scratch1).view ![2, 0, 0] inb_S3x1024x512_S1x1024x512_2_0_0 _ _ p k j

/-! ## A received slot read through the whole receive buffer -/

theorem read_recv0 (g : (cc0_scratch6 : Ref sig .tc).ty.Contents (Elt F)) (i : Fin 64) (j : Fin 512) :
    View.readAt (Elt F) (Memref.whole cc0_scratch6).view (Rect.unit (s := S3x2x64x512) ![0, 0, 0, 0] S1x1x64x512.size inb_S3x2x64x512_S1x1x64x512_0_0_0_0).toLoadRect g
        (ix4 (0 : Fin 1) (0 : Fin 1) i j) = (dstM 0).view.read (Elt F) g (ix2 i j) :=
  readAt_unit11 (Memref.whole cc0_scratch6).view ![0, 0, 0, 0] inb_S3x2x64x512_S1x1x64x512_0_0_0_0 _ g i j

theorem read_recv1 (g : (cc0_scratch6 : Ref sig .tc).ty.Contents (Elt F)) (i : Fin 64) (j : Fin 512) :
    View.readAt (Elt F) (Memref.whole cc0_scratch6).view (Rect.unit (s := S3x2x64x512) ![0, 1, 0, 0] S1x1x64x512.size inb_S3x2x64x512_S1x1x64x512_0_1_0_0).toLoadRect g
        (ix4 (0 : Fin 1) (0 : Fin 1) i j) = (dstM 1).view.read (Elt F) g (ix2 i j) :=
  readAt_unit11 (Memref.whole cc0_scratch6).view ![0, 1, 0, 0] inb_S3x2x64x512_S1x1x64x512_0_1_0_0 _ g i j

theorem read_recv2 (g : (cc0_scratch6 : Ref sig .tc).ty.Contents (Elt F)) (i : Fin 64) (j : Fin 512) :
    View.readAt (Elt F) (Memref.whole cc0_scratch6).view (Rect.unit (s := S3x2x64x512) ![1, 0, 0, 0] S1x1x64x512.size inb_S3x2x64x512_S1x1x64x512_1_0_0_0).toLoadRect g
        (ix4 (0 : Fin 1) (0 : Fin 1) i j) = (dstM 2).view.read (Elt F) g (ix2 i j) :=
  readAt_unit11 (Memref.whole cc0_scratch6).view ![1, 0, 0, 0] inb_S3x2x64x512_S1x1x64x512_1_0_0_0 _ g i j

theorem read_recv3 (g : (cc0_scratch6 : Ref sig .tc).ty.Contents (Elt F)) (i : Fin 64) (j : Fin 512) :
    View.readAt (Elt F) (Memref.whole cc0_scratch6).view (Rect.unit (s := S3x2x64x512) ![1, 1, 0, 0] S1x1x64x512.size inb_S3x2x64x512_S1x1x64x512_1_1_0_0).toLoadRect g
        (ix4 (0 : Fin 1) (0 : Fin 1) i j) = (dstM 3).view.read (Elt F) g (ix2 i j) :=
  readAt_unit11 (Memref.whole cc0_scratch6).view ![1, 1, 0, 0] inb_S3x2x64x512_S1x1x64x512_1_1_0_0 _ g i j

theorem read_recv4 (g : (cc0_scratch6 : Ref sig .tc).ty.Contents (Elt F)) (i : Fin 64) (j : Fin 512) :
    View.readAt (Elt F) (Memref.whole cc0_scratch6).view (Rect.unit (s := S3x2x64x512) ![2, 0, 0, 0] S1x1x64x512.size inb_S3x2x64x512_S1x1x64x512_2_0_0_0).toLoadRect g
        (ix4 (0 : Fin 1) (0 : Fin 1) i j) = (dstM 4).view.read (Elt F) g (ix2 i j) :=
  readAt_unit11 (Memref.whole cc0_scratch6).view ![2, 0, 0, 0] inb_S3x2x64x512_S1x1x64x512_2_0_0_0 _ g i j

theorem read_recv5 (g : (cc0_scratch6 : Ref sig .tc).ty.Contents (Elt F)) (i : Fin 64) (j : Fin 512) :
    View.readAt (Elt F) (Memref.whole cc0_scratch6).view (Rect.unit (s := S3x2x64x512) ![2, 1, 0, 0] S1x1x64x512.size inb_S3x2x64x512_S1x1x64x512_2_1_0_0).toLoadRect g
        (ix4 (0 : Fin 1) (0 : Fin 1) i j) = (dstM 5).view.read (Elt F) g (ix2 i j) :=
  readAt_unit11 (Memref.whole cc0_scratch6).view ![2, 1, 0, 0] inb_S3x2x64x512_S1x1x64x512_2_1_0_0 _ g i j

theorem read_recv6 (g : (cc0_scratch7 : Ref sig .tc).ty.Contents (Elt F)) (i : Fin 64) (j : Fin 512) :
    View.readAt (Elt F) (Memref.whole cc0_scratch7).view (Rect.unit (s := S3x64x512) ![0, 0, 0] S1x64x512.size inb_S3x64x512_S1x64x512_0_0_0).toLoadRect g
        (ix3 (0 : Fin 1) i j) = (dstM 6).view.read (Elt F) g (ix2 i j) :=
  readAt_unit1 (Memref.whole cc0_scratch7).view ![0, 0, 0] inb_S3x64x512_S1x64x512_0_0_0 _ g i j

theorem read_recv7 (g : (cc0_scratch7 : Ref sig .tc).ty.Contents (Elt F)) (i : Fin 64) (j : Fin 512) :
    View.readAt (Elt F) (Memref.whole cc0_scratch7).view (Rect.unit (s := S3x64x512) ![1, 0, 0] S1x64x512.size inb_S3x64x512_S1x64x512_1_0_0).toLoadRect g
        (ix3 (0 : Fin 1) i j) = (dstM 7).view.read (Elt F) g (ix2 i j) :=
  readAt_unit1 (Memref.whole cc0_scratch7).view ![1, 0, 0] inb_S3x64x512_S1x64x512_1_0_0 _ g i j

theorem read_recv8 (g : (cc0_scratch7 : Ref sig .tc).ty.Contents (Elt F)) (i : Fin 64) (j : Fin 512) :
    View.readAt (Elt F) (Memref.whole cc0_scratch7).view (Rect.unit (s := S3x64x512) ![2, 0, 0] S1x64x512.size inb_S3x64x512_S1x64x512_2_0_0).toLoadRect g
        (ix3 (0 : Fin 1) i j) = (dstM 8).view.read (Elt F) g (ix2 i j) :=
  readAt_unit1 (Memref.whole cc0_scratch7).view ![2, 0, 0] inb_S3x64x512_S1x64x512_2_0_0 _ g i j

/-! ## A sent slot after the store that filled it -/

theorem read_sent0 (fs0 : (cc0_scratch4 : Ref sig .tc).ty.Contents (Elt F)) (v : Vec F S1x1x64x512 .bf16) (i : Fin 64) (j : Fin 512) :
    (srcM 0).view.read (Elt F)
        (View.write (Elt F) ((Memref.whole cc0_scratch4).access (Rect.unit (s := S3x2x64x512) ![0, 0, 0, 0] S1x1x64x512.size inb_S3x2x64x512_S1x1x64x512_0_0_0_0)) fs0 v Finset.univ)
        (ix2 i j) = v (ix4 (0 : Fin 1) (0 : Fin 1) i j) :=
  read_slot_write11 (Memref.whole cc0_scratch4).view ![0, 0, 0, 0] inb_S3x2x64x512_S1x1x64x512_0_0_0_0 _ fs0 v i j

theorem read_sent1 (fs0 : (cc0_scratch4 : Ref sig .tc).ty.Contents (Elt F)) (v : Vec F S1x1x64x512 .bf16) (i : Fin 64) (j : Fin 512) :
    (srcM 1).view.read (Elt F)
        (View.write (Elt F) ((Memref.whole cc0_scratch4).access (Rect.unit (s := S3x2x64x512) ![0, 1, 0, 0] S1x1x64x512.size inb_S3x2x64x512_S1x1x64x512_0_1_0_0)) fs0 v Finset.univ)
        (ix2 i j) = v (ix4 (0 : Fin 1) (0 : Fin 1) i j) :=
  read_slot_write11 (Memref.whole cc0_scratch4).view ![0, 1, 0, 0] inb_S3x2x64x512_S1x1x64x512_0_1_0_0 _ fs0 v i j

theorem read_sent2 (fs0 : (cc0_scratch4 : Ref sig .tc).ty.Contents (Elt F)) (v : Vec F S1x1x64x512 .bf16) (i : Fin 64) (j : Fin 512) :
    (srcM 2).view.read (Elt F)
        (View.write (Elt F) ((Memref.whole cc0_scratch4).access (Rect.unit (s := S3x2x64x512) ![1, 0, 0, 0] S1x1x64x512.size inb_S3x2x64x512_S1x1x64x512_1_0_0_0)) fs0 v Finset.univ)
        (ix2 i j) = v (ix4 (0 : Fin 1) (0 : Fin 1) i j) :=
  read_slot_write11 (Memref.whole cc0_scratch4).view ![1, 0, 0, 0] inb_S3x2x64x512_S1x1x64x512_1_0_0_0 _ fs0 v i j

theorem read_sent3 (fs0 : (cc0_scratch4 : Ref sig .tc).ty.Contents (Elt F)) (v : Vec F S1x1x64x512 .bf16) (i : Fin 64) (j : Fin 512) :
    (srcM 3).view.read (Elt F)
        (View.write (Elt F) ((Memref.whole cc0_scratch4).access (Rect.unit (s := S3x2x64x512) ![1, 1, 0, 0] S1x1x64x512.size inb_S3x2x64x512_S1x1x64x512_1_1_0_0)) fs0 v Finset.univ)
        (ix2 i j) = v (ix4 (0 : Fin 1) (0 : Fin 1) i j) :=
  read_slot_write11 (Memref.whole cc0_scratch4).view ![1, 1, 0, 0] inb_S3x2x64x512_S1x1x64x512_1_1_0_0 _ fs0 v i j

theorem read_sent4 (fs0 : (cc0_scratch4 : Ref sig .tc).ty.Contents (Elt F)) (v : Vec F S1x1x64x512 .bf16) (i : Fin 64) (j : Fin 512) :
    (srcM 4).view.read (Elt F)
        (View.write (Elt F) ((Memref.whole cc0_scratch4).access (Rect.unit (s := S3x2x64x512) ![2, 0, 0, 0] S1x1x64x512.size inb_S3x2x64x512_S1x1x64x512_2_0_0_0)) fs0 v Finset.univ)
        (ix2 i j) = v (ix4 (0 : Fin 1) (0 : Fin 1) i j) :=
  read_slot_write11 (Memref.whole cc0_scratch4).view ![2, 0, 0, 0] inb_S3x2x64x512_S1x1x64x512_2_0_0_0 _ fs0 v i j

theorem read_sent5 (fs0 : (cc0_scratch4 : Ref sig .tc).ty.Contents (Elt F)) (v : Vec F S1x1x64x512 .bf16) (i : Fin 64) (j : Fin 512) :
    (srcM 5).view.read (Elt F)
        (View.write (Elt F) ((Memref.whole cc0_scratch4).access (Rect.unit (s := S3x2x64x512) ![2, 1, 0, 0] S1x1x64x512.size inb_S3x2x64x512_S1x1x64x512_2_1_0_0)) fs0 v Finset.univ)
        (ix2 i j) = v (ix4 (0 : Fin 1) (0 : Fin 1) i j) :=
  read_slot_write11 (Memref.whole cc0_scratch4).view ![2, 1, 0, 0] inb_S3x2x64x512_S1x1x64x512_2_1_0_0 _ fs0 v i j

theorem read_sent6 (fs0 : (cc0_scratch5 : Ref sig .tc).ty.Contents (Elt F)) (v : Vec F S1x64x512 .bf16) (i : Fin 64) (j : Fin 512) :
    (srcM 6).view.read (Elt F)
        (View.write (Elt F) ((Memref.whole cc0_scratch5).access (Rect.unit (s := S3x64x512) ![0, 0, 0] S1x64x512.size inb_S3x64x512_S1x64x512_0_0_0)) fs0 v Finset.univ)
        (ix2 i j) = v (ix3 (0 : Fin 1) i j) :=
  read_slot_write1 (Memref.whole cc0_scratch5).view ![0, 0, 0] inb_S3x64x512_S1x64x512_0_0_0 _ fs0 v i j

theorem read_sent7 (fs0 : (cc0_scratch5 : Ref sig .tc).ty.Contents (Elt F)) (v : Vec F S1x64x512 .bf16) (i : Fin 64) (j : Fin 512) :
    (srcM 7).view.read (Elt F)
        (View.write (Elt F) ((Memref.whole cc0_scratch5).access (Rect.unit (s := S3x64x512) ![1, 0, 0] S1x64x512.size inb_S3x64x512_S1x64x512_1_0_0)) fs0 v Finset.univ)
        (ix2 i j) = v (ix3 (0 : Fin 1) i j) :=
  read_slot_write1 (Memref.whole cc0_scratch5).view ![1, 0, 0] inb_S3x64x512_S1x64x512_1_0_0 _ fs0 v i j

theorem read_sent8 (fs0 : (cc0_scratch5 : Ref sig .tc).ty.Contents (Elt F)) (v : Vec F S1x64x512 .bf16) (i : Fin 64) (j : Fin 512) :
    (srcM 8).view.read (Elt F)
        (View.write (Elt F) ((Memref.whole cc0_scratch5).access (Rect.unit (s := S3x64x512) ![2, 0, 0] S1x64x512.size inb_S3x64x512_S1x64x512_2_0_0)) fs0 v Finset.univ)
        (ix2 i j) = v (ix3 (0 : Fin 1) i j) :=
  read_slot_write1 (Memref.whole cc0_scratch5).view ![2, 0, 0] inb_S3x64x512_S1x64x512_2_0_0 _ fs0 v i j

end Cert.KernelProof
end
-- ==== Proof.Bits.CastForms.lean ====
/-
  Shape casts that add or drop unit axes in front of a [64, 512] array read the same two
  coordinates, whatever the elements are; there and back is the identity.
-/
import proofs.«900581_g7700000000000582_dist_mlpseq_tp2d_cs_cs_b64_d512_h1024_v7x_xy2x2_f32_1_alg».proof.Proof.Bits.Cells
import Idealize.ShloMosaic.Lib.ValueIdx
import Idealize.ShloMosaic.Lib.ValueLayout

noncomputable section

namespace Cert.KernelProof

open Cert.Kernel Cert.Kernel.Gen
open Idealize.ShloMosaic Idealize.ShloMosaic.ValueIdx

variable {α : Type}

/-- A [64, 512] array cast to [1, 1, 64, 512] reads, at (u, v, i, j), the operand at (i, j). -/
theorem cast_ab_11ab (x : S64x512.Idx → α) (u v : Fin 1) (i : Fin 64) (j : Fin 512) :
    shapeCast S1x1x64x512 x shapeCasts_S64x512_S1x1x64x512 (ix4 u v i j) = x (ix2 i j) :=
  shapeCast_apply x shapeCasts_S64x512_S1x1x64x512 _ _ (by
    have hu : u.val = 0 := by omega
    have hv : v.val = 0 := by omega
    rw [Shape.rowMajor_val_four, Shape.rowMajor_val_two]
    show i.val * 512 + j.val = ((u.val * 1 + v.val) * 64 + i.val) * 512 + j.val
    rw [hu, hv]; omega)

/-- A [1, 1, 64, 512] array cast to [64, 512] reads, at (i, j), the operand at (0, 0, i, j). -/
theorem cast_11ab_ab (x : S1x1x64x512.Idx → α) (i : Fin 64) (j : Fin 512) :
    shapeCast S64x512 x shapeCasts_S1x1x64x512_S64x512 (ix2 i j) = x (ix4 (0 : Fin 1) (0 : Fin 1) i j) :=
  shapeCast_apply x shapeCasts_S1x1x64x512_S64x512 _ _ (by
    rw [Shape.rowMajor_val_four, Shape.rowMajor_val_two]
    show ((0 * 1 + 0) * 64 + i.val) * 512 + j.val = i.val * 512 + j.val
    omega)

/-- A [64, 512] array cast to [1, 64, 512] reads, at (u, i, j), the operand at (i, j). -/
theorem cast_ab_1ab (x : S64x512.Idx → α) (u : Fin 1) (i : Fin 64) (j : Fin 512) :
    shapeCast S1x64x512 x shapeCasts_S64x512_S1x64x512 (ix3 u i j) = x (ix2 i j) :=
  shapeCast_ab_1ab_apply x shapeCasts_S64x512_S1x64x512 u i j

/-- A [1, 64, 512] array cast to [64, 512] reads, at (i, j), the operand at (0, i, j). -/
theorem cast_1ab_ab (x : S1x64x512.Idx → α) (i : Fin 64) (j : Fin 512) :
    shapeCast S64x512 x shapeCasts_S1x64x512_S64x512 (ix2 i j) = x (ix3 (0 : Fin 1) i j) :=
  shapeCast_1ab_ab_apply x shapeCasts_S1x64x512_S64x512 i j

/-- Through [1, 1, 64, 512] and back. -/
theorem cast_roundtrip4 (x : S64x512.Idx → α) :
    shapeCast S64x512 (shapeCast S1x1x64x512 x shapeCasts_S64x512_S1x1x64x512) shapeCasts_S1x1x64x512_S64x512 = x := by
  funext y
  obtain ⟨i, j, rfl⟩ : ∃ (i : Fin 64) (j : Fin 512), y = ix2 i j := ⟨y 0, y 1, eq_ix2 y⟩
  rw [cast_11ab_ab, cast_ab_11ab]

/-- Through [1, 64, 512] and back. -/
theorem cast_roundtrip3 (x : S64x512.Idx → α) :
    shapeCast S64x512 (shapeCast S1x64x512 x shapeCasts_S64x512_S1x64x512) shapeCasts_S1x64x512_S64x512 = x := by
  funext y
  obtain ⟨i, j, rfl⟩ : ∃ (i : Fin 64) (j : Fin 512), y = ix2 i j := ⟨y 0, y 1, eq_ix2 y⟩
  rw [cast_1ab_ab, cast_ab_1ab]

/-- The other way round: from [1, 1, 64, 512] to [64, 512] and back, and from [1, 64, 512] likewise. -/
theorem cast_roundtrip4' (x : S1x1x64x512.Idx → α) :
    shapeCast S1x1x64x512 (shapeCast S64x512 x shapeCasts_S1x1x64x512_S64x512) shapeCasts_S64x512_S1x1x64x512 = x :=
  shapeCast_shapeCast x shapeCasts_S1x1x64x512_S64x512 shapeCasts_S64x512_S1x1x64x512
theorem cast_roundtrip3' (x : S1x64x512.Idx → α) :
    shapeCast S1x64x512 (shapeCast S64x512 x shapeCasts_S1x64x512_S64x512) shapeCasts_S64x512_S1x64x512 = x :=
  shapeCast_shapeCast x shapeCasts_S1x64x512_S64x512 shapeCasts_S64x512_S1x64x512

section Check
variable {F : FTy → Type} [FloatOps F]
example (e : EltTy) (x : Vec F S64x512 e) (u v : Fin 1) (i : Fin 64) (j : Fin 512) :
    shapeCast S1x1x64x512 x shapeCasts_S64x512_S1x1x64x512 (ix4 u v i j) = x (ix2 i j) := cast_ab_11ab x u v i j
example (φ : FTy) (x : FVec F S1x64x512 φ) (i : Fin 64) (j : Fin 512) :
    shapeCast S64x512 x shapeCasts_S1x64x512_S64x512 (ix2 i j) = x (ix3 (0 : Fin 1) i j) := by rw [cast_1ab_ab]
end Check

/-- info: 'Cert.KernelProof.cast_roundtrip4' depends on axioms: [propext, Classical.choice, Quot.sound] -/
#guard_msgs in #print axioms cast_roundtrip4

end Cert.KernelProof

end
-- ==== Proof.Bits.StoreForms.lean ====
/-
  What the body's last store leaves: one store of a whole block into the result's staging
  buffer, over whatever it held, leaves the stored block.
-/
import proofs.«900581_g7700000000000582_dist_mlpseq_tp2d_cs_cs_b64_d512_h1024_v7x_xy2x2_f32_1_alg».proof.Proof.Bits.LoadForms
import Idealize.ShloMosaic.Lib.Writes

noncomputable section

namespace Cert.KernelProof

open Cert.Kernel Cert.Kernel.Gen
open Idealize.ShloMosaic
open Idealize.ShloMosaic.TcCoe

variable {F : FTy → Type} [FloatOps F]

/-- One unmasked store through the whole staging buffer of the result replaces its contents. -/
theorem writes_stg1 (g v : (cc0_stg1_0 : Ref sig .tc).ty.Contents (Elt F)) :
    (Memref.whole cc0_stg1_0).view.writes (Elt F) g
        [⟨Rect.unit (s := S64x512) ![0, 0] S64x512.size inb_S64x512_S64x512_0_0, v⟩] = v := by
  rw [View.writes_singleton]
  exact Memref.write_access_unit_zero_univ (Elt F) cc0_stg1_0 zero2 _ g v

/-- The same with the payload typed as a vector of the block's shape. -/
theorem writes_stg1_vec (g : (cc0_stg1_0 : Ref sig .tc).ty.Contents (Elt F)) (v : Vec F S64x512 .f32) :
    (Memref.whole cc0_stg1_0).view.writes (Elt F) g
        [⟨Rect.unit (s := S64x512) ![0, 0] S64x512.size inb_S64x512_S64x512_0_0, v⟩] = v := by
  rw [View.writes_singleton]
  exact Memref.write_access_unit_zero_univ (Elt F) cc0_stg1_0 zero2 _ g v

/-- The same for the staging buffer of the activations. -/
theorem writes_stg0 (g v : (cc0_stg0_0 : Ref sig .tc).ty.Contents (Elt F)) :
    (Memref.whole cc0_stg0_0).view.writes (Elt F) g
        [⟨Rect.unit (s := S64x512) ![0, 0] S64x512.size inb_S64x512_S64x512_0_0, v⟩] = v := by
  rw [View.writes_singleton]
  exact Memref.write_access_unit_zero_univ (Elt F) cc0_stg0_0 zero2 _ g v

/-- info: 'Cert.KernelProof.writes_stg1' depends on axioms: [propext, Classical.choice, Quot.sound] -/
#guard_msgs in #print axioms writes_stg1

end Cert.KernelProof
end
-- ==== Proof.Bits.Body.lean ====
/-
  One device's body, from the invariant before the grid point to the invariant after it.

  The device starts its six weight copies, signals both peers' barrier cells — handing the
  second-axis peer its six landing slots for the hidden chunks and the first-axis peer its three
  landing slots for the partial outputs —, and per layer: multiplies its activation block by the
  two chunks of its first weights, sends each partial hidden chunk to the second-axis peer (the
  first one only after the barrier wait has handed it both peers' landing slots), adds the chunk
  it receives, applies the relu, multiplies by the matching rows of its second weights, sends the
  partial output to the first-axis peer and adds the one it receives. Every value sent is the
  term `SVs m t c`, every value received the peer's `SVs m t (peer t c)`, and the block stored
  at the end is `OUTs m c`. Waits are allowed because every cell waited on lies below all the
  receive cells the device still owes.
-/
import proofs.«900581_g7700000000000582_dist_mlpseq_tp2d_cs_cs_b64_d512_h1024_v7x_xy2x2_f32_1_alg».proof.Proof.Bits.Ghost
import proofs.«900581_g7700000000000582_dist_mlpseq_tp2d_cs_cs_b64_d512_h1024_v7x_xy2x2_f32_1_alg».proof.Proof.Bits.SchedFacts
import proofs.«900581_g7700000000000582_dist_mlpseq_tp2d_cs_cs_b64_d512_h1024_v7x_xy2x2_f32_1_alg».proof.Proof.Bits.Steps
import proofs.«900581_g7700000000000582_dist_mlpseq_tp2d_cs_cs_b64_d512_h1024_v7x_xy2x2_f32_1_alg».proof.Proof.Bits.Spec
import proofs.«900581_g7700000000000582_dist_mlpseq_tp2d_cs_cs_b64_d512_h1024_v7x_xy2x2_f32_1_alg».proof.Proof.Bits.LoadForms
import proofs.«900581_g7700000000000582_dist_mlpseq_tp2d_cs_cs_b64_d512_h1024_v7x_xy2x2_f32_1_alg».proof.Proof.Bits.CastForms
import proofs.«900581_g7700000000000582_dist_mlpseq_tp2d_cs_cs_b64_d512_h1024_v7x_xy2x2_f32_1_alg».proof.Proof.Bits.StoreForms
import proofs.«900581_g7700000000000582_dist_mlpseq_tp2d_cs_cs_b64_d512_h1024_v7x_xy2x2_f32_1_alg».proof.Proof.Gen.Kernel.Skeleton

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

omit [FloatOps F] in
theorem held_eq' (c : Dev nD) (b : Ref sig .tc) (f : Buf (Elt F) ((c : Thread nD τ).loc b)) :
    held c b f = (((c : Thread nD τ).loc b) ↦{fullShare} f : sProp 𝕄) := by unfold held; rw [View.set_whole]

/-- `step_send` with the sent value's equation among the premises, so that it is proved where the source slot's
    contents are in view. -/
theorem step_send' (SV : Fin 9 → Dev nD → Vec F S64x512 .bf16) (K : Dev nD × Fin 19 → ℕ) (t : Fin 9) (c n : Dev nD) (hn : n = peer t c)
    {hsc : (dstM t : Memref sig (Dev.tc n : Thread nD τ).2.kind .vmem S64x512 .bf16).view.ref.isScScratch = false}
    {hsrc : (srcM t).view.WordExact} {hdst : (dstM t).view.WordExact}
    {hsem : DmaTarget.Typed .vmem (.dma (recvS t)) (.remote (Dev.tc n : Thread nD τ) (dstM t) (.dma (sendS t)) hsc)}
    {α : Type} {Q : α → sProp 𝕄} {k : PUnit → Prog (TpuEff nD τ sig (Elt F) Λ₀ .tc) α}
    (fs : Buf (Elt F) ((srcM t).view.loc (c : Thread nD τ))) (fd : Buf (Elt F) ((dstM t).view.loc (peer t c : Thread nD τ)))
    (W : Waits sig Unit) (O₁ O₂ : CellTallies nD τ sig Unit) (hO : O₁ = O₂ + tallyAt (recvCell t (peer t c)) () N) :
    iprop(⌜(srcM t).view.read (Elt F) fs = SV t c⌝
        ∗ cellInv ER (sched SV) (K (c, kSend t)) (sendCell t c) ∗ cellInv ER (sched SV) (K (peer t c, kRecv t)) (recvCell t (peer t c))
        ∗ heldM c (srcM t) fs ∗ heldM (peer t c) (dstM t) fd ∗ owes (c : Thread nD τ) O₁ W
        ∗ dutyTok ER (sendCell t c) 0 false ∗ reached ER (sendCell t c) 0
        ∗ dutyTok ER (recvCell t (peer t c)) 0 false ∗ reached ER (recvCell t (peer t c)) 0)
      ⊢ iprop(((cred (tallyAt (sendCell t c) () N) ∗ owes (c : Thread nD τ) O₂ W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM t) (.remote (Dev.tc n : Thread nD τ) (dstM t) (.dma (sendS t)) hsc) (.dma (recvS t)) hsrc hdst hsem) k) Q) := by
  iintro ⟨%hv, H⟩
  iapply (step_send SV K t c n hn fs fd W O₁ O₂ hO hv)
  iexact H

set_option maxHeartbeats 8000000 in
/-- The body on device `c`: the local statements step by step, the two entry signals, the barrier wait, the nine
    addressed transfers and their waits by the rounds library's rules, to the invariant after the point with the
    result block stored. -/
theorem sound_body (c : Dev nD) :
    bodyPre (SVs m) (OUTs m) m c ⊢ wp frame (wpE (defs₀ (F := F)) 𝒱₀ c none) Set.univ (theBody (F := F)) (fun _ => bodyPost (SVs m) (OUTs m) m c) := by
  unfold bodyPre Φ₀ start ghost invs wsems0 args scratch
  simp only [bigSep_fin9]
  iintro ⟨⟨⟨⟨%K, ⟨#HIbar, #HIsnd, #HIrcv, #HIbarY, #HIbarX, #HIrcvP⟩, HatB, ⟨HatS0, HatS1, HatS2, HatS3, HatS4, HatS5, HatS6, HatS7, HatS8⟩, ⟨HatR0, HatR1, HatR2, HatR3, HatR4, HatR5, HatR6, HatR7, HatR8⟩, #HrBY, #HrBX, #HrS, #HrR, HtBY, HtBX, ⟨HtR0, HtR1, HtR2, HtR3, HtR4, HtR5, HtR6, HtR7, HtR8⟩, ⟨HtS0, HtS1, HtS2, HtS3, HtS4, HtS5, HtS6, HtS7, HtS8⟩⟩, HcB, ⟨HcR0, HcR1, HcR2, HcR3, HcR4, HcR5, HcR6, HcR7, HcR8⟩, #Hlev⟩, ⟨Hw00, Hw01, Hw10, Hw11, Hw20, Hw21⟩, ⟨H1, H2, H3, H4, H5, H6⟩, ⟨⟨%f00, Hs00⟩, ⟨%f01, Hs01⟩, ⟨%f02, Hs02⟩⟩, ⟨⟨%f10, Hs10⟩, ⟨%f11, Hs11⟩, ⟨%f12, Hs12⟩⟩, ⟨%f2, Hs2⟩, ⟨%f3, Hs3⟩, ⟨⟨%fs0, Hsrc0⟩, ⟨%fs1, Hsrc1⟩, ⟨%fs2, Hsrc2⟩, ⟨%fs3, Hsrc3⟩, ⟨%fs4, Hsrc4⟩, ⟨%fs5, Hsrc5⟩, ⟨%fs6, Hsrc6⟩, ⟨%fs7, Hsrc7⟩, ⟨%fs8, Hsrc8⟩⟩, ⟨⟨%fd0, Hdst0⟩, ⟨%fd1, Hdst1⟩, ⟨%fd2, Hdst2⟩, ⟨%fd3, Hdst3⟩, ⟨%fd4, Hdst4⟩, ⟨%fd5, Hdst5⟩, ⟨%fd6, Hdst6⟩, ⟨%fd7, Hdst7⟩, ⟨%fd8, Hdst8⟩⟩⟩, Ho, ⟨%d0, %g0, %hg0, Hx⟩, ⟨%d1, %g1, %hg1, Hout⟩⟩
  icases HIsnd with ⟨#HIsnd0, #HIsnd1, #HIsnd2, #HIsnd3, #HIsnd4, #HIsnd5, #HIsnd6, #HIsnd7, #HIsnd8⟩
  icases HIrcv with ⟨#HIrcv0, #HIrcv1, #HIrcv2, #HIrcv3, #HIrcv4, #HIrcv5, #HIrcv6, #HIrcv7, #HIrcv8⟩
  icases HIrcvP with ⟨#HIrcvP0, #HIrcvP1, #HIrcvP2, #HIrcvP3, #HIrcvP4, #HIrcvP5, #HIrcvP6, #HIrcvP7, #HIrcvP8⟩
  icases HrS with ⟨#HrS0, #HrS1, #HrS2, #HrS3, #HrS4, #HrS5, #HrS6, #HrS7, #HrS8⟩
  icases HrR with ⟨#HrR0, #HrR1, #HrR2, #HrR3, #HrR4, #HrR5, #HrR6, #HrR7, #HrR8⟩
  have hx0 : (dats (SVs m) (OUTs m) m 0 c).before (0 : Fin 2) t₀ d0 = xin m c := by
    unfold Dat.before; rw [if_pos (fetch0_0 t₀)]; rfl
  rw [hx0] at hg0; subst hg0
  ihave Hx := (Entails.of_eq (held_eq' c cc0_stg0_0 (xin m c)).symm) $$ Hx
  ihave Hout := (Entails.of_eq (held_eq' c cc0_stg1_0 g1).symm) $$ Hout
  unfold Dat.owesAt Pipeline.owesWithin
  icases Ho with ⟨%W, %hW, HO⟩
  rw [show (dats (SVs m) (OUTs m) m 0 c).owed t₀.castSucc = O₀ c from rfl, ← Oafter_zero]
  -- the local weight copies' waits happen while the device still owes: their cells sit at the lowest level
  have hmw : ∀ (q : DmaSem sig) (k : ℕ), q.val < 8 → ((levAts L lv : sProp 𝕄) ⊢ MayWait (c : Thread nD τ) (.dma q) () (Oafter c k)) :=
    fun q k hq => mayWait_lo c q (fun t => by
      simp only [semTag]
      split_ifs <;> first | omega | (intro h; cases h)) k
  unfold theBody
  sl_unfold [cc0_body]
  -- the six local weight copies, then the FIRST entry signal: the device's six landing slots for the hidden chunks go to the second-axis peer
  sl_exec_parts
  iapply (step_sigY (SVs m) K c _ (dev1_eq c) rfl _ fd0 fd1 fd2 fd3 fd4 fd5) $$ [HO HtBY Hdst0 Hdst1 Hdst2 Hdst3 Hdst4 Hdst5]
  · isplitr; · iexact HIbarY
    isplitl [HO]; · iexact HO
    isplitl [HtBY]; · iexact HtBY
    isplitl [Hdst0 Hdst1 Hdst2 Hdst3 Hdst4 Hdst5]
    · isplitl [Hdst0]; · iexact Hdst0
      isplitl [Hdst1]; · iexact Hdst1
      isplitl [Hdst2]; · iexact Hdst2
      isplitl [Hdst3]; · iexact Hdst3
      isplitl [Hdst4]; · iexact Hdst4
      iexact Hdst5
    isplitr
    · isplitr; · iexact HrR0
      isplitr; · iexact HrR1
      isplitr; · iexact HrR2
      isplitr; · iexact HrR3
      isplitr; · iexact HrR4
      iexact HrR5
    iexact HrBY
  iintro HO
  try (rw [wp_ret]; imodintro)
  -- the SECOND entry signal: the device's three landing slots for the partial outputs go to the first-axis peer
  sl_exec_parts
  iapply (step_sigX (SVs m) K c _ (dev2_eq c) rfl _ fd6 fd7 fd8) $$ [HO HtBX Hdst6 Hdst7 Hdst8]
  · isplitr; · iexact HIbarX
    isplitl [HO]; · iexact HO
    isplitl [HtBX]; · iexact HtBX
    isplitl [Hdst6 Hdst7 Hdst8]
    · isplitl [Hdst6]; · iexact Hdst6
      isplitl [Hdst7]; · iexact Hdst7
      iexact Hdst8
    isplitr
    · isplitr; · iexact HrR6
      isplitr; · iexact HrR7
      iexact HrR8
    iexact HrBX
  iintro HO
  try (rw [wp_ret]; imodintro)
  -- layer 0 up to the first chunk's store, then the WAIT for both peers' entry signals: their landing slots come with it
  sl_exec_parts
  iapply (step_waitBar (SVs m) K c rfl _) $$ [HcB HO HatB]
  · isplitr; · iexact HIbar
    isplitl [HcB]; · iexact HcB
    isplitl [HO]; · iexact HO
    isplitr; · iexact Hlev
    iexact HatB
  unfold barPayY barPayX slotOf
  iintro ⟨HO, HatB, -, ⟨⟨⟨%gp0, Hp0⟩, #HrP0⟩, ⟨⟨%gp1, Hp1⟩, #HrP1⟩, ⟨⟨%gp2, Hp2⟩, #HrP2⟩, ⟨⟨%gp3, Hp3⟩, #HrP3⟩, ⟨⟨%gp4, Hp4⟩, #HrP4⟩, ⟨⟨%gp5, Hp5⟩, #HrP5⟩⟩, ⟨⟨⟨%gp6, Hp6⟩, #HrP6⟩, ⟨⟨%gp7, Hp7⟩, #HrP7⟩, ⟨⟨%gp8, Hp8⟩, #HrP8⟩⟩⟩
  try (rw [wp_ret]; imodintro)
  -- transfer 0: its source slot to the second-axis peer's landing slot
  sl_exec_parts
  iapply (step_send' (SVs m) K 0 c _ (dev3_eq c) _ gp0 _ (Oafter c 2) (Oafter c 3) (Oafter_peel2 c)) $$ [Hsrc0 Hp0 HO HtS0 HtR0]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent0]
      show _ = svH (st0 m c) (ValueIdx.ix2 i j)
      unfold svH; rw [cast_11ab_ab]
      all_goals (refine congrFun ?_ _; rfl)
    isplitr; · iexact HIsnd0
    isplitr; · iexact HIrcvP0
    isplitl [Hsrc0]; · iexact Hsrc0
    isplitl [Hp0]; · iexact Hp0
    isplitl [HO]; · iexact HO
    isplitl [HtS0]; · iexact HtS0
    isplitr; · iexact HrS0
    isplitl [HtR0]; · iexact HtR0
    iexact HrP0
  iintro ⟨HcS0, HO⟩
  try (rw [wp_ret]; imodintro)
  -- transfer 1: its source slot to the second-axis peer's landing slot
  sl_exec_parts
  iapply (step_send' (SVs m) K 1 c _ (dev4_eq c) _ gp1 _ (Oafter c 3) (Oafter c 4) (Oafter_peel3 c)) $$ [Hsrc1 Hp1 HO HtS1 HtR1]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent1]
      show _ = svH (st1 m c) (ValueIdx.ix2 i j)
      unfold svH; rw [cast_11ab_ab]
      all_goals (refine congrFun ?_ _; rfl)
    isplitr; · iexact HIsnd1
    isplitr; · iexact HIrcvP1
    isplitl [Hsrc1]; · iexact Hsrc1
    isplitl [Hp1]; · iexact Hp1
    isplitl [HO]; · iexact HO
    isplitl [HtS1]; · iexact HtS1
    isplitr; · iexact HrS1
    isplitl [HtR1]; · iexact HtR1
    iexact HrP1
  iintro ⟨HcS1, HO⟩
  try (rw [wp_ret]; imodintro)
  -- the wait on transfer 0's send cell: the source slot back
  sl_exec_parts
  iapply (step_waitSend (SVs m) K 0 c _ (Oafter c 4) (by decide)) $$ [HcS0 HO HatS0]
  · isplitr; · iexact HIsnd0
    isplitl [HcS0]; · iexact HcS0
    isplitl [HO]; · iexact HO
    isplitr; · (iapply (mayWait_lo c (sendS 0) (fun t' => by rw [semTag_send]; intro h; cases h) 4)); iexact Hlev
    iexact HatS0
  unfold sendPay
  iintro ⟨HO, HatS0, -, ⟨%fsb0, Hsrc0⟩⟩
  try (rw [wp_ret]; imodintro)
  -- the wait on transfer 0's receive cell: the landing slot holding the peer's value
  sl_exec_parts
  iapply (step_waitRecv (SVs m) K 0 c _ (Oafter c 4) (by decide)) $$ [HcR0 HO HatR0]
  · isplitr; · iexact HIrcv0
    isplitl [HcR0]; · iexact HcR0
    isplitl [HO]; · iexact HO
    isplitr; · (iapply (mayWait_recv0 c)); iexact Hlev
    iexact HatR0
  unfold recvPay
  iintro ⟨HO, HatR0, -, ⟨%gr0, Hdst0, %hr0⟩⟩
  try (rw [wp_ret]; imodintro)
  have hld0 : View.readAt (Elt F) (Memref.whole cc0_scratch6).view (Rect.unit (s := S3x2x64x512) ![0, 0, 0, 0] S1x1x64x512.size inb_S3x2x64x512_S1x1x64x512_0_0_0_0).toLoadRect gr0 = rvH (sv0 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv0, hr0]
    unfold rvH; rw [cast_ab_11ab]; rfl
  -- the wait on transfer 1's send cell: the source slot back
  sl_exec_parts
  iapply (step_waitSend (SVs m) K 1 c _ (Oafter c 4) (by decide)) $$ [HcS1 HO HatS1]
  · isplitr; · iexact HIsnd1
    isplitl [HcS1]; · iexact HcS1
    isplitl [HO]; · iexact HO
    isplitr; · (iapply (mayWait_lo c (sendS 1) (fun t' => by rw [semTag_send]; intro h; cases h) 4)); iexact Hlev
    iexact HatS1
  unfold sendPay
  iintro ⟨HO, HatS1, -, ⟨%fsb1, Hsrc1⟩⟩
  try (rw [wp_ret]; imodintro)
  -- the wait on transfer 1's receive cell: the landing slot holding the peer's value
  sl_exec_parts
  iapply (step_waitRecv (SVs m) K 1 c _ (Oafter c 4) (by decide)) $$ [HcR1 HO HatR1]
  · isplitr; · iexact HIrcv1
    isplitl [HcR1]; · iexact HcR1
    isplitl [HO]; · iexact HO
    isplitr; · (iapply (mayWait_recv1 c)); iexact Hlev
    iexact HatR1
  unfold recvPay
  iintro ⟨HO, HatR1, -, ⟨%gr1, Hdst1, %hr1⟩⟩
  try (rw [wp_ret]; imodintro)
  have hld1 : View.readAt (Elt F) (Memref.whole cc0_scratch6).view (Rect.unit (s := S3x2x64x512) ![0, 1, 0, 0] S1x1x64x512.size inb_S3x2x64x512_S1x1x64x512_0_1_0_0).toLoadRect gr1 = rvH (sv1 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv1, hr1]
    unfold rvH; rw [cast_ab_11ab]; rfl
  -- transfer 6: its source slot to the first-axis peer's landing slot
  sl_exec_parts
  iapply (step_send' (SVs m) K 6 c _ (dev5_eq c) _ gp6 _ (Oafter c 4) (Oafter c 5) (Oafter_peel4 c)) $$ [Hsrc6 Hp6 HO HtS6 HtR6]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent6]
      show _ = svX (st6 m c) (ValueIdx.ix2 i j)
      unfold svX; rw [cast_1ab_ab]
      all_goals (refine congrFun ?_ _; simp only [hld0, hld1]; rfl)
    isplitr; · iexact HIsnd6
    isplitr; · iexact HIrcvP6
    isplitl [Hsrc6]; · iexact Hsrc6
    isplitl [Hp6]; · iexact Hp6
    isplitl [HO]; · iexact HO
    isplitl [HtS6]; · iexact HtS6
    isplitr; · iexact HrS6
    isplitl [HtR6]; · iexact HtR6
    iexact HrP6
  iintro ⟨HcS6, HO⟩
  try (rw [wp_ret]; imodintro)
  -- the wait on transfer 6's send cell: the source slot back
  sl_exec_parts
  iapply (step_waitSend (SVs m) K 6 c _ (Oafter c 5) (by decide)) $$ [HcS6 HO HatS6]
  · isplitr; · iexact HIsnd6
    isplitl [HcS6]; · iexact HcS6
    isplitl [HO]; · iexact HO
    isplitr; · (iapply (mayWait_lo c (sendS 6) (fun t' => by rw [semTag_send]; intro h; cases h) 5)); iexact Hlev
    iexact HatS6
  unfold sendPay
  iintro ⟨HO, HatS6, -, ⟨%fsb6, Hsrc6⟩⟩
  try (rw [wp_ret]; imodintro)
  -- the wait on transfer 6's receive cell: the landing slot holding the peer's value
  sl_exec_parts
  iapply (step_waitRecv (SVs m) K 6 c _ (Oafter c 5) (by decide)) $$ [HcR6 HO HatR6]
  · isplitr; · iexact HIrcv6
    isplitl [HcR6]; · iexact HcR6
    isplitl [HO]; · iexact HO
    isplitr; · (iapply (mayWait_recv6 c)); iexact Hlev
    iexact HatR6
  unfold recvPay
  iintro ⟨HO, HatR6, -, ⟨%gr6, Hdst6, %hr6⟩⟩
  try (rw [wp_ret]; imodintro)
  have hld6 : View.readAt (Elt F) (Memref.whole cc0_scratch7).view (Rect.unit (s := S3x64x512) ![0, 0, 0] S1x64x512.size inb_S3x64x512_S1x64x512_0_0_0).toLoadRect gr6 = rvX (sv6 m (xp c)) := by
    funext y
    obtain ⟨u, i, j, rfl⟩ : ∃ (u : Fin 1) (i : Fin 64) (j : Fin 512), y = ValueIdx.ix3 u i j := ⟨y 0, y 1, y 2, ValueIdx.eq_ix3 y⟩
    obtain rfl : u = 0 := Subsingleton.elim _ _
    rw [read_recv6, hr6]
    unfold rvX; rw [cast_ab_1ab]; rfl
  -- transfer 2: its source slot to the second-axis peer's landing slot
  sl_exec_parts
  iapply (step_send' (SVs m) K 2 c _ (dev6_eq c) _ gp2 _ (Oafter c 5) (Oafter c 6) (Oafter_peel5 c)) $$ [Hsrc2 Hp2 HO HtS2 HtR2]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent2]
      show _ = svH (st2 m c) (ValueIdx.ix2 i j)
      unfold svH; rw [cast_11ab_ab]
      all_goals (refine congrFun ?_ _; simp only [hld0, hld1, hld6]; rfl)
    isplitr; · iexact HIsnd2
    isplitr; · iexact HIrcvP2
    isplitl [Hsrc2]; · iexact Hsrc2
    isplitl [Hp2]; · iexact Hp2
    isplitl [HO]; · iexact HO
    isplitl [HtS2]; · iexact HtS2
    isplitr; · iexact HrS2
    isplitl [HtR2]; · iexact HtR2
    iexact HrP2
  iintro ⟨HcS2, HO⟩
  try (rw [wp_ret]; imodintro)
  -- transfer 3: its source slot to the second-axis peer's landing slot
  sl_exec_parts
  iapply (step_send' (SVs m) K 3 c _ (dev7_eq c) _ gp3 _ (Oafter c 6) (Oafter c 7) (Oafter_peel6 c)) $$ [Hsrc3 Hp3 HO HtS3 HtR3]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent3]
      show _ = svH (st3 m c) (ValueIdx.ix2 i j)
      unfold svH; rw [cast_11ab_ab]
      all_goals (refine congrFun ?_ _; simp only [hld0, hld1, hld6]; rfl)
    isplitr; · iexact HIsnd3
    isplitr; · iexact HIrcvP3
    isplitl [Hsrc3]; · iexact Hsrc3
    isplitl [Hp3]; · iexact Hp3
    isplitl [HO]; · iexact HO
    isplitl [HtS3]; · iexact HtS3
    isplitr; · iexact HrS3
    isplitl [HtR3]; · iexact HtR3
    iexact HrP3
  iintro ⟨HcS3, HO⟩
  try (rw [wp_ret]; imodintro)
  -- the wait on transfer 2's send cell: the source slot back
  sl_exec_parts
  iapply (step_waitSend (SVs m) K 2 c _ (Oafter c 7) (by decide)) $$ [HcS2 HO HatS2]
  · isplitr; · iexact HIsnd2
    isplitl [HcS2]; · iexact HcS2
    isplitl [HO]; · iexact HO
    isplitr; · (iapply (mayWait_lo c (sendS 2) (fun t' => by rw [semTag_send]; intro h; cases h) 7)); iexact Hlev
    iexact HatS2
  unfold sendPay
  iintro ⟨HO, HatS2, -, ⟨%fsb2, Hsrc2⟩⟩
  try (rw [wp_ret]; imodintro)
  -- the wait on transfer 2's receive cell: the landing slot holding the peer's value
  sl_exec_parts
  iapply (step_waitRecv (SVs m) K 2 c _ (Oafter c 7) (by decide)) $$ [HcR2 HO HatR2]
  · isplitr; · iexact HIrcv2
    isplitl [HcR2]; · iexact HcR2
    isplitl [HO]; · iexact HO
    isplitr; · (iapply (mayWait_recv2 c)); iexact Hlev
    iexact HatR2
  unfold recvPay
  iintro ⟨HO, HatR2, -, ⟨%gr2, Hdst2, %hr2⟩⟩
  try (rw [wp_ret]; imodintro)
  have hld2 : View.readAt (Elt F) (Memref.whole cc0_scratch6).view (Rect.unit (s := S3x2x64x512) ![1, 0, 0, 0] S1x1x64x512.size inb_S3x2x64x512_S1x1x64x512_1_0_0_0).toLoadRect gr2 = rvH (sv2 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv2, hr2]
    unfold rvH; rw [cast_ab_11ab]; rfl
  -- the wait on transfer 3's send cell: the source slot back
  sl_exec_parts
  iapply (step_waitSend (SVs m) K 3 c _ (Oafter c 7) (by decide)) $$ [HcS3 HO HatS3]
  · isplitr; · iexact HIsnd3
    isplitl [HcS3]; · iexact HcS3
    isplitl [HO]; · iexact HO
    isplitr; · (iapply (mayWait_lo c (sendS 3) (fun t' => by rw [semTag_send]; intro h; cases h) 7)); iexact Hlev
    iexact HatS3
  unfold sendPay
  iintro ⟨HO, HatS3, -, ⟨%fsb3, Hsrc3⟩⟩
  try (rw [wp_ret]; imodintro)
  -- the wait on transfer 3's receive cell: the landing slot holding the peer's value
  sl_exec_parts
  iapply (step_waitRecv (SVs m) K 3 c _ (Oafter c 7) (by decide)) $$ [HcR3 HO HatR3]
  · isplitr; · iexact HIrcv3
    isplitl [HcR3]; · iexact HcR3
    isplitl [HO]; · iexact HO
    isplitr; · (iapply (mayWait_recv3 c)); iexact Hlev
    iexact HatR3
  unfold recvPay
  iintro ⟨HO, HatR3, -, ⟨%gr3, Hdst3, %hr3⟩⟩
  try (rw [wp_ret]; imodintro)
  have hld3 : View.readAt (Elt F) (Memref.whole cc0_scratch6).view (Rect.unit (s := S3x2x64x512) ![1, 1, 0, 0] S1x1x64x512.size inb_S3x2x64x512_S1x1x64x512_1_1_0_0).toLoadRect gr3 = rvH (sv3 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv3, hr3]
    unfold rvH; rw [cast_ab_11ab]; rfl
  -- transfer 7: its source slot to the first-axis peer's landing slot
  sl_exec_parts
  iapply (step_send' (SVs m) K 7 c _ (dev8_eq c) _ gp7 _ (Oafter c 7) (Oafter c 8) (Oafter_peel7 c)) $$ [Hsrc7 Hp7 HO HtS7 HtR7]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent7]
      show _ = svX (st7 m c) (ValueIdx.ix2 i j)
      unfold svX; rw [cast_1ab_ab]
      all_goals (refine congrFun ?_ _; simp only [hld0, hld1, hld6, hld2, hld3]; rfl)
    isplitr; · iexact HIsnd7
    isplitr; · iexact HIrcvP7
    isplitl [Hsrc7]; · iexact Hsrc7
    isplitl [Hp7]; · iexact Hp7
    isplitl [HO]; · iexact HO
    isplitl [HtS7]; · iexact HtS7
    isplitr; · iexact HrS7
    isplitl [HtR7]; · iexact HtR7
    iexact HrP7
  iintro ⟨HcS7, HO⟩
  try (rw [wp_ret]; imodintro)
  -- the wait on transfer 7's send cell: the source slot back
  sl_exec_parts
  iapply (step_waitSend (SVs m) K 7 c _ (Oafter c 8) (by decide)) $$ [HcS7 HO HatS7]
  · isplitr; · iexact HIsnd7
    isplitl [HcS7]; · iexact HcS7
    isplitl [HO]; · iexact HO
    isplitr; · (iapply (mayWait_lo c (sendS 7) (fun t' => by rw [semTag_send]; intro h; cases h) 8)); iexact Hlev
    iexact HatS7
  unfold sendPay
  iintro ⟨HO, HatS7, -, ⟨%fsb7, Hsrc7⟩⟩
  try (rw [wp_ret]; imodintro)
  -- the wait on transfer 7's receive cell: the landing slot holding the peer's value
  sl_exec_parts
  iapply (step_waitRecv (SVs m) K 7 c _ (Oafter c 8) (by decide)) $$ [HcR7 HO HatR7]
  · isplitr; · iexact HIrcv7
    isplitl [HcR7]; · iexact HcR7
    isplitl [HO]; · iexact HO
    isplitr; · (iapply (mayWait_recv7 c)); iexact Hlev
    iexact HatR7
  unfold recvPay
  iintro ⟨HO, HatR7, -, ⟨%gr7, Hdst7, %hr7⟩⟩
  try (rw [wp_ret]; imodintro)
  have hld7 : View.readAt (Elt F) (Memref.whole cc0_scratch7).view (Rect.unit (s := S3x64x512) ![1, 0, 0] S1x64x512.size inb_S3x64x512_S1x64x512_1_0_0).toLoadRect gr7 = rvX (sv7 m (xp c)) := by
    funext y
    obtain ⟨u, i, j, rfl⟩ : ∃ (u : Fin 1) (i : Fin 64) (j : Fin 512), y = ValueIdx.ix3 u i j := ⟨y 0, y 1, y 2, ValueIdx.eq_ix3 y⟩
    obtain rfl : u = 0 := Subsingleton.elim _ _
    rw [read_recv7, hr7]
    unfold rvX; rw [cast_ab_1ab]; rfl
  -- transfer 4: its source slot to the second-axis peer's landing slot
  sl_exec_parts
  iapply (step_send' (SVs m) K 4 c _ (dev9_eq c) _ gp4 _ (Oafter c 8) (Oafter c 9) (Oafter_peel8 c)) $$ [Hsrc4 Hp4 HO HtS4 HtR4]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent4]
      show _ = svH (st4 m c) (ValueIdx.ix2 i j)
      unfold svH; rw [cast_11ab_ab]
      all_goals (refine congrFun ?_ _; simp only [hld0, hld1, hld6, hld2, hld3, hld7]; rfl)
    isplitr; · iexact HIsnd4
    isplitr; · iexact HIrcvP4
    isplitl [Hsrc4]; · iexact Hsrc4
    isplitl [Hp4]; · iexact Hp4
    isplitl [HO]; · iexact HO
    isplitl [HtS4]; · iexact HtS4
    isplitr; · iexact HrS4
    isplitl [HtR4]; · iexact HtR4
    iexact HrP4
  iintro ⟨HcS4, HO⟩
  try (rw [wp_ret]; imodintro)
  -- transfer 5: its source slot to the second-axis peer's landing slot
  sl_exec_parts
  iapply (step_send' (SVs m) K 5 c _ (dev10_eq c) _ gp5 _ (Oafter c 9) (Oafter c 10) (Oafter_peel9 c)) $$ [Hsrc5 Hp5 HO HtS5 HtR5]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent5]
      show _ = svH (st5 m c) (ValueIdx.ix2 i j)
      unfold svH; rw [cast_11ab_ab]
      all_goals (refine congrFun ?_ _; simp only [hld0, hld1, hld6, hld2, hld3, hld7]; rfl)
    isplitr; · iexact HIsnd5
    isplitr; · iexact HIrcvP5
    isplitl [Hsrc5]; · iexact Hsrc5
    isplitl [Hp5]; · iexact Hp5
    isplitl [HO]; · iexact HO
    isplitl [HtS5]; · iexact HtS5
    isplitr; · iexact HrS5
    isplitl [HtR5]; · iexact HtR5
    iexact HrP5
  iintro ⟨HcS5, HO⟩
  try (rw [wp_ret]; imodintro)
  -- the wait on transfer 4's send cell: the source slot back
  sl_exec_parts
  iapply (step_waitSend (SVs m) K 4 c _ (Oafter c 10) (by decide)) $$ [HcS4 HO HatS4]
  · isplitr; · iexact HIsnd4
    isplitl [HcS4]; · iexact HcS4
    isplitl [HO]; · iexact HO
    isplitr; · (iapply (mayWait_lo c (sendS 4) (fun t' => by rw [semTag_send]; intro h; cases h) 10)); iexact Hlev
    iexact HatS4
  unfold sendPay
  iintro ⟨HO, HatS4, -, ⟨%fsb4, Hsrc4⟩⟩
  try (rw [wp_ret]; imodintro)
  -- the wait on transfer 4's receive cell: the landing slot holding the peer's value
  sl_exec_parts
  iapply (step_waitRecv (SVs m) K 4 c _ (Oafter c 10) (by decide)) $$ [HcR4 HO HatR4]
  · isplitr; · iexact HIrcv4
    isplitl [HcR4]; · iexact HcR4
    isplitl [HO]; · iexact HO
    isplitr; · (iapply (mayWait_recv4 c)); iexact Hlev
    iexact HatR4
  unfold recvPay
  iintro ⟨HO, HatR4, -, ⟨%gr4, Hdst4, %hr4⟩⟩
  try (rw [wp_ret]; imodintro)
  have hld4 : View.readAt (Elt F) (Memref.whole cc0_scratch6).view (Rect.unit (s := S3x2x64x512) ![2, 0, 0, 0] S1x1x64x512.size inb_S3x2x64x512_S1x1x64x512_2_0_0_0).toLoadRect gr4 = rvH (sv4 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv4, hr4]
    unfold rvH; rw [cast_ab_11ab]; rfl
  -- the wait on transfer 5's send cell: the source slot back
  sl_exec_parts
  iapply (step_waitSend (SVs m) K 5 c _ (Oafter c 10) (by decide)) $$ [HcS5 HO HatS5]
  · isplitr; · iexact HIsnd5
    isplitl [HcS5]; · iexact HcS5
    isplitl [HO]; · iexact HO
    isplitr; · (iapply (mayWait_lo c (sendS 5) (fun t' => by rw [semTag_send]; intro h; cases h) 10)); iexact Hlev
    iexact HatS5
  unfold sendPay
  iintro ⟨HO, HatS5, -, ⟨%fsb5, Hsrc5⟩⟩
  try (rw [wp_ret]; imodintro)
  -- the wait on transfer 5's receive cell: the landing slot holding the peer's value
  sl_exec_parts
  iapply (step_waitRecv (SVs m) K 5 c _ (Oafter c 10) (by decide)) $$ [HcR5 HO HatR5]
  · isplitr; · iexact HIrcv5
    isplitl [HcR5]; · iexact HcR5
    isplitl [HO]; · iexact HO
    isplitr; · (iapply (mayWait_recv5 c)); iexact Hlev
    iexact HatR5
  unfold recvPay
  iintro ⟨HO, HatR5, -, ⟨%gr5, Hdst5, %hr5⟩⟩
  try (rw [wp_ret]; imodintro)
  have hld5 : View.readAt (Elt F) (Memref.whole cc0_scratch6).view (Rect.unit (s := S3x2x64x512) ![2, 1, 0, 0] S1x1x64x512.size inb_S3x2x64x512_S1x1x64x512_2_1_0_0).toLoadRect gr5 = rvH (sv5 m (yp c)) := by
    funext y
    obtain ⟨u, v, i, j, rfl⟩ : ∃ (u v : Fin 1) (i : Fin 64) (j : Fin 512), y = ValueIdx.ix4 u v i j := ⟨y 0, y 1, y 2, y 3, ValueIdx.eq_ix4 y⟩
    obtain rfl : u = 0 := Subsingleton.elim _ _
    obtain rfl : v = 0 := Subsingleton.elim _ _
    rw [read_recv5, hr5]
    unfold rvH; rw [cast_ab_11ab]; rfl
  -- transfer 8: its source slot to the first-axis peer's landing slot
  sl_exec_parts
  iapply (step_send' (SVs m) K 8 c _ (dev11_eq c) _ gp8 _ (Oafter c 10) (Oafter c 11) (Oafter_peel10 c)) $$ [Hsrc8 Hp8 HO HtS8 HtR8]
  · isplitr
    · ipureintro
      sl_unfold_run_names
      funext y
      obtain ⟨i, j, rfl⟩ : ∃ (i : Fin 64) (j : Fin 512), y = ValueIdx.ix2 i j := ⟨y 0, y 1, ValueIdx.eq_ix2 y⟩
      rw [read_sent8]
      show _ = svX (st8 m c) (ValueIdx.ix2 i j)
      unfold svX; rw [cast_1ab_ab]
      all_goals (refine congrFun ?_ _; simp only [hld0, hld1, hld6, hld2, hld3, hld7, hld4, hld5]; rfl)
    isplitr; · iexact HIsnd8
    isplitr; · iexact HIrcvP8
    isplitl [Hsrc8]; · iexact Hsrc8
    isplitl [Hp8]; · iexact Hp8
    isplitl [HO]; · iexact HO
    isplitl [HtS8]; · iexact HtS8
    isplitr; · iexact HrS8
    isplitl [HtR8]; · iexact HtR8
    iexact HrP8
  iintro ⟨HcS8, HO⟩
  try (rw [wp_ret]; imodintro)
  -- the last transfer's two waits: the device owes nothing any more when it waits on these two cells; their payloads are the source slot back and the landing slot
  sl_exec_parts
  ihave Hs8p := (Entails.of_eq (show (bigSep ((sched (SVs m)).duties (sendCell 8 c) 0) fun d => (sched (SVs m)).payload (sendCell 8 c) 0 d) = sendPay 8 c from by
    rw [duties_send, bigSep_singleton, payload_send])) $$ HatS8_pay1
  ihave Hr8p := (Entails.of_eq (show (bigSep ((sched (SVs m)).duties (recvCell 8 c) 0) fun d => (sched (SVs m)).payload (recvCell 8 c) 0 d) = recvPay (SVs m) 8 c from by
    rw [duties_recv, bigSep_singleton, payload_recv])) $$ HatR8_pay1
  unfold sendPay recvPay
  icases Hs8p with ⟨%fsb8, Hsrc8⟩
  icases Hr8p with ⟨%gr8, Hdst8, %hr8⟩
  have hld8 : View.readAt (Elt F) (Memref.whole cc0_scratch7).view (Rect.unit (s := S3x64x512) ![2, 0, 0] S1x64x512.size inb_S3x64x512_S1x64x512_2_0_0).toLoadRect gr8 = rvX (sv8 m (xp c)) := by
    funext y
    obtain ⟨u, i, j, rfl⟩ : ∃ (u : Fin 1) (i : Fin 64) (j : Fin 512), y = ValueIdx.ix3 u i j := ⟨y 0, y 1, y 2, ValueIdx.eq_ix3 y⟩
    obtain rfl : u = 0 := Subsingleton.elim _ _
    rw [read_recv8, hr8]
    unfold rvX; rw [cast_ab_1ab]; rfl
  -- every transfer cell has consumed its one round: close them, their counters at zero are the device's again
  imod (close_send (SVs m) K 0 c) $$ [HatS0] with HzS0
  · isplitr; · iexact HIsnd0
    iexact HatS0
  imod (close_recv (SVs m) K 0 c) $$ [HatR0] with HzR0
  · isplitr; · iexact HIrcv0
    iexact HatR0
  imod (close_send (SVs m) K 1 c) $$ [HatS1] with HzS1
  · isplitr; · iexact HIsnd1
    iexact HatS1
  imod (close_recv (SVs m) K 1 c) $$ [HatR1] with HzR1
  · isplitr; · iexact HIrcv1
    iexact HatR1
  imod (close_send (SVs m) K 2 c) $$ [HatS2] with HzS2
  · isplitr; · iexact HIsnd2
    iexact HatS2
  imod (close_recv (SVs m) K 2 c) $$ [HatR2] with HzR2
  · isplitr; · iexact HIrcv2
    iexact HatR2
  imod (close_send (SVs m) K 3 c) $$ [HatS3] with HzS3
  · isplitr; · iexact HIsnd3
    iexact HatS3
  imod (close_recv (SVs m) K 3 c) $$ [HatR3] with HzR3
  · isplitr; · iexact HIrcv3
    iexact HatR3
  imod (close_send (SVs m) K 4 c) $$ [HatS4] with HzS4
  · isplitr; · iexact HIsnd4
    iexact HatS4
  imod (close_recv (SVs m) K 4 c) $$ [HatR4] with HzR4
  · isplitr; · iexact HIrcv4
    iexact HatR4
  imod (close_send (SVs m) K 5 c) $$ [HatS5] with HzS5
  · isplitr; · iexact HIsnd5
    iexact HatS5
  imod (close_recv (SVs m) K 5 c) $$ [HatR5] with HzR5
  · isplitr; · iexact HIrcv5
    iexact HatR5
  imod (close_send (SVs m) K 6 c) $$ [HatS6] with HzS6
  · isplitr; · iexact HIsnd6
    iexact HatS6
  imod (close_recv (SVs m) K 6 c) $$ [HatR6] with HzR6
  · isplitr; · iexact HIrcv6
    iexact HatR6
  imod (close_send (SVs m) K 7 c) $$ [HatS7] with HzS7
  · isplitr; · iexact HIsnd7
    iexact HatS7
  imod (close_recv (SVs m) K 7 c) $$ [HatR7] with HzR7
  · isplitr; · iexact HIrcv7
    iexact HatR7
  imod (close_send (SVs m) K 8 c) $$ [HatS8] with HzS8
  · isplitr; · iexact HIsnd8
    iexact HatS8
  imod (close_recv (SVs m) K 8 c) $$ [HatR8] with HzR8
  · isplitr; · iexact HIrcv8
    iexact HatR8
  -- the last load, the sum with the peer's partial output, the store of the result block
  sl_exec_parts
  -- the return: the invariant after the point, nothing owed, the two staging buffers
  rw [wp_ret]; imodintro
  unfold bodyPost Φ₁ wsems0 args scratch Dat.owesAt Pipeline.owesWithin
  rw [show (dats (SVs m) (OUTs m) m 0 c).owed t₀.succ = 0 from rfl, Oafter_done]
  simp only [bigSep_fin9]
  isplitl [Hw00 Hw01 Hw10 Hw11 Hw20 Hw21 H1 H2 H3 H4 H5 H6 Hs00 Hs01 Hs02 Hs10 Hs11 Hs12 Hs2 Hs3 Hsrc0 Hsrc1 Hsrc2 Hsrc3 Hsrc4 Hsrc5 Hsrc6 Hsrc7 Hsrc8 Hdst0 Hdst1 Hdst2 Hdst3 Hdst4 Hdst5 Hdst6 Hdst7 Hdst8 HzS0 HzS1 HzS2 HzS3 HzS4 HzS5 HzS6 HzS7 HzS8 HzR0 HzR1 HzR2 HzR3 HzR4 HzR5 HzR6 HzR7 HzR8]
  · isplitl [Hw00 Hw01 Hw10 Hw11 Hw20 Hw21]
    · isplitl [Hw00]; · iexact Hw00
      isplitl [Hw01]; · iexact Hw01
      isplitl [Hw10]; · iexact Hw10
      isplitl [Hw11]; · iexact Hw11
      isplitl [Hw20]; · iexact Hw20
      iexact Hw21
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [Hs00 Hs01 Hs02 Hs10 Hs11 Hs12 Hs2 Hs3 Hsrc0 Hsrc1 Hsrc2 Hsrc3 Hsrc4 Hsrc5 Hsrc6 Hsrc7 Hsrc8 Hdst0 Hdst1 Hdst2 Hdst3 Hdst4 Hdst5 Hdst6 Hdst7 Hdst8]
    · isplitl [Hs00 Hs01 Hs02]
      · isplitl [Hs00]; · (iexists _; iexact Hs00)
        isplitl [Hs01]; · (iexists _; iexact Hs01)
        iexists _; iexact Hs02
      isplitl [Hs10 Hs11 Hs12]
      · isplitl [Hs10]; · (iexists _; iexact Hs10)
        isplitl [Hs11]; · (iexists _; iexact Hs11)
        iexists _; iexact Hs12
      isplitl [Hs2]; · (iexists _; iexact Hs2)
      isplitl [Hs3]; · (iexists _; iexact Hs3)
      isplitl [Hsrc0 Hsrc1 Hsrc2 Hsrc3 Hsrc4 Hsrc5 Hsrc6 Hsrc7 Hsrc8]
      · isplitl [Hsrc0]; · (iexists _; iexact Hsrc0)
        isplitl [Hsrc1]; · (iexists _; iexact Hsrc1)
        isplitl [Hsrc2]; · (iexists _; iexact Hsrc2)
        isplitl [Hsrc3]; · (iexists _; iexact Hsrc3)
        isplitl [Hsrc4]; · (iexists _; iexact Hsrc4)
        isplitl [Hsrc5]; · (iexists _; iexact Hsrc5)
        isplitl [Hsrc6]; · (iexists _; iexact Hsrc6)
        isplitl [Hsrc7]; · (iexists _; iexact Hsrc7)
        iexists _; iexact Hsrc8
      isplitl [Hdst0]; · (iexists _; iexact Hdst0)
      isplitl [Hdst1]; · (iexists _; iexact Hdst1)
      isplitl [Hdst2]; · (iexists _; iexact Hdst2)
      isplitl [Hdst3]; · (iexists _; iexact Hdst3)
      isplitl [Hdst4]; · (iexists _; iexact Hdst4)
      isplitl [Hdst5]; · (iexists _; iexact Hdst5)
      isplitl [Hdst6]; · (iexists _; iexact Hdst6)
      isplitl [Hdst7]; · (iexists _; iexact Hdst7)
      iexists _; iexact Hdst8
    isplitl [HzS0 HzS1 HzS2 HzS3 HzS4 HzS5 HzS6 HzS7 HzS8]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      iexact HzS8
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    isplitl [HzR7]; · iexact HzR7
    iexact HzR8
  isplitl [HO]
  · iexists _
    isplitr
    on_goal 2 => iexact HO
    ipureintro; exact fun _ _ => Or.inl trivial
  isplitl [Hx]
  · iexists _
    isplitr; · (ipureintro; rfl)
    iapply (Entails.of_eq (held_eq' c cc0_stg0_0 (xin m c))); iexact Hx
  iexists _
  isplitr
  on_goal 2 => (iapply (Entails.of_eq (held_eq' c cc0_stg1_0 _)); iexact Hout)
  ipureintro
  sl_unfold_run_names
  first | rw [writes_stg1] | rw [writes_stg1_vec]
  simp only [hld0, hld1, hld2, hld3, hld4, hld5, hld6, hld7, hld8]
  rfl

end Cert.KernelProof

end
-- ==== Proof.lean ====
/-
  The claim, in five parts.

  Three frames: the kernel over machine words, the same kernel over the extended reals, and the one-device
  reference each run to the end from any memory, whatever the interleaving of the four devices' threads, and
  leave their argument arrays as they were.

  The idealisation rewrote no operation, so there is nothing for it to preserve.

  The value: over the extended reals, from memories in which every device holds its blocks of the reference's
  whole arrays, every device ends holding its block of the reference's result. The reference computes three
  layers x ← relu (x · W) · V over whole arrays. On the 2 × 2 mesh the device at coordinates (a, b) holds the
  columns b of x, the rows b and columns a of W, and the rows a and columns b of V. Its partial product of x · W
  runs over its own half of the contracted axis; the peer along the second mesh axis holds the other half, and the
  sum of the two partial products is the whole product on the device's columns. After the relu, its partial
  product with V runs over its own half of the hidden axis; the peer along the first mesh axis holds the other
  half, and again the sum of the two is the whole product. So each exchange completes a sum that was split along
  one cut axis, and the law joining the two sides is that a sum over an axis is the sum of the sums over its two
  halves, with addition on the extended reals commutative and associative. No entry needs to be finite.
-/
import proofs.«900581_g7700000000000582_dist_mlpseq_tp2d_cs_cs_b64_d512_h1024_v7x_xy2x2_f32_1_alg».proof.Defs
import proofs.«900581_g7700000000000582_dist_mlpseq_tp2d_cs_cs_b64_d512_h1024_v7x_xy2x2_f32_1_alg».proof.Proof.Gen.Kernel
import proofs.«900581_g7700000000000582_dist_mlpseq_tp2d_cs_cs_b64_d512_h1024_v7x_xy2x2_f32_1_alg».proof.Proof.Gen.KernelIdeal
import proofs.«900581_g7700000000000582_dist_mlpseq_tp2d_cs_cs_b64_d512_h1024_v7x_xy2x2_f32_1_alg».proof.Proof.Gen.ReferenceIdeal
import proofs.«900581_g7700000000000582_dist_mlpseq_tp2d_cs_cs_b64_d512_h1024_v7x_xy2x2_f32_1_alg».proof.Proof.Gen.Pre_finite_inputs_Kernel
import proofs.«900581_g7700000000000582_dist_mlpseq_tp2d_cs_cs_b64_d512_h1024_v7x_xy2x2_f32_1_alg».proof.Proof.Gen.Pre_finite_inputs_ReferenceIdeal
import proofs.«900581_g7700000000000582_dist_mlpseq_tp2d_cs_cs_b64_d512_h1024_v7x_xy2x2_f32_1_alg».proof.Proof.Spec
import proofs.«900581_g7700000000000582_dist_mlpseq_tp2d_cs_cs_b64_d512_h1024_v7x_xy2x2_f32_1_alg».proof.Proof.Launch
import proofs.«900581_g7700000000000582_dist_mlpseq_tp2d_cs_cs_b64_d512_h1024_v7x_xy2x2_f32_1_alg».proof.Proof.Body
import proofs.«900581_g7700000000000582_dist_mlpseq_tp2d_cs_cs_b64_d512_h1024_v7x_xy2x2_f32_1_alg».proof.Proof.ValueIn
import proofs.«900581_g7700000000000582_dist_mlpseq_tp2d_cs_cs_b64_d512_h1024_v7x_xy2x2_f32_1_alg».proof.Proof.RefValue
import proofs.«900581_g7700000000000582_dist_mlpseq_tp2d_cs_cs_b64_d512_h1024_v7x_xy2x2_f32_1_alg».proof.Proof.Bits.Spec
import proofs.«900581_g7700000000000582_dist_mlpseq_tp2d_cs_cs_b64_d512_h1024_v7x_xy2x2_f32_1_alg».proof.Proof.Bits.Launch
import proofs.«900581_g7700000000000582_dist_mlpseq_tp2d_cs_cs_b64_d512_h1024_v7x_xy2x2_f32_1_alg».proof.Proof.Bits.Body

noncomputable section

namespace Cert.Proof

open Idealize.ShloMosaic Idealize.SL.Sem

/-- The kernel over machine words runs and leaves its arguments unchanged: its run with the result's value dropped. -/
theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2)
    (Cert.KernelProof.run_main (F := Bits) (Cert.KernelProof.SVs m) (Cert.KernelProof.OUTs m) m ρ
      (fun c => Cert.KernelProof.sound_body m c))

/-- The kernel over the extended reals runs and leaves its arguments unchanged: its run with the result's value dropped. -/
theorem frame_ki : Cert.frame_KernelIdeal (hKernelIdeal := Cert.KernelIdeal.Gen.facts) (hPre_finite_inputs_Kernel := Cert.Pre_finite_inputs_Kernel.Gen.facts) :=
  fun m ρ _ => (θ_run Cert.KernelIdeal.defs _ _).mono (fun _ h c => (h c).2)
    (Cert.KernelIdealProof.run_main (F := Ideal) (Cert.KernelIdealProof.SVs m) (Cert.KernelIdealProof.OUTs m) m ρ
      (fun c => Cert.KernelIdealProof.sound_body m c))

/-- The reference runs and leaves its arguments unchanged. -/
theorem frame_ri : Cert.frame_ReferenceIdeal (hReferenceIdeal := Cert.ReferenceIdeal.Gen.facts)
    (hPre_finite_inputs_ReferenceIdeal := Cert.Pre_finite_inputs_ReferenceIdeal.Gen.facts) := Cert.RefValue.ref_frame

/-- The idealisation rewrote nothing. -/
theorem preserves : Cert.preserves_Kernel_KernelIdeal := trivial

/-- From blocks of the reference's arrays every device ends holding its block of the reference's result, the
    three-layer network of the whole arrays. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' _ hblk
  refine ⟨(Cert.RefValue.refG (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6))), ?_, Cert.RefValue.ref_run m' ρ'⟩
  exact (θ_run Cert.KernelIdeal.defs _ _).mono
    (fun _ h c => ⟨(h c).1.trans (Cert.KernelIdealProof.out_eq_block m m' hblk c), (h c).2⟩)
    (Cert.KernelIdealProof.run_main (F := Ideal) (Cert.KernelIdealProof.SVs m) (Cert.KernelIdealProof.OUTs m) m ρ
      (fun c => Cert.KernelIdealProof.sound_body m c))

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
